-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S2048x512 : Shape := ⟨2, ![2048, 512]⟩
abbrev S_ : Shape := ⟨0, ![]⟩
abbrev S10 : Shape := ⟨1, ![10]⟩
abbrev S6 : Shape := ⟨1, ![6]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .bf16⟩
  | .local _ .vmem, ⟨0, _⟩ => ⟨S1024x512, .f32⟩
  | .local _ .vmem, ⟨1, _⟩ => ⟨S2048x512, .bf16⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => true
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v16 : BitVec 32 := Scalar.muli v2 c4_i32_8
  let v17 : BitVec 32 := Scalar.addi c0_i32 v16
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v18 : BitVec 32 := Scalar.muli v9 c2_i32_9
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v24 : BitVec 32 := Scalar.muli v5 c2_i32_14
  let v25 : BitVec 32 := Scalar.addi v23 v24
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_15 : BitVec 32 := 1#32
  let v26 : BitVec 32 := Scalar.muli v10 c1_i32_15
  let v27 : BitVec 32 := Scalar.addi v25 v26
  v27.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v11 : BitVec 32 := Scalar.muli v5 c1024_i32
  let v31 : Index := Scalar.indexCast v11
  let c0_17 : Index := 0#32
  ![v31.toNat, 0]
def k0_off2 (d0 : Dev nD) (c0_i32_19 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v11 : BitVec 32 := Scalar.muli v5 c1024_i32
  let c10_i32 : BitVec 32 := 10#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c10_i32 v8
  let v33 : BitVec 32 := Scalar.addi v14 c0_i32_19
  let c64_i32 : BitVec 32 := 64#32
  let v34 : BitVec 32 := Scalar.muli v33 c64_i32
  let v35 : BitVec 32 := Scalar.addi v11 v34
  let c0_i32_26 : BitVec 32 := 0#32
  ![v35.toNat, 0]
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v36 : BitVec 32 := Scalar.muli v2 c4_i32_22
  let v37 : BitVec 32 := Scalar.addi c0_i32_23 v36
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_24 : BitVec 32 := 2#32
  let v38 : BitVec 32 := Scalar.muli v9 c2_i32_24
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v40 : BitVec 32 := Scalar.muli v8 c1_i32_25
  let v41 : BitVec 32 := Scalar.addi v39 v40
  v41.toNat
def k0_dev4 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v51 : BitVec 32 := Scalar.muli v2 c4_i32_32
  let v52 : BitVec 32 := Scalar.addi c0_i32_33 v51
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v53 : BitVec 32 := Scalar.muli v9 c2_i32_34
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v55 : BitVec 32 := Scalar.muli v8 c1_i32_35
  let v56 : BitVec 32 := Scalar.addi v54 v55
  v56.toNat
def k0_dev5 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v66 : BitVec 32 := Scalar.muli v2 c4_i32_42
  let v67 : BitVec 32 := Scalar.addi c0_i32_43 v66
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_44 : BitVec 32 := 2#32
  let v68 : BitVec 32 := Scalar.muli v9 c2_i32_44
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v70 : BitVec 32 := Scalar.muli v8 c1_i32_45
  let v71 : BitVec 32 := Scalar.addi v69 v70
  v71.toNat
def k0_dev6 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v81 : BitVec 32 := Scalar.muli v2 c4_i32_51
  let v82 : BitVec 32 := Scalar.addi c0_i32_52 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_53 : BitVec 32 := 2#32
  let v83 : BitVec 32 := Scalar.muli v9 c2_i32_53
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v85 : BitVec 32 := Scalar.muli v8 c1_i32_54
  let v86 : BitVec 32 := Scalar.addi v84 v85
  v86.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v96 : BitVec 32 := Scalar.muli v2 c4_i32_61
  let v97 : BitVec 32 := Scalar.addi c0_i32_62 v96
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_63 : BitVec 32 := 2#32
  let v98 : BitVec 32 := Scalar.muli v9 c2_i32_63
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v100 : BitVec 32 := Scalar.muli v8 c1_i32_64
  let v101 : BitVec 32 := Scalar.addi v99 v100
  v101.toNat
def k0_dev8 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v111 : BitVec 32 := Scalar.muli v2 c4_i32_70
  let v112 : BitVec 32 := Scalar.addi c0_i32_71 v111
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_72 : BitVec 32 := 2#32
  let v113 : BitVec 32 := Scalar.muli v9 c2_i32_72
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v115 : BitVec 32 := Scalar.muli v8 c1_i32_73
  let v116 : BitVec 32 := Scalar.addi v114 v115
  v116.toNat
def k0_off3 (d0 : Dev nD) (c384_i32 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v11 : BitVec 32 := Scalar.muli v5 c1024_i32
  let v123 : BitVec 32 := Scalar.addi v11 c384_i32
  let c0_i32_81 : BitVec 32 := 0#32
  ![v123.toNat, 0]
def k0_dev9 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v124 : BitVec 32 := Scalar.muli v2 c4_i32_77
  let v125 : BitVec 32 := Scalar.addi c0_i32_78 v124
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_79 : BitVec 32 := 2#32
  let v126 : BitVec 32 := Scalar.muli v9 c2_i32_79
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v128 : BitVec 32 := Scalar.muli v8 c1_i32_80
  let v129 : BitVec 32 := Scalar.addi v127 v128
  v129.toNat
def k0_dev10 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v137 : BitVec 32 := Scalar.muli v2 c4_i32_84
  let v138 : BitVec 32 := Scalar.addi c0_i32_85 v137
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_86 : BitVec 32 := 2#32
  let v139 : BitVec 32 := Scalar.muli v9 c2_i32_86
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v141 : BitVec 32 := Scalar.muli v8 c1_i32_87
  let v142 : BitVec 32 := Scalar.addi v140 v141
  v142.toNat
def k0_dev11 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v150 : BitVec 32 := Scalar.muli v2 c4_i32_91
  let v151 : BitVec 32 := Scalar.addi c0_i32_92 v150
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_93 : BitVec 32 := 2#32
  let v152 : BitVec 32 := Scalar.muli v9 c2_i32_93
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v154 : BitVec 32 := Scalar.muli v8 c1_i32_94
  let v155 : BitVec 32 := Scalar.addi v153 v154
  v155.toNat
def k0_dev12 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v163 : BitVec 32 := Scalar.muli v2 c4_i32_98
  let v164 : BitVec 32 := Scalar.addi c0_i32_99 v163
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_100 : BitVec 32 := 2#32
  let v165 : BitVec 32 := Scalar.muli v9 c2_i32_100
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v167 : BitVec 32 := Scalar.muli v8 c1_i32_101
  let v168 : BitVec 32 := Scalar.addi v166 v167
  v168.toNat
def k0_off4 (d0 : Dev nD) (c0_i32_114 : BitVec 32) : Fin 2 → Nat :=
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c1024_i32_6 : BitVec 32 := 1024#32
  let v13 : BitVec 32 := Scalar.muli v12 c1024_i32_6
  let c10_i32 : BitVec 32 := 10#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c10_i32 v8
  let v185 : BitVec 32 := Scalar.addi v14 c0_i32_114
  let c64_i32_115 : BitVec 32 := 64#32
  let v186 : BitVec 32 := Scalar.muli v185 c64_i32_115
  let v187 : BitVec 32 := Scalar.addi v13 v186
  let c0_i32_122 : BitVec 32 := 0#32
  ![v187.toNat, 0]
def k0_dev13 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v188 : BitVec 32 := Scalar.muli v2 c4_i32_118
  let v189 : BitVec 32 := Scalar.addi c0_i32_119 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v190 : BitVec 32 := Scalar.muli v5 c2_i32_120
  let v191 : BitVec 32 := Scalar.addi v189 v190
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_121 : BitVec 32 := 1#32
  let v192 : BitVec 32 := Scalar.muli v10 c1_i32_121
  let v193 : BitVec 32 := Scalar.addi v191 v192
  v193.toNat
def k0_dev14 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v213 : BitVec 32 := Scalar.muli v2 c4_i32_136
  let v214 : BitVec 32 := Scalar.addi c0_i32_137 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v215 : BitVec 32 := Scalar.muli v5 c2_i32_138
  let v216 : BitVec 32 := Scalar.addi v214 v215
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_139 : BitVec 32 := 1#32
  let v217 : BitVec 32 := Scalar.muli v10 c1_i32_139
  let v218 : BitVec 32 := Scalar.addi v216 v217
  v218.toNat
def k0_dev15 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v238 : BitVec 32 := Scalar.muli v2 c4_i32_154
  let v239 : BitVec 32 := Scalar.addi c0_i32_155 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v240 : BitVec 32 := Scalar.muli v5 c2_i32_156
  let v241 : BitVec 32 := Scalar.addi v239 v240
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_157 : BitVec 32 := 1#32
  let v242 : BitVec 32 := Scalar.muli v10 c1_i32_157
  let v243 : BitVec 32 := Scalar.addi v241 v242
  v243.toNat
def k0_dev16 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v263 : BitVec 32 := Scalar.muli v2 c4_i32_172
  let v264 : BitVec 32 := Scalar.addi c0_i32_173 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v265 : BitVec 32 := Scalar.muli v5 c2_i32_174
  let v266 : BitVec 32 := Scalar.addi v264 v265
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_175 : BitVec 32 := 1#32
  let v267 : BitVec 32 := Scalar.muli v10 c1_i32_175
  let v268 : BitVec 32 := Scalar.addi v266 v267
  v268.toNat
def k0_dev17 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v288 : BitVec 32 := Scalar.muli v2 c4_i32_190
  let v289 : BitVec 32 := Scalar.addi c0_i32_191 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v290 : BitVec 32 := Scalar.muli v5 c2_i32_192
  let v291 : BitVec 32 := Scalar.addi v289 v290
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_193 : BitVec 32 := 1#32
  let v292 : BitVec 32 := Scalar.muli v10 c1_i32_193
  let v293 : BitVec 32 := Scalar.addi v291 v292
  v293.toNat
def k0_dev18 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v313 : BitVec 32 := Scalar.muli v2 c4_i32_208
  let v314 : BitVec 32 := Scalar.addi c0_i32_209 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v315 : BitVec 32 := Scalar.muli v5 c2_i32_210
  let v316 : BitVec 32 := Scalar.addi v314 v315
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_211 : BitVec 32 := 1#32
  let v317 : BitVec 32 := Scalar.muli v10 c1_i32_211
  let v318 : BitVec 32 := Scalar.addi v316 v317
  v318.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S10_S1_0 : ∀ a, (![0] : Fin 1 → Nat) a + S1.size a ≤ S10.size a
  squeezes_S1_S_ : S1.Squeezes S_
  inb_S10_S1_1 : ∀ a, (![1] : Fin 1 → Nat) a + S1.size a ≤ S10.size a
  inb_S10_S1_2 : ∀ a, (![2] : Fin 1 → Nat) a + S1.size a ≤ S10.size a
  inb_S10_S1_3 : ∀ a, (![3] : Fin 1 → Nat) a + S1.size a ≤ S10.size a
  inb_S10_S1_4 : ∀ a, (![4] : Fin 1 → Nat) a + S1.size a ≤ S10.size a
  inb_S10_S1_5 : ∀ a, (![5] : Fin 1 → Nat) a + S1.size a ≤ S10.size a
  inb_S10_S1_6 : ∀ a, (![6] : Fin 1 → Nat) a + S1.size a ≤ S10.size a
  inb_S10_S1_7 : ∀ a, (![7] : Fin 1 → Nat) a + S1.size a ≤ S10.size a
  inb_S10_S1_8 : ∀ a, (![8] : Fin 1 → Nat) a + S1.size a ≤ S10.size a
  inb_S10_S1_9 : ∀ a, (![9] : Fin 1 → Nat) a + S1.size a ≤ S10.size a
  inb_S6_S1_0 : ∀ a, (![0] : Fin 1 → Nat) a + S1.size a ≤ S6.size a
  inb_S6_S1_1 : ∀ a, (![1] : Fin 1 → Nat) a + S1.size a ≤ S6.size a
  inb_S6_S1_2 : ∀ a, (![2] : Fin 1 → Nat) a + S1.size a ≤ S6.size a
  inb_S6_S1_3 : ∀ a, (![3] : Fin 1 → Nat) a + S1.size a ≤ S6.size a
  inb_S6_S1_4 : ∀ a, (![4] : Fin 1 → Nat) a + S1.size a ≤ S6.size a
  inb_S6_S1_5 : ∀ a, (![5] : Fin 1 → Nat) a + S1.size a ≤ S6.size a
  hcc0_scratch0 : 0 + S_.numel ≤ 2
  hcc0_scratch1 : 2 + S10.numel ≤ 34
  hcc0_scratch2 : 12 + S10.numel ≤ 34
  hcc0_scratch3 : 22 + S6.numel ≤ 34
  hcc0_scratch4 : 28 + S6.numel ≤ 34
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1024x512.size a ≤ S2048x512.size a
  k0_off1_packedbf16 : ∀ d0 : Dev nD, (Rect.unit (s := S2048x512) (k0_off1 d0) S1024x512.size (k0_off1_inb d0)).PackedRows (EltTy.packing .bf16)
  k0_off2_inb : ∀ d0 : Dev nD, ∀ (r : Fin 6), ∀ a, (k0_off2 d0 (BitVec.ofNat 32 r.val)) a + S64x512.size a ≤ S2048x512.size a
  k0_off2_wordsbf16 : ∀ d0 : Dev nD, ∀ (r : Fin 6), (Rect.unit (s := S2048x512) (k0_off2 d0 (BitVec.ofNat 32 r.val)) S64x512.size (k0_off2_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off3_inb : ∀ d0 : Dev nD, ∀ (r : Fin 4), ∀ a, (k0_off3 d0 (BitVec.ofNat 32 (384 + 64 * r.val))) a + S64x512.size a ≤ S2048x512.size a
  k0_off3_wordsbf16 : ∀ d0 : Dev nD, ∀ (r : Fin 4), (Rect.unit (s := S2048x512) (k0_off3 d0 (BitVec.ofNat 32 (384 + 64 * r.val))) S64x512.size (k0_off3_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off4_inb : ∀ d0 : Dev nD, ∀ (r : Fin 6), ∀ a, (k0_off4 d0 (BitVec.ofNat 32 r.val)) a + S64x512.size a ≤ S2048x512.size a
  k0_off4_wordsbf16 : ∀ d0 : Dev nD, ∀ (r : Fin 6), (Rect.unit (s := S2048x512) (k0_off4 d0 (BitVec.ofNat 32 r.val)) S64x512.size (k0_off4_inb d0 r)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  hstage0_0 : ∀ j, (stage0_0 j).IsWhole
  hstage0_1 : ∀ j, (stage0_1 j).IsWhole

variable [Facts₀]

abbrev cc0_scratch0 : Sems sig S_ := SemArray.consecutive 0 S_ hcc0_scratch0
abbrev cc0_scratch1 : DmaSems sig S10 := SemArray.consecutive 2 S10 hcc0_scratch1
abbrev cc0_scratch2 : DmaSems sig S10 := SemArray.consecutive 12 S10 hcc0_scratch2
abbrev cc0_scratch3 : DmaSems sig S6 := SemArray.consecutive 22 S6 hcc0_scratch3
abbrev cc0_scratch4 : DmaSems sig S6 := SemArray.consecutive 28 S6 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelAG.Defs.lean ====
/-
  The all-gather's protocol, written once for every device of the 2 × 2 × 2 mesh.

  Device `c` sits at (x, y, z) = (c / 4, c / 2 % 2, c % 2) and holds block `y` (1024 rows) of the array. Its partner along y,
  `ynb c`, holds the other block; its partner along z, `znb c`, holds the same block as `c`. The result buffer of 2048 rows is
  cut into 32 chunks of 64 rows. A device stores its own block into the half of the result that is its own, sends ten of
  those sixteen chunks straight to `ynb c` (chunks 0..9 when z = 0, chunks 6..15 when z = 1), and forwards six of the ten
  chunks it receives from `ynb c` (the ones `znb c` does not receive directly: 0..5 when z = 0, 10..15 when z = 1) on to `znb c`.
  So every chunk of the other half arrives either directly (from `ynb c`) or by way of `znb c` (from `ynb (znb c)`).

  Semaphores, each seen as a cell of one round with one duty: the barrier cell (one unit, signalled by `ynb c`, handing over
  the ten chunks of `ynb c`'s buffer that `c` will write), the z-ready cell (one unit, signalled by `znb c`, handing over the six
  chunks of `znb c`'s buffer that `c` will write), ten send and ten receive cells along y, six and six along z. A receive
  cell's payload is the landed chunk AT ITS FINAL CONTENTS `fin c`; a send cell's payload is the source chunk back.
-/
import proofs.«900663_g7700000000000664_dist_ag_v7x_xyz2x2x2_y_m1024_n512_bf16_1_alg».proof.Proof.Gen.Kernel
import proofs.«900663_g7700000000000664_dist_ag_v7x_xyz2x2x2_y_m1024_n512_bf16_1_alg».proof.Proof.Gen.Kernel.Skeleton
import proofs.«900663_g7700000000000664_dist_ag_v7x_xyz2x2x2_y_m1024_n512_bf16_1_alg».proof.Proof.Gen.Kernel.Launch
import proofs.«900663_g7700000000000664_dist_ag_v7x_xyz2x2x2_y_m1024_n512_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (every round has one duty) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: coordinates and the two partners -/

/-- The y and z coordinates of a device. -/
def yc (c : Dev nD) : ℕ := c.val / 2 % 2
def zc (c : Dev nD) : ℕ := c.val % 2

/-- The partner along y (the y coordinate flipped) and along z (the z coordinate flipped). -/
def ynb (c : Dev nD) : Dev nD := ⟨(4 * (c.val / 4) + (c.val % 2) + 2) - 2 * ((c.val / 2) % 2), by revert c; decide⟩
def znb (c : Dev nD) : Dev nD := ⟨(4 * (c.val / 4) + 2 * ((c.val / 2) % 2) + 1) - (c.val % 2), by revert c; decide⟩

theorem ynb_ynb (c : Dev nD) : ynb (ynb c) = c := by revert c; decide
theorem znb_znb (c : Dev nD) : znb (znb c) = c := by revert c; decide
theorem ynb_znb (c : Dev nD) : ynb (znb c) = znb (ynb c) := by revert c; decide
theorem yc_ynb (c : Dev nD) : yc (ynb c) = 1 - yc c := by revert c; decide
theorem zc_ynb (c : Dev nD) : zc (ynb c) = zc c := by revert c; decide
theorem yc_znb (c : Dev nD) : yc (znb c) = yc c := by revert c; decide
theorem zc_znb (c : Dev nD) : zc (znb c) = 1 - zc c := by revert c; decide
theorem yc_le (c : Dev nD) : yc c ≤ 1 := by revert c; decide
theorem zc_le (c : Dev nD) : zc c ≤ 1 := by revert c; decide

def yEquiv : Dev nD ≃ Dev nD := ⟨ynb, ynb, ynb_ynb, ynb_ynb⟩
def zEquiv : Dev nD ≃ Dev nD := ⟨znb, znb, znb_znb, znb_znb⟩

/-- The kernel's `device_id` chains: the first signal and the ten direct copies name `ynb c`, the second signal and the six
    forwarding copies `znb c`. -/
theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = znb c := Fin.ext (k0_dev2_eq c)
theorem dev3_eq (c : Dev nD) : (⟨k0_dev3 c, k0_dev3_lt c⟩ : Dev nD) = ynb c := Fin.ext (k0_dev3_eq c)
theorem dev4_eq (c : Dev nD) : (⟨k0_dev4 c, k0_dev4_lt c⟩ : Dev nD) = ynb c := Fin.ext (k0_dev4_eq c)
theorem dev5_eq (c : Dev nD) : (⟨k0_dev5 c, k0_dev5_lt c⟩ : Dev nD) = ynb c := Fin.ext (k0_dev5_eq c)
theorem dev6_eq (c : Dev nD) : (⟨k0_dev6 c, k0_dev6_lt c⟩ : Dev nD) = ynb c := Fin.ext (k0_dev6_eq c)
theorem dev7_eq (c : Dev nD) : (⟨k0_dev7 c, k0_dev7_lt c⟩ : Dev nD) = ynb c := Fin.ext (k0_dev7_eq c)
theorem dev8_eq (c : Dev nD) : (⟨k0_dev8 c, k0_dev8_lt c⟩ : Dev nD) = ynb c := Fin.ext (k0_dev8_eq c)
theorem dev9_eq (c : Dev nD) : (⟨k0_dev9 c, k0_dev9_lt c⟩ : Dev nD) = ynb c := Fin.ext (k0_dev9_eq c)
theorem dev10_eq (c : Dev nD) : (⟨k0_dev10 c, k0_dev10_lt c⟩ : Dev nD) = ynb c := Fin.ext (k0_dev10_eq c)
theorem dev11_eq (c : Dev nD) : (⟨k0_dev11 c, k0_dev11_lt c⟩ : Dev nD) = ynb c := Fin.ext (k0_dev11_eq c)
theorem dev12_eq (c : Dev nD) : (⟨k0_dev12 c, k0_dev12_lt c⟩ : Dev nD) = ynb c := Fin.ext (k0_dev12_eq c)
theorem dev13_eq (c : Dev nD) : (⟨k0_dev13 c, k0_dev13_lt c⟩ : Dev nD) = znb c := Fin.ext (k0_dev13_eq c)
theorem dev14_eq (c : Dev nD) : (⟨k0_dev14 c, k0_dev14_lt c⟩ : Dev nD) = znb c := Fin.ext (k0_dev14_eq c)
theorem dev15_eq (c : Dev nD) : (⟨k0_dev15 c, k0_dev15_lt c⟩ : Dev nD) = znb c := Fin.ext (k0_dev15_eq c)
theorem dev16_eq (c : Dev nD) : (⟨k0_dev16 c, k0_dev16_lt c⟩ : Dev nD) = znb c := Fin.ext (k0_dev16_eq c)
theorem dev17_eq (c : Dev nD) : (⟨k0_dev17 c, k0_dev17_lt c⟩ : Dev nD) = znb c := Fin.ext (k0_dev17_eq c)
theorem dev18_eq (c : Dev nD) : (⟨k0_dev18 c, k0_dev18_lt c⟩ : Dev nD) = znb c := Fin.ext (k0_dev18_eq c)

/-! ## The buffers and the chunks -/

/-- The staging buffer of the argument block and of the result. -/
abbrev xM : Memref sig .tc .vmem S1024x512 .f32 := Memref.whole cc0_stg0_0
abbrev oM : Memref sig .tc .vmem S2048x512 .bf16 := Memref.whole cc0_stg1_0

/-- The row offset of direct copy `i` of device `c`, as the kernel computes it: in `c`'s own half, chunk `10 z + i` for `i < 6`,
    chunk `i` for `6 ≤ i`. -/
def yOff (c : Dev nD) : Fin 10 → Fin 2 → Nat
  | ⟨0, _⟩ => k0_off2 c 0#32 | ⟨1, _⟩ => k0_off2 c 1#32 | ⟨2, _⟩ => k0_off2 c 2#32
  | ⟨3, _⟩ => k0_off2 c 3#32 | ⟨4, _⟩ => k0_off2 c 4#32 | ⟨5, _⟩ => k0_off2 c 5#32
  | ⟨6, _⟩ => k0_off3 c 384#32 | ⟨7, _⟩ => k0_off3 c 448#32 | ⟨8, _⟩ => k0_off3 c 512#32
  | ⟨9, _⟩ => k0_off3 c 576#32
  | ⟨_ + 10, h⟩ => absurd h (by omega)

/-- The chunk of its own half that device `c`'s direct copy `i` carries. -/
def yChunk (c : Dev nD) (i : Fin 10) : ℕ := if i.val < 6 then 10 * zc c + i.val else i.val

/-- The row offset of forwarding copy `i` of device `c`: in the OTHER half, chunk `10 z + i`. -/
def zOff (c : Dev nD) (i : Fin 6) : Fin 2 → Nat := k0_off4 c (BitVec.ofNat 32 i.val)

theorem yOff_eq : ∀ (c : Dev nD) (i : Fin 10), yOff c i = ![1024 * yc c + 64 * yChunk c i, 0] := by decide +kernel
theorem zOff_eq : ∀ (c : Dev nD) (i : Fin 6), zOff c i = ![1024 * (1 - yc c) + 64 * (10 * zc c + i.val), 0] := by decide +kernel
theorem yOff_inb : ∀ (c : Dev nD) (i : Fin 10), ∀ a, yOff c i a + S64x512.size a ≤ S2048x512.size a := by decide +kernel
theorem zOff_inb : ∀ (c : Dev nD) (i : Fin 6), ∀ a, zOff c i a + S64x512.size a ≤ S2048x512.size a := by decide +kernel

/-- The chunk of the result buffer that direct copy `i` of device `c` reads on `c` and writes on `ynb c`. -/
abbrev ySl (c : Dev nD) (i : Fin 10) : Memref sig .tc .vmem S64x512 .bf16 :=
  oM.slice (Rect.unit (s := S2048x512) (yOff c i) S64x512.size (yOff_inb c i)) (fun _ => rfl)
/-- The chunk that forwarding copy `i` of device `c` reads on `c` and writes on `znb c`. -/
abbrev zSl (c : Dev nD) (i : Fin 6) : Memref sig .tc .vmem S64x512 .bf16 :=
  oM.slice (Rect.unit (s := S2048x512) (zOff c i) S64x512.size (zOff_inb c i)) (fun _ => rfl)

/-! ## The semaphores and the cells -/

theorem inbS10 : ∀ (i : Fin 10), ∀ a, (![i.val] : Fin 1 → Nat) a + S1.size a ≤ S10.size a := by decide
theorem inbS6 : ∀ (i : Fin 6), ∀ a, (![i.val] : Fin 1 → Nat) a + S1.size a ≤ S6.size a := by decide

abbrev barS : Sem sig := (SemArray.scalar (sig.barrier 0 rfl) : Sems sig S_).sem
abbrev zbarS : Sem sig := (cc0_scratch0 : Sems sig S_).sem
abbrev ysS (i : Fin 10) : DmaSem sig := ((cc0_scratch1.slice (Rect.unit (s := S10) ![i.val] S1.size (inbS10 i))).squeeze S_ squeezes_S1_S_).sem
abbrev yrS (i : Fin 10) : DmaSem sig := ((cc0_scratch2.slice (Rect.unit (s := S10) ![i.val] S1.size (inbS10 i))).squeeze S_ squeezes_S1_S_).sem
abbrev zsS (i : Fin 6) : DmaSem sig := ((cc0_scratch3.slice (Rect.unit (s := S6) ![i.val] S1.size (inbS6 i))).squeeze S_ squeezes_S1_S_).sem
abbrev zrS (i : Fin 6) : DmaSem sig := ((cc0_scratch4.slice (Rect.unit (s := S6) ![i.val] S1.size (inbS6 i))).squeeze S_ squeezes_S1_S_).sem

theorem barS_val : (barS : Sem sig).val = 1 := by decide
theorem zbarS_val : (zbarS : Sem sig).val = 0 := by decide
theorem ysS_val : ∀ i : Fin 10, (ysS i).val = 2 + i.val := by decide
theorem yrS_val : ∀ i : Fin 10, (yrS i).val = 12 + i.val := by decide
theorem zsS_val : ∀ i : Fin 6, (zsS i).val = 22 + i.val := by decide
theorem zrS_val : ∀ i : Fin 6, (zrS i).val = 28 + i.val := by decide

/-- The protocol's cells of a device, by kind. -/
inductive CK where
  | bar | zbar
  | ys (i : Fin 10) | yr (i : Fin 10)
  | zs (i : Fin 6) | zr (i : Fin 6)
  deriving DecidableEq, Fintype

/-- A kind's semaphore. -/
def CK.sem : CK → SemLoc sig
  | .bar => .reg barS | .zbar => .reg zbarS
  | .ys i => .dma (ysS i) | .yr i => .dma (yrS i)
  | .zs i => .dma (zsS i) | .zr i => .dma (zrS i)

/-- Which of the protocol's cells a semaphore is, if any. -/
def kindOf : SemLoc sig → Option CK
  | .reg s => if s.val = 1 then some .bar else if s.val = 0 then some .zbar else none
  | .dma q =>
    if h : 2 ≤ q.val ∧ q.val < 12 then some (.ys ⟨q.val - 2, by omega⟩)
    else if h : 12 ≤ q.val ∧ q.val < 22 then some (.yr ⟨q.val - 12, by omega⟩)
    else if h : 22 ≤ q.val ∧ q.val < 28 then some (.zs ⟨q.val - 22, by omega⟩)
    else if h : 28 ≤ q.val ∧ q.val < 34 then some (.zr ⟨q.val - 28, by omega⟩)
    else none

theorem kindOf_sem : ∀ k : CK, kindOf k.sem = some k := by decide

abbrev cell (c : Dev nD) (k : CK) : GSem nD τ sig := ((c : Thread nD τ), k.sem)

/-- The credit of one chunk's transfer: the same for every chunk (it depends on the buffer, the shape and the element type only). -/
abbrev N64 : ℕ := (ySl (0 : Dev nD) 0).view.dmaCredit
theorem N64_pos : 0 < N64 := View.dmaCredit_pos _ (by decide)
theorem ySl_credit (c : Dev nD) (i : Fin 10) : (ySl c i).view.dmaCredit = N64 := rfl
theorem zSl_credit (c : Dev nD) (i : Fin 6) : (zSl c i).view.dmaCredit = N64 := rfl

/-! ## Contents -/

/-- Device `c`'s argument block as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s block as the kernel stores it: each element narrowed to the result's element type. -/
def X (c : Dev nD) : FVec F S1024x512 .bf16 := k0_pay1 (xstg m ρ c)

/-- Which device's block supplies chunk `j` of the half of `c`'s result that is not its own: `ynb c` directly for the chunks it
    sends `c` (0..9 when z = 0, 6..15 when z = 1), else `ynb (znb c)` by way of `znb c`. -/
def srcDev (c : Dev nD) (j : ℕ) : Dev nD := if 6 * zc c ≤ j ∧ j < 10 + 6 * zc c then ynb c else ynb (znb c)

/-- The result buffer of device `c` when the kernel ends: rows `1024 y ..` its own block, the other 1024 rows the partner's,
    chunk by chunk from the device that supplied it. -/
def fin (c : Dev nD) : (cc0_stg1_0 : Ref sig .tc).ty.Contents (Elt F) := fun i =>
  if (i 0).val / 1024 = yc c then
    X m ρ c (ix2 (⟨(i 0).val % 1024, Nat.mod_lt _ (by decide)⟩ : Fin 1024) (⟨(i 1).val, (i 1).isLt⟩ : Fin 512))
  else
    X m ρ (srcDev c ((i 0).val % 1024 / 64)) (ix2 (⟨(i 0).val % 1024, Nat.mod_lt _ (by decide)⟩ : Fin 1024) (⟨(i 1).val, (i 1).isLt⟩ : Fin 512))

/-- A chunk `M` of device `c`'s result buffer held whole at contents `f`. -/
def chunkPts (c : Dev nD) (M : Memref sig .tc .vmem S64x512 .bf16) (f : Buf (Elt F) (M.view.loc (c : Thread nD τ))) : sProp 𝕄 :=
  M.view.loc (c : Thread nD τ) ↦[M.view.set]{fullShare} f

omit [FloatOps F] in
instance chunkPts_storable (c : Dev nD) (M) (f) : BI.Storable (upEmb : UEmb _ 𝕄) (chunkPts (F := F) c M f) := by unfold chunkPts; infer_instance

/-! ## The schedule -/

/-- What a cell's one duty hands its owner `c`. -/
def pay (c : Dev nD) : CK → sProp 𝕄
  | .bar => bigSep Finset.univ fun i : Fin 10 => iprop(∃ f, chunkPts (ynb c) (ySl c i) f)
  | .zbar => bigSep Finset.univ fun i : Fin 6 => iprop(∃ f, chunkPts (znb c) (zSl c i) f)
  | .ys i => chunkPts c (ySl c i) (fin m ρ c)
  | .yr i => chunkPts c (ySl (ynb c) i) (fin m ρ c)
  | .zs i => chunkPts c (zSl c i) (fin m ρ c)
  | .zr i => chunkPts c (zSl (znb c) i) (fin m ρ c)

/-- One round, round 0, one duty: a regular semaphore's of one unit, a DMA semaphore's of a chunk's credit. -/
def Rd : Rounds.Schedule (GSem nD τ sig) Unit 𝕄 where
  duties g r := if r = 0 ∧ g.1.2 = .tc ∧ (kindOf g.2).isSome then {()} else ∅
  unitless _ := False
  amount g _ _ := match g.2 with | .dma _ => N64 | _ => 1
  payload g _ _ := match kindOf g.2 with | some k => pay m ρ g.1.1 k | none => iprop(emp)
  amount_pos g _ _ _ := by
    cases g.2 <;> first | exact N64_pos | exact Nat.one_pos

end Cert.Kernel.AG

end
-- ==== Proof.KernelAG.State.lean ====
/-
  What each device owes and holds, and the proof data of the one pallas_call.

  A device pays, in program order: one unit to its y-partner's barrier cell, one unit to its z-partner's z-ready cell, a chunk's
  credit to each of its y-partner's ten receive cells, a chunk's credit to each of its z-partner's six receive cells. A wait is
  allowed below everything still owed: send and staging cells at level 0, the barrier and z-ready cells at 1, the y receive cells
  at 2 (six of them are waited while the forwarding copies are still owed), the z receive cells at 3.
-/
import proofs.«900663_g7700000000000664_dist_ag_v7x_xyz2x2x2_y_m1024_n512_bf16_1_alg».proof.Proof.KernelAG.Defs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- A kind's amount: a regular semaphore's one unit, a DMA semaphore's chunk credit. -/
def amt : CK → ℕ
  | .bar => 1 | .zbar => 1 | _ => N64

/-- The cells device `c` pays and by how much, in the order the program pays them. -/
def dues (c : Dev nD) : List (GSem nD τ sig × ℕ) :=
  [(cell (ynb c) .bar, 1), (cell (znb c) .zbar, 1),
   (cell (ynb c) (.yr 0), N64), (cell (ynb c) (.yr 1), N64), (cell (ynb c) (.yr 2), N64), (cell (ynb c) (.yr 3), N64), (cell (ynb c) (.yr 4), N64), (cell (ynb c) (.yr 5), N64), (cell (ynb c) (.yr 6), N64), (cell (ynb c) (.yr 7), N64), (cell (ynb c) (.yr 8), N64), (cell (ynb c) (.yr 9), N64),
   (cell (znb c) (.zr 0), N64), (cell (znb c) (.zr 1), N64), (cell (znb c) (.zr 2), N64), (cell (znb c) (.zr 3), N64), (cell (znb c) (.zr 4), N64), (cell (znb c) (.zr 5), N64)]

/-- What device `c` still owes after its first `j` payments: each payment peels the last summand. -/
def owedFrom (c : Dev nD) (j : ℕ) : CellTallies nD τ sig Unit :=
  ((dues c).drop j).foldr (fun d acc => acc + tallyAt d.1 () d.2) 0

def O₀ (c : Dev nD) : CellTallies nD τ sig Unit := owedFrom c 0

/-! ## Levels -/

def L (g : GSem nD τ sig) : Finset Unit := if g.1.2 = .tc then {()} else ∅

def lvK : CK → ℕ
  | .bar => 1 | .zbar => 1 | .yr _ => 2 | .zr _ => 3 | .ys _ => 0 | .zs _ => 0

/-- A protocol cell's level is its kind's; every other cell (the staging semaphores) sits at 0. -/
def lv (g : GSem nD τ sig) (_ : Unit) : ℕ := match kindOf g.2 with | some k => lvK k | none => 0

/-! ## The ghost state -/

/-- Every protocol cell's invariant, under the names `K` the launch allocated them at, and that each is at round 0: persistent,
    so every device holds all of it. -/
def records (K : Dev nD × CK → ℕ) : sProp 𝕄 :=
  iprop((bigSep Finset.univ fun ck : Dev nD × CK => cellInv ER (Rd m ρ) (K ck) (cell ck.1 ck.2))
    ∗ bigSep Finset.univ fun ck : Dev nD × CK => reached ER (cell ck.1 ck.2) 0)

instance records_persistent (K : Dev nD × CK → ℕ) : BI.Persistent (records m ρ K) := by unfold records; infer_instance

/-- Device `c`'s position in each of its own cells: round 0, nothing taken. -/
def positions (c : Dev nD) : sProp 𝕄 := bigSep Finset.univ fun k : CK => atPos ER (cell c k) 0 ∅ 0

/-- The tokens of the duties device `c` pays: its partners' barrier and z-ready duties, its own send duties, its partners'
    receive duties. -/
def payToks (c : Dev nD) : sProp 𝕄 :=
  iprop(dutyTok ER (cell (ynb c) .bar) 0 () ∗ dutyTok ER (cell (znb c) .zbar) 0 ()
    ∗ (bigSep Finset.univ fun i : Fin 10 => dutyTok ER (cell c (.ys i)) 0 ())
    ∗ (bigSep Finset.univ fun i : Fin 10 => dutyTok ER (cell (ynb c) (.yr i)) 0 ())
    ∗ (bigSep Finset.univ fun i : Fin 6 => dutyTok ER (cell c (.zs i)) 0 ())
    ∗ (bigSep Finset.univ fun i : Fin 6 => dutyTok ER (cell (znb c) (.zr i)) 0 ()))

def ghost (K : Dev nD × CK → ℕ) (c : Dev nD) : sProp 𝕄 := iprop(records m ρ K ∗ positions c ∗ payToks c)

/-- The credit device `c` waits with on the cells its partners pay. -/
def creds (c : Dev nD) : sProp 𝕄 :=
  iprop(cred (tallyAt (cell c .bar) () 1) ∗ cred (tallyAt (cell c .zbar) () 1)
    ∗ (bigSep Finset.univ fun i : Fin 10 => cred (tallyAt (cell c (.yr i)) () N64))
    ∗ (bigSep Finset.univ fun i : Fin 6 => cred (tallyAt (cell c (.zr i)) () N64)))

/-- What device `c`'s body starts from. -/
def start (c : Dev nD) : sProp 𝕄 := iprop((∃ K, ghost m ρ K c) ∗ creds c ∗ levAts L lv)

def Φ₀ (c : Dev nD) : sProp 𝕄 := start m ρ c
/-- After the point: the kernel's own (scoped) cells closed, their counters at zero (the barrier cell is the runtime's). -/
def Φ₁ (c : Dev nD) : sProp 𝕄 := bigSep (Finset.univ.erase CK.bar) fun k : CK => semVal (cell c k) 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ creds c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (fin m ρ c))

end Cert.Kernel.AG

end
-- ==== Proof.KernelAG.Sched.lean ====
/-
  The schedule read cell by cell: each protocol cell has one duty at round 0 and none later, a regular cell's of one unit and a
  DMA cell's of a chunk's credit, handing its owner what `pay` says.
-/
import proofs.«900663_g7700000000000664_dist_ag_v7x_xyz2x2x2_y_m1024_n512_bf16_1_alg».proof.Proof.KernelAG.State

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem sem_injective : Function.Injective (CK.sem) := by
  intro a b h
  have := congrArg kindOf h
  rw [kindOf_sem, kindOf_sem] at this
  exact Option.some.inj this

theorem cell_injective : Function.Injective (fun ck : Dev nD × CK => cell ck.1 ck.2) := by
  rintro ⟨c, k⟩ ⟨c', k'⟩ h
  have h1 : c = c' := congrArg (fun g : GSem nD τ sig => g.1.1) h
  have h2 : k.sem = k'.sem := congrArg (fun g : GSem nD τ sig => g.2) h
  rw [h1, sem_injective h2]

instance Rd_payload_storable (g : GSem nD τ sig) (r : ℕ) (d : Unit) :
    BI.Storable (upEmb : UEmb _ 𝕄) ((Rd (F := F) m ρ).payload g r d) := by
  show BI.Storable upEmb (match kindOf g.2 with | some k => pay m ρ g.1.1 k | none => iprop(emp))
  cases kindOf g.2 with
  | none => infer_instance
  | some k => cases k <;> (unfold pay; infer_instance)

section Sched
variable (c : Dev nD) (k : CK)

@[sl_rounds]
theorem duties_cell : (Rd (F := F) m ρ).duties (cell c k) 0 = {()} := by
  dsimp only [Rd]; rw [kindOf_sem]; exact if_pos ⟨rfl, rfl, rfl⟩
theorem duties_later (g : GSem nD τ sig) : ∀ r, 1 ≤ r → (Rd (F := F) m ρ).duties g r = ∅ := by
  intro r hr; dsimp only [Rd]; exact if_neg fun h => by omega
@[sl_rounds]
theorem amount_cell (d : Unit) : (Rd (F := F) m ρ).amount (cell c k) 0 d = amt k := by
  cases k <;> rfl
@[sl_rounds]
theorem expect_cell : (Rd (F := F) m ρ).expect (cell c k) 0 = amt k := by
  unfold Schedule.expect Schedule.amountOf; rw [duties_cell, Finset.sum_singleton, amount_cell]
@[sl_rounds]
theorem payload_cell (d : Unit) : (Rd (F := F) m ρ).payload (cell c k) 0 d = pay m ρ c k := by
  dsimp only [Rd]; rw [kindOf_sem]
/-- The rest of a cell's round, nothing taken: its one payload. -/
@[sl_rounds]
theorem rest_cell : bigSep ((Rd (F := F) m ρ).duties (cell c k) 0 \ ∅) (fun d => (Rd (F := F) m ρ).payload (cell c k) 0 d) = pay m ρ c k := by
  rw [Finset.sdiff_empty, duties_cell, bigSep_singleton, payload_cell]

end Sched

/-- info: 'Cert.Kernel.AG.cell_injective' depends on axioms: [propext, Classical.choice, Quot.sound] -/
#guard_msgs in #print axioms cell_injective

/-- info: 'Cert.Kernel.AG.Rd_payload_storable' depends on axioms: [propext, Classical.choice, Quot.sound] -/
#guard_msgs in #print axioms Rd_payload_storable

/-- info: 'Cert.Kernel.AG.duties_later' depends on axioms: [propext, Classical.choice, Quot.sound] -/
#guard_msgs in #print axioms duties_later

/-- info: 'Cert.Kernel.AG.expect_cell' depends on axioms: [propext, Classical.choice, Quot.sound] -/
#guard_msgs in #print axioms expect_cell

/-- info: 'Cert.Kernel.AG.rest_cell' depends on axioms: [propext, Classical.choice, Quot.sound] -/
#guard_msgs in #print axioms rest_cell

end Cert.Kernel.AG

end
-- ==== Proof.KernelAG.Levels.lean ====
/-
  Levels and credit. A wait on a cell is allowed when the cell sits strictly below every cell the waiter still owes; at launch
  each device is credited, on each cell it waits on, exactly what its partners owe that cell.
-/
import proofs.«900663_g7700000000000664_dist_ag_v7x_xyz2x2x2_y_m1024_n512_bf16_1_alg».proof.Proof.KernelAG.State

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : CK) (u : Unit) : lv (cell c k) u = lvK k := by
  show (match kindOf k.sem with | some k => lvK k | none => 0) = lvK k
  rw [kindOf_sem]

/-- After all eighteen payments nothing is owed. -/
theorem owedFrom_end (c : Dev nD) : owedFrom c 18 = 0 := rfl

/-- The levels of the eighteen dues, in the order they are paid: they never go down. -/
private theorem dues_lv (c : Dev nD) :
    (dues c).map (fun d => lv d.1 ()) = [1, 1, 2, 2, 2, 2, 2, 2, 2, 2, 2, 2, 3, 3, 3, 3, 3, 3] := by
  simp only [dues, List.map_cons, List.map_nil, lv_cell, lvK]

/-- Every due is owed to a cell of a device's main thread. -/
private theorem dues_tc (c : Dev nD) : (dues c).map (fun d => d.1.1.2) = List.replicate 18 (Proc.tc : Proc τ) := rfl

/-- A due still to be paid after `j` payments has its level among the levels from position `j` on. -/
private theorem lv_of_mem_drop (c : Dev nD) (j : ℕ) {d : GSem nD τ sig × ℕ} (hd : d ∈ (dues c).drop j) :
    lv d.1 () ∈ ([1, 1, 2, 2, 2, 2, 2, 2, 2, 2, 2, 2, 3, 3, 3, 3, 3, 3] : List ℕ).drop j := by
  rw [← dues_lv c, ← List.map_drop]
  exact List.mem_map_of_mem (f := fun d : GSem nD τ sig × ℕ => lv d.1 ()) hd

private theorem tc_of_mem_dues (c : Dev nD) {d : GSem nD τ sig × ℕ} (hd : d ∈ dues c) : d.1.1.2 = Proc.tc :=
  List.eq_of_mem_replicate (dues_tc c ▸ List.mem_map_of_mem (f := fun d : GSem nD τ sig × ℕ => d.1.1.2) hd)

/-- A sum of one-cell tallies is positive only at one of its cells. -/
private theorem foldr_pos (l : List (GSem nD τ sig × ℕ)) (g : GSem nD τ sig) (u : Unit)
    (h : 0 < (l.foldr (fun d acc => acc + tallyAt d.1 () d.2) (0 : CellTallies nD τ sig Unit)) g u) : ∃ d ∈ l, d.1 = g := by
  induction l with
  | nil => rw [List.foldr_nil, Pi.zero_apply, Finsupp.zero_apply] at h; exact absurd h (Nat.lt_irrefl 0)
  | cons a l ih =>
    rw [List.foldr_cons, Pi.add_apply, Finsupp.add_apply, tallyAt_apply] at h
    by_cases hg : g = a.1 ∧ u = ()
    · exact ⟨a, List.mem_cons_self, hg.1.symm⟩
    · rw [if_neg hg, Nat.add_zero] at h
      obtain ⟨d, hd, hdg⟩ := ih h
      exact ⟨d, List.mem_cons_of_mem _ hd, hdg⟩

omit [FloatOps F] in
/-- A wait on `sm` after `j` payments, when `sm` sits strictly below every cell still to be paid. -/
theorem mayWait_at (c : Dev nD) (sm : SemLoc sig) (j : ℕ)
    (h : ∀ d ∈ (dues c).drop j, lv ((c : Thread nD τ), sm) () < lv d.1 ()) :
    (levAts L lv : sProp 𝕄) ⊢ MayWait (c : Thread nD τ) sm () (owedFrom c j) :=
  MayOwe.of_levAts (L := L) (lev := lv)
    (fun p hp => by rw [Finset.mem_singleton.mp hp, L_tc]; exact Finset.mem_singleton_self _)
    (fun g u hg => by
      obtain ⟨d, hd, rfl⟩ := foldr_pos _ g u hg
      rw [L, if_pos (tc_of_mem_dues c (List.mem_of_mem_drop hd))]; exact Finset.mem_singleton_self _)
    (fun g u hg p hp => by
      obtain ⟨d, hd, rfl⟩ := foldr_pos _ g u hg
      rw [Finset.mem_singleton.mp hp]; exact h d hd)

omit [FloatOps F] in
/-- The barrier wait: both signals sent, all sixteen copies still owed. -/
theorem mayWait_bar (c : Dev nD) : (levAts L lv : sProp 𝕄) ⊢ MayWait (c : Thread nD τ) (.reg barS) () (owedFrom c 2) :=
  mayWait_at c (.reg barS) 2 fun d hd => by
    have hm := lv_of_mem_drop c 2 hd
    rw [show lv ((c : Thread nD τ), SemLoc.reg barS) () = 1 from lv_cell c .bar ()]
    revert hm; generalize lv d.1 () = x; revert x; decide
omit [FloatOps F] in
/-- The z-ready wait: the six forwarding copies still owed. -/
theorem mayWait_zbar (c : Dev nD) : (levAts L lv : sProp 𝕄) ⊢ MayWait (c : Thread nD τ) (.reg zbarS) () (owedFrom c 12) :=
  mayWait_at c (.reg zbarS) 12 fun d hd => by
    have hm := lv_of_mem_drop c 12 hd
    rw [show lv ((c : Thread nD τ), SemLoc.reg zbarS) () = 1 from lv_cell c .zbar ()]
    revert hm; generalize lv d.1 () = x; revert x; decide
omit [FloatOps F] in
/-- The receive wait before forwarding copy `i`: forwarding copies `i..5` still owed. -/
theorem mayWait_yr (c : Dev nD) (i : Fin 6) :
    (levAts L lv : sProp 𝕄) ⊢ MayWait (c : Thread nD τ) (.dma (yrS (Fin.castLE (show 6 ≤ 10 by decide) i))) () (owedFrom c (12 + i.val)) :=
  mayWait_at c (.dma (yrS (Fin.castLE (show 6 ≤ 10 by decide) i))) (12 + i.val) fun d hd => by
    have hm := lv_of_mem_drop c (12 + i.val) hd
    rw [show lv ((c : Thread nD τ), SemLoc.dma (yrS (Fin.castLE (show 6 ≤ 10 by decide) i))) () = 2 from
      lv_cell c (.yr (Fin.castLE (show 6 ≤ 10 by decide) i)) ()]
    revert hm; generalize lv d.1 () = x; clear hd; revert x i; decide
omit [FloatOps F] in
/-- A staging semaphore's wait, before the body (everything owed) or after it (nothing owed). -/
theorem mayWait_stage (c : Dev nD) (q : DmaSem sig) (hq : kindOf (.dma q : SemLoc sig) = none) (O : CellTallies nD τ sig Unit) (hO : O = O₀ c ∨ O = 0) :
    (levAts L lv : sProp 𝕄) ⊢ MayWait (c : Thread nD τ) (.dma q) () O := by
  rcases hO with rfl | rfl
  · refine mayWait_at c (.dma q) 0 fun d hd => ?_
    have hm := lv_of_mem_drop c 0 hd
    rw [show lv ((c : Thread nD τ), SemLoc.dma q) () = 0 from by
      show (match kindOf (SemLoc.dma q : SemLoc sig) with | some k => lvK k | none => 0) = 0
      rw [hq]]
    revert hm; generalize lv d.1 () = x; revert x; decide
  · rw [MayWait_zero]; iintro -; iempintro

omit [FloatOps F] in
/-- Every device owing `n` on cell `k` of its y-partner, the launch deals device `c` that credit on its own cell `k`. -/
private theorem lc_y (k : CK) (n : ℕ) (c : Dev nD) :
    (Pipeline.launchCred (fun d => tallyAt (cell (ynb d) k) () n) c : sProp 𝕄) ⊢ cred (tallyAt (cell c k) () n) :=
  Pipeline.launchCred_tallyAt k.sem ynb ynb ynb_ynb ynb_ynb () n c

omit [FloatOps F] in
/-- The same along z. -/
private theorem lc_z (k : CK) (n : ℕ) (c : Dev nD) :
    (Pipeline.launchCred (fun d => tallyAt (cell (znb d) k) () n) c : sProp 𝕄) ⊢ cred (tallyAt (cell c k) () n) :=
  Pipeline.launchCred_tallyAt k.sem znb znb znb_znb znb_znb () n c

omit [FloatOps F] in
/-- The launch credit of device `c`: one unit on its barrier cell (from `ynb c`), one on its z-ready cell (from `znb c`), a chunk's
    credit on each y receive cell (from `ynb c`) and each z receive cell (from `znb c`). -/
theorem launch_creds (c : Dev nD) : (Pipeline.launchCred O₀ c : sProp 𝕄) ⊢ creds c := by
  show (Pipeline.launchCred (fun d => owedFrom d 0) c : sProp 𝕄) ⊢ _
  unfold creds
  rw [bigSep_univ_eq_bigSepL [0, 1, 2, 3, 4, 5, 6, 7, 8, 9] (by decide) (by decide),
    bigSep_univ_eq_bigSepL [0, 1, 2, 3, 4, 5] (by decide) (by decide)]
  simp only [owedFrom, dues, List.drop_zero, List.foldr_cons, List.foldr_nil, Pipeline.launchCred_add, Pipeline.launchCred_zero, bigSepL]
  show _ ⊢ iprop(_ ∗ _ ∗ (_ ∗ _ ∗ _ ∗ _ ∗ _ ∗ _ ∗ _ ∗ _ ∗ _ ∗ _) ∗ (_ ∗ _ ∗ _ ∗ _ ∗ _ ∗ _))
  iintro ⟨⟨⟨⟨⟨⟨⟨⟨⟨⟨⟨⟨⟨⟨⟨⟨⟨⟨-, H17⟩, H16⟩, H15⟩, H14⟩, H13⟩, H12⟩, H11⟩, H10⟩, H9⟩, H8⟩, H7⟩, H6⟩, H5⟩, H4⟩, H3⟩, H2⟩, H1⟩, H0⟩
  isplitl [H0]; · iapply (lc_y .bar 1 c); iexact H0
  isplitl [H1]; · iapply (lc_z .zbar 1 c); iexact H1
  isplitl [H2 H3 H4 H5 H6 H7 H8 H9 H10 H11]
  · isplitl [H2]; · iapply (lc_y (.yr 0) N64 c); iexact H2
    isplitl [H3]; · iapply (lc_y (.yr 1) N64 c); iexact H3
    isplitl [H4]; · iapply (lc_y (.yr 2) N64 c); iexact H4
    isplitl [H5]; · iapply (lc_y (.yr 3) N64 c); iexact H5
    isplitl [H6]; · iapply (lc_y (.yr 4) N64 c); iexact H6
    isplitl [H7]; · iapply (lc_y (.yr 5) N64 c); iexact H7
    isplitl [H8]; · iapply (lc_y (.yr 6) N64 c); iexact H8
    isplitl [H9]; · iapply (lc_y (.yr 7) N64 c); iexact H9
    isplitl [H10]; · iapply (lc_y (.yr 8) N64 c); iexact H10
    iapply (lc_y (.yr 9) N64 c); iexact H11
  · isplitl [H12]; · iapply (lc_z (.zr 0) N64 c); iexact H12
    isplitl [H13]; · iapply (lc_z (.zr 1) N64 c); iexact H13
    isplitl [H14]; · iapply (lc_z (.zr 2) N64 c); iexact H14
    isplitl [H15]; · iapply (lc_z (.zr 3) N64 c); iexact H15
    isplitl [H16]; · iapply (lc_z (.zr 4) N64 c); iexact H16
    iapply (lc_z (.zr 5) N64 c); iexact H17

/-- info: 'Cert.Kernel.AG.mayWait_bar' depends on axioms: [propext, Classical.choice, Quot.sound] -/
#guard_msgs in #print axioms mayWait_bar

/-- info: 'Cert.Kernel.AG.mayWait_zbar' depends on axioms: [propext, Classical.choice, Quot.sound] -/
#guard_msgs in #print axioms mayWait_zbar

/-- info: 'Cert.Kernel.AG.mayWait_yr' depends on axioms: [propext, Classical.choice, Quot.sound] -/
#guard_msgs in #print axioms mayWait_yr

/-- info: 'Cert.Kernel.AG.mayWait_stage' depends on axioms: [propext, Classical.choice, Quot.sound] -/
#guard_msgs in #print axioms mayWait_stage

/-- info: 'Cert.Kernel.AG.launch_creds' depends on axioms: [propext, Classical.choice, Quot.sound] -/
#guard_msgs in #print axioms launch_creds

end Cert.Kernel.AG

end
-- ==== Proof.KernelAG.Geom.lean ====
/-
  The result buffer cut into chunks, and what lands where.

  The buffer's 2048 rows are the device's own half (rows `1024 y ..`, written by one store) and the other half. The own half is the
  ten chunks the direct copies read plus six chunks never sent; the other half is the ten chunks the y-partner's direct copies write
  plus the six the z-partner's forwarding copies write. A forwarding copy reads the rows one of the direct copies wrote.
  A copy reads and writes through ONE view (same rows on both devices), so what lands is the source's contents on those rows;
  and on those rows the two devices' final contents agree.
-/
import proofs.«900663_g7700000000000664_dist_ag_v7x_xyz2x2x2_y_m1024_n512_bf16_1_alg».proof.Proof.KernelAG.Defs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The result buffer of device `c`. -/
abbrev outLoc (c : Dev nD) : Loc nD τ sig := (c : Thread nD τ).loc cc0_stg1_0

/-- The rectangle of the store: the device's own half. -/
abbrev mineRect (c : Dev nD) : Rect S2048x512 := Rect.unit (s := S2048x512) (k0_off1 c) S1024x512.size (k0_off1_inb c)

/-- The own half's elements. -/
def mineSet (c : Dev nD) : Finset (Idx (outLoc c)) := (oM.access (mineRect c)).set

theorem uOff_inb : ∀ (c : Dev nD) (u : Fin 6), ∀ a, (![1024 * yc c + 64 * (10 * (1 - zc c) + u.val), 0] : Fin 2 → Nat) a + S64x512.size a ≤ S2048x512.size a := by
  decide +kernel

/-- The six chunks of its own half that device `c` never sends (its z-partner sends the same rows of ITS copy of the block). -/
abbrev uSl (c : Dev nD) (u : Fin 6) : Memref sig .tc .vmem S64x512 .bf16 :=
  oM.slice (Rect.unit (s := S2048x512) ![1024 * yc c + 64 * (10 * (1 - zc c) + u.val), 0] S64x512.size (uOff_inb c u)) (fun _ => rfl)

theorem six_le_ten : 6 ≤ 10 := by decide

/-! ## Which rows a piece is -/

/-- The rows `lo ≤ row < lo + len` of the result buffer, every column. -/
def outRows (c : Dev nD) (lo len : ℕ) : Finset (Idx (outLoc c)) :=
  Finset.univ.filter fun x => lo ≤ (x 0).val ∧ (x 0).val < lo + len

theorem mem_outRows (c : Dev nD) (lo len : ℕ) (x : Idx (outLoc c)) :
    x ∈ outRows c lo len ↔ lo ≤ (x 0).val ∧ (x 0).val < lo + len := by
  unfold outRows; rw [Finset.mem_filter]; exact and_iff_right (Finset.mem_univ x)

/-- A unit-stride rectangle of the result buffer that takes every column is a band of rows. -/
theorem oM_access_rows (c : Dev nD) (off sz : Fin 2 → Nat) (inb : ∀ a, off a + sz a ≤ S2048x512.size a)
    (h1 : off 1 = 0) (hs : sz 1 = 512) :
    ((oM.access (Rect.unit (s := S2048x512) off sz inb)).set : Finset (Idx (outLoc c))) = outRows c (off 0) (sz 0) := by
  ext x
  rw [mem_outRows]
  show x ∈ ((View.whole cc0_stg1_0).slice (Rect.unit (s := S2048x512) off sz inb)).set ↔ _
  rw [View.set_slice_whole, Rect.mem_set_unit]
  refine Iff.trans (Fin.forall_fin_two (p := fun a : Fin 2 => off a ≤ (x a : ℕ) ∧ (x a : ℕ) < off a + sz a)) ?_
  rw [h1, hs]
  have h512 : (x 1).val < 512 := (x 1).isLt
  constructor
  · rintro ⟨h, -⟩; exact h
  · intro h; exact ⟨h, Nat.zero_le _, by omega⟩

/-- The chunk number of direct copy `i` at z coordinate `z`. -/
def yChunkAt (z i : ℕ) : ℕ := if i < 6 then 10 * z + i else i

theorem yChunk_eq_at (c : Dev nD) (i : Fin 10) : yChunk c i = yChunkAt (zc c) i.val := rfl

/-- The own half is the rows `1024 y ..`. -/
theorem mineSet_eq (c : Dev nD) : mineSet c = outRows c (1024 * yc c) 1024 := by
  have h := oM_access_rows c (k0_off1 c) S1024x512.size (k0_off1_inb c) (by rw [k0_off1_eq]; rfl) rfl
  have e0 : k0_off1 c 0 = 1024 * yc c := by rw [k0_off1_eq]; rfl
  rw [e0] at h; exact h

/-- Direct copy `i`'s chunk is 64 rows of the sender's own half. -/
theorem ySl_set (c d : Dev nD) (i : Fin 10) :
    ((ySl d i).view.set : Finset (Idx (outLoc c))) = outRows c (1024 * yc d + 64 * yChunkAt (zc d) i.val) 64 := by
  have h := oM_access_rows c (yOff d i) S64x512.size (yOff_inb d i) (by rw [yOff_eq]; rfl) rfl
  have e0 : yOff d i 0 = 1024 * yc d + 64 * yChunkAt (zc d) i.val := by rw [yOff_eq]; rfl
  rw [e0] at h; exact h

/-- Forwarding copy `i`'s chunk is 64 rows of the sender's other half. -/
theorem zSl_set (c d : Dev nD) (i : Fin 6) :
    ((zSl d i).view.set : Finset (Idx (outLoc c))) = outRows c (1024 * (1 - yc d) + 64 * (10 * zc d + i.val)) 64 := by
  have h := oM_access_rows c (zOff d i) S64x512.size (zOff_inb d i) (by rw [zOff_eq]; rfl) rfl
  have e0 : zOff d i 0 = 1024 * (1 - yc d) + 64 * (10 * zc d + i.val) := by rw [zOff_eq]; rfl
  rw [e0] at h; exact h

/-- A chunk never sent is 64 rows of the own half. -/
theorem uSl_set (c d : Dev nD) (u : Fin 6) :
    ((uSl d u).view.set : Finset (Idx (outLoc c))) = outRows c (1024 * yc d + 64 * (10 * (1 - zc d) + u.val)) 64 :=
  oM_access_rows c _ S64x512.size (uOff_inb d u) rfl rfl

/-! ## Sixteen chunks of a half -/

theorem yChunkAt_lt (z i : ℕ) (hz : z ≤ 1) (hi : i < 10) : yChunkAt z i < 16 := by
  unfold yChunkAt; split_ifs <;> omega

theorem yChunkAt_inj (z i j : ℕ) (hz : z ≤ 1) (hi : i < 10) (hj : j < 10) (h : i ≠ j) : yChunkAt z i ≠ yChunkAt z j := by
  unfold yChunkAt; split_ifs <;> omega

theorem yChunkAt_ne_rest (z i u : ℕ) (hz : z ≤ 1) (hi : i < 10) (hu : u < 6) : yChunkAt z i ≠ 10 * (1 - z) + u := by
  unfold yChunkAt; split_ifs <;> omega

/-- Every one of the sixteen chunk numbers is a direct copy's or one of the remaining six. -/
theorem chunk_cases (z k : ℕ) (hz : z ≤ 1) (hk : k < 16) :
    (∃ i : Fin 10, yChunkAt z i.val = k) ∨ ∃ u : Fin 6, 10 * (1 - z) + u.val = k := by
  rcases Nat.eq_zero_or_pos z with h0 | h1
  · subst h0
    by_cases h : k < 10
    · exact .inl ⟨⟨k, h⟩, by show yChunkAt 0 k = k; unfold yChunkAt; split_ifs <;> omega⟩
    · exact .inr ⟨⟨k - 10, by omega⟩, by show 10 * (1 - 0) + (k - 10) = k; omega⟩
  · have h1 : z = 1 := by omega
    subst h1
    by_cases h : k < 6
    · exact .inr ⟨⟨k, h⟩, by show 10 * (1 - 1) + k = k; omega⟩
    · by_cases h' : k < 10
      · exact .inl ⟨⟨k, h'⟩, by show yChunkAt 1 k = k; unfold yChunkAt; split_ifs <;> omega⟩
      · exact .inl ⟨⟨k - 10, by omega⟩, by show yChunkAt 1 (k - 10) = k; unfold yChunkAt; split_ifs <;> omega⟩

theorem outRows_disjoint (c : Dev nD) (lo len lo' len' : ℕ) (h : lo + len ≤ lo' ∨ lo' + len' ≤ lo) :
    Disjoint (outRows c lo len) (outRows c lo' len') := by
  rw [Finset.disjoint_left]
  intro x hx hx'
  rw [mem_outRows] at hx hx'
  omega

omit [FloatOps F] in
/-- A half of the buffer is its sixteen chunks: the ten direct copies' and the remaining six. -/
theorem half_split (c : Dev nD) (lo z : ℕ) (hz : z ≤ 1) (f : Buf (Elt F) (outLoc c)) :
    (outLoc c ↦[outRows c lo 1024]{fullShare} f : sProp 𝕄)
      = iprop((bigSep Finset.univ fun i : Fin 10 => outLoc c ↦[outRows c (lo + 64 * yChunkAt z i.val) 64]{fullShare} f)
        ∗ (bigSep Finset.univ fun u : Fin 6 => outLoc c ↦[outRows c (lo + 64 * (10 * (1 - z) + u.val)) 64]{fullShare} f)) := by
  have hset : outRows c lo 1024
      = (Finset.univ.biUnion fun i : Fin 10 => outRows c (lo + 64 * yChunkAt z i.val) 64)
        ∪ (Finset.univ.biUnion fun u : Fin 6 => outRows c (lo + 64 * (10 * (1 - z) + u.val)) 64) := by
    ext x
    simp only [Finset.mem_union, Finset.mem_biUnion, Finset.mem_univ, true_and, mem_outRows]
    constructor
    · rintro ⟨h1, h2⟩
      rcases chunk_cases z (((x 0).val - lo) / 64) hz (by omega) with ⟨i, hi⟩ | ⟨u, hu⟩
      · exact .inl ⟨i, by omega⟩
      · exact .inr ⟨u, by omega⟩
    · rintro (⟨i, h1, h2⟩ | ⟨u, h1, h2⟩)
      · have := yChunkAt_lt z i.val hz i.isLt; omega
      · have := u.isLt; omega
  have hd : Disjoint (Finset.univ.biUnion fun i : Fin 10 => outRows c (lo + 64 * yChunkAt z i.val) 64)
      (Finset.univ.biUnion fun u : Fin 6 => outRows c (lo + 64 * (10 * (1 - z) + u.val)) 64) := by
    rw [Finset.disjoint_biUnion_left]; intro i _
    rw [Finset.disjoint_biUnion_right]; intro u _
    apply outRows_disjoint
    have := yChunkAt_ne_rest z i.val u.val hz i.isLt u.isLt; omega
  have hu : (outLoc c ↦[(Finset.univ.biUnion fun i : Fin 10 => outRows c (lo + 64 * yChunkAt z i.val) 64)
        ∪ (Finset.univ.biUnion fun u : Fin 6 => outRows c (lo + 64 * (10 * (1 - z) + u.val)) 64)]{fullShare} f : sProp 𝕄)
      ⊣⊢ iprop((outLoc c ↦[Finset.univ.biUnion fun i : Fin 10 => outRows c (lo + 64 * yChunkAt z i.val) 64]{fullShare} f)
        ∗ outLoc c ↦[Finset.univ.biUnion fun u : Fin 6 => outRows c (lo + 64 * (10 * (1 - z) + u.val)) 64]{fullShare} f) :=
    pointsTo_union hd
  rw [hset, BI.equiv_iff.mp ⟨hu.1, hu.2⟩,
    pointsTo_biUnion _ _ (fun i _ j _ hij => outRows_disjoint c _ _ _ _ (by
      have := yChunkAt_inj z i.val j.val hz i.isLt j.isLt (fun e => hij (Fin.ext e)); omega)),
    pointsTo_biUnion _ _ (fun u _ v _ huv => outRows_disjoint c _ _ _ _ (by
      have : u.val ≠ v.val := fun e => huv (Fin.ext e); omega))]

/-! ## Cutting and joining -/

omit [FloatOps F] in
/-- A direct copy's chunk held whole, as a band of rows. -/
theorem chunkPts_ySl (c d : Dev nD) (i : Fin 10) (f : Buf (Elt F) (outLoc c)) :
    chunkPts (F := F) c (ySl d i) f
      = (outLoc c ↦[outRows c (1024 * yc d + 64 * yChunkAt (zc d) i.val) 64]{fullShare} f : sProp 𝕄) := by
  unfold chunkPts; rw [ySl_set c d i]

omit [FloatOps F] in
/-- A forwarding copy's chunk held whole, as a band of rows. -/
theorem chunkPts_zSl (c d : Dev nD) (i : Fin 6) (f : Buf (Elt F) (outLoc c)) :
    chunkPts (F := F) c (zSl d i) f
      = (outLoc c ↦[outRows c (1024 * (1 - yc d) + 64 * (10 * zc d + i.val)) 64]{fullShare} f : sProp 𝕄) := by
  unfold chunkPts; rw [zSl_set c d i]

omit [FloatOps F] in
/-- A chunk never sent held whole, as a band of rows. -/
theorem chunkPts_uSl (c d : Dev nD) (u : Fin 6) (f : Buf (Elt F) (outLoc c)) :
    chunkPts (F := F) c (uSl d u) f
      = (outLoc c ↦[outRows c (1024 * yc d + 64 * (10 * (1 - zc d) + u.val)) 64]{fullShare} f : sProp 𝕄) := by
  unfold chunkPts; rw [uSl_set c d u]

omit [FloatOps F] in
/-- The own half is the ten chunks sent directly and the six never sent. -/
theorem mine_split (c : Dev nD) (f : Buf (Elt F) (outLoc c)) :
    (outLoc c ↦[mineSet c]{fullShare} f : sProp 𝕄) ⊣⊢ iprop((bigSep Finset.univ fun i : Fin 10 => chunkPts c (ySl c i) f)
      ∗ (bigSep Finset.univ fun u : Fin 6 => chunkPts c (uSl c u) f)) := by
  refine BiEntails.of_eq ?_
  simp only [chunkPts_ySl, chunkPts_uSl]
  rw [mineSet_eq]
  exact half_split c (1024 * yc c) (zc c) (zc_le c) f

omit [FloatOps F] in
/-- The whole buffer is its own half, the ten direct landings and the six forwarded landings. -/
theorem whole_split (c : Dev nD) (f : Buf (Elt F) (outLoc c)) :
    (outLoc c ↦{fullShare} f : sProp 𝕄) ⊣⊢ iprop((outLoc c ↦[mineSet c]{fullShare} f)
      ∗ (bigSep Finset.univ fun i : Fin 10 => chunkPts c (ySl (ynb c) i) f)
      ∗ (bigSep Finset.univ fun u : Fin 6 => chunkPts c (zSl (znb c) u) f)) := by
  refine BiEntails.of_eq ?_
  simp only [chunkPts_ySl, chunkPts_zSl, yc_ynb, zc_ynb, yc_znb, zc_znb]
  rw [← half_split c (1024 * (1 - yc c)) (zc c) (zc_le c) f, mineSet_eq]
  have hy := yc_le c
  have hd : Disjoint (outRows c (1024 * yc c) 1024) (outRows c (1024 * (1 - yc c)) 1024) :=
    outRows_disjoint c _ _ _ _ (by omega)
  have hset : (Finset.univ : Finset (Idx (outLoc c))) = outRows c (1024 * yc c) 1024 ∪ outRows c (1024 * (1 - yc c)) 1024 := by
    ext x
    have h2048 : (x 0).val < 2048 := (x 0).isLt
    simp only [Finset.mem_univ, Finset.mem_union, mem_outRows, true_iff]
    omega
  have hu : (outLoc c ↦[outRows c (1024 * yc c) 1024 ∪ outRows c (1024 * (1 - yc c)) 1024]{fullShare} f : sProp 𝕄)
      ⊣⊢ iprop((outLoc c ↦[outRows c (1024 * yc c) 1024]{fullShare} f)
        ∗ outLoc c ↦[outRows c (1024 * (1 - yc c)) 1024]{fullShare} f) := pointsTo_union hd
  rw [← BI.equiv_iff.mp ⟨hu.1, hu.2⟩, ← hset]

omit [FloatOps F] in
/-- Forwarding copy `i` reads the rows direct copy `i` of the y-partner wrote. -/
theorem zsrc_eq (c : Dev nD) (i : Fin 6) (f : Buf (Elt F) (outLoc c)) :
    (chunkPts (F := F) c (zSl c i) f) = chunkPts c (ySl (ynb c) (Fin.castLE six_le_ten i)) f := by
  rw [chunkPts_ySl, chunkPts_zSl, yc_ynb, zc_ynb]
  have e : yChunkAt (zc c) (Fin.castLE six_le_ten i).val = 10 * zc c + i.val := by
    show yChunkAt (zc c) i.val = _
    unfold yChunkAt; rw [if_pos i.isLt]
  rw [e]

/-- info: 'Cert.Kernel.AG.whole_split' depends on axioms: [propext, Classical.choice, Quot.sound] -/
#guard_msgs in #print axioms whole_split

/-- info: 'Cert.Kernel.AG.mine_split' depends on axioms: [propext, Classical.choice, Quot.sound] -/
#guard_msgs in #print axioms mine_split

/-- info: 'Cert.Kernel.AG.zsrc_eq' depends on axioms: [propext, Classical.choice, Quot.sound] -/
#guard_msgs in #print axioms zsrc_eq

end Cert.Kernel.AG

end
-- ==== Proof.KernelAG.Land.lean ====
/-
  What the store and the copies leave: the own half at its final contents after the store; and what a copy lands on the partner
  is, on the rows it carries, the partner's final contents (a copy reads and writes through one view, and on those rows the two
  devices' final contents are the same block of the same device).
-/
import proofs.«900663_g7700000000000664_dist_ag_v7x_xyz2x2x2_y_m1024_n512_bf16_1_alg».proof.Proof.KernelAG.Geom

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The store leaves the own half at its final contents. -/
theorem stored_eq_fin (c : Dev nD) (f0 : Buf (Elt F) (outLoc c)) :
    ∀ i ∈ mineSet c, ((oM.access (mineRect c)).write (Elt F) f0 (X m ρ c) Finset.univ) i = fin m ρ c i := by
  intro i hi
  obtain ⟨y, rfl⟩ := View.exists_emb_of_mem_set (oM.access (mineRect c)) hi
  rw [View.write_emb_of_mem _ _ (Finset.mem_univ y)]
  have hy0 : (y 0).val < 1024 := (y 0).isLt
  have hy1 : (y 1).val < 512 := (y 1).isLt
  have e0 : (((oM.access (mineRect c)).emb y) 0).val = 1024 * yc c + (y 0).val := by
    show k0_off1 c 0 + 1 * (y 0).val = _
    rw [k0_off1_eq]; simp [yc]
  have e1 : (((oM.access (mineRect c)).emb y) 1).val = (y 1).val := by
    show k0_off1 c 1 + 1 * (y 1).val = _
    rw [k0_off1_eq]; simp
  have hd : (((oM.access (mineRect c)).emb y) 0).val / 1024 = yc c := by rw [e0]; omega
  rw [cast_eq]; unfold fin; beta_reduce
  rw [if_pos hd]
  refine congrArg (X m ρ c) ((eq_ix2 y).trans ?_)
  exact congrArg₂ ix2 (Fin.ext (by simp only [e0]; omega)) (Fin.ext (by simp only [e1]))

/-! ## What a copy through one view leaves, and the final contents by halves -/

omit [FloatOps F] in
/-- Writing, through a view, what was read through the same view leaves on the view's elements the contents read. -/
private theorem write_read_of_mem {κ : Kind} {sp : Space} {s : Shape} {e : EltTy} (v : View sig κ sp s e)
    (fd fs : v.ty.Contents (Elt F)) :
    ∀ x ∈ v.set, (v.write (Elt F) fd (v.read (Elt F) fs) Finset.univ) x = fs x := by
  intro x hx
  obtain ⟨y, rfl⟩ := View.exists_emb_of_mem_set v hx
  rw [View.write_emb_of_mem _ _ (Finset.mem_univ y), View.read_apply, cast_cast, cast_eq]

/-- On a row of its own half a device's final contents are its own block. -/
private theorem fin_own (c : Dev nD) (x : (cc0_stg1_0 : Ref sig .tc).ty.Idx) (h : (x 0).val / 1024 = yc c) :
    fin m ρ c x = X m ρ c (ix2 (⟨(x 0).val % 1024, Nat.mod_lt _ (by decide)⟩ : Fin 1024) (⟨(x 1).val, (x 1).isLt⟩ : Fin 512)) := by
  unfold fin; exact if_pos h

/-- On a row of the other half they are the block of the device that supplied the row's chunk. -/
private theorem fin_other (c : Dev nD) (x : (cc0_stg1_0 : Ref sig .tc).ty.Idx) (h : (x 0).val / 1024 ≠ yc c) :
    fin m ρ c x = X m ρ (srcDev c ((x 0).val % 1024 / 64))
      (ix2 (⟨(x 0).val % 1024, Nat.mod_lt _ (by decide)⟩ : Fin 1024) (⟨(x 1).val, (x 1).isLt⟩ : Fin 512)) := by
  unfold fin; exact if_neg h

/-- On the rows direct copy `i` carries, the sender's final contents and its y-partner's agree: the rows are chunk
    `yChunk c i` of the sender's own half, which the y-partner receives directly from the sender. -/
private theorem fin_agree_y (c : Dev nD) (i : Fin 10) :
    ∀ x ∈ (ySl c i).view.set, fin m ρ c x = fin m ρ (ynb c) x := by
  intro x hx
  obtain ⟨y, rfl⟩ := View.exists_emb_of_mem_set (ySl c i).view hx
  have hy0 : (y 0).val < 64 := (y 0).isLt
  have e0 : (((ySl c i).view.emb y) 0).val = 1024 * yc c + 64 * yChunk c i + (y 0).val := by
    show yOff c i 0 + 1 * (y 0).val = _
    rw [yOff_eq]; simp
  have hz := zc_le c
  have hyc := yc_le c
  have hch : yChunk c i ≤ 15 ∧ (6 * zc c ≤ yChunk c i ∧ yChunk c i < 10 + 6 * zc c) := by
    have := i.isLt
    unfold yChunk; split <;> omega
  have hj : (((ySl c i).view.emb y) 0).val % 1024 / 64 = yChunk c i := by rw [e0]; omega
  have hs : srcDev (ynb c) ((((ySl c i).view.emb y) 0).val % 1024 / 64) = c := by
    rw [hj]; unfold srcDev; rw [zc_ynb, if_pos hch.2, ynb_ynb]
  rw [fin_own m ρ c _ (by rw [e0]; omega), fin_other m ρ (ynb c) _ (by rw [e0, yc_ynb]; omega), hs]

/-- On the rows forwarding copy `i` carries, the sender's final contents and its z-partner's agree: the rows are chunk
    `10 z + i` of the half that is neither's own; the sender received it directly from its y-partner, and its z-partner
    does not receive that chunk directly, so it holds the block of the same device. -/
private theorem fin_agree_z (c : Dev nD) (i : Fin 6) :
    ∀ x ∈ (zSl c i).view.set, fin m ρ c x = fin m ρ (znb c) x := by
  intro x hx
  obtain ⟨y, rfl⟩ := View.exists_emb_of_mem_set (zSl c i).view hx
  have hy0 : (y 0).val < 64 := (y 0).isLt
  have e0 : (((zSl c i).view.emb y) 0).val = 1024 * (1 - yc c) + 64 * (10 * zc c + i.val) + (y 0).val := by
    show zOff c i 0 + 1 * (y 0).val = _
    rw [zOff_eq]; simp
  have hz := zc_le c
  have hyc := yc_le c
  have hi := i.isLt
  have hj : (((zSl c i).view.emb y) 0).val % 1024 / 64 = 10 * zc c + i.val := by rw [e0]; omega
  have hs : srcDev c ((((zSl c i).view.emb y) 0).val % 1024 / 64) = ynb c := by
    rw [hj]; unfold srcDev; rw [if_pos (by omega)]
  have hs' : srcDev (znb c) ((((zSl c i).view.emb y) 0).val % 1024 / 64) = ynb c := by
    rw [hj]; unfold srcDev; rw [zc_znb, if_neg (by omega), znb_znb]
  rw [fin_other m ρ c _ (by rw [e0]; omega), fin_other m ρ (znb c) _ (by rw [e0, yc_znb]; omega), hs, hs']

/-! ## Landings -/

/-- Direct copy `i` of device `c` lands, on `ynb c`, that device's final contents of those rows. -/
theorem land_y (c : Dev nD) (i : Fin 10) (fd : Buf (Elt F) ((ySl c i).view.loc (ynb c : Thread nD τ))) :
    ((ySl c i).view.loc (ynb c : Thread nD τ) ↦[(ySl c i).view.set]{fullShare}
        ((ySl c i).view.write (Elt F) fd ((ySl c i).view.read (Elt F) (fin m ρ c)) Finset.univ) : sProp 𝕄)
      ⊢ pay m ρ (ynb c) (.yr i) := by
  show _ ⊢ chunkPts (ynb c) (ySl (ynb (ynb c)) i) (fin m ρ (ynb c))
  rw [ynb_ynb]; unfold chunkPts
  exact Entails.of_eq (pointsTo_congr fun x hx =>
    (write_read_of_mem (ySl c i).view fd (fin m ρ c) x hx).trans (fin_agree_y m ρ c i x hx))

/-- Forwarding copy `i` of device `c` lands, on `znb c`, that device's final contents of those rows. -/
theorem land_z (c : Dev nD) (i : Fin 6) (fd : Buf (Elt F) ((zSl c i).view.loc (znb c : Thread nD τ))) :
    ((zSl c i).view.loc (znb c : Thread nD τ) ↦[(zSl c i).view.set]{fullShare}
        ((zSl c i).view.write (Elt F) fd ((zSl c i).view.read (Elt F) (fin m ρ c)) Finset.univ) : sProp 𝕄)
      ⊢ pay m ρ (znb c) (.zr i) := by
  show _ ⊢ chunkPts (znb c) (zSl (znb (znb c)) i) (fin m ρ (znb c))
  rw [znb_znb]; unfold chunkPts
  exact Entails.of_eq (pointsTo_congr fun x hx =>
    (write_read_of_mem (zSl c i).view fd (fin m ρ c) x hx).trans (fin_agree_z m ρ c i x hx))

/-- info: 'Cert.Kernel.AG.stored_eq_fin' depends on axioms: [propext, Classical.choice, Quot.sound] -/
#guard_msgs in #print axioms stored_eq_fin

/-- info: 'Cert.Kernel.AG.land_y' depends on axioms: [propext, Classical.choice, Quot.sound] -/
#guard_msgs in #print axioms land_y

/-- info: 'Cert.Kernel.AG.land_z' depends on axioms: [propext, Classical.choice, Quot.sound] -/
#guard_msgs in #print axioms land_z

end Cert.Kernel.AG

end
-- ==== Proof.KernelAG.Steps.lean ====
/-
  The protocol's steps as rules at this schedule: the two entry signals, a direct and a forwarding copy, a wait on one of the
  device's cells, and closing a cell. Each is the rounds library's rule at the protocol's cells with the table's facts filled in.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Land

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ)

theorem inv_at (ck : Dev nD × CK) : records m ρ K ⊢ cellInv ER (Rd m ρ) (K ck) (cell ck.1 ck.2) := by
  unfold records
  exact (Idealize.SL.BI.sep_and.trans Idealize.SL.BI.and_elimL).trans
    (bigSep_elim (Finset.mem_univ ck) (Φ := fun ck : Dev nD × CK => cellInv ER (Rd m ρ) (K ck) (cell ck.1 ck.2)))
theorem reached_at (ck : Dev nD × CK) : records m ρ K ⊢ reached ER (cell ck.1 ck.2) 0 := by
  unfold records
  exact (Idealize.SL.BI.sep_and.trans Idealize.SL.BI.and_elimR).trans
    (bigSep_elim (Finset.mem_univ ck) (Φ := fun ck : Dev nD × CK => (reached ER (cell ck.1 ck.2) 0 : sProp 𝕄)))

/-- The two records of one cell, device and kind apart. -/
private theorem inv_cell (c : Dev nD) (kd : CK) : records m ρ K ⊢ cellInv ER (Rd m ρ) (K (c, kd)) (cell c kd) :=
  inv_at m ρ K (c, kd)
private theorem reached_cell (c : Dev nD) (kd : CK) : records m ρ K ⊢ reached ER (cell c kd) 0 :=
  reached_at m ρ K (c, kd)

/-- A protocol cell's one duty is a duty of its round 0. -/
private theorem mem_duties (c : Dev nD) (kd : CK) : () ∈ (Rd (F := F) m ρ).duties (cell c kd) 0 := by
  rw [duties_cell]; exact Finset.mem_singleton_self _

/-- The signal to the y-partner's barrier cell (addressed to `n = ynb c`): it hands over the ten chunks of `c`'s buffer the partner
    will write. -/
theorem wp_sig_bar (c n : Dev nD) (hn : n = ynb c) {α : Type} {Q : α → sProp 𝕄} {k : PUnit → Prog (TpuEff nD τ sig (Elt F) Λ₀ .tc) α}
    (O : CellTallies nD τ sig Unit) (W : Waits sig Unit) :
    iprop(records m ρ K ∗ owes (c : Thread nD τ) (O + tallyAt (cell (ynb c) .bar) () 1) W
        ∗ dutyTok ER (cell (ynb c) .bar) 0 () ∗ pay m ρ (ynb c) .bar)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  have hpay : pay m ρ (ynb c) .bar ⊢ (Rd m ρ).payload ((ynb c : Thread nD τ), SemLoc.reg barS) 0 () :=
    Entails.of_eq (payload_cell m ρ (ynb c) .bar ()).symm
  iintro ⟨#HR, HO, Htok, Hpay⟩
  ihave #Hi := (inv_cell m ρ K (ynb c) .bar) $$ HR
  ihave #Hr := (reached_cell m ρ K (ynb c) .bar) $$ HR
  iapply (Rounds.wp_signal 𝒱₀ ER (Rd m ρ) (c : Thread nD τ) none (dst := (ynb c : Thread nD τ)) (sem := barS) (r := 0) (d := ()) (k' := 1)
    (κ := K (ynb c, .bar)) (mem_duties m ρ (ynb c) .bar) (amount_cell m ρ (ynb c) .bar ()) () O rfl (W := W))
  isplitr; · iexact Hi
  isplitl [HO]; · iexact HO
  isplitl [Htok]; · iexact Htok
  isplitl [Hpay]; · iapply hpay; iexact Hpay
  iexact Hr

/-- The signal to the z-partner's z-ready cell: it hands over the six chunks of `c`'s buffer that partner will write. -/
theorem wp_sig_zbar (c n : Dev nD) (hn : n = znb c) {α : Type} {Q : α → sProp 𝕄} {k : PUnit → Prog (TpuEff nD τ sig (Elt F) Λ₀ .tc) α}
    (O : CellTallies nD τ sig Unit) (W : Waits sig Unit) :
    iprop(records m ρ K ∗ owes (c : Thread nD τ) (O + tallyAt (cell (znb c) .zbar) () 1) W
        ∗ dutyTok ER (cell (znb c) .zbar) 0 () ∗ pay m ρ (znb c) .zbar)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) zbarS 1) k) Q) := by
  subst hn
  have hpay : pay m ρ (znb c) .zbar ⊢ (Rd m ρ).payload ((znb c : Thread nD τ), SemLoc.reg zbarS) 0 () :=
    Entails.of_eq (payload_cell m ρ (znb c) .zbar ()).symm
  iintro ⟨#HR, HO, Htok, Hpay⟩
  ihave #Hi := (inv_cell m ρ K (znb c) .zbar) $$ HR
  ihave #Hr := (reached_cell m ρ K (znb c) .zbar) $$ HR
  iapply (Rounds.wp_signal 𝒱₀ ER (Rd m ρ) (c : Thread nD τ) none (dst := (znb c : Thread nD τ)) (sem := zbarS) (r := 0) (d := ()) (k' := 1)
    (κ := K (znb c, .zbar)) (mem_duties m ρ (znb c) .zbar) (amount_cell m ρ (znb c) .zbar ()) () O rfl (W := W))
  isplitr; · iexact Hi
  isplitl [HO]; · iexact HO
  isplitl [Htok]; · iexact Htok
  isplitl [Hpay]; · iapply hpay; iexact Hpay
  iexact Hr

/-- Direct copy `i` (addressed to `n = ynb c`): the source chunk at its final contents, the partner's landing chunk at any. -/
theorem wp_ysend (c n : Dev nD) (hn : n = ynb c) (i : Fin 10)
    {hsc : (ySl c i : Memref sig (Dev.tc n : Thread nD τ).2.kind .vmem S64x512 .bf16).view.ref.isScScratch = false}
    {hsrc : (ySl c i).view.WordExact} {hdst : (ySl c i).view.WordExact}
    {hsem : DmaTarget.Typed .vmem (.dma (yrS i)) (.remote (Dev.tc n : Thread nD τ) (ySl c i) (.dma (ysS i)) hsc)}
    {α : Type} {Q : α → sProp 𝕄} {k : PUnit → Prog (TpuEff nD τ sig (Elt F) Λ₀ .tc) α}
    (fd : Buf (Elt F) ((ySl c i).view.loc (ynb c : Thread nD τ))) (O : CellTallies nD τ sig Unit) (W : Waits sig Unit) :
    iprop(records m ρ K ∗ chunkPts c (ySl c i) (fin m ρ c) ∗ chunkPts (ynb c) (ySl c i) fd
        ∗ owes (c : Thread nD τ) (O + tallyAt (cell (ynb c) (.yr i)) () N64) W
        ∗ dutyTok ER (cell c (.ys i)) 0 () ∗ dutyTok ER (cell (ynb c) (.yr i)) 0 ())
      ⊢ iprop(((cred (tallyAt (cell c (.ys i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ySl c i) (.remote (Dev.tc n : Thread nD τ) (ySl c i) (.dma (ysS i)) hsc) (.dma (yrS i)) hsrc hdst hsem) k) Q) := by
  subst hn
  have hpay₁ : ((ySl c i).view.loc (c : Thread nD τ) ↦[(ySl c i).view.set]{fullShare} (fin m ρ c) : sProp 𝕄)
      ⊢ (Rd m ρ).payload (cell c (.ys i)) 0 () := by
    rw [payload_cell]; exact Entails.refl _
  have hpay₂ : ((ySl c i).view.loc (ynb c : Thread nD τ) ↦[(ySl c i).view.set]{fullShare}
        ((ySl c i).view.write (Elt F) fd ((ySl c i).view.read (Elt F) (fin m ρ c)) Finset.univ) : sProp 𝕄)
      ⊢ (Rd m ρ).payload (cell (ynb c) (.yr i)) 0 () := by
    rw [payload_cell]; exact land_y m ρ c i fd
  unfold chunkPts
  iintro ⟨#HR, Hsrc, Hdst, HO, Htok₁, Htok₂⟩
  ihave #Hi₁ := (inv_cell m ρ K c (.ys i)) $$ HR
  ihave #Hi₂ := (inv_cell m ρ K (ynb c) (.yr i)) $$ HR
  ihave #Hr₁ := (reached_cell m ρ K c (.ys i)) $$ HR
  ihave #Hr₂ := (reached_cell m ρ K (ynb c) (.yr i)) $$ HR
  iapply (Rounds.wp_send_pointsTo 𝒱₀ ER (Rd m ρ) (c : Thread nD τ) none (c' := (ynb c : Thread nD τ)) (src := ySl c i) (dst := ySl c i)
    (sS := .dma (ysS i)) (sem := .dma (yrS i)) (q := fullShare) (fs := fin m ρ c) (fd := fd)
    (κ₁ := K (c, .ys i)) (κ₂ := K (ynb c, .yr i)) (r₁ := 0) (r₂ := 0) (d₁ := ()) (d₂ := ())
    (mem_duties m ρ c (.ys i)) (mem_duties m ρ (ynb c) (.yr i)) () () N64 rfl
    (amount_cell m ρ c (.ys i) ()) (amount_cell m ρ (ynb c) (.yr i) ()) O rfl (W := W) hpay₁ hpay₂)
  isplitr; · iexact Hi₁
  isplitr; · iexact Hi₂
  isplitl [Hsrc]; · iexact Hsrc
  isplitl [Hdst]; · iexact Hdst
  isplitl [HO]; · iexact HO
  isplitl [Htok₁]; · iexact Htok₁
  isplitr; · iexact Hr₁
  isplitl [Htok₂]; · iexact Htok₂
  iexact Hr₂

/-- Forwarding copy `i` (addressed to `n = znb c`). -/
theorem wp_zsend (c n : Dev nD) (hn : n = znb c) (i : Fin 6)
    {hsc : (zSl c i : Memref sig (Dev.tc n : Thread nD τ).2.kind .vmem S64x512 .bf16).view.ref.isScScratch = false}
    {hsrc : (zSl c i).view.WordExact} {hdst : (zSl c i).view.WordExact}
    {hsem : DmaTarget.Typed .vmem (.dma (zrS i)) (.remote (Dev.tc n : Thread nD τ) (zSl c i) (.dma (zsS i)) hsc)}
    {α : Type} {Q : α → sProp 𝕄} {k : PUnit → Prog (TpuEff nD τ sig (Elt F) Λ₀ .tc) α}
    (fd : Buf (Elt F) ((zSl c i).view.loc (znb c : Thread nD τ))) (O : CellTallies nD τ sig Unit) (W : Waits sig Unit) :
    iprop(records m ρ K ∗ chunkPts c (zSl c i) (fin m ρ c) ∗ chunkPts (znb c) (zSl c i) fd
        ∗ owes (c : Thread nD τ) (O + tallyAt (cell (znb c) (.zr i)) () N64) W
        ∗ dutyTok ER (cell c (.zs i)) 0 () ∗ dutyTok ER (cell (znb c) (.zr i)) 0 ())
      ⊢ iprop(((cred (tallyAt (cell c (.zs i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (zSl c i) (.remote (Dev.tc n : Thread nD τ) (zSl c i) (.dma (zsS i)) hsc) (.dma (zrS i)) hsrc hdst hsem) k) Q) := by
  subst hn
  have hpay₁ : ((zSl c i).view.loc (c : Thread nD τ) ↦[(zSl c i).view.set]{fullShare} (fin m ρ c) : sProp 𝕄)
      ⊢ (Rd m ρ).payload (cell c (.zs i)) 0 () := by
    rw [payload_cell]; exact Entails.refl _
  have hpay₂ : ((zSl c i).view.loc (znb c : Thread nD τ) ↦[(zSl c i).view.set]{fullShare}
        ((zSl c i).view.write (Elt F) fd ((zSl c i).view.read (Elt F) (fin m ρ c)) Finset.univ) : sProp 𝕄)
      ⊢ (Rd m ρ).payload (cell (znb c) (.zr i)) 0 () := by
    rw [payload_cell]; exact land_z m ρ c i fd
  unfold chunkPts
  iintro ⟨#HR, Hsrc, Hdst, HO, Htok₁, Htok₂⟩
  ihave #Hi₁ := (inv_cell m ρ K c (.zs i)) $$ HR
  ihave #Hi₂ := (inv_cell m ρ K (znb c) (.zr i)) $$ HR
  ihave #Hr₁ := (reached_cell m ρ K c (.zs i)) $$ HR
  ihave #Hr₂ := (reached_cell m ρ K (znb c) (.zr i)) $$ HR
  iapply (Rounds.wp_send_pointsTo 𝒱₀ ER (Rd m ρ) (c : Thread nD τ) none (c' := (znb c : Thread nD τ)) (src := zSl c i) (dst := zSl c i)
    (sS := .dma (zsS i)) (sem := .dma (zrS i)) (q := fullShare) (fs := fin m ρ c) (fd := fd)
    (κ₁ := K (c, .zs i)) (κ₂ := K (znb c, .zr i)) (r₁ := 0) (r₂ := 0) (d₁ := ()) (d₂ := ())
    (mem_duties m ρ c (.zs i)) (mem_duties m ρ (znb c) (.zr i)) () () N64 rfl
    (amount_cell m ρ c (.zs i) ()) (amount_cell m ρ (znb c) (.zr i) ()) O rfl (W := W) hpay₁ hpay₂)
  isplitr; · iexact Hi₁
  isplitr; · iexact Hi₂
  isplitl [Hsrc]; · iexact Hsrc
  isplitl [Hdst]; · iexact Hdst
  isplitl [HO]; · iexact HO
  isplitl [Htok₁]; · iexact Htok₁
  isplitr; · iexact Hr₁
  isplitl [Htok₂]; · iexact Htok₂
  iexact Hr₂

/-- A wait for the whole round of one of the device's own cells: the owner comes back at round 1 with the cell's payload. -/
theorem wp_wait_cell (c : Dev nD) (kd : CK) {w : TpuEff nD τ sig (Elt F) Λ₀ .tc PUnit}
    (hw : ∀ Kp : PUnit → sProp 𝕄, wpE (defs₀ (F := F)) 𝒱₀ (c : Thread nD τ) none Set.univ w Kp = waitSpec (c : Thread nD τ) Set.univ kd.sem (amt kd) Kp)
    {α : Type} {Q : α → sProp 𝕄} {k : PUnit → Prog (TpuEff nD τ sig (Elt F) Λ₀ .tc) α}
    (O : CellTallies nD τ sig Unit) (W : Waits sig Unit) :
    iprop(records m ρ K ∗ cred (tallyAt (cell c kd) () (amt kd)) ∗ owes (c : Thread nD τ) O W ∗ MayWait (c : Thread nD τ) kd.sem () O
        ∗ atPos ER (cell c kd) 0 ∅ 0)
      ⊢ iprop(((owes (c : Thread nD τ) O (insert (kd.sem, ()) W) ∗ atPos ER (cell c kd) 1 ∅ 0 ∗ pay m ρ c kd)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hk : 0 + amt kd = (Rd m ρ).expect (cell c kd) 0 := by rw [Nat.zero_add, expect_cell]
  iintro ⟨#HR, Hc, HO, Hmw, Hat⟩ Hk
  ihave #Hi := (inv_cell m ρ K c kd) $$ HR
  iapply (Rounds.wp_wait_rest_token 𝒱₀ ER (Rd m ρ) (c : Thread nD τ) none (sm := kd.sem) (k' := amt kd) (κ := K (c, kd))
    hw (Set.mem_univ _) () (O := O) (W := W) (R := 0) (m := 0) (T := ∅) hk) $$ [Hc HO Hmw Hat]
  · isplitr; · iexact Hi
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_cell m ρ c kd))
  iexact Hpay

/-- A waited cell closes: its counter at zero is the device's again. -/
theorem close_cell (c : Dev nD) (kd : CK) :
    iprop(records m ρ K ∗ atPos ER (cell c kd) 1 ∅ 0) ⊢ iprop(|={Set.univ}=> semVal (cell c kd) 0) := by
  iintro ⟨#HR, Hat⟩
  ihave #Hi := (inv_cell m ρ K c kd) $$ HR
  iapply (Rounds.cell_close ER (Rd m ρ) (κ := K (c, kd)) (g := cell c kd) (Set.mem_univ _) (fun h => h) (R := 1)
    (fun r hr => duties_later m ρ (cell c kd) r hr))
  isplitr; · iexact Hi
  iexact Hat

end Steps

/-- info: 'Cert.Kernel.AG.inv_at' depends on axioms: [propext, Classical.choice, Quot.sound] -/
#guard_msgs in #print axioms inv_at

/-- info: 'Cert.Kernel.AG.reached_at' depends on axioms: [propext, Classical.choice, Quot.sound] -/
#guard_msgs in #print axioms reached_at

/-- info: 'Cert.Kernel.AG.wp_sig_bar' depends on axioms: [propext, Classical.choice, Quot.sound] -/
#guard_msgs in #print axioms wp_sig_bar

/-- info: 'Cert.Kernel.AG.wp_sig_zbar' depends on axioms: [propext, Classical.choice, Quot.sound] -/
#guard_msgs in #print axioms wp_sig_zbar

/-- info: 'Cert.Kernel.AG.wp_ysend' depends on axioms: [propext, Classical.choice, Quot.sound] -/
#guard_msgs in #print axioms wp_ysend

/-- info: 'Cert.Kernel.AG.wp_zsend' depends on axioms: [propext, Classical.choice, Quot.sound] -/
#guard_msgs in #print axioms wp_zsend

/-- info: 'Cert.Kernel.AG.wp_wait_cell' depends on axioms: [propext, Classical.choice, Quot.sound] -/
#guard_msgs in #print axioms wp_wait_cell

/-- info: 'Cert.Kernel.AG.close_cell' depends on axioms: [propext, Classical.choice, Quot.sound] -/
#guard_msgs in #print axioms close_cell

end Cert.Kernel.AG

end
-- ==== Proof.KernelAG.BodyAux.lean ====
/-
  Small facts the body's proof uses: a family over ten, six or all of a device's cells written out one by one; that the chunks a
  device hands its partners at entry are what the partners' entry cells pay; the whole-block load.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Geom

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  exact bigSep_univ_eq_bigSepL ([0, 1, 2, 3, 4, 5, 6, 7, 8, 9] : List (Fin 10)) (by decide) (by decide) Φ
omit [FloatOps F] in
theorem fin6 (Φ : Fin 6 → sProp 𝕄) : bigSep Finset.univ Φ = iprop(Φ 0 ∗ Φ 1 ∗ Φ 2 ∗ Φ 3 ∗ Φ 4 ∗ Φ 5) := by
  exact bigSep_univ_eq_bigSepL ([0, 1, 2, 3, 4, 5] : List (Fin 6)) (by decide) (by decide) Φ
omit [FloatOps F] in
/-- A device's thirty-four cells one by one: barrier, z-ready, ten y sends, ten y receives, six z sends, six z receives. -/
theorem ck_flat (Φ : CK → sProp 𝕄) :
    bigSep Finset.univ Φ = iprop(Φ .bar ∗ Φ .zbar ∗ Φ (.ys 0) ∗ Φ (.ys 1) ∗ Φ (.ys 2) ∗ Φ (.ys 3) ∗ Φ (.ys 4) ∗ Φ (.ys 5) ∗ Φ (.ys 6) ∗ Φ (.ys 7) ∗ Φ (.ys 8) ∗ Φ (.ys 9) ∗ Φ (.yr 0) ∗ Φ (.yr 1) ∗ Φ (.yr 2) ∗ Φ (.yr 3) ∗ Φ (.yr 4) ∗ Φ (.yr 5) ∗ Φ (.yr 6) ∗ Φ (.yr 7) ∗ Φ (.yr 8) ∗ Φ (.yr 9) ∗ Φ (.zs 0) ∗ Φ (.zs 1) ∗ Φ (.zs 2) ∗ Φ (.zs 3) ∗ Φ (.zs 4) ∗ Φ (.zs 5) ∗ Φ (.zr 0) ∗ Φ (.zr 1) ∗ Φ (.zr 2) ∗ Φ (.zr 3) ∗ Φ (.zr 4) ∗ Φ (.zr 5)) := by
  exact bigSep_univ_eq_bigSepL ([CK.bar, CK.zbar, CK.ys 0, CK.ys 1, CK.ys 2, CK.ys 3, CK.ys 4, CK.ys 5, CK.ys 6, CK.ys 7, CK.ys 8, CK.ys 9, CK.yr 0, CK.yr 1, CK.yr 2, CK.yr 3, CK.yr 4, CK.yr 5, CK.yr 6, CK.yr 7, CK.yr 8, CK.yr 9, CK.zs 0, CK.zs 1, CK.zs 2, CK.zs 3, CK.zs 4, CK.zs 5, CK.zr 0, CK.zr 1, CK.zr 2, CK.zr 3, CK.zr 4, CK.zr 5] : List CK) (by decide) (by decide) Φ
omit [FloatOps F] in
/-- All but the barrier cell. -/
theorem ck_flat_erase (Φ : CK → sProp 𝕄) :
    bigSep (Finset.univ.erase CK.bar) Φ = iprop(Φ .zbar ∗ Φ (.ys 0) ∗ Φ (.ys 1) ∗ Φ (.ys 2) ∗ Φ (.ys 3) ∗ Φ (.ys 4) ∗ Φ (.ys 5) ∗ Φ (.ys 6) ∗ Φ (.ys 7) ∗ Φ (.ys 8) ∗ Φ (.ys 9) ∗ Φ (.yr 0) ∗ Φ (.yr 1) ∗ Φ (.yr 2) ∗ Φ (.yr 3) ∗ Φ (.yr 4) ∗ Φ (.yr 5) ∗ Φ (.yr 6) ∗ Φ (.yr 7) ∗ Φ (.yr 8) ∗ Φ (.yr 9) ∗ Φ (.zs 0) ∗ Φ (.zs 1) ∗ Φ (.zs 2) ∗ Φ (.zs 3) ∗ Φ (.zs 4) ∗ Φ (.zs 5) ∗ Φ (.zr 0) ∗ Φ (.zr 1) ∗ Φ (.zr 2) ∗ Φ (.zr 3) ∗ Φ (.zr 4) ∗ Φ (.zr 5)) := by
  exact bigSep_eq_bigSepL_of_eq ([CK.zbar, CK.ys 0, CK.ys 1, CK.ys 2, CK.ys 3, CK.ys 4, CK.ys 5, CK.ys 6, CK.ys 7, CK.ys 8, CK.ys 9, CK.yr 0, CK.yr 1, CK.yr 2, CK.yr 3, CK.yr 4, CK.yr 5, CK.yr 6, CK.yr 7, CK.yr 8, CK.yr 9, CK.zs 0, CK.zs 1, CK.zs 2, CK.zs 3, CK.zs 4, CK.zs 5, CK.zr 0, CK.zr 1, CK.zr 2, CK.zr 3, CK.zr 4, CK.zr 5] : List CK) (by decide) (by decide) Φ

/-- The ten chunks of its buffer that the y-partner's direct copies write are what the partner's barrier cell is paid with. -/
theorem give_bar (c : Dev nD) (g : Buf (Elt F) (outLoc c)) :
    (bigSep Finset.univ fun i : Fin 10 => chunkPts (F := F) c (ySl (ynb c) i) g) ⊢ pay m ρ (ynb c) .bar := by
  show _ ⊢ bigSep Finset.univ fun i : Fin 10 => iprop(∃ f, chunkPts (F := F) (ynb (ynb c)) (ySl (ynb c) i) f)
  rw [ynb_ynb]
  refine bigSep_mono fun i _ => ?_
  show chunkPts (F := F) c (ySl (ynb c) i) g ⊢ iprop(∃ f, chunkPts (F := F) c (ySl (ynb c) i) f)
  iintro H; iexists g; iexact H
/-- The six chunks the z-partner's forwarding copies write are what the partner's z-ready cell is paid with. -/
theorem give_zbar (c : Dev nD) (g : Buf (Elt F) (outLoc c)) :
    (bigSep Finset.univ fun u : Fin 6 => chunkPts (F := F) c (zSl (znb c) u) g) ⊢ pay m ρ (znb c) .zbar := by
  show _ ⊢ bigSep Finset.univ fun u : Fin 6 => iprop(∃ f, chunkPts (F := F) (znb (znb c)) (zSl (znb c) u) f)
  rw [znb_znb]
  refine bigSep_mono fun u _ => ?_
  show chunkPts (F := F) c (zSl (znb c) u) g ⊢ iprop(∃ f, chunkPts (F := F) c (zSl (znb c) u) f)
  iintro H; iexists g; iexact H

/-- The rectangle of the whole-block load of the argument's staging buffer. -/
abbrev r0 : Rect S1024x512 := Rect.unit (s := S1024x512) ![0, 0] S1024x512.size inb_S1024x512_S1024x512_0_0

omit [FloatOps F] in
theorem read_x (f : (cc0_stg0_0 : Ref sig .tc).ty.Contents (Elt F)) :
    (xM : Memref sig .tc .vmem S1024x512 .f32).view.readAt (Elt F) r0.toLoadRect f = f := by
  exact Memref.readAt_unit_zero (Elt F) cc0_stg0_0 (funext fun a => by fin_cases a <;> rfl) _ f

theorem fetch_0 (t : Fin cfg0.N) : (cfg0.win (0 : Fin 2)).fetch t = true := by
  rw [fin_N t]; rfl

/-- The argument's staging buffer holds the device's block when the body starts. -/
theorem before_x (c : Dev nD) (d) : (dats (F := F) m ρ 0 c).before (0 : Fin 2) t₀ d = xstg m ρ c := by
  unfold Dat.before; rw [if_pos (fetch_0 t₀)]; rfl

/-- info: 'Cert.Kernel.AG.ck_flat' depends on axioms: [propext, Classical.choice, Quot.sound] -/
#guard_msgs in #print axioms ck_flat

/-- info: 'Cert.Kernel.AG.ck_flat_erase' depends on axioms: [propext, Classical.choice, Quot.sound] -/
#guard_msgs in #print axioms ck_flat_erase

/-- info: 'Cert.Kernel.AG.give_bar' depends on axioms: [propext, Classical.choice, Quot.sound] -/
#guard_msgs in #print axioms give_bar

/-- info: 'Cert.Kernel.AG.give_zbar' depends on axioms: [propext, Classical.choice, Quot.sound] -/
#guard_msgs in #print axioms give_zbar

/-- info: 'Cert.Kernel.AG.read_x' depends on axioms: [propext, Classical.choice, Quot.sound] -/
#guard_msgs in #print axioms read_x

/-- info: 'Cert.Kernel.AG.before_x' depends on axioms: [propext, Classical.choice, Quot.sound] -/
#guard_msgs in #print axioms before_x

end Cert.Kernel.AG

end
-- ==== Proof.KernelAG.PartDefs.lean ====
/-
  The resources the body's parts pass along. A direct copy needs its source chunk at the final contents, the partner's landing chunk,
  and the two duty tokens it pays with; a forwarding copy the same, its source being what the matching receive wait handed over;
  a wait needs the cell's credit and the owner's position and leaves the position one round on and the cell's payload.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Geom

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What direct copy `i` of device `c` consumes. -/
def sy (c : Dev nD) (i : Fin 10) : sProp 𝕄 :=
  iprop(chunkPts c (ySl c i) (fin m ρ c) ∗ (∃ fd, chunkPts (ynb c) (ySl c i) fd)
    ∗ dutyTok ER (cell c (.ys i)) 0 () ∗ dutyTok ER (cell (ynb c) (.yr i)) 0 ())

/-- What forwarding copy `i` consumes beside its source chunk. -/
def sz (c : Dev nD) (i : Fin 6) : sProp 𝕄 :=
  iprop((∃ fd, chunkPts (znb c) (zSl c i) fd) ∗ dutyTok ER (cell c (.zs i)) 0 () ∗ dutyTok ER (cell (znb c) (.zr i)) 0 ())

/-- The credit a copy's departure leaves on the device's own send cell. -/
def cy (c : Dev nD) (i : Fin 10) : sProp 𝕄 := cred (tallyAt (cell c (.ys i)) () N64)
def cz (c : Dev nD) (i : Fin 6) : sProp 𝕄 := cred (tallyAt (cell c (.zs i)) () N64)

/-- What a wait on cell `k` consumes: the cell's credit and the owner's position at round 0. -/
def wt (c : Dev nD) (k : CK) : sProp 𝕄 := iprop(cred (tallyAt (cell c k) () (amt k)) ∗ atPos ER (cell c k) 0 ∅ 0)

/-- What a wait on cell `k` leaves: the position at round 1 and the cell's payload. -/
def wd (c : Dev nD) (k : CK) : sProp 𝕄 := iprop(atPos ER (cell c k) 1 ∅ 0 ∗ pay m ρ c k)

/-- What the device still owes after `j` payments, whatever waits are recorded. -/
def ow (c : Dev nD) (j : ℕ) : sProp 𝕄 := iprop(∃ W, owes (c : Thread nD τ) (owedFrom c j) W)

end Cert.Kernel.AG

end
-- ==== Proof.KernelAG.PartsA.lean ====
/-
  Parts 3 to 6 of the body: direct copies 2 to 9, then the z-ready wait and the first receive wait.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Levels
import proofs.«900663_g7700000000000664_dist_ag_v7x_xyz2x2x2_y_m1024_n512_bf16_1_alg».proof.Proof.KernelAG.Geom
import proofs.«900663_g7700000000000664_dist_ag_v7x_xyz2x2x2_y_m1024_n512_bf16_1_alg».proof.Proof.KernelAG.Land
import proofs.«900663_g7700000000000664_dist_ag_v7x_xyz2x2x2_y_m1024_n512_bf16_1_alg».proof.Proof.KernelAG.Steps
import proofs.«900663_g7700000000000664_dist_ag_v7x_xyz2x2x2_y_m1024_n512_bf16_1_alg».proof.Proof.KernelAG.BodyAux
import proofs.«900663_g7700000000000664_dist_ag_v7x_xyz2x2x2_y_m1024_n512_bf16_1_alg».proof.Proof.KernelAG.PartDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- Part 3: direct copies 2 and 3. -/
theorem run_part3 (c : Dev nD) (v2 v8 v9 v11 v14 v63 c64 : BitVec 32) (Q : BitVec 32 → sProp 𝕄) :
    iprop(records m ρ K ∗ ow c 4 ∗ sy m ρ c 2 ∗ sy m ρ c 3
        ∗ (∀ a, (ow c 6 ∗ cy c 2 ∗ cy c 3) -∗ Q a))
      ⊢ wp frame (wpE (defs₀ (F := F)) 𝒱₀ (c : Thread nD τ) none) Set.univ
          (k0_part3 (Memref.whole cc0_stg0_0) (Memref.isWhole_whole _) (Memref.whole cc0_stg1_0) (Memref.isWhole_whole _)
            cc0_scratch0 cc0_scratch1 cc0_scratch2 cc0_scratch3 cc0_scratch4 c v2 v8 v9 v11 v14 v63 c64) Q := by
  unfold sy ow cy
  iintro ⟨#HR, ⟨%W, HO⟩, ⟨Hs2, ⟨%fd2, Hd2⟩, Ht2a, Ht2b⟩, ⟨Hs3, ⟨%fd3, Hd3⟩, Ht3a, Ht3b⟩, Hk⟩
  rw [k0_part3_eq_skeleton]; unfold k0_part3_skel
  simp only [Prog.lift, Prog.bind_op, Prog.bind_ret, Prog.pure_eq_ret]
  iapply (wp_ysend m ρ K c _ (dev5_eq c) 2 fd2 (owedFrom c 5) W) $$ [HO Hs2 Hd2 Ht2a Ht2b]
  · isplitr; · iexact HR
    isplitl [Hs2]; · iexact Hs2
    isplitl [Hd2]; · iexact Hd2
    isplitl [HO]; · iexact HO
    isplitl [Ht2a]; · iexact Ht2a
    iexact Ht2b
  iintro ⟨Hc2, HO⟩
  iapply (wp_ysend m ρ K c _ (dev6_eq c) 3 fd3 (owedFrom c 6) W) $$ [HO Hs3 Hd3 Ht3a Ht3b]
  · isplitr; · iexact HR
    isplitl [Hs3]; · iexact Hs3
    isplitl [Hd3]; · iexact Hd3
    isplitl [HO]; · iexact HO
    isplitl [Ht3a]; · iexact Ht3a
    iexact Ht3b
  iintro ⟨Hc3, HO⟩
  rw [wp_ret]; imodintro
  iapply Hk
  isplitl [HO]; · iexists W; iexact HO
  isplitl [Hc2]; · iexact Hc2
  iexact Hc3

/-- Part 4: direct copies 4 and 5. -/
theorem run_part4 (c : Dev nD) (v2 v8 v9 v11 v14 v97 : BitVec 32) (Q : PUnit → sProp 𝕄) :
    iprop(records m ρ K ∗ ow c 6 ∗ sy m ρ c 4 ∗ sy m ρ c 5
        ∗ ((ow c 8 ∗ cy c 4 ∗ cy c 5) -∗ Q ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            cc0_scratch0 cc0_scratch1 cc0_scratch2 cc0_scratch3 cc0_scratch4 c v2 v8 v9 v11 v14 v97) Q := by
  unfold sy ow cy
  iintro ⟨#HR, ⟨%W, HO⟩, ⟨Hs4, ⟨%fd4, Hd4⟩, Ht4a, Ht4b⟩, ⟨Hs5, ⟨%fd5, Hd5⟩, Ht5a, Ht5b⟩, Hk⟩
  rw [k0_part4_eq_skeleton]; unfold k0_part4_skel
  simp only [Prog.lift, Prog.bind_op, Prog.bind_ret, Prog.pure_eq_ret]
  iapply (wp_ysend m ρ K c _ (dev7_eq c) 4 fd4 (owedFrom c 7) W) $$ [HO Hs4 Hd4 Ht4a Ht4b]
  · isplitr; · iexact HR
    isplitl [Hs4]; · iexact Hs4
    isplitl [Hd4]; · iexact Hd4
    isplitl [HO]; · iexact HO
    isplitl [Ht4a]; · iexact Ht4a
    iexact Ht4b
  iintro ⟨Hc4, HO⟩
  iapply (wp_ysend m ρ K c _ (dev8_eq c) 5 fd5 (owedFrom c 8) W) $$ [HO Hs5 Hd5 Ht5a Ht5b]
  · isplitr; · iexact HR
    isplitl [Hs5]; · iexact Hs5
    isplitl [Hd5]; · iexact Hd5
    isplitl [HO]; · iexact HO
    isplitl [Ht5a]; · iexact Ht5a
    iexact Ht5b
  iintro ⟨Hc5, HO⟩
  rw [wp_ret]; imodintro
  iapply Hk
  isplitl [HO]; · iexists W; iexact HO
  isplitl [Hc4]; · iexact Hc4
  iexact Hc5

/-- Part 5: direct copies 6, 7 and 8. -/
theorem run_part5 (c : Dev nD) (v2 v8 v9 v11 : BitVec 32) (Q : (Σ' (v164 : BitVec 32), BitVec 32) → sProp 𝕄) :
    iprop(records m ρ K ∗ ow c 8 ∗ sy m ρ c 6 ∗ sy m ρ c 7 ∗ sy m ρ c 8
        ∗ (∀ a, (ow c 11 ∗ cy c 6 ∗ cy c 7 ∗ cy c 8) -∗ Q a))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            cc0_scratch0 cc0_scratch1 cc0_scratch2 cc0_scratch3 cc0_scratch4 c v2 v8 v9 v11) Q := by
  unfold sy ow cy
  iintro ⟨#HR, ⟨%W, HO⟩, ⟨Hs6, ⟨%fd6, Hd6⟩, Ht6a, Ht6b⟩, ⟨Hs7, ⟨%fd7, Hd7⟩, Ht7a, Ht7b⟩, ⟨Hs8, ⟨%fd8, Hd8⟩, Ht8a, Ht8b⟩, Hk⟩
  rw [k0_part5_eq_skeleton]; unfold k0_part5_skel
  simp only [Prog.lift, Prog.bind_op, Prog.bind_ret, Prog.pure_eq_ret]
  iapply (wp_ysend m ρ K c _ (dev9_eq c) 6 fd6 (owedFrom c 9) W) $$ [HO Hs6 Hd6 Ht6a Ht6b]
  · isplitr; · iexact HR
    isplitl [Hs6]; · iexact Hs6
    isplitl [Hd6]; · iexact Hd6
    isplitl [HO]; · iexact HO
    isplitl [Ht6a]; · iexact Ht6a
    iexact Ht6b
  iintro ⟨Hc6, HO⟩
  iapply (wp_ysend m ρ K c _ (dev10_eq c) 7 fd7 (owedFrom c 10) W) $$ [HO Hs7 Hd7 Ht7a Ht7b]
  · isplitr; · iexact HR
    isplitl [Hs7]; · iexact Hs7
    isplitl [Hd7]; · iexact Hd7
    isplitl [HO]; · iexact HO
    isplitl [Ht7a]; · iexact Ht7a
    iexact Ht7b
  iintro ⟨Hc7, HO⟩
  iapply (wp_ysend m ρ K c _ (dev11_eq c) 8 fd8 (owedFrom c 11) W) $$ [HO Hs8 Hd8 Ht8a Ht8b]
  · isplitr; · iexact HR
    isplitl [Hs8]; · iexact Hs8
    isplitl [Hd8]; · iexact Hd8
    isplitl [HO]; · iexact HO
    isplitl [Ht8a]; · iexact Ht8a
    iexact Ht8b
  iintro ⟨Hc8, HO⟩
  rw [wp_ret]; imodintro
  iapply Hk
  isplitl [HO]; · iexists W; iexact HO
  isplitl [Hc6]; · iexact Hc6
  isplitl [Hc7]; · iexact Hc7
  iexact Hc8

/-- Part 6: direct copy 9, the z-ready wait (the six forwarding copies still owed), the wait on receive cell 0. -/
theorem run_part6 (c : Dev nD) (v2 v5 v8 v9 v10 v13 v14 v164 v165 : BitVec 32) (Q : PUnit → sProp 𝕄) :
    iprop(records m ρ K ∗ levAts L lv ∗ ow c 11 ∗ sy m ρ c 9 ∗ wt c .zbar ∗ wt c (.yr 0)
        ∗ ((ow c 12 ∗ cy c 9 ∗ wd m ρ c .zbar ∗ wd m ρ c (.yr 0)) -∗ Q ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14 v164 v165) Q := by
  unfold sy ow cy wt wd
  iintro ⟨#HR, #HL, ⟨%W, HO⟩, ⟨Hs9, ⟨%fd9, Hd9⟩, Ht9a, Ht9b⟩, ⟨Hcz, Haz⟩, ⟨Hcr, Har⟩, Hk⟩
  rw [k0_part6_eq_skeleton]; unfold k0_part6_skel
  simp only [semWaitWord, Prog.lift, Prog.bind_op, Prog.bind_ret, Prog.pure_eq_ret]
  iapply (wp_ysend m ρ K c _ (dev12_eq c) 9 fd9 (owedFrom c 12) W) $$ [HO Hs9 Hd9 Ht9a Ht9b]
  · isplitr; · iexact HR
    isplitl [Hs9]; · iexact Hs9
    isplitl [Hd9]; · iexact Hd9
    isplitl [HO]; · iexact HO
    isplitl [Ht9a]; · iexact Ht9a
    iexact Ht9b
  iintro ⟨Hc9, HO⟩
  iapply (wp_wait_cell m ρ K c .zbar (wpE_semWait_eq 𝒱₀ (c : Thread nD τ) none Set.univ) (owedFrom c 12) W) $$ [Hcz HO Haz]
  · isplitr; · iexact HR
    isplitl [Hcz]; · iexact Hcz
    isplitl [HO]; · iexact HO
    isplitr; · iapply (mayWait_zbar c); iexact HL
    iexact Haz
  iintro ⟨HO, Haz, Hpz⟩
  iapply (wp_wait_cell m ρ K c (.yr 0) (wpE_waitDma2_eq (dst := ySl c 0) 𝒱₀ (c : Thread nD τ) none Set.univ) (owedFrom c 12)
    (insert ((CK.zbar).sem, ()) W)) $$ [Hcr HO Har]
  · isplitr; · iexact HR
    isplitl [Hcr]; · iexact Hcr
    isplitl [HO]; · iexact HO
    isplitr; · iapply (mayWait_yr c 0); iexact HL
    iexact Har
  iintro ⟨HO, Har, Hpr⟩
  rw [wp_ret]; imodintro
  iapply Hk
  isplitl [HO]; · iexists _; iexact HO
  isplitl [Hc9]; · iexact Hc9
  isplitl [Haz Hpz]
  · isplitl [Haz]; · iexact Haz
    iexact Hpz
  isplitl [Har]; · iexact Har
  iexact Hpr

end Parts

/-- info: 'Cert.Kernel.AG.run_part3' depends on axioms: [propext, Classical.choice, Quot.sound] -/
#guard_msgs in #print axioms run_part3

/-- info: 'Cert.Kernel.AG.run_part4' depends on axioms: [propext, Classical.choice, Quot.sound] -/
#guard_msgs in #print axioms run_part4

/-- info: 'Cert.Kernel.AG.run_part5' depends on axioms: [propext, Classical.choice, Quot.sound] -/
#guard_msgs in #print axioms run_part5

/-- info: 'Cert.Kernel.AG.run_part6' depends on axioms: [propext, Classical.choice, Quot.sound] -/
#guard_msgs in #print axioms run_part6

end Cert.Kernel.AG

end
-- ==== Proof.KernelAG.PartsB.lean ====
/-
  Parts 7 to 10 of the body: the six forwarding copies, each after the wait on the receive cell whose landing it forwards.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Levels
import proofs.«900663_g7700000000000664_dist_ag_v7x_xyz2x2x2_y_m1024_n512_bf16_1_alg».proof.Proof.KernelAG.Geom
import proofs.«900663_g7700000000000664_dist_ag_v7x_xyz2x2x2_y_m1024_n512_bf16_1_alg».proof.Proof.KernelAG.Land
import proofs.«900663_g7700000000000664_dist_ag_v7x_xyz2x2x2_y_m1024_n512_bf16_1_alg».proof.Proof.KernelAG.Steps
import proofs.«900663_g7700000000000664_dist_ag_v7x_xyz2x2x2_y_m1024_n512_bf16_1_alg».proof.Proof.KernelAG.BodyAux
import proofs.«900663_g7700000000000664_dist_ag_v7x_xyz2x2x2_y_m1024_n512_bf16_1_alg».proof.Proof.KernelAG.PartDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- A forwarding copy's source chunk is the landing chunk its receive cell handed over. -/
private theorem src_z (c : Dev nD) (i : Fin 6) :
    pay m ρ c (.yr (Fin.castLE six_le_ten i)) ⊢ chunkPts c (zSl c i) (fin m ρ c) :=
  Entails.of_eq (zsrc_eq c i (fin m ρ c)).symm

/-- Part 7: forwarding copy 0 (its source: what receive cell 0 handed over), the wait on receive cell 1, forwarding copy 1. -/
theorem run_part7 (c : Dev nD) (v2 v5 v8 v9 v10 v13 v14 : BitVec 32) (Q : PUnit → sProp 𝕄) :
    iprop(records m ρ K ∗ levAts L lv ∗ ow c 12 ∗ pay m ρ c (.yr 0) ∗ sz c 0 ∗ wt c (.yr 1) ∗ sz c 1
        ∗ ((ow c 14 ∗ cz c 0 ∗ cz c 1 ∗ atPos ER (cell c (.yr 1)) 1 ∅ 0) -∗ Q ⟨⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs0 : pay m ρ c (.yr 0) ⊢ chunkPts c (zSl c 0) (fin m ρ c) := src_z m ρ c 0
  have hs1 : pay m ρ c (.yr 1) ⊢ chunkPts c (zSl c 1) (fin m ρ c) := src_z m ρ c 1
  have hm1 : (levAts L lv : sProp 𝕄) ⊢ MayWait (c : Thread nD τ) (CK.yr 1).sem () (owedFrom c 13) := mayWait_yr c 1
  rw [k0_part7_eq_skeleton]; unfold k0_part7_skel
  simp only [Prog.lift, Prog.bind_op, Prog.bind_ret, Prog.pure_eq_ret]
  unfold sz wt ow cz
  iintro ⟨#HR, #HL, ⟨%W, HO⟩, Hp0, ⟨⟨%fd0, Hd0⟩, Hts0, Htr0⟩, ⟨Hc1, Hat1⟩, ⟨⟨%fd1, Hd1⟩, Hts1, Htr1⟩, Hk⟩
  ihave Hs0 := hs0 $$ Hp0
  iapply (wp_zsend m ρ K c _ (dev13_eq c) 0 fd0 (owedFrom c 13) W) $$ [Hs0 Hd0 HO Hts0 Htr0]
  · isplitr; · iexact HR
    isplitl [Hs0]; · iexact Hs0
    isplitl [Hd0]; · iexact Hd0
    isplitl [HO]; · iexact HO
    isplitl [Hts0]; · iexact Hts0
    iexact Htr0
  iintro ⟨Hcz0, HO⟩
  iapply (wp_wait_cell m ρ K c (.yr 1) (wpE_waitDma2_eq 𝒱₀ (c : Thread nD τ) none Set.univ (sem := yrS 1) (src := ySl c 1) (dst := ySl c 1)) (owedFrom c 13) W) $$ [Hc1 HO Hat1]
  · isplitr; · iexact HR
    isplitl [Hc1]; · iexact Hc1
    isplitl [HO]; · iexact HO
    isplitr; · iapply hm1; iexact HL
    iexact Hat1
  iintro ⟨HO, Hat1, Hp1⟩
  ihave Hs1 := hs1 $$ Hp1
  iapply (wp_zsend m ρ K c _ (dev14_eq c) 1 fd1 (owedFrom c 14) (insert ((CK.yr 1).sem, ()) W)) $$ [Hs1 Hd1 HO Hts1 Htr1]
  · isplitr; · iexact HR
    isplitl [Hs1]; · iexact Hs1
    isplitl [Hd1]; · iexact Hd1
    isplitl [HO]; · iexact HO
    isplitl [Hts1]; · iexact Hts1
    iexact Htr1
  iintro ⟨Hcz1, HO⟩
  rw [wp_ret]
  imodintro
  iapply Hk
  isplitl [HO]; · iexists _; iexact HO
  isplitl [Hcz0]; · iexact Hcz0
  isplitl [Hcz1]; · iexact Hcz1
  iexact Hat1

/-- Part 8: the wait on receive cell 2, forwarding copy 2, the wait on receive cell 3. -/
theorem run_part8 (c : Dev nD) (v2 v5 v8 v9 v10 v13 v14 : BitVec 32) (Q : (Σ' (v263 : BitVec 32), BitVec 32) → sProp 𝕄) :
    iprop(records m ρ K ∗ levAts L lv ∗ ow c 14 ∗ wt c (.yr 2) ∗ sz c 2 ∗ wt c (.yr 3)
        ∗ (∀ a, (ow c 15 ∗ cz c 2 ∗ atPos ER (cell c (.yr 2)) 1 ∅ 0 ∗ wd m ρ c (.yr 3)) -∗ Q a))
      ⊢ wp frame (wpE (defs₀ (F := F)) 𝒱₀ (c : Thread nD τ) none) Set.univ
          (k0_part8 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs2 : pay m ρ c (.yr 2) ⊢ chunkPts c (zSl c 2) (fin m ρ c) := src_z m ρ c 2
  have hm2 : (levAts L lv : sProp 𝕄) ⊢ MayWait (c : Thread nD τ) (CK.yr 2).sem () (owedFrom c 14) := mayWait_yr c 2
  have hm3 : (levAts L lv : sProp 𝕄) ⊢ MayWait (c : Thread nD τ) (CK.yr 3).sem () (owedFrom c 15) := mayWait_yr c 3
  rw [k0_part8_eq_skeleton]; unfold k0_part8_skel
  simp only [Prog.lift, Prog.bind_op, Prog.bind_ret, Prog.pure_eq_ret]
  unfold sz wt wd ow cz
  iintro ⟨#HR, #HL, ⟨%W, HO⟩, ⟨Hc2, Hat2⟩, ⟨⟨%fd2, Hd2⟩, Hts2, Htr2⟩, ⟨Hc3, Hat3⟩, Hk⟩
  iapply (wp_wait_cell m ρ K c (.yr 2) (wpE_waitDma2_eq 𝒱₀ (c : Thread nD τ) none Set.univ (sem := yrS 2) (src := ySl c 2) (dst := ySl c 2)) (owedFrom c 14) W) $$ [Hc2 HO Hat2]
  · isplitr; · iexact HR
    isplitl [Hc2]; · iexact Hc2
    isplitl [HO]; · iexact HO
    isplitr; · iapply hm2; iexact HL
    iexact Hat2
  iintro ⟨HO, Hat2, Hp2⟩
  ihave Hs2 := hs2 $$ Hp2
  iapply (wp_zsend m ρ K c _ (dev15_eq c) 2 fd2 (owedFrom c 15) (insert ((CK.yr 2).sem, ()) W)) $$ [Hs2 Hd2 HO Hts2 Htr2]
  · isplitr; · iexact HR
    isplitl [Hs2]; · iexact Hs2
    isplitl [Hd2]; · iexact Hd2
    isplitl [HO]; · iexact HO
    isplitl [Hts2]; · iexact Hts2
    iexact Htr2
  iintro ⟨Hcz2, HO⟩
  iapply (wp_wait_cell m ρ K c (.yr 3) (wpE_waitDma2_eq 𝒱₀ (c : Thread nD τ) none Set.univ (sem := yrS 3) (src := ySl c 3) (dst := ySl c 3)) (owedFrom c 15) (insert ((CK.yr 2).sem, ()) W)) $$ [Hc3 HO Hat3]
  · isplitr; · iexact HR
    isplitl [Hc3]; · iexact Hc3
    isplitl [HO]; · iexact HO
    isplitr; · iapply hm3; iexact HL
    iexact Hat3
  iintro ⟨HO, Hat3, Hp3⟩
  rw [wp_ret]
  imodintro
  iapply Hk
  isplitl [HO]; · iexists _; iexact HO
  isplitl [Hcz2]; · iexact Hcz2
  isplitl [Hat2]; · iexact Hat2
  isplitl [Hat3]; · iexact Hat3
  iexact Hp3

/-- Part 9: forwarding copy 3, the wait on receive cell 4. -/
theorem run_part9 (c : Dev nD) (v2 v5 v8 v9 v10 v13 v14 v263 c0 : BitVec 32) (Q : PUnit → sProp 𝕄) :
    iprop(records m ρ K ∗ levAts L lv ∗ ow c 15 ∗ pay m ρ c (.yr 3) ∗ sz c 3 ∗ wt c (.yr 4)
        ∗ ((ow c 16 ∗ cz c 3 ∗ wd m ρ c (.yr 4)) -∗ Q ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14 v263 c0) Q := by
  have hs3 : pay m ρ c (.yr 3) ⊢ chunkPts c (zSl c 3) (fin m ρ c) := src_z m ρ c 3
  have hm4 : (levAts L lv : sProp 𝕄) ⊢ MayWait (c : Thread nD τ) (CK.yr 4).sem () (owedFrom c 16) := mayWait_yr c 4
  rw [k0_part9_eq_skeleton]; unfold k0_part9_skel
  simp only [Prog.lift, Prog.bind_op, Prog.bind_ret, Prog.pure_eq_ret]
  unfold sz wt wd ow cz
  iintro ⟨#HR, #HL, ⟨%W, HO⟩, Hp3, ⟨⟨%fd3, Hd3⟩, Hts3, Htr3⟩, ⟨Hc4, Hat4⟩, Hk⟩
  ihave Hs3 := hs3 $$ Hp3
  iapply (wp_zsend m ρ K c _ (dev16_eq c) 3 fd3 (owedFrom c 16) W) $$ [Hs3 Hd3 HO Hts3 Htr3]
  · isplitr; · iexact HR
    isplitl [Hs3]; · iexact Hs3
    isplitl [Hd3]; · iexact Hd3
    isplitl [HO]; · iexact HO
    isplitl [Hts3]; · iexact Hts3
    iexact Htr3
  iintro ⟨Hcz3, HO⟩
  iapply (wp_wait_cell m ρ K c (.yr 4) (wpE_waitDma2_eq 𝒱₀ (c : Thread nD τ) none Set.univ (sem := yrS 4) (src := ySl c 4) (dst := ySl c 4)) (owedFrom c 16) W) $$ [Hc4 HO Hat4]
  · isplitr; · iexact HR
    isplitl [Hc4]; · iexact Hc4
    isplitl [HO]; · iexact HO
    isplitr; · iapply hm4; iexact HL
    iexact Hat4
  iintro ⟨HO, Hat4, Hp4⟩
  rw [wp_ret]
  imodintro
  iapply Hk
  isplitl [HO]; · iexists _; iexact HO
  isplitl [Hcz3]; · iexact Hcz3
  isplitl [Hat4]; · iexact Hat4
  iexact Hp4

/-- Part 10: forwarding copy 4, the wait on receive cell 5, forwarding copy 5. -/
theorem run_part10 (c : Dev nD) (v2 v5 v8 v9 v10 v13 v14 : BitVec 32) (Q : PUnit → sProp 𝕄) :
    iprop(records m ρ K ∗ levAts L lv ∗ ow c 16 ∗ pay m ρ c (.yr 4) ∗ sz c 4 ∗ wt c (.yr 5) ∗ sz c 5
        ∗ ((ow c 18 ∗ cz c 4 ∗ cz c 5 ∗ atPos ER (cell c (.yr 5)) 1 ∅ 0) -∗ Q ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs4 : pay m ρ c (.yr 4) ⊢ chunkPts c (zSl c 4) (fin m ρ c) := src_z m ρ c 4
  have hs5 : pay m ρ c (.yr 5) ⊢ chunkPts c (zSl c 5) (fin m ρ c) := src_z m ρ c 5
  have hm5 : (levAts L lv : sProp 𝕄) ⊢ MayWait (c : Thread nD τ) (CK.yr 5).sem () (owedFrom c 17) := mayWait_yr c 5
  rw [k0_part10_eq_skeleton]; unfold k0_part10_skel
  simp only [Prog.lift, Prog.bind_op, Prog.bind_ret, Prog.pure_eq_ret]
  unfold sz wt ow cz
  iintro ⟨#HR, #HL, ⟨%W, HO⟩, Hp4, ⟨⟨%fd4, Hd4⟩, Hts4, Htr4⟩, ⟨Hc5, Hat5⟩, ⟨⟨%fd5, Hd5⟩, Hts5, Htr5⟩, Hk⟩
  ihave Hs4 := hs4 $$ Hp4
  iapply (wp_zsend m ρ K c _ (dev17_eq c) 4 fd4 (owedFrom c 17) W) $$ [Hs4 Hd4 HO Hts4 Htr4]
  · isplitr; · iexact HR
    isplitl [Hs4]; · iexact Hs4
    isplitl [Hd4]; · iexact Hd4
    isplitl [HO]; · iexact HO
    isplitl [Hts4]; · iexact Hts4
    iexact Htr4
  iintro ⟨Hcz4, HO⟩
  iapply (wp_wait_cell m ρ K c (.yr 5) (wpE_waitDma2_eq 𝒱₀ (c : Thread nD τ) none Set.univ (sem := yrS 5) (src := ySl c 5) (dst := ySl c 5)) (owedFrom c 17) W) $$ [Hc5 HO Hat5]
  · isplitr; · iexact HR
    isplitl [Hc5]; · iexact Hc5
    isplitl [HO]; · iexact HO
    isplitr; · iapply hm5; iexact HL
    iexact Hat5
  iintro ⟨HO, Hat5, Hp5⟩
  ihave Hs5 := hs5 $$ Hp5
  iapply (wp_zsend m ρ K c _ (dev18_eq c) 5 fd5 (owedFrom c 18) (insert ((CK.yr 5).sem, ()) W)) $$ [Hs5 Hd5 HO Hts5 Htr5]
  · isplitr; · iexact HR
    isplitl [Hs5]; · iexact Hs5
    isplitl [Hd5]; · iexact Hd5
    isplitl [HO]; · iexact HO
    isplitl [Hts5]; · iexact Hts5
    iexact Htr5
  iintro ⟨Hcz5, HO⟩
  rw [wp_ret]
  imodintro
  iapply Hk
  isplitl [HO]; · iexists _; iexact HO
  isplitl [Hcz4]; · iexact Hcz4
  isplitl [Hcz5]; · iexact Hcz5
  iexact Hat5

end Parts

/-- info: 'Cert.Kernel.AG.run_part7' depends on axioms: [propext, Classical.choice, Quot.sound] -/
#guard_msgs in #print axioms run_part7

/-- info: 'Cert.Kernel.AG.run_part8' depends on axioms: [propext, Classical.choice, Quot.sound] -/
#guard_msgs in #print axioms run_part8

/-- info: 'Cert.Kernel.AG.run_part9' depends on axioms: [propext, Classical.choice, Quot.sound] -/
#guard_msgs in #print axioms run_part9

/-- info: 'Cert.Kernel.AG.run_part10' depends on axioms: [propext, Classical.choice, Quot.sound] -/
#guard_msgs in #print axioms run_part10

end Cert.Kernel.AG

end
-- ==== Proof.KernelAG.PartsC.lean ====
/-
  Parts 11 to 13 of the body: the waits on receive cells 6 to 9 along y and on the six receive cells along z. Nothing is owed any more.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Levels
import proofs.«900663_g7700000000000664_dist_ag_v7x_xyz2x2x2_y_m1024_n512_bf16_1_alg».proof.Proof.KernelAG.Geom
import proofs.«900663_g7700000000000664_dist_ag_v7x_xyz2x2x2_y_m1024_n512_bf16_1_alg».proof.Proof.KernelAG.Land
import proofs.«900663_g7700000000000664_dist_ag_v7x_xyz2x2x2_y_m1024_n512_bf16_1_alg».proof.Proof.KernelAG.Steps
import proofs.«900663_g7700000000000664_dist_ag_v7x_xyz2x2x2_y_m1024_n512_bf16_1_alg».proof.Proof.KernelAG.BodyAux
import proofs.«900663_g7700000000000664_dist_ag_v7x_xyz2x2x2_y_m1024_n512_bf16_1_alg».proof.Proof.KernelAG.PartDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- Part 11: the waits on receive cells 6, 7 and 8. -/
theorem run_part11 (c : Dev nD) (v2 v8 v9 : BitVec 32) (Q : PUnit → sProp 𝕄) :
    iprop(records m ρ K ∗ ow c 18 ∗ wt c (.yr 6) ∗ wt c (.yr 7) ∗ wt c (.yr 8)
        ∗ ((ow c 18 ∗ wd m ρ c (.yr 6) ∗ wd m ρ c (.yr 7) ∗ wd m ρ c (.yr 8)) -∗ Q ⟨⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _)
            cc0_scratch0 cc0_scratch1 cc0_scratch2 cc0_scratch3 cc0_scratch4 c v2 v8 v9) Q := by
  unfold ow wt wd
  rw [owedFrom_end c]
  iintro ⟨#HR, ⟨%W, HO⟩, ⟨Hcy6, Hay6⟩, ⟨Hcy7, Hay7⟩, ⟨Hcy8, Hay8⟩, Hk⟩
  rw [k0_part11_eq_skeleton]; unfold k0_part11_skel
  simp only [Prog.lift, Prog.bind_op, Prog.bind_ret, Prog.pure_eq_ret]
  iapply (wp_wait_cell m ρ K c (.yr 6) (wpE_waitDma2_eq 𝒱₀ (c : Thread nD τ) none Set.univ (sem := yrS 6) (src := ySl c 6) (dst := ySl c 6)) 0 (W)) $$ [Hcy6 HO Hay6]
  · isplitr; · iexact HR
    isplitl [Hcy6]; · iexact Hcy6
    isplitl [HO]; · iexact HO
    isplitr; · rw [MayWait_zero]; iempintro
    iexact Hay6
  iintro ⟨HO, Hay6, Hpy6⟩
  iapply (wp_wait_cell m ρ K c (.yr 7) (wpE_waitDma2_eq 𝒱₀ (c : Thread nD τ) none Set.univ (sem := yrS 7) (src := ySl c 7) (dst := ySl c 7)) 0 (insert ((CK.yr 6).sem, ()) (W))) $$ [Hcy7 HO Hay7]
  · isplitr; · iexact HR
    isplitl [Hcy7]; · iexact Hcy7
    isplitl [HO]; · iexact HO
    isplitr; · rw [MayWait_zero]; iempintro
    iexact Hay7
  iintro ⟨HO, Hay7, Hpy7⟩
  iapply (wp_wait_cell m ρ K c (.yr 8) (wpE_waitDma2_eq 𝒱₀ (c : Thread nD τ) none Set.univ (sem := yrS 8) (src := ySl c 8) (dst := ySl c 8)) 0 (insert ((CK.yr 7).sem, ()) (insert ((CK.yr 6).sem, ()) (W)))) $$ [Hcy8 HO Hay8]
  · isplitr; · iexact HR
    isplitl [Hcy8]; · iexact Hcy8
    isplitl [HO]; · iexact HO
    isplitr; · rw [MayWait_zero]; iempintro
    iexact Hay8
  iintro ⟨HO, Hay8, Hpy8⟩
  rw [wp_ret]
  imodintro
  iapply Hk
  isplitl [HO]; · iexists _; iexact HO
  isplitl [Hay6 Hpy6]; · isplitl [Hay6] <;> iassumption
  isplitl [Hay7 Hpy7]; · isplitl [Hay7] <;> iassumption
  isplitl [Hay8] <;> iassumption

/-- Part 12: the wait on receive cell 9, then on the z receive cells 0, 1 and 2. -/
theorem run_part12 (c : Dev nD) (v2 v5 v10 : BitVec 32) (Q : PUnit → sProp 𝕄) :
    iprop(records m ρ K ∗ ow c 18 ∗ wt c (.yr 9) ∗ wt c (.zr 0) ∗ wt c (.zr 1) ∗ wt c (.zr 2)
        ∗ ((ow c 18 ∗ wd m ρ c (.yr 9) ∗ wd m ρ c (.zr 0) ∗ wd m ρ c (.zr 1) ∗ wd m ρ c (.zr 2)) -∗ Q ⟨⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _)
            cc0_scratch0 cc0_scratch1 cc0_scratch2 cc0_scratch3 cc0_scratch4 c v2 v5 v10) Q := by
  unfold ow wt wd
  rw [owedFrom_end c]
  iintro ⟨#HR, ⟨%W, HO⟩, ⟨Hcy9, Hay9⟩, ⟨Hcz0, Haz0⟩, ⟨Hcz1, Haz1⟩, ⟨Hcz2, Haz2⟩, Hk⟩
  rw [k0_part12_eq_skeleton]; unfold k0_part12_skel
  simp only [Prog.lift, Prog.bind_op, Prog.bind_ret, Prog.pure_eq_ret]
  iapply (wp_wait_cell m ρ K c (.yr 9) (wpE_waitDma2_eq 𝒱₀ (c : Thread nD τ) none Set.univ (sem := yrS 9) (src := ySl c 9) (dst := ySl c 9)) 0 (W)) $$ [Hcy9 HO Hay9]
  · isplitr; · iexact HR
    isplitl [Hcy9]; · iexact Hcy9
    isplitl [HO]; · iexact HO
    isplitr; · rw [MayWait_zero]; iempintro
    iexact Hay9
  iintro ⟨HO, Hay9, Hpy9⟩
  iapply (wp_wait_cell m ρ K c (.zr 0) (wpE_waitDma2_eq 𝒱₀ (c : Thread nD τ) none Set.univ (sem := zrS 0) (src := zSl c 0) (dst := zSl c 0)) 0 (insert ((CK.yr 9).sem, ()) (W))) $$ [Hcz0 HO Haz0]
  · isplitr; · iexact HR
    isplitl [Hcz0]; · iexact Hcz0
    isplitl [HO]; · iexact HO
    isplitr; · rw [MayWait_zero]; iempintro
    iexact Haz0
  iintro ⟨HO, Haz0, Hpz0⟩
  iapply (wp_wait_cell m ρ K c (.zr 1) (wpE_waitDma2_eq 𝒱₀ (c : Thread nD τ) none Set.univ (sem := zrS 1) (src := zSl c 1) (dst := zSl c 1)) 0 (insert ((CK.zr 0).sem, ()) (insert ((CK.yr 9).sem, ()) (W)))) $$ [Hcz1 HO Haz1]
  · isplitr; · iexact HR
    isplitl [Hcz1]; · iexact Hcz1
    isplitl [HO]; · iexact HO
    isplitr; · rw [MayWait_zero]; iempintro
    iexact Haz1
  iintro ⟨HO, Haz1, Hpz1⟩
  iapply (wp_wait_cell m ρ K c (.zr 2) (wpE_waitDma2_eq 𝒱₀ (c : Thread nD τ) none Set.univ (sem := zrS 2) (src := zSl c 2) (dst := zSl c 2)) 0 (insert ((CK.zr 1).sem, ()) (insert ((CK.zr 0).sem, ()) (insert ((CK.yr 9).sem, ()) (W))))) $$ [Hcz2 HO Haz2]
  · isplitr; · iexact HR
    isplitl [Hcz2]; · iexact Hcz2
    isplitl [HO]; · iexact HO
    isplitr; · rw [MayWait_zero]; iempintro
    iexact Haz2
  iintro ⟨HO, Haz2, Hpz2⟩
  rw [wp_ret]
  imodintro
  iapply Hk
  isplitl [HO]; · iexists _; iexact HO
  isplitl [Hay9 Hpy9]; · isplitl [Hay9] <;> iassumption
  isplitl [Haz0 Hpz0]; · isplitl [Haz0] <;> iassumption
  isplitl [Haz1 Hpz1]; · isplitl [Haz1] <;> iassumption
  isplitl [Haz2] <;> iassumption

/-- Part 13: the waits on the z receive cells 3, 4 and 5. -/
theorem run_part13 (c : Dev nD) (v2 v5 v10 : BitVec 32) (Q : PUnit → sProp 𝕄) :
    iprop(records m ρ K ∗ ow c 18 ∗ wt c (.zr 3) ∗ wt c (.zr 4) ∗ wt c (.zr 5)
        ∗ ((ow c 18 ∗ wd m ρ c (.zr 3) ∗ wd m ρ c (.zr 4) ∗ wd m ρ c (.zr 5)) -∗ Q ⟨⟩))
      ⊢ wp frame (wpE (defs₀ (F := F)) 𝒱₀ (c : Thread nD τ) none) Set.univ
          (k0_part13 (Memref.whole cc0_stg0_0) (Memref.isWhole_whole _) (Memref.whole cc0_stg1_0) (Memref.isWhole_whole _)
            cc0_scratch0 cc0_scratch1 cc0_scratch2 cc0_scratch3 cc0_scratch4 c v2 v5 v10) Q := by
  unfold ow wt wd
  rw [owedFrom_end c]
  iintro ⟨#HR, ⟨%W, HO⟩, ⟨Hcz3, Haz3⟩, ⟨Hcz4, Haz4⟩, ⟨Hcz5, Haz5⟩, Hk⟩
  rw [k0_part13_eq_skeleton]; unfold k0_part13_skel
  simp only [Prog.lift, Prog.bind_op, Prog.bind_ret, Prog.pure_eq_ret]
  iapply (wp_wait_cell m ρ K c (.zr 3) (wpE_waitDma2_eq 𝒱₀ (c : Thread nD τ) none Set.univ (sem := zrS 3) (src := zSl c 3) (dst := zSl c 3)) 0 (W)) $$ [Hcz3 HO Haz3]
  · isplitr; · iexact HR
    isplitl [Hcz3]; · iexact Hcz3
    isplitl [HO]; · iexact HO
    isplitr; · rw [MayWait_zero]; iempintro
    iexact Haz3
  iintro ⟨HO, Haz3, Hpz3⟩
  iapply (wp_wait_cell m ρ K c (.zr 4) (wpE_waitDma2_eq 𝒱₀ (c : Thread nD τ) none Set.univ (sem := zrS 4) (src := zSl c 4) (dst := zSl c 4)) 0 (insert ((CK.zr 3).sem, ()) (W))) $$ [Hcz4 HO Haz4]
  · isplitr; · iexact HR
    isplitl [Hcz4]; · iexact Hcz4
    isplitl [HO]; · iexact HO
    isplitr; · rw [MayWait_zero]; iempintro
    iexact Haz4
  iintro ⟨HO, Haz4, Hpz4⟩
  iapply (wp_wait_cell m ρ K c (.zr 5) (wpE_waitDma2_eq 𝒱₀ (c : Thread nD τ) none Set.univ (sem := zrS 5) (src := zSl c 5) (dst := zSl c 5)) 0 (insert ((CK.zr 4).sem, ()) (insert ((CK.zr 3).sem, ()) (W)))) $$ [Hcz5 HO Haz5]
  · isplitr; · iexact HR
    isplitl [Hcz5]; · iexact Hcz5
    isplitl [HO]; · iexact HO
    isplitr; · rw [MayWait_zero]; iempintro
    iexact Haz5
  iintro ⟨HO, Haz5, Hpz5⟩
  rw [wp_ret]
  imodintro
  iapply Hk
  isplitl [HO]; · iexists _; iexact HO
  isplitl [Haz3 Hpz3]; · isplitl [Haz3] <;> iassumption
  isplitl [Haz4 Hpz4]; · isplitl [Haz4] <;> iassumption
  isplitl [Haz5] <;> iassumption

end Parts

/-- info: 'Cert.Kernel.AG.run_part11' depends on axioms: [propext, Classical.choice, Quot.sound] -/
#guard_msgs in #print axioms run_part11

/-- info: 'Cert.Kernel.AG.run_part12' depends on axioms: [propext, Classical.choice, Quot.sound] -/
#guard_msgs in #print axioms run_part12

/-- info: 'Cert.Kernel.AG.run_part13' depends on axioms: [propext, Classical.choice, Quot.sound] -/
#guard_msgs in #print axioms run_part13

end Cert.Kernel.AG

end
-- ==== Proof.KernelAG.PartsD.lean ====
/-
  Parts 14 and 15 of the body: the waits on the device's own send cells, which hand the source chunks back.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Levels
import proofs.«900663_g7700000000000664_dist_ag_v7x_xyz2x2x2_y_m1024_n512_bf16_1_alg».proof.Proof.KernelAG.Geom
import proofs.«900663_g7700000000000664_dist_ag_v7x_xyz2x2x2_y_m1024_n512_bf16_1_alg».proof.Proof.KernelAG.Land
import proofs.«900663_g7700000000000664_dist_ag_v7x_xyz2x2x2_y_m1024_n512_bf16_1_alg».proof.Proof.KernelAG.Steps
import proofs.«900663_g7700000000000664_dist_ag_v7x_xyz2x2x2_y_m1024_n512_bf16_1_alg».proof.Proof.KernelAG.BodyAux
import proofs.«900663_g7700000000000664_dist_ag_v7x_xyz2x2x2_y_m1024_n512_bf16_1_alg».proof.Proof.KernelAG.PartDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- A wait on a y send cell through the chunk's own memref is the shared wait clause at the cell and a chunk's credit. -/
private theorem hw_ys (c : Dev nD) (i : Fin 10) (h1 h2 : (ySl c i).view.WordExact) (Kp : PUnit → sProp 𝕄) :
    wpE (defs₀ (F := F)) 𝒱₀ (c : Thread nD τ) none Set.univ (.waitDma2 (ysS i) (ySl c i) (ySl c i) h1 h2) Kp
      = waitSpec (c : Thread nD τ) Set.univ (CK.ys i).sem (amt (.ys i)) Kp := rfl

/-- The same on a z send cell. -/
private theorem hw_zs (c : Dev nD) (i : Fin 6) (h1 h2 : (zSl c i).view.WordExact) (Kp : PUnit → sProp 𝕄) :
    wpE (defs₀ (F := F)) 𝒱₀ (c : Thread nD τ) none Set.univ (.waitDma2 (zsS i) (zSl c i) (zSl c i) h1 h2) Kp
      = waitSpec (c : Thread nD τ) Set.univ (CK.zs i).sem (amt (.zs i)) Kp := rfl

section Parts
variable (K : Dev nD × CK → ℕ)

/-- Part 14: the waits on send cells 0 to 5 along y. -/
theorem run_part14 (c : Dev nD) (Q : PUnit → sProp 𝕄) :
    iprop(records m ρ K ∗ ow c 18 ∗ wt c (.ys 0) ∗ wt c (.ys 1) ∗ wt c (.ys 2) ∗ wt c (.ys 3) ∗ wt c (.ys 4) ∗ wt c (.ys 5)
        ∗ ((ow c 18 ∗ wd m ρ c (.ys 0) ∗ wd m ρ c (.ys 1) ∗ wd m ρ c (.ys 2) ∗ wd m ρ c (.ys 3) ∗ wd m ρ c (.ys 4) ∗ wd m ρ c (.ys 5)) -∗ Q ⟨⟩))
      ⊢ wp frame (wpE (defs₀ (F := F)) 𝒱₀ (c : Thread nD τ) none) Set.univ
          (k0_part14 (Memref.whole cc0_stg0_0) (Memref.isWhole_whole _) (Memref.whole cc0_stg1_0) (Memref.isWhole_whole _)
            cc0_scratch0 cc0_scratch1 cc0_scratch2 cc0_scratch3 cc0_scratch4 c) Q := by
  unfold wt wd ow
  iintro ⟨#HR, ⟨%W, HO⟩, ⟨Hc0, Ha0⟩, ⟨Hc1, Ha1⟩, ⟨Hc2, Ha2⟩, ⟨Hc3, Ha3⟩, ⟨Hc4, Ha4⟩, ⟨Hc5, Ha5⟩, Hk⟩
  rw [k0_part14_eq_skeleton]; unfold k0_part14_skel
  simp only [Prog.lift, Prog.bind_op, Prog.bind_ret, Prog.pure_eq_ret]
  iapply (wp_wait_cell m ρ K c (.ys 0) (hw_ys c 0 _ _) (owedFrom c 18) (W)) $$ [Hc0 HO Ha0]
  · isplitr; · iexact HR
    isplitl [Hc0]; · iexact Hc0
    isplitl [HO]; · iexact HO
    isplitr; · rw [owedFrom_end, MayWait_zero]; iempintro
    iexact Ha0
  iintro ⟨HO, Ha0, Hp0⟩
  iapply (wp_wait_cell m ρ K c (.ys 1) (hw_ys c 1 _ _) (owedFrom c 18) (insert ((CK.ys 0).sem, ()) (W))) $$ [Hc1 HO Ha1]
  · isplitr; · iexact HR
    isplitl [Hc1]; · iexact Hc1
    isplitl [HO]; · iexact HO
    isplitr; · rw [owedFrom_end, MayWait_zero]; iempintro
    iexact Ha1
  iintro ⟨HO, Ha1, Hp1⟩
  iapply (wp_wait_cell m ρ K c (.ys 2) (hw_ys c 2 _ _) (owedFrom c 18) (insert ((CK.ys 1).sem, ()) (insert ((CK.ys 0).sem, ()) (W)))) $$ [Hc2 HO Ha2]
  · isplitr; · iexact HR
    isplitl [Hc2]; · iexact Hc2
    isplitl [HO]; · iexact HO
    isplitr; · rw [owedFrom_end, MayWait_zero]; iempintro
    iexact Ha2
  iintro ⟨HO, Ha2, Hp2⟩
  iapply (wp_wait_cell m ρ K c (.ys 3) (hw_ys c 3 _ _) (owedFrom c 18) (insert ((CK.ys 2).sem, ()) (insert ((CK.ys 1).sem, ()) (insert ((CK.ys 0).sem, ()) (W))))) $$ [Hc3 HO Ha3]
  · isplitr; · iexact HR
    isplitl [Hc3]; · iexact Hc3
    isplitl [HO]; · iexact HO
    isplitr; · rw [owedFrom_end, MayWait_zero]; iempintro
    iexact Ha3
  iintro ⟨HO, Ha3, Hp3⟩
  iapply (wp_wait_cell m ρ K c (.ys 4) (hw_ys c 4 _ _) (owedFrom c 18) (insert ((CK.ys 3).sem, ()) (insert ((CK.ys 2).sem, ()) (insert ((CK.ys 1).sem, ()) (insert ((CK.ys 0).sem, ()) (W)))))) $$ [Hc4 HO Ha4]
  · isplitr; · iexact HR
    isplitl [Hc4]; · iexact Hc4
    isplitl [HO]; · iexact HO
    isplitr; · rw [owedFrom_end, MayWait_zero]; iempintro
    iexact Ha4
  iintro ⟨HO, Ha4, Hp4⟩
  iapply (wp_wait_cell m ρ K c (.ys 5) (hw_ys c 5 _ _) (owedFrom c 18) (insert ((CK.ys 4).sem, ()) (insert ((CK.ys 3).sem, ()) (insert ((CK.ys 2).sem, ()) (insert ((CK.ys 1).sem, ()) (insert ((CK.ys 0).sem, ()) (W))))))) $$ [Hc5 HO Ha5]
  · isplitr; · iexact HR
    isplitl [Hc5]; · iexact Hc5
    isplitl [HO]; · iexact HO
    isplitr; · rw [owedFrom_end, MayWait_zero]; iempintro
    iexact Ha5
  iintro ⟨HO, Ha5, Hp5⟩
  rw [wp_ret]; imodintro; iapply Hk
  isplitl [HO]; · iexists _; iexact HO
  isplitl [Ha0 Hp0]
  · isplitl [Ha0]; · iexact Ha0
    iexact Hp0
  isplitl [Ha1 Hp1]
  · isplitl [Ha1]; · iexact Ha1
    iexact Hp1
  isplitl [Ha2 Hp2]
  · isplitl [Ha2]; · iexact Ha2
    iexact Hp2
  isplitl [Ha3 Hp3]
  · isplitl [Ha3]; · iexact Ha3
    iexact Hp3
  isplitl [Ha4 Hp4]
  · isplitl [Ha4]; · iexact Ha4
    iexact Hp4
  isplitl [Ha5]; · iexact Ha5
  iexact Hp5

/-- Part 15: the waits on send cells 6 to 9 along y and 0, 1 along z. -/
theorem run_part15 (c : Dev nD) (Q : PUnit → sProp 𝕄) :
    iprop(records m ρ K ∗ ow c 18 ∗ wt c (.ys 6) ∗ wt c (.ys 7) ∗ wt c (.ys 8) ∗ wt c (.ys 9) ∗ wt c (.zs 0) ∗ wt c (.zs 1)
        ∗ ((ow c 18 ∗ wd m ρ c (.ys 6) ∗ wd m ρ c (.ys 7) ∗ wd m ρ c (.ys 8) ∗ wd m ρ c (.ys 9) ∗ wd m ρ c (.zs 0) ∗ wd m ρ c (.zs 1)) -∗ Q ⟨⟩))
      ⊢ wp frame (wpE (defs₀ (F := F)) 𝒱₀ (c : Thread nD τ) none) Set.univ
          (k0_part15 (Memref.whole cc0_stg0_0) (Memref.isWhole_whole _) (Memref.whole cc0_stg1_0) (Memref.isWhole_whole _)
            cc0_scratch0 cc0_scratch1 cc0_scratch2 cc0_scratch3 cc0_scratch4 c) Q := by
  unfold wt wd ow
  iintro ⟨#HR, ⟨%W, HO⟩, ⟨Hc0, Ha0⟩, ⟨Hc1, Ha1⟩, ⟨Hc2, Ha2⟩, ⟨Hc3, Ha3⟩, ⟨Hc4, Ha4⟩, ⟨Hc5, Ha5⟩, Hk⟩
  rw [k0_part15_eq_skeleton]; unfold k0_part15_skel
  simp only [Prog.lift, Prog.bind_op, Prog.bind_ret, Prog.pure_eq_ret]
  iapply (wp_wait_cell m ρ K c (.ys 6) (hw_ys c 6 _ _) (owedFrom c 18) (W)) $$ [Hc0 HO Ha0]
  · isplitr; · iexact HR
    isplitl [Hc0]; · iexact Hc0
    isplitl [HO]; · iexact HO
    isplitr; · rw [owedFrom_end, MayWait_zero]; iempintro
    iexact Ha0
  iintro ⟨HO, Ha0, Hp0⟩
  iapply (wp_wait_cell m ρ K c (.ys 7) (hw_ys c 7 _ _) (owedFrom c 18) (insert ((CK.ys 6).sem, ()) (W))) $$ [Hc1 HO Ha1]
  · isplitr; · iexact HR
    isplitl [Hc1]; · iexact Hc1
    isplitl [HO]; · iexact HO
    isplitr; · rw [owedFrom_end, MayWait_zero]; iempintro
    iexact Ha1
  iintro ⟨HO, Ha1, Hp1⟩
  iapply (wp_wait_cell m ρ K c (.ys 8) (hw_ys c 8 _ _) (owedFrom c 18) (insert ((CK.ys 7).sem, ()) (insert ((CK.ys 6).sem, ()) (W)))) $$ [Hc2 HO Ha2]
  · isplitr; · iexact HR
    isplitl [Hc2]; · iexact Hc2
    isplitl [HO]; · iexact HO
    isplitr; · rw [owedFrom_end, MayWait_zero]; iempintro
    iexact Ha2
  iintro ⟨HO, Ha2, Hp2⟩
  iapply (wp_wait_cell m ρ K c (.ys 9) (hw_ys c 9 _ _) (owedFrom c 18) (insert ((CK.ys 8).sem, ()) (insert ((CK.ys 7).sem, ()) (insert ((CK.ys 6).sem, ()) (W))))) $$ [Hc3 HO Ha3]
  · isplitr; · iexact HR
    isplitl [Hc3]; · iexact Hc3
    isplitl [HO]; · iexact HO
    isplitr; · rw [owedFrom_end, MayWait_zero]; iempintro
    iexact Ha3
  iintro ⟨HO, Ha3, Hp3⟩
  iapply (wp_wait_cell m ρ K c (.zs 0) (hw_zs c 0 _ _) (owedFrom c 18) (insert ((CK.ys 9).sem, ()) (insert ((CK.ys 8).sem, ()) (insert ((CK.ys 7).sem, ()) (insert ((CK.ys 6).sem, ()) (W)))))) $$ [Hc4 HO Ha4]
  · isplitr; · iexact HR
    isplitl [Hc4]; · iexact Hc4
    isplitl [HO]; · iexact HO
    isplitr; · rw [owedFrom_end, MayWait_zero]; iempintro
    iexact Ha4
  iintro ⟨HO, Ha4, Hp4⟩
  iapply (wp_wait_cell m ρ K c (.zs 1) (hw_zs c 1 _ _) (owedFrom c 18) (insert ((CK.zs 0).sem, ()) (insert ((CK.ys 9).sem, ()) (insert ((CK.ys 8).sem, ()) (insert ((CK.ys 7).sem, ()) (insert ((CK.ys 6).sem, ()) (W))))))) $$ [Hc5 HO Ha5]
  · isplitr; · iexact HR
    isplitl [Hc5]; · iexact Hc5
    isplitl [HO]; · iexact HO
    isplitr; · rw [owedFrom_end, MayWait_zero]; iempintro
    iexact Ha5
  iintro ⟨HO, Ha5, Hp5⟩
  rw [wp_ret]; imodintro; iapply Hk
  isplitl [HO]; · iexists _; iexact HO
  isplitl [Ha0 Hp0]
  · isplitl [Ha0]; · iexact Ha0
    iexact Hp0
  isplitl [Ha1 Hp1]
  · isplitl [Ha1]; · iexact Ha1
    iexact Hp1
  isplitl [Ha2 Hp2]
  · isplitl [Ha2]; · iexact Ha2
    iexact Hp2
  isplitl [Ha3 Hp3]
  · isplitl [Ha3]; · iexact Ha3
    iexact Hp3
  isplitl [Ha4 Hp4]
  · isplitl [Ha4]; · iexact Ha4
    iexact Hp4
  isplitl [Ha5]; · iexact Ha5
  iexact Hp5

end Parts

/-- info: 'Cert.Kernel.AG.run_part14' depends on axioms: [propext, Classical.choice, Quot.sound] -/
#guard_msgs in #print axioms run_part14

/-- info: 'Cert.Kernel.AG.run_part15' depends on axioms: [propext, Classical.choice, Quot.sound] -/
#guard_msgs in #print axioms run_part15

end Cert.Kernel.AG

end
-- ==== Proof.KernelAG.Body.lean ====
/-
  One device's body, stepped once at a symbolic device: the two entry signals, the store of the own block, the barrier wait and the
  first two direct copies here; the other parts by their own lemmas, composed along the body's sequence; then the last four waits,
  the cells closed and the result buffer put together again at its final contents.
-/
import proofs.«900663_g7700000000000664_dist_ag_v7x_xyz2x2x2_y_m1024_n512_bf16_1_alg».proof.Proof.KernelAG.State
import proofs.«900663_g7700000000000664_dist_ag_v7x_xyz2x2x2_y_m1024_n512_bf16_1_alg».proof.Proof.KernelAG.Sched
import proofs.«900663_g7700000000000664_dist_ag_v7x_xyz2x2x2_y_m1024_n512_bf16_1_alg».proof.Proof.KernelAG.Levels
import proofs.«900663_g7700000000000664_dist_ag_v7x_xyz2x2x2_y_m1024_n512_bf16_1_alg».proof.Proof.KernelAG.Geom
import proofs.«900663_g7700000000000664_dist_ag_v7x_xyz2x2x2_y_m1024_n512_bf16_1_alg».proof.Proof.KernelAG.Land
import proofs.«900663_g7700000000000664_dist_ag_v7x_xyz2x2x2_y_m1024_n512_bf16_1_alg».proof.Proof.KernelAG.Steps
import proofs.«900663_g7700000000000664_dist_ag_v7x_xyz2x2x2_y_m1024_n512_bf16_1_alg».proof.Proof.KernelAG.BodyAux
import proofs.«900663_g7700000000000664_dist_ag_v7x_xyz2x2x2_y_m1024_n512_bf16_1_alg».proof.Proof.KernelAG.PartDefs
import proofs.«900663_g7700000000000664_dist_ag_v7x_xyz2x2x2_y_m1024_n512_bf16_1_alg».proof.Proof.KernelAG.PartsA
import proofs.«900663_g7700000000000664_dist_ag_v7x_xyz2x2x2_y_m1024_n512_bf16_1_alg».proof.Proof.KernelAG.PartsB
import proofs.«900663_g7700000000000664_dist_ag_v7x_xyz2x2x2_y_m1024_n512_bf16_1_alg».proof.Proof.KernelAG.PartsC
import proofs.«900663_g7700000000000664_dist_ag_v7x_xyz2x2x2_y_m1024_n512_bf16_1_alg».proof.Proof.KernelAG.PartsD

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CK → ℕ)

omit [FloatOps F] in
/-- A persistent fact serves every member of a family. -/
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every waited cell of the kernel's own closes: their counters at zero are the device's again. -/
theorem close_all (c : Dev nD) :
    iprop(records m ρ K ∗ bigSep (Finset.univ.erase CK.bar) fun k : CK => atPos ER (cell c k) 1 ∅ 0) ⊢ iprop(|={Set.univ}=> Φ₁ c) :=
  (bigSep_with_persistent' (fun k _ => close_cell m ρ K c k)).trans (bigSep_fupd _ _)

/-- What the barrier cell pays its owner: the ten chunks of the y-partner's buffer that the owner's direct copies write. -/
theorem pay_bar (c : Dev nD) :
    pay m ρ c .bar = bigSep Finset.univ fun i : Fin 10 => iprop(∃ f, chunkPts (ynb c) (ySl c i) f) := rfl
/-- What the z-ready cell pays its owner: the six chunks of the z-partner's buffer that the owner's forwarding copies write. -/
theorem pay_zbar (c : Dev nD) :
    pay m ρ c .zbar = bigSep Finset.univ fun i : Fin 6 => iprop(∃ f, chunkPts (znb c) (zSl c i) f) := rfl

/-- A y receive cell pays the landed chunk at its final contents. -/
theorem pay_yr (c : Dev nD) (i : Fin 10) : pay m ρ c (.yr i) = chunkPts c (ySl (ynb c) i) (fin m ρ c) := rfl
/-- The ten y send cells pay the source chunks back. -/
theorem pay_ys_all (c : Dev nD) :
    (bigSep Finset.univ fun i : Fin 10 => pay m ρ c (.ys i)) = bigSep Finset.univ fun i : Fin 10 => chunkPts c (ySl c i) (fin m ρ c) := rfl
/-- The six z receive cells pay the forwarded landings. -/
theorem pay_zr_all (c : Dev nD) :
    (bigSep Finset.univ fun u : Fin 6 => pay m ρ c (.zr u)) = bigSep Finset.univ fun u : Fin 6 => chunkPts c (zSl (znb c) u) (fin m ρ c) := rfl
/-- A z send cell pays the forwarded source back: the rows direct copy `j = i` of the y-partner wrote. -/
theorem pay_zs_back (c : Dev nD) (i : Fin 6) (j : Fin 10) (h : Fin.castLE six_le_ten i = j) :
    pay m ρ c (.zs i) = chunkPts c (ySl (ynb c) j) (fin m ρ c) := by
  subst h; exact zsrc_eq c i _

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt := by
  unfold bodyPre ghost
  iintro ⟨⟨⟨⟨#HR, Hpos, Htok⟩, Hcr, #Hlev⟩, Ho, ⟨%d0, %g0, %hg0, Hx⟩, ⟨%d1, %g1, %hg1, Hout⟩⟩, Hk⟩
  have hx : g0 = xstg m ρ c := by rw [hg0]; exact before_x m ρ c d0
  subst hx
  unfold Dat.owesAt Pipeline.owesWithin
  icases Ho with ⟨%W, %hW, HO⟩
  rw [show (dats m ρ 0 c).owed t₀.castSucc = owedFrom c 0 from rfl]
  -- positions, tokens and credit, one by one
  unfold positions payToks creds
  ihave Hp := (Entails.of_eq (ck_flat _)) $$ Hpos
  icases Hp with ⟨aB, aZ, aS0, aS1, aS2, aS3, aS4, aS5, aS6, aS7, aS8, aS9, aR0, aR1, aR2, aR3, aR4, aR5, aR6, aR7, aR8, aR9,
    aT0, aT1, aT2, aT3, aT4, aT5, aU0, aU1, aU2, aU3, aU4, aU5⟩
  icases Htok with ⟨tB, tZ, TS, TR, TT, TU⟩
  ihave TS := (Entails.of_eq (fin10 _)) $$ TS
  icases TS with ⟨tS0, tS1, tS2, tS3, tS4, tS5, tS6, tS7, tS8, tS9⟩
  ihave TR := (Entails.of_eq (fin10 _)) $$ TR
  icases TR with ⟨tR0, tR1, tR2, tR3, tR4, tR5, tR6, tR7, tR8, tR9⟩
  ihave TT := (Entails.of_eq (fin6 _)) $$ TT
  icases TT with ⟨tT0, tT1, tT2, tT3, tT4, tT5⟩
  ihave TU := (Entails.of_eq (fin6 _)) $$ TU
  icases TU with ⟨tU0, tU1, tU2, tU3, tU4, tU5⟩
  icases Hcr with ⟨cB, cZ, CR, CU⟩
  ihave CR := (Entails.of_eq (fin10 _)) $$ CR
  icases CR with ⟨cR0, cR1, cR2, cR3, cR4, cR5, cR6, cR7, cR8, cR9⟩
  ihave CU := (Entails.of_eq (fin6 _)) $$ CU
  icases CU with ⟨cU0, cU1, cU2, cU3, cU4, cU5⟩
  -- the result buffer cut: the own half, the ten direct landings, the six forwarded landings
  ihave Hs := (whole_split c g1).1 $$ Hout
  icases Hs with ⟨Hmine, HLY, HLZ⟩
  -- the body's sequence of parts
  rw [cc0_body_eq_skeleton]; unfold cc0_body_skel
  simp only [wp_bind]
  -- PART 1: the two entry signals, the load of the own block
  rw [k0_part1_eq_skeleton]; unfold k0_part1_skel
  simp only [semSignalWord, semWaitWord, Prog.lift, Prog.bind_op, Prog.bind_ret, Prog.pure_eq_ret, wp_deviceId]
  iapply (wp_sig_bar m ρ K c _ (dev1_eq c) (owedFrom c 1) W) $$ [HO tB HLY]
  · isplitr; · iexact HR
    isplitl [HO]; · iexact HO
    isplitl [tB]; · iexact tB
    iapply (give_bar m ρ c g1); iexact HLY
  iintro HO
  iapply (wp_sig_zbar m ρ K c _ (dev2_eq c) (owedFrom c 2) W) $$ [HO tZ HLZ]
  · isplitr; · iexact HR
    isplitl [HO]; · iexact HO
    isplitl [tZ]; · iexact tZ
    iapply (give_zbar m ρ c g1); iexact HLZ
  iintro HO
  iapply (wp_load 𝒱₀ (c : Thread nD τ) none Set.univ (m := xM) (Finset.subset_univ _)) $$ Hx; iintro Hx
  rw [read_x]
  rw [wp_ret]; imodintro
  dsimp only
  -- PART 2: the store of the own block into the own half, the barrier wait, direct copies 0 and 1
  rw [k0_part2_eq_skeleton]; unfold k0_part2_skel
  simp only [semSignalWord, semWaitWord, Prog.lift, Prog.bind_op, Prog.bind_ret, Prog.pure_eq_ret]
  iapply (wp_load_rect 𝒱₀ (c : Thread nD τ) none Set.univ (m := oM) (r := mineRect c) (S := mineSet c)
    (by unfold mineSet; exact Finset.Subset.refl _)) $$ Hmine; iintro Hmine
  iapply (wp_store 𝒱₀ (c : Thread nD τ) none Set.univ (m := oM) (r := mineRect c) (Mk := Finset.univ) (S := mineSet c)
    (by unfold mineSet; exact Finset.Subset.refl _)) $$ Hmine; iintro Hmine
  rw [show k0_pay1 (xstg m ρ c) = X m ρ c from rfl]
  ihave Hmine := (Entails.of_eq (pointsTo_congr (stored_eq_fin m ρ c g1))) $$ Hmine
  ihave Hm := (mine_split c (fin m ρ c)).1 $$ Hmine
  icases Hm with ⟨HY, HU⟩
  ihave HY := (Entails.of_eq (fin10 _)) $$ HY
  icases HY with ⟨Y0, Y1, Y2, Y3, Y4, Y5, Y6, Y7, Y8, Y9⟩
  iapply (wp_wait_cell m ρ K c .bar (wpE_semWait_eq 𝒱₀ (c : Thread nD τ) none Set.univ (sem := barS) (k := 1)) (owedFrom c 2) W) $$ [cB HO aB]
  · isplitr; · iexact HR
    isplitl [cB]; · iexact cB
    isplitl [HO]; · iexact HO
    isplitr; · iapply (mayWait_bar c); iexact Hlev
    iexact aB
  iintro ⟨HO, aB, HD⟩
  ihave HD := (Entails.of_eq ((pay_bar m ρ c).trans (fin10 _))) $$ HD
  icases HD with ⟨D0, D1, D2, D3, D4, D5, D6, D7, D8, D9⟩
  icases D0 with ⟨%fd0, D0⟩
  iapply (wp_ysend m ρ K c _ (dev3_eq c) 0 fd0 (owedFrom c 3) _) $$ [Y0 D0 HO tS0 tR0]
  · isplitr; · iexact HR
    isplitl [Y0]; · iexact Y0
    isplitl [D0]; · iexact D0
    isplitl [HO]; · iexact HO
    isplitl [tS0]; · iexact tS0
    iexact tR0
  iintro ⟨cS0, HO⟩
  icases D1 with ⟨%fd1, D1⟩
  iapply (wp_ysend m ρ K c _ (dev4_eq c) 1 fd1 (owedFrom c 4) _) $$ [Y1 D1 HO tS1 tR1]
  · isplitr; · iexact HR
    isplitl [Y1]; · iexact Y1
    isplitl [D1]; · iexact D1
    isplitl [HO]; · iexact HO
    isplitl [tS1]; · iexact tS1
    iexact tR1
  iintro ⟨cS1, HO⟩
  rw [wp_ret]; imodintro
  dsimp only
  -- PART 3
  iapply (run_part3 m ρ K c _ _ _ _ _ _ _ _)
  unfold sy ow cy
  isplitr; · iexact HR
  isplitl [HO]; · iexists _; iexact HO
  isplitl [Y2 D2 tS2 tR2]
  · isplitl [Y2]; · iexact Y2
    isplitl [D2]; · iexact D2
    isplitl [tS2]; · iexact tS2
    iexact tR2
  isplitl [Y3 D3 tS3 tR3]
  · isplitl [Y3]; · iexact Y3
    isplitl [D3]; · iexact D3
    isplitl [tS3]; · iexact tS3
    iexact tR3
  iintro %a3 ⟨⟨%W3, HO⟩, cS2, cS3⟩
  -- PART 4
  iapply (run_part4 m ρ K c _ _ _ _ _ _)
  unfold sy ow cy
  isplitr; · iexact HR
  isplitl [HO]; · iexists _; iexact HO
  isplitl [Y4 D4 tS4 tR4]
  · isplitl [Y4]; · iexact Y4
    isplitl [D4]; · iexact D4
    isplitl [tS4]; · iexact tS4
    iexact tR4
  isplitl [Y5 D5 tS5 tR5]
  · isplitl [Y5]; · iexact Y5
    isplitl [D5]; · iexact D5
    isplitl [tS5]; · iexact tS5
    iexact tR5
  iintro ⟨⟨%W4, HO⟩, cS4, cS5⟩
  -- PART 5
  iapply (run_part5 m ρ K c _ _ _ _)
  unfold sy ow cy
  isplitr; · iexact HR
  isplitl [HO]; · iexists _; iexact HO
  isplitl [Y6 D6 tS6 tR6]
  · isplitl [Y6]; · iexact Y6
    isplitl [D6]; · iexact D6
    isplitl [tS6]; · iexact tS6
    iexact tR6
  isplitl [Y7 D7 tS7 tR7]
  · isplitl [Y7]; · iexact Y7
    isplitl [D7]; · iexact D7
    isplitl [tS7]; · iexact tS7
    iexact tR7
  isplitl [Y8 D8 tS8 tR8]
  · isplitl [Y8]; · iexact Y8
    isplitl [D8]; · iexact D8
    isplitl [tS8]; · iexact tS8
    iexact tR8
  iintro %a5 ⟨⟨%W5, HO⟩, cS6, cS7, cS8⟩
  -- PART 6
  iapply (run_part6 m ρ K c _ _ _ _ _ _ _ _ _)
  unfold sy ow cy wt wd
  isplitr; · iexact HR
  isplitr; · iexact Hlev
  isplitl [HO]; · iexists _; iexact HO
  isplitl [Y9 D9 tS9 tR9]
  · isplitl [Y9]; · iexact Y9
    isplitl [D9]; · iexact D9
    isplitl [tS9]; · iexact tS9
    iexact tR9
  isplitl [cZ aZ]
  · isplitl [cZ]; · iexact cZ
    iexact aZ
  isplitl [cR0 aR0]
  · isplitl [cR0]; · iexact cR0
    iexact aR0
  iintro ⟨⟨%W6, HO⟩, cS9, ⟨aZ, HE⟩, ⟨aR0, P0⟩⟩
  ihave HE := (Entails.of_eq ((pay_zbar m ρ c).trans (fin6 _))) $$ HE
  icases HE with ⟨E0, E1, E2, E3, E4, E5⟩
  -- PART 7
  iapply (run_part7 m ρ K c _ _ _ _ _ _ _)
  unfold sz ow cz wt
  isplitr; · iexact HR
  isplitr; · iexact Hlev
  isplitl [HO]; · iexists _; iexact HO
  isplitl [P0]; · iexact P0
  isplitl [E0 tT0 tU0]
  · isplitl [E0]; · iexact E0
    isplitl [tT0]; · iexact tT0
    iexact tU0
  isplitl [cR1 aR1]
  · isplitl [cR1]; · iexact cR1
    iexact aR1
  isplitl [E1 tT1 tU1]
  · isplitl [E1]; · iexact E1
    isplitl [tT1]; · iexact tT1
    iexact tU1
  iintro ⟨⟨%W7, HO⟩, cT0, cT1, aR1⟩
  -- PART 8
  iapply (run_part8 m ρ K c _ _ _ _ _ _ _)
  unfold sz ow cz wt wd
  isplitr; · iexact HR
  isplitr; · iexact Hlev
  isplitl [HO]; · iexists _; iexact HO
  isplitl [cR2 aR2]
  · isplitl [cR2]; · iexact cR2
    iexact aR2
  isplitl [E2 tT2 tU2]
  · isplitl [E2]; · iexact E2
    isplitl [tT2]; · iexact tT2
    iexact tU2
  isplitl [cR3 aR3]
  · isplitl [cR3]; · iexact cR3
    iexact aR3
  iintro %a8 ⟨⟨%W8, HO⟩, cT2, aR2, ⟨aR3, P3⟩⟩
  -- PART 9
  iapply (run_part9 m ρ K c _ _ _ _ _ _ _ _ _)
  unfold sz ow cz wt wd
  isplitr; · iexact HR
  isplitr; · iexact Hlev
  isplitl [HO]; · iexists _; iexact HO
  isplitl [P3]; · iexact P3
  isplitl [E3 tT3 tU3]
  · isplitl [E3]; · iexact E3
    isplitl [tT3]; · iexact tT3
    iexact tU3
  isplitl [cR4 aR4]
  · isplitl [cR4]; · iexact cR4
    iexact aR4
  iintro ⟨⟨%W9, HO⟩, cT3, ⟨aR4, P4⟩⟩
  -- PART 10
  iapply (run_part10 m ρ K c _ _ _ _ _ _ _)
  unfold sz ow cz wt
  isplitr; · iexact HR
  isplitr; · iexact Hlev
  isplitl [HO]; · iexists _; iexact HO
  isplitl [P4]; · iexact P4
  isplitl [E4 tT4 tU4]
  · isplitl [E4]; · iexact E4
    isplitl [tT4]; · iexact tT4
    iexact tU4
  isplitl [cR5 aR5]
  · isplitl [cR5]; · iexact cR5
    iexact aR5
  isplitl [E5 tT5 tU5]
  · isplitl [E5]; · iexact E5
    isplitl [tT5]; · iexact tT5
    iexact tU5
  iintro ⟨⟨%W10, HO⟩, cT4, cT5, aR5⟩
  -- PART 11
  iapply (run_part11 m ρ K c _ _ _)
  unfold ow wt wd
  isplitr; · iexact HR
  isplitl [HO]; · iexists _; iexact HO
  isplitl [cR6 aR6]
  · isplitl [cR6]; · iexact cR6
    iexact aR6
  isplitl [cR7 aR7]
  · isplitl [cR7]; · iexact cR7
    iexact aR7
  isplitl [cR8 aR8]
  · isplitl [cR8]; · iexact cR8
    iexact aR8
  iintro ⟨⟨%W11, HO⟩, ⟨aR6, P6⟩, ⟨aR7, P7⟩, ⟨aR8, P8⟩⟩
  -- PART 12
  iapply (run_part12 m ρ K c _ _ _)
  unfold ow wt wd
  isplitr; · iexact HR
  isplitl [HO]; · iexists _; iexact HO
  isplitl [cR9 aR9]
  · isplitl [cR9]; · iexact cR9
    iexact aR9
  isplitl [cU0 aU0]
  · isplitl [cU0]; · iexact cU0
    iexact aU0
  isplitl [cU1 aU1]
  · isplitl [cU1]; · iexact cU1
    iexact aU1
  isplitl [cU2 aU2]
  · isplitl [cU2]; · iexact cU2
    iexact aU2
  iintro ⟨⟨%W12, HO⟩, ⟨aR9, P9⟩, ⟨aU0, Q0⟩, ⟨aU1, Q1⟩, ⟨aU2, Q2⟩⟩
  -- PART 13
  iapply (run_part13 m ρ K c _ _ _)
  unfold ow wt wd
  isplitr; · iexact HR
  isplitl [HO]; · iexists _; iexact HO
  isplitl [cU3 aU3]
  · isplitl [cU3]; · iexact cU3
    iexact aU3
  isplitl [cU4 aU4]
  · isplitl [cU4]; · iexact cU4
    iexact aU4
  isplitl [cU5 aU5]
  · isplitl [cU5]; · iexact cU5
    iexact aU5
  iintro ⟨⟨%W13, HO⟩, ⟨aU3, Q3⟩, ⟨aU4, Q4⟩, ⟨aU5, Q5⟩⟩
  -- PART 14
  iapply (run_part14 m ρ K c)
  unfold ow wt wd
  isplitr; · iexact HR
  isplitl [HO]; · iexists _; iexact HO
  isplitl [cS0 aS0]
  · isplitl [cS0]; · iexact cS0
    iexact aS0
  isplitl [cS1 aS1]
  · isplitl [cS1]; · iexact cS1
    iexact aS1
  isplitl [cS2 aS2]
  · isplitl [cS2]; · iexact cS2
    iexact aS2
  isplitl [cS3 aS3]
  · isplitl [cS3]; · iexact cS3
    iexact aS3
  isplitl [cS4 aS4]
  · isplitl [cS4]; · iexact cS4
    iexact aS4
  isplitl [cS5 aS5]
  · isplitl [cS5]; · iexact cS5
    iexact aS5
  iintro ⟨⟨%W14, HO⟩, ⟨aS0, Y0⟩, ⟨aS1, Y1⟩, ⟨aS2, Y2⟩, ⟨aS3, Y3⟩, ⟨aS4, Y4⟩, ⟨aS5, Y5⟩⟩
  -- PART 15
  iapply (run_part15 m ρ K c)
  unfold ow wt wd
  isplitr; · iexact HR
  isplitl [HO]; · iexists _; iexact HO
  isplitl [cS6 aS6]
  · isplitl [cS6]; · iexact cS6
    iexact aS6
  isplitl [cS7 aS7]
  · isplitl [cS7]; · iexact cS7
    iexact aS7
  isplitl [cS8 aS8]
  · isplitl [cS8]; · iexact cS8
    iexact aS8
  isplitl [cS9 aS9]
  · isplitl [cS9]; · iexact cS9
    iexact aS9
  isplitl [cT0 aT0]
  · isplitl [cT0]; · iexact cT0
    iexact aT0
  isplitl [cT1 aT1]
  · isplitl [cT1]; · iexact cT1
    iexact aT1
  iintro ⟨⟨%W15, HO⟩, ⟨aS6, Y6⟩, ⟨aS7, Y7⟩, ⟨aS8, Y8⟩, ⟨aS9, Y9⟩, ⟨aT0, Z0⟩, ⟨aT1, Z1⟩⟩
  -- the last four waits: the send cells 2 to 5 along z
  iapply (wp_wait_cell m ρ K c (.zs 2) (wpE_waitDma2_eq 𝒱₀ (c : Thread nD τ) none Set.univ (sem := zsS 2) (src := zSl c 2) (dst := zSl c 2))
    (owedFrom c 18) _) $$ [cT2 HO aT2]
  · isplitr; · iexact HR
    isplitl [cT2]; · iexact cT2
    isplitl [HO]; · iexact HO
    isplitr; · rw [owedFrom_end, MayWait_zero]; iempintro
    iexact aT2
  iintro ⟨HO, aT2, Z2⟩
  rw [wp_ret]; imodintro
  iapply (wp_wait_cell m ρ K c (.zs 3) (wpE_waitDma2_eq 𝒱₀ (c : Thread nD τ) none Set.univ (sem := zsS 3) (src := zSl c 3) (dst := zSl c 3))
    (owedFrom c 18) _) $$ [cT3 HO aT3]
  · isplitr; · iexact HR
    isplitl [cT3]; · iexact cT3
    isplitl [HO]; · iexact HO
    isplitr; · rw [owedFrom_end, MayWait_zero]; iempintro
    iexact aT3
  iintro ⟨HO, aT3, Z3⟩
  rw [wp_ret]; imodintro
  iapply (wp_wait_cell m ρ K c (.zs 4) (wpE_waitDma2_eq 𝒱₀ (c : Thread nD τ) none Set.univ (sem := zsS 4) (src := zSl c 4) (dst := zSl c 4))
    (owedFrom c 18) _) $$ [cT4 HO aT4]
  · isplitr; · iexact HR
    isplitl [cT4]; · iexact cT4
    isplitl [HO]; · iexact HO
    isplitr; · rw [owedFrom_end, MayWait_zero]; iempintro
    iexact aT4
  iintro ⟨HO, aT4, Z4⟩
  rw [wp_ret]; imodintro
  iapply (wp_wait_cell m ρ K c (.zs 5) (wpE_waitDma2_eq 𝒱₀ (c : Thread nD τ) none Set.univ (sem := zsS 5) (src := zSl c 5) (dst := zSl c 5))
    (owedFrom c 18) _) $$ [cT5 HO aT5]
  · isplitr; · iexact HR
    isplitl [cT5]; · iexact cT5
    isplitl [HO]; · iexact HO
    isplitr; · rw [owedFrom_end, MayWait_zero]; iempintro
    iexact aT5
  iintro ⟨HO, aT5, Z5⟩
  rw [wp_ret]; imodintro
  -- every own cell closes
  ihave HA := (Entails.of_eq (ck_flat_erase (fun k : CK => atPos ER (cell c k) 1 ∅ 0)).symm) $$
    [aZ aS0 aS1 aS2 aS3 aS4 aS5 aS6 aS7 aS8 aS9 aR0 aR1 aR2 aR3 aR4 aR5 aR6 aR7 aR8 aR9 aT0 aT1 aT2 aT3 aT4 aT5 aU0 aU1 aU2 aU3 aU4 aU5]
  · isplitl [aZ]; · iexact aZ
    isplitl [aS0]; · iexact aS0
    isplitl [aS1]; · iexact aS1
    isplitl [aS2]; · iexact aS2
    isplitl [aS3]; · iexact aS3
    isplitl [aS4]; · iexact aS4
    isplitl [aS5]; · iexact aS5
    isplitl [aS6]; · iexact aS6
    isplitl [aS7]; · iexact aS7
    isplitl [aS8]; · iexact aS8
    isplitl [aS9]; · iexact aS9
    isplitl [aR0]; · iexact aR0
    isplitl [aR1]; · iexact aR1
    isplitl [aR2]; · iexact aR2
    isplitl [aR3]; · iexact aR3
    isplitl [aR4]; · iexact aR4
    isplitl [aR5]; · iexact aR5
    isplitl [aR6]; · iexact aR6
    isplitl [aR7]; · iexact aR7
    isplitl [aR8]; · iexact aR8
    isplitl [aR9]; · iexact aR9
    isplitl [aT0]; · iexact aT0
    isplitl [aT1]; · iexact aT1
    isplitl [aT2]; · iexact aT2
    isplitl [aT3]; · iexact aT3
    isplitl [aT4]; · iexact aT4
    isplitl [aT5]; · iexact aT5
    isplitl [aU0]; · iexact aU0
    isplitl [aU1]; · iexact aU1
    isplitl [aU2]; · iexact aU2
    isplitl [aU3]; · iexact aU3
    isplitl [aU4]; · iexact aU4
    iexact aU5
  imod (close_all m ρ K c) $$ [HA] with HΦ
  · isplitr; · iexact HR
    iexact HA
  -- the own half put together: the ten chunks the send cells handed back, the six never sent
  ihave HY := (Entails.of_eq (fin10 (fun i : Fin 10 => pay m ρ c (.ys i))).symm) $$ [Y0 Y1 Y2 Y3 Y4 Y5 Y6 Y7 Y8 Y9]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    iexact Y9
  ihave HY := (Entails.of_eq (pay_ys_all m ρ c)) $$ HY
  ihave Hmine := (mine_split c (fin m ρ c)).2 $$ [HY HU]
  · isplitl [HY]; · iexact HY
    iexact HU
  -- the other half: the forwarded sources back (the rows direct copies 0 to 5 of the partner wrote), the landings 6 to 9, the six forwarded landings
  ihave Z0 := (Entails.of_eq (pay_zs_back m ρ c 0 0 rfl)) $$ Z0
  ihave Z1 := (Entails.of_eq (pay_zs_back m ρ c 1 1 rfl)) $$ Z1
  ihave Z2 := (Entails.of_eq (pay_zs_back m ρ c 2 2 rfl)) $$ Z2
  ihave Z3 := (Entails.of_eq (pay_zs_back m ρ c 3 3 rfl)) $$ Z3
  ihave Z4 := (Entails.of_eq (pay_zs_back m ρ c 4 4 rfl)) $$ Z4
  ihave Z5 := (Entails.of_eq (pay_zs_back m ρ c 5 5 rfl)) $$ Z5
  ihave P6 := (Entails.of_eq (pay_yr m ρ c 6)) $$ P6
  ihave P7 := (Entails.of_eq (pay_yr m ρ c 7)) $$ P7
  ihave P8 := (Entails.of_eq (pay_yr m ρ c 8)) $$ P8
  ihave P9 := (Entails.of_eq (pay_yr m ρ c 9)) $$ P9
  ihave HLY := (Entails.of_eq (fin10 (fun i : Fin 10 => chunkPts c (ySl (ynb c) i) (fin m ρ c))).symm) $$ [Z0 Z1 Z2 Z3 Z4 Z5 P6 P7 P8 P9]
  · isplitl [Z0]; · iexact Z0
    isplitl [Z1]; · iexact Z1
    isplitl [Z2]; · iexact Z2
    isplitl [Z3]; · iexact Z3
    isplitl [Z4]; · iexact Z4
    isplitl [Z5]; · iexact Z5
    isplitl [P6]; · iexact P6
    isplitl [P7]; · iexact P7
    isplitl [P8]; · iexact P8
    iexact P9
  ihave HLZ := (Entails.of_eq (fin6 (fun u : Fin 6 => pay m ρ c (.zr u))).symm) $$ [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  ihave HLZ := (Entails.of_eq (pay_zr_all m ρ c)) $$ HLZ
  ihave Hout := (whole_split c (fin m ρ c)).2 $$ [Hmine HLY HLZ]
  · isplitl [Hmine]; · iexact Hmine
    isplitl [HLY]; · iexact HLY
    iexact HLZ
  rw [wp_ret]; imodintro
  iapply Hk
  unfold bodyPost Dat.owesAt Pipeline.owesWithin
  rw [show (dats m ρ 0 c).owed t₀.succ = 0 from rfl]
  isplitl [HΦ]; · iexact HΦ
  isplitl [HO]
  · iexists (insert ((CK.zs 5).sem, ()) (insert ((CK.zs 4).sem, ()) (insert ((CK.zs 3).sem, ()) (insert ((CK.zs 2).sem, ()) W15))))
    isplitr; · (ipureintro; exact fun _ _ => Or.inl trivial)
    iexact HO
  isplitl [Hx]
  · iexists _; isplitr; · (ipureintro; rfl)
    iexact Hx
  iexists _; isplitr; · (ipureintro; rfl)
  iexact Hout

/-- info: 'Cert.Kernel.AG.sound_body' depends on axioms: [propext, Classical.choice, Quot.sound] -/
#guard_msgs in #print axioms sound_body

end Body

end Cert.Kernel.AG

end
-- ==== Proof.KernelAG.Oblig.lean ====
/-
  The library's body obligation from the stepped body.
-/
import proofs.«900663_g7700000000000664_dist_ag_v7x_xyz2x2x2_y_m1024_n512_bf16_1_alg».proof.Proof.KernelAG.Body

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The windows conjoined one by one. -/
theorem bigSep_W (Φ : Fin cfg0.W → sProp 𝕄) : bigSep Finset.univ Φ = iprop(Φ (0 : Fin 2) ∗ Φ (1 : Fin 2)) := bigSep_W0 Φ

omit [FloatOps F] in
/-- Owning a whole buffer through its own memref and reading `X` is holding the buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the obligation hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  unfold bodyPre' Φ₀ start
  iintro ⟨⟨⟨%K, Hg⟩, Hc, Hl⟩, Ho, Hx, Hout⟩
  iapply (sound_body m ρ K c fun _ => bodyPost m ρ c)
  unfold bodyPre
  isplitr []
  · isplitl [Hg Hc Hl]
    · isplitl [Hg]; · iexact Hg
      isplitl [Hc]; · iexact Hc
      iexact Hl
    isplitl [Ho]; · iexact Ho
    isplitl [Hx]; · iexact Hx
    iexact Hout
  · iintro H; iexact H

/-- info: 'Cert.Kernel.AG.owns_whole_eq' depends on axioms: [propext, Classical.choice, Quot.sound] -/
#guard_msgs in #print axioms owns_whole_eq

/-- info: 'Cert.Kernel.AG.body_obligation' depends on axioms: [propext, Classical.choice, Quot.sound] -/
#guard_msgs in #print axioms body_obligation

end Cert.Kernel.AG

end
-- ==== Proof.KernelAG.Launch.lean ====
/-
  The launch: the protocol's cells funded and allocated for all devices at once, each device dealt its positions, the tokens of the
  duties it pays and its launch credit, and the run of @main on the eight devices.
-/
import proofs.«900663_g7700000000000664_dist_ag_v7x_xyz2x2x2_y_m1024_n512_bf16_1_alg».proof.Proof.KernelAG.Oblig

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped semaphores: every protocol cell's but the barrier's. -/
private abbrev osem : {k : CK // k ≠ CK.bar} → SemLoc sig := fun k => k.1.sem

private theorem sem_scoped : ∀ k : CK, k ≠ CK.bar → (k.sem).isScoped .tc = true := by decide
private theorem sem_not_stage : ∀ (k : CK) (w : Fin cfg0.W) (s : Fin (cfg0.spec w).nbuf), k.sem ≠ .dma ((cfg0.spec w).sem s) := by decide

private theorem ownSemFacts : Pipeline.OwnSemFacts cfg0.spec osem :=
  ⟨fun k => sem_scoped k.1 k.2, fun a b h => Subtype.ext (sem_injective h), fun k w s => sem_not_stage k.1 w s⟩

private theorem share_eq (c : Dev nD) (w : Fin cfg0.W) : (dats m ρ 0 c).share w = fullShare := by unfold Dat.share; split <;> rfl

/-! ## The protocol's ghost state at launch -/

private def protoCells : Finset (GSem nD τ sig) := Finset.univ.map ⟨fun ck : Dev nD × CK => cell ck.1 ck.2, cell_injective⟩

private theorem tok_injective : Function.Injective (fun ck : Dev nD × CK => ((cell ck.1 ck.2, 0, ()) : GSem nD τ sig × ℕ × Unit)) :=
  fun a b h => cell_injective (congrArg Prod.fst h)

private def protoToks : Finset (GSem nD τ sig × ℕ × Unit) := Finset.univ.map ⟨fun ck : Dev nD × CK => (cell ck.1 ck.2, 0, ()), tok_injective⟩

private def u₀ : UU :=
  (initOf (Pipeline.cells cfgs cellOf_inj) (Pipeline.launchToks cfgs cellOf_inj), initOf protoCells protoToks)

/-- What the launch element deals device `c`: its cells' round states, its positions in them with the fact that round 0 is
    reached, and its own cells' duty tokens. -/
private def G (c : Dev nD) : sProp 𝕄 :=
  iprop((bigSep Finset.univ fun k : CK => roundState ER (Rd m ρ) (cell c k) 0)
    ∗ (bigSep Finset.univ fun k : CK => iprop(atPos ER (cell c k) 0 ∅ 0 ∗ reached ER (cell c k) 0))
    ∗ (bigSep Finset.univ fun k : CK => dutyTok ER (cell c k) 0 ()))

/-- What the global step makes of it. -/
private def G' (c : Dev nD) : sProp 𝕄 := iprop(∃ K, ghost m ρ K c)

omit [FloatOps F] in
/-- A conjunction over pairs (device, kind) is the one over devices of the one over kinds. -/
private theorem pairs_eq (Φ : Dev nD → CK → sProp 𝕄) :
    (bigSep Finset.univ fun ck : Dev nD × CK => Φ ck.1 ck.2) = bigSep Finset.univ fun c : Dev nD => bigSep Finset.univ fun k : CK => Φ c k :=
  bigSep_univ_prod (fun ck : Dev nD × CK => Φ ck.1 ck.2)

/-- The kinds as a sum: the two regular cells, then the four families of DMA cells. -/
private def ckEquiv : Unit ⊕ Unit ⊕ Fin 10 ⊕ Fin 10 ⊕ Fin 6 ⊕ Fin 6 ≃ CK where
  toFun
    | .inl _ => .bar
    | .inr (.inl _) => .zbar
    | .inr (.inr (.inl i)) => .ys i
    | .inr (.inr (.inr (.inl i))) => .yr i
    | .inr (.inr (.inr (.inr (.inl i)))) => .zs i
    | .inr (.inr (.inr (.inr (.inr i)))) => .zr i
  invFun
    | .bar => .inl ()
    | .zbar => .inr (.inl ())
    | .ys i => .inr (.inr (.inl i))
    | .yr i => .inr (.inr (.inr (.inl i)))
    | .zs i => .inr (.inr (.inr (.inr (.inl i))))
    | .zr i => .inr (.inr (.inr (.inr (.inr i))))
  left_inv := by rintro (_ | _ | _ | _ | _ | _) <;> rfl
  right_inv := by rintro (_ | _ | _ | _ | _ | _) <;> rfl

omit [FloatOps F] in
/-- A conjunction over the kinds, kind by kind. -/
private theorem bigSep_CK (Φ : CK → sProp 𝕄) :
    bigSep Finset.univ Φ = iprop(Φ .bar ∗ Φ .zbar ∗ (bigSep Finset.univ fun i : Fin 10 => Φ (.ys i)) ∗ (bigSep Finset.univ fun i : Fin 10 => Φ (.yr i))
      ∗ (bigSep Finset.univ fun i : Fin 6 => Φ (.zs i)) ∗ (bigSep Finset.univ fun i : Fin 6 => Φ (.zr i))) := by
  rw [bigSep_univ_equiv ckEquiv Φ, bigSep_univ_sum, bigSep_univ_sum, bigSep_univ_sum, bigSep_univ_sum, bigSep_univ_sum,
    bigSep_univ_of_subsingleton (), bigSep_univ_of_subsingleton ()]
  rfl

omit [FloatOps F] in
private theorem reindex_y (Φ : Dev nD → sProp 𝕄) : bigSep Finset.univ Φ = bigSep Finset.univ fun c : Dev nD => Φ (ynb c) := bigSep_univ_equiv yEquiv Φ
omit [FloatOps F] in
private theorem reindex_z (Φ : Dev nD → sProp 𝕄) : bigSep Finset.univ Φ = bigSep Finset.univ fun c : Dev nD => Φ (znb c) := bigSep_univ_equiv zEquiv Φ

private theorem fund_proto : BI.own (ER (initOf protoCells protoToks)) ⊢ (|==> bigSep Finset.univ (G m ρ) : sProp 𝕄) := by
  have hX (Φ : GSem nD τ sig → sProp 𝕄) :
      bigSep protoCells Φ = bigSep Finset.univ fun c : Dev nD => bigSep Finset.univ fun k : CK => Φ (cell c k) := by
    unfold protoCells; rw [bigSep_map, bigSep_univ_prod]; rfl
  have hT : bigSep protoToks (fun x => (dutyTok ER x.1 x.2.1 x.2.2 : sProp 𝕄))
      = bigSep Finset.univ fun c : Dev nD => bigSep Finset.univ fun k : CK => dutyTok ER (cell c k) 0 () := by
    unfold protoToks; rw [bigSep_map, bigSep_univ_prod]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The own semaphores are the cells of every kind but the barrier's; -/
private theorem ownSems0_eq (c : Dev nD) : (Pipeline.ownSems0 (Ix := Unit) (Name := ℕ) (U := UU) (Lvl := ℕ) (Val := Elt F) (τ := τ) osem c : sProp 𝕄)
    = bigSep (Finset.univ.erase CK.bar) fun k : CK => semVal (cell c k) 0 := by
  unfold Pipeline.ownSems0
  exact bigSep_subtype_ne CK.bar (fun k : CK => semVal (cell c k) 0)
omit [FloatOps F] in
/-- the barrier semaphore is the one unscoped semaphore. -/
private theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_eq, unscopedSems0_eq, bigSep_univ_at (fun k : CK => (semVal (cell c k) 0 : sProp 𝕄)) CK.bar]
  iintro ⟨HO, HB⟩
  isplitl [HB] <;> iassumption

private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0))
          ∗ (bigSep Finset.univ fun k : CK => dutyTok ER (cell c k) 0 ())) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

private theorem ghost_intro (K : Dev nD × CK → ℕ) (c : Dev nD) : iprop(records m ρ K ∗ (positions c ∗ payToks c)) ⊢ G' m ρ c := by
  unfold G' ghost
  iintro ⟨HR, HP, HT⟩
  iexists K
  isplitl [HR]; · iexact HR
  isplitl [HP] <;> iassumption

omit [FloatOps F] in
/-- The tokens dealt to the devices that pay them. -/
private theorem toks_around :
    (bigSep Finset.univ fun c : Dev nD => bigSep Finset.univ fun k : CK => (dutyTok ER (cell c k) 0 () : sProp 𝕄))
      ⊢ bigSep Finset.univ fun c : Dev nD => payToks c := by
  unfold payToks
  simp only [bigSep_CK, bigSep_sep']
  rw [reindex_y (fun c : Dev nD => (dutyTok ER (cell c .bar) 0 () : sProp 𝕄)),
    reindex_z (fun c : Dev nD => (dutyTok ER (cell c .zbar) 0 () : sProp 𝕄)),
    reindex_y (fun c : Dev nD => bigSep Finset.univ fun i : Fin 10 => (dutyTok ER (cell c (.yr i)) 0 () : sProp 𝕄)),
    reindex_z (fun c : Dev nD => bigSep Finset.univ fun i : Fin 6 => (dutyTok ER (cell c (.zr i)) 0 () : sProp 𝕄))]

private theorem regroup :
    (bigSep Finset.univ fun c : Dev nD => iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0))
          ∗ (bigSep Finset.univ fun k : CK => dutyTok ER (cell c k) 0 ())) : sProp 𝕄)
      ⊢ bigSep Finset.univ (G' m ρ) := by
  simp only [bigSep_sep']
  rw [← pairs_eq (fun c k => iprop(∃ κ : ℕ, cellInv ER (Rd m ρ) κ (cell c k))),
    ← pairs_eq (fun c k => (reached ER (cell c k) 0 : sProp 𝕄))]
  iintro ⟨HI, ⟨Hat, #HR⟩, Htok⟩
  ihave HK := (BI.bigSep_exists_pi Finset.univ (fun (ck : Dev nD × CK) (κ : ℕ) => (cellInv ER (Rd m ρ) κ (cell ck.1 ck.2) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

private theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

private theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

private theorem waits (c : Dev nD) : (levAts L lv : sProp 𝕄) ⊢ Pipeline.cellsWaits cfgs (dats m ρ) () 0 c := by
  exact Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, from any memory with zero counters: every weakly fair execution of @main terminates,
    and every final state has each device's windowed arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.KernelAG.Final.lean ====
/-
  The run read at the argument and the result: the argument block ends as it began, the result array ends at `fin`.
-/
import proofs.«900663_g7700000000000664_dist_ag_v7x_xyz2x2x2_y_m1024_n512_bf16_1_alg».proof.Proof.KernelAG.Launch

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run is the staging buffer's final contents, written back whole. -/
theorem finalA_out (c : Dev nD) : finalA m ρ c (1 : Fin 2) = fin m ρ c := by
  have hN : cfg0.N = t₀.val + 1 := cfg0_N
  have h1 : finalA m ρ c (1 : Fin 2) = (dats (F := F) m ρ 0 c).arrAt (1 : Fin 2) (t₀.val + 1) :=
    congrArg ((dats (F := F) m ρ 0 c).arrAt (1 : Fin 2)) hN
  rw [h1, Dat.arrAt_succ, if_pos (flush0_1 t₀)]
  exact Memref.write_access_unit_zero_univ (Elt F) main_v1 (funext fun a => Nat.zero_mul _) _ _ _

/-- The run with both arrays named: on every device the result array ends at `fin` and the argument block unchanged. -/
theorem run_named : θ_run defs (onTc (τ := τ) (main (F := F))) ⟨m, fun _ => 0, ρ⟩ (fun r => ∀ c : Dev nD,
      r.2.mem ((c.tc : Thread nD τ).loc main_v1) = fin m ρ c
      ∧ r.2.mem ((c.tc : Thread nD τ).loc main_arg0) = m ((c.tc : Thread nD τ).loc main_arg0)) :=
  (θ_run defs (onTc (τ := τ) (main (F := F))) (s₀ m ρ)).mono
    (fun r h c => ⟨(h c (1 : Fin 2)).trans (finalA_out m ρ c), (h c (0 : Fin 2)).trans (finalA_x m ρ c)⟩) (run_main m ρ)

/-- info: 'Cert.Kernel.AG.finalA_x' depends on axioms: [propext, Classical.choice, Quot.sound] -/
#guard_msgs in #print axioms finalA_x

/-- info: 'Cert.Kernel.AG.finalA_out' depends on axioms: [propext, Classical.choice, Quot.sound] -/
#guard_msgs in #print axioms finalA_out

/-- info: 'Cert.Kernel.AG.run_named' depends on axioms: [propext, Classical.choice, Quot.sound] -/
#guard_msgs in #print axioms run_named

end Cert.Kernel.AG

end
-- ==== Proof.KernelIdealAG.Defs.lean ====
/-
  The all-gather's protocol, written once for every device of the 2 × 2 × 2 mesh.

  Device `c` sits at (x, y, z) = (c / 4, c / 2 % 2, c % 2) and holds block `y` (1024 rows) of the array. Its partner along y,
  `ynb c`, holds the other block; its partner along z, `znb c`, holds the same block as `c`. The result buffer of 2048 rows is
  cut into 32 chunks of 64 rows. A device stores its own block into the half of the result that is its own, sends ten of
  those sixteen chunks straight to `ynb c` (chunks 0..9 when z = 0, chunks 6..15 when z = 1), and forwards six of the ten
  chunks it receives from `ynb c` (the ones `znb c` does not receive directly: 0..5 when z = 0, 10..15 when z = 1) on to `znb c`.
  So every chunk of the other half arrives either directly (from `ynb c`) or by way of `znb c` (from `ynb (znb c)`).

  Semaphores, each seen as a cell of one round with one duty: the barrier cell (one unit, signalled by `ynb c`, handing over
  the ten chunks of `ynb c`'s buffer that `c` will write), the z-ready cell (one unit, signalled by `znb c`, handing over the six
  chunks of `znb c`'s buffer that `c` will write), ten send and ten receive cells along y, six and six along z. A receive
  cell's payload is the landed chunk AT ITS FINAL CONTENTS `fin c`; a send cell's payload is the source chunk back.
-/
import proofs.«900663_g7700000000000664_dist_ag_v7x_xyz2x2x2_y_m1024_n512_bf16_1_alg».proof.Proof.Gen.KernelIdeal
import proofs.«900663_g7700000000000664_dist_ag_v7x_xyz2x2x2_y_m1024_n512_bf16_1_alg».proof.Proof.Gen.KernelIdeal.Skeleton
import proofs.«900663_g7700000000000664_dist_ag_v7x_xyz2x2x2_y_m1024_n512_bf16_1_alg».proof.Proof.Gen.KernelIdeal.Launch
import proofs.«900663_g7700000000000664_dist_ag_v7x_xyz2x2x2_y_m1024_n512_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (every round has one duty) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: coordinates and the two partners -/

/-- The y and z coordinates of a device. -/
def yc (c : Dev nD) : ℕ := c.val / 2 % 2
def zc (c : Dev nD) : ℕ := c.val % 2

/-- The partner along y (the y coordinate flipped) and along z (the z coordinate flipped). -/
def ynb (c : Dev nD) : Dev nD := ⟨(4 * (c.val / 4) + (c.val % 2) + 2) - 2 * ((c.val / 2) % 2), by revert c; decide⟩
def znb (c : Dev nD) : Dev nD := ⟨(4 * (c.val / 4) + 2 * ((c.val / 2) % 2) + 1) - (c.val % 2), by revert c; decide⟩

theorem ynb_ynb (c : Dev nD) : ynb (ynb c) = c := by revert c; decide
theorem znb_znb (c : Dev nD) : znb (znb c) = c := by revert c; decide
theorem ynb_znb (c : Dev nD) : ynb (znb c) = znb (ynb c) := by revert c; decide
theorem yc_ynb (c : Dev nD) : yc (ynb c) = 1 - yc c := by revert c; decide
theorem zc_ynb (c : Dev nD) : zc (ynb c) = zc c := by revert c; decide
theorem yc_znb (c : Dev nD) : yc (znb c) = yc c := by revert c; decide
theorem zc_znb (c : Dev nD) : zc (znb c) = 1 - zc c := by revert c; decide
theorem yc_le (c : Dev nD) : yc c ≤ 1 := by revert c; decide
theorem zc_le (c : Dev nD) : zc c ≤ 1 := by revert c; decide

def yEquiv : Dev nD ≃ Dev nD := ⟨ynb, ynb, ynb_ynb, ynb_ynb⟩
def zEquiv : Dev nD ≃ Dev nD := ⟨znb, znb, znb_znb, znb_znb⟩

/-- The kernel's `device_id` chains: the first signal and the ten direct copies name `ynb c`, the second signal and the six
    forwarding copies `znb c`. -/
theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = znb c := Fin.ext (k0_dev2_eq c)
theorem dev3_eq (c : Dev nD) : (⟨k0_dev3 c, k0_dev3_lt c⟩ : Dev nD) = ynb c := Fin.ext (k0_dev3_eq c)
theorem dev4_eq (c : Dev nD) : (⟨k0_dev4 c, k0_dev4_lt c⟩ : Dev nD) = ynb c := Fin.ext (k0_dev4_eq c)
theorem dev5_eq (c : Dev nD) : (⟨k0_dev5 c, k0_dev5_lt c⟩ : Dev nD) = ynb c := Fin.ext (k0_dev5_eq c)
theorem dev6_eq (c : Dev nD) : (⟨k0_dev6 c, k0_dev6_lt c⟩ : Dev nD) = ynb c := Fin.ext (k0_dev6_eq c)
theorem dev7_eq (c : Dev nD) : (⟨k0_dev7 c, k0_dev7_lt c⟩ : Dev nD) = ynb c := Fin.ext (k0_dev7_eq c)
theorem dev8_eq (c : Dev nD) : (⟨k0_dev8 c, k0_dev8_lt c⟩ : Dev nD) = ynb c := Fin.ext (k0_dev8_eq c)
theorem dev9_eq (c : Dev nD) : (⟨k0_dev9 c, k0_dev9_lt c⟩ : Dev nD) = ynb c := Fin.ext (k0_dev9_eq c)
theorem dev10_eq (c : Dev nD) : (⟨k0_dev10 c, k0_dev10_lt c⟩ : Dev nD) = ynb c := Fin.ext (k0_dev10_eq c)
theorem dev11_eq (c : Dev nD) : (⟨k0_dev11 c, k0_dev11_lt c⟩ : Dev nD) = ynb c := Fin.ext (k0_dev11_eq c)
theorem dev12_eq (c : Dev nD) : (⟨k0_dev12 c, k0_dev12_lt c⟩ : Dev nD) = ynb c := Fin.ext (k0_dev12_eq c)
theorem dev13_eq (c : Dev nD) : (⟨k0_dev13 c, k0_dev13_lt c⟩ : Dev nD) = znb c := Fin.ext (k0_dev13_eq c)
theorem dev14_eq (c : Dev nD) : (⟨k0_dev14 c, k0_dev14_lt c⟩ : Dev nD) = znb c := Fin.ext (k0_dev14_eq c)
theorem dev15_eq (c : Dev nD) : (⟨k0_dev15 c, k0_dev15_lt c⟩ : Dev nD) = znb c := Fin.ext (k0_dev15_eq c)
theorem dev16_eq (c : Dev nD) : (⟨k0_dev16 c, k0_dev16_lt c⟩ : Dev nD) = znb c := Fin.ext (k0_dev16_eq c)
theorem dev17_eq (c : Dev nD) : (⟨k0_dev17 c, k0_dev17_lt c⟩ : Dev nD) = znb c := Fin.ext (k0_dev17_eq c)
theorem dev18_eq (c : Dev nD) : (⟨k0_dev18 c, k0_dev18_lt c⟩ : Dev nD) = znb c := Fin.ext (k0_dev18_eq c)

/-! ## The buffers and the chunks -/

/-- The staging buffer of the argument block and of the result. -/
abbrev xM : Memref sig .tc .vmem S1024x512 .f32 := Memref.whole cc0_stg0_0
abbrev oM : Memref sig .tc .vmem S2048x512 .bf16 := Memref.whole cc0_stg1_0

/-- The row offset of direct copy `i` of device `c`, as the kernel computes it: in `c`'s own half, chunk `10 z + i` for `i < 6`,
    chunk `i` for `6 ≤ i`. -/
def yOff (c : Dev nD) : Fin 10 → Fin 2 → Nat
  | ⟨0, _⟩ => k0_off2 c 0#32 | ⟨1, _⟩ => k0_off2 c 1#32 | ⟨2, _⟩ => k0_off2 c 2#32
  | ⟨3, _⟩ => k0_off2 c 3#32 | ⟨4, _⟩ => k0_off2 c 4#32 | ⟨5, _⟩ => k0_off2 c 5#32
  | ⟨6, _⟩ => k0_off3 c 384#32 | ⟨7, _⟩ => k0_off3 c 448#32 | ⟨8, _⟩ => k0_off3 c 512#32
  | ⟨9, _⟩ => k0_off3 c 576#32
  | ⟨_ + 10, h⟩ => absurd h (by omega)

/-- The chunk of its own half that device `c`'s direct copy `i` carries. -/
def yChunk (c : Dev nD) (i : Fin 10) : ℕ := if i.val < 6 then 10 * zc c + i.val else i.val

/-- The row offset of forwarding copy `i` of device `c`: in the OTHER half, chunk `10 z + i`. -/
def zOff (c : Dev nD) (i : Fin 6) : Fin 2 → Nat := k0_off4 c (BitVec.ofNat 32 i.val)

theorem yOff_eq : ∀ (c : Dev nD) (i : Fin 10), yOff c i = ![1024 * yc c + 64 * yChunk c i, 0] := by decide +kernel
theorem zOff_eq : ∀ (c : Dev nD) (i : Fin 6), zOff c i = ![1024 * (1 - yc c) + 64 * (10 * zc c + i.val), 0] := by decide +kernel
theorem yOff_inb : ∀ (c : Dev nD) (i : Fin 10), ∀ a, yOff c i a + S64x512.size a ≤ S2048x512.size a := by decide +kernel
theorem zOff_inb : ∀ (c : Dev nD) (i : Fin 6), ∀ a, zOff c i a + S64x512.size a ≤ S2048x512.size a := by decide +kernel

/-- The chunk of the result buffer that direct copy `i` of device `c` reads on `c` and writes on `ynb c`. -/
abbrev ySl (c : Dev nD) (i : Fin 10) : Memref sig .tc .vmem S64x512 .bf16 :=
  oM.slice (Rect.unit (s := S2048x512) (yOff c i) S64x512.size (yOff_inb c i)) (fun _ => rfl)
/-- The chunk that forwarding copy `i` of device `c` reads on `c` and writes on `znb c`. -/
abbrev zSl (c : Dev nD) (i : Fin 6) : Memref sig .tc .vmem S64x512 .bf16 :=
  oM.slice (Rect.unit (s := S2048x512) (zOff c i) S64x512.size (zOff_inb c i)) (fun _ => rfl)

/-! ## The semaphores and the cells -/

theorem inbS10 : ∀ (i : Fin 10), ∀ a, (![i.val] : Fin 1 → Nat) a + S1.size a ≤ S10.size a := by decide
theorem inbS6 : ∀ (i : Fin 6), ∀ a, (![i.val] : Fin 1 → Nat) a + S1.size a ≤ S6.size a := by decide

abbrev barS : Sem sig := (SemArray.scalar (sig.barrier 0 rfl) : Sems sig S_).sem
abbrev zbarS : Sem sig := (cc0_scratch0 : Sems sig S_).sem
abbrev ysS (i : Fin 10) : DmaSem sig := ((cc0_scratch1.slice (Rect.unit (s := S10) ![i.val] S1.size (inbS10 i))).squeeze S_ squeezes_S1_S_).sem
abbrev yrS (i : Fin 10) : DmaSem sig := ((cc0_scratch2.slice (Rect.unit (s := S10) ![i.val] S1.size (inbS10 i))).squeeze S_ squeezes_S1_S_).sem
abbrev zsS (i : Fin 6) : DmaSem sig := ((cc0_scratch3.slice (Rect.unit (s := S6) ![i.val] S1.size (inbS6 i))).squeeze S_ squeezes_S1_S_).sem
abbrev zrS (i : Fin 6) : DmaSem sig := ((cc0_scratch4.slice (Rect.unit (s := S6) ![i.val] S1.size (inbS6 i))).squeeze S_ squeezes_S1_S_).sem

theorem barS_val : (barS : Sem sig).val = 1 := by decide
theorem zbarS_val : (zbarS : Sem sig).val = 0 := by decide
theorem ysS_val : ∀ i : Fin 10, (ysS i).val = 2 + i.val := by decide
theorem yrS_val : ∀ i : Fin 10, (yrS i).val = 12 + i.val := by decide
theorem zsS_val : ∀ i : Fin 6, (zsS i).val = 22 + i.val := by decide
theorem zrS_val : ∀ i : Fin 6, (zrS i).val = 28 + i.val := by decide

/-- The protocol's cells of a device, by kind. -/
inductive CK where
  | bar | zbar
  | ys (i : Fin 10) | yr (i : Fin 10)
  | zs (i : Fin 6) | zr (i : Fin 6)
  deriving DecidableEq, Fintype

/-- A kind's semaphore. -/
def CK.sem : CK → SemLoc sig
  | .bar => .reg barS | .zbar => .reg zbarS
  | .ys i => .dma (ysS i) | .yr i => .dma (yrS i)
  | .zs i => .dma (zsS i) | .zr i => .dma (zrS i)

/-- Which of the protocol's cells a semaphore is, if any. -/
def kindOf : SemLoc sig → Option CK
  | .reg s => if s.val = 1 then some .bar else if s.val = 0 then some .zbar else none
  | .dma q =>
    if h : 2 ≤ q.val ∧ q.val < 12 then some (.ys ⟨q.val - 2, by omega⟩)
    else if h : 12 ≤ q.val ∧ q.val < 22 then some (.yr ⟨q.val - 12, by omega⟩)
    else if h : 22 ≤ q.val ∧ q.val < 28 then some (.zs ⟨q.val - 22, by omega⟩)
    else if h : 28 ≤ q.val ∧ q.val < 34 then some (.zr ⟨q.val - 28, by omega⟩)
    else none

theorem kindOf_sem : ∀ k : CK, kindOf k.sem = some k := by decide

abbrev cell (c : Dev nD) (k : CK) : GSem nD τ sig := ((c : Thread nD τ), k.sem)

/-- The credit of one chunk's transfer: the same for every chunk (it depends on the buffer, the shape and the element type only). -/
abbrev N64 : ℕ := (ySl (0 : Dev nD) 0).view.dmaCredit
theorem N64_pos : 0 < N64 := View.dmaCredit_pos _ (by decide)
theorem ySl_credit (c : Dev nD) (i : Fin 10) : (ySl c i).view.dmaCredit = N64 := rfl
theorem zSl_credit (c : Dev nD) (i : Fin 6) : (zSl c i).view.dmaCredit = N64 := rfl

/-! ## Contents -/

/-- Device `c`'s argument block as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s block as the kernel stores it: each element narrowed to the result's element type. -/
def X (c : Dev nD) : FVec F S1024x512 .bf16 := k0_pay1 (xstg m ρ c)

/-- Which device's block supplies chunk `j` of the half of `c`'s result that is not its own: `ynb c` directly for the chunks it
    sends `c` (0..9 when z = 0, 6..15 when z = 1), else `ynb (znb c)` by way of `znb c`. -/
def srcDev (c : Dev nD) (j : ℕ) : Dev nD := if 6 * zc c ≤ j ∧ j < 10 + 6 * zc c then ynb c else ynb (znb c)

/-- The result buffer of device `c` when the kernel ends: rows `1024 y ..` its own block, the other 1024 rows the partner's,
    chunk by chunk from the device that supplied it. -/
def fin (c : Dev nD) : (cc0_stg1_0 : Ref sig .tc).ty.Contents (Elt F) := fun i =>
  if (i 0).val / 1024 = yc c then
    X m ρ c (ix2 (⟨(i 0).val % 1024, Nat.mod_lt _ (by decide)⟩ : Fin 1024) (⟨(i 1).val, (i 1).isLt⟩ : Fin 512))
  else
    X m ρ (srcDev c ((i 0).val % 1024 / 64)) (ix2 (⟨(i 0).val % 1024, Nat.mod_lt _ (by decide)⟩ : Fin 1024) (⟨(i 1).val, (i 1).isLt⟩ : Fin 512))

/-- A chunk `M` of device `c`'s result buffer held whole at contents `f`. -/
def chunkPts (c : Dev nD) (M : Memref sig .tc .vmem S64x512 .bf16) (f : Buf (Elt F) (M.view.loc (c : Thread nD τ))) : sProp 𝕄 :=
  M.view.loc (c : Thread nD τ) ↦[M.view.set]{fullShare} f

omit [FloatOps F] in
instance chunkPts_storable (c : Dev nD) (M) (f) : BI.Storable (upEmb : UEmb _ 𝕄) (chunkPts (F := F) c M f) := by unfold chunkPts; infer_instance

/-! ## The schedule -/

/-- What a cell's one duty hands its owner `c`. -/
def pay (c : Dev nD) : CK → sProp 𝕄
  | .bar => bigSep Finset.univ fun i : Fin 10 => iprop(∃ f, chunkPts (ynb c) (ySl c i) f)
  | .zbar => bigSep Finset.univ fun i : Fin 6 => iprop(∃ f, chunkPts (znb c) (zSl c i) f)
  | .ys i => chunkPts c (ySl c i) (fin m ρ c)
  | .yr i => chunkPts c (ySl (ynb c) i) (fin m ρ c)
  | .zs i => chunkPts c (zSl c i) (fin m ρ c)
  | .zr i => chunkPts c (zSl (znb c) i) (fin m ρ c)

/-- One round, round 0, one duty: a regular semaphore's of one unit, a DMA semaphore's of a chunk's credit. -/
def Rd : Rounds.Schedule (GSem nD τ sig) Unit 𝕄 where
  duties g r := if r = 0 ∧ g.1.2 = .tc ∧ (kindOf g.2).isSome then {()} else ∅
  unitless _ := False
  amount g _ _ := match g.2 with | .dma _ => N64 | _ => 1
  payload g _ _ := match kindOf g.2 with | some k => pay m ρ g.1.1 k | none => iprop(emp)
  amount_pos g _ _ _ := by
    cases g.2 <;> first | exact N64_pos | exact Nat.one_pos

end Cert.KernelIdeal.AG

end
-- ==== Proof.KernelIdealAG.State.lean ====
/-
  What each device owes and holds, and the proof data of the one pallas_call.

  A device pays, in program order: one unit to its y-partner's barrier cell, one unit to its z-partner's z-ready cell, a chunk's
  credit to each of its y-partner's ten receive cells, a chunk's credit to each of its z-partner's six receive cells. A wait is
  allowed below everything still owed: send and staging cells at level 0, the barrier and z-ready cells at 1, the y receive cells
  at 2 (six of them are waited while the forwarding copies are still owed), the z receive cells at 3.
-/
import proofs.«900663_g7700000000000664_dist_ag_v7x_xyz2x2x2_y_m1024_n512_bf16_1_alg».proof.Proof.KernelIdealAG.Defs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- A kind's amount: a regular semaphore's one unit, a DMA semaphore's chunk credit. -/
def amt : CK → ℕ
  | .bar => 1 | .zbar => 1 | _ => N64

/-- The cells device `c` pays and by how much, in the order the program pays them. -/
def dues (c : Dev nD) : List (GSem nD τ sig × ℕ) :=
  [(cell (ynb c) .bar, 1), (cell (znb c) .zbar, 1),
   (cell (ynb c) (.yr 0), N64), (cell (ynb c) (.yr 1), N64), (cell (ynb c) (.yr 2), N64), (cell (ynb c) (.yr 3), N64), (cell (ynb c) (.yr 4), N64), (cell (ynb c) (.yr 5), N64), (cell (ynb c) (.yr 6), N64), (cell (ynb c) (.yr 7), N64), (cell (ynb c) (.yr 8), N64), (cell (ynb c) (.yr 9), N64),
   (cell (znb c) (.zr 0), N64), (cell (znb c) (.zr 1), N64), (cell (znb c) (.zr 2), N64), (cell (znb c) (.zr 3), N64), (cell (znb c) (.zr 4), N64), (cell (znb c) (.zr 5), N64)]

/-- What device `c` still owes after its first `j` payments: each payment peels the last summand. -/
def owedFrom (c : Dev nD) (j : ℕ) : CellTallies nD τ sig Unit :=
  ((dues c).drop j).foldr (fun d acc => acc + tallyAt d.1 () d.2) 0

def O₀ (c : Dev nD) : CellTallies nD τ sig Unit := owedFrom c 0

/-! ## Levels -/

def L (g : GSem nD τ sig) : Finset Unit := if g.1.2 = .tc then {()} else ∅

def lvK : CK → ℕ
  | .bar => 1 | .zbar => 1 | .yr _ => 2 | .zr _ => 3 | .ys _ => 0 | .zs _ => 0

/-- A protocol cell's level is its kind's; every other cell (the staging semaphores) sits at 0. -/
def lv (g : GSem nD τ sig) (_ : Unit) : ℕ := match kindOf g.2 with | some k => lvK k | none => 0

/-! ## The ghost state -/

/-- Every protocol cell's invariant, under the names `K` the launch allocated them at, and that each is at round 0: persistent,
    so every device holds all of it. -/
def records (K : Dev nD × CK → ℕ) : sProp 𝕄 :=
  iprop((bigSep Finset.univ fun ck : Dev nD × CK => cellInv ER (Rd m ρ) (K ck) (cell ck.1 ck.2))
    ∗ bigSep Finset.univ fun ck : Dev nD × CK => reached ER (cell ck.1 ck.2) 0)

instance records_persistent (K : Dev nD × CK → ℕ) : BI.Persistent (records m ρ K) := by unfold records; infer_instance

/-- Device `c`'s position in each of its own cells: round 0, nothing taken. -/
def positions (c : Dev nD) : sProp 𝕄 := bigSep Finset.univ fun k : CK => atPos ER (cell c k) 0 ∅ 0

/-- The tokens of the duties device `c` pays: its partners' barrier and z-ready duties, its own send duties, its partners'
    receive duties. -/
def payToks (c : Dev nD) : sProp 𝕄 :=
  iprop(dutyTok ER (cell (ynb c) .bar) 0 () ∗ dutyTok ER (cell (znb c) .zbar) 0 ()
    ∗ (bigSep Finset.univ fun i : Fin 10 => dutyTok ER (cell c (.ys i)) 0 ())
    ∗ (bigSep Finset.univ fun i : Fin 10 => dutyTok ER (cell (ynb c) (.yr i)) 0 ())
    ∗ (bigSep Finset.univ fun i : Fin 6 => dutyTok ER (cell c (.zs i)) 0 ())
    ∗ (bigSep Finset.univ fun i : Fin 6 => dutyTok ER (cell (znb c) (.zr i)) 0 ()))

def ghost (K : Dev nD × CK → ℕ) (c : Dev nD) : sProp 𝕄 := iprop(records m ρ K ∗ positions c ∗ payToks c)

/-- The credit device `c` waits with on the cells its partners pay. -/
def creds (c : Dev nD) : sProp 𝕄 :=
  iprop(cred (tallyAt (cell c .bar) () 1) ∗ cred (tallyAt (cell c .zbar) () 1)
    ∗ (bigSep Finset.univ fun i : Fin 10 => cred (tallyAt (cell c (.yr i)) () N64))
    ∗ (bigSep Finset.univ fun i : Fin 6 => cred (tallyAt (cell c (.zr i)) () N64)))

/-- What device `c`'s body starts from. -/
def start (c : Dev nD) : sProp 𝕄 := iprop((∃ K, ghost m ρ K c) ∗ creds c ∗ levAts L lv)

def Φ₀ (c : Dev nD) : sProp 𝕄 := start m ρ c
/-- After the point: the kernel's own (scoped) cells closed, their counters at zero (the barrier cell is the runtime's). -/
def Φ₁ (c : Dev nD) : sProp 𝕄 := bigSep (Finset.univ.erase CK.bar) fun k : CK => semVal (cell c k) 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ creds c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (fin m ρ c))

end Cert.KernelIdeal.AG

end
-- ==== Proof.KernelIdealAG.Sched.lean ====
/-
  The schedule read cell by cell: each protocol cell has one duty at round 0 and none later, a regular cell's of one unit and a
  DMA cell's of a chunk's credit, handing its owner what `pay` says.
-/
import proofs.«900663_g7700000000000664_dist_ag_v7x_xyz2x2x2_y_m1024_n512_bf16_1_alg».proof.Proof.KernelIdealAG.State

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem sem_injective : Function.Injective (CK.sem) := by
  intro a b h
  have := congrArg kindOf h
  rw [kindOf_sem, kindOf_sem] at this
  exact Option.some.inj this

theorem cell_injective : Function.Injective (fun ck : Dev nD × CK => cell ck.1 ck.2) := by
  rintro ⟨c, k⟩ ⟨c', k'⟩ h
  have h1 : c = c' := congrArg (fun g : GSem nD τ sig => g.1.1) h
  have h2 : k.sem = k'.sem := congrArg (fun g : GSem nD τ sig => g.2) h
  rw [h1, sem_injective h2]

instance Rd_payload_storable (g : GSem nD τ sig) (r : ℕ) (d : Unit) :
    BI.Storable (upEmb : UEmb _ 𝕄) ((Rd (F := F) m ρ).payload g r d) := by
  show BI.Storable upEmb (match kindOf g.2 with | some k => pay m ρ g.1.1 k | none => iprop(emp))
  cases kindOf g.2 with
  | none => infer_instance
  | some k => cases k <;> (unfold pay; infer_instance)

section Sched
variable (c : Dev nD) (k : CK)

@[sl_rounds]
theorem duties_cell : (Rd (F := F) m ρ).duties (cell c k) 0 = {()} := by
  dsimp only [Rd]; rw [kindOf_sem]; exact if_pos ⟨rfl, rfl, rfl⟩
theorem duties_later (g : GSem nD τ sig) : ∀ r, 1 ≤ r → (Rd (F := F) m ρ).duties g r = ∅ := by
  intro r hr; dsimp only [Rd]; exact if_neg fun h => by omega
@[sl_rounds]
theorem amount_cell (d : Unit) : (Rd (F := F) m ρ).amount (cell c k) 0 d = amt k := by
  cases k <;> rfl
@[sl_rounds]
theorem expect_cell : (Rd (F := F) m ρ).expect (cell c k) 0 = amt k := by
  unfold Schedule.expect Schedule.amountOf; rw [duties_cell, Finset.sum_singleton, amount_cell]
@[sl_rounds]
theorem payload_cell (d : Unit) : (Rd (F := F) m ρ).payload (cell c k) 0 d = pay m ρ c k := by
  dsimp only [Rd]; rw [kindOf_sem]
/-- The rest of a cell's round, nothing taken: its one payload. -/
@[sl_rounds]
theorem rest_cell : bigSep ((Rd (F := F) m ρ).duties (cell c k) 0 \ ∅) (fun d => (Rd (F := F) m ρ).payload (cell c k) 0 d) = pay m ρ c k := by
  rw [Finset.sdiff_empty, duties_cell, bigSep_singleton, payload_cell]

end Sched

/-- info: 'Cert.KernelIdeal.AG.cell_injective' depends on axioms: [propext, Classical.choice, Quot.sound] -/
#guard_msgs in #print axioms cell_injective

/-- info: 'Cert.KernelIdeal.AG.Rd_payload_storable' depends on axioms: [propext, Classical.choice, Quot.sound] -/
#guard_msgs in #print axioms Rd_payload_storable

/-- info: 'Cert.KernelIdeal.AG.duties_later' depends on axioms: [propext, Classical.choice, Quot.sound] -/
#guard_msgs in #print axioms duties_later

/-- info: 'Cert.KernelIdeal.AG.expect_cell' depends on axioms: [propext, Classical.choice, Quot.sound] -/
#guard_msgs in #print axioms expect_cell

/-- info: 'Cert.KernelIdeal.AG.rest_cell' depends on axioms: [propext, Classical.choice, Quot.sound] -/
#guard_msgs in #print axioms rest_cell

end Cert.KernelIdeal.AG

end
-- ==== Proof.KernelIdealAG.Levels.lean ====
/-
  Levels and credit. A wait on a cell is allowed when the cell sits strictly below every cell the waiter still owes; at launch
  each device is credited, on each cell it waits on, exactly what its partners owe that cell.
-/
import proofs.«900663_g7700000000000664_dist_ag_v7x_xyz2x2x2_y_m1024_n512_bf16_1_alg».proof.Proof.KernelIdealAG.State

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : CK) (u : Unit) : lv (cell c k) u = lvK k := by
  show (match kindOf k.sem with | some k => lvK k | none => 0) = lvK k
  rw [kindOf_sem]

/-- After all eighteen payments nothing is owed. -/
theorem owedFrom_end (c : Dev nD) : owedFrom c 18 = 0 := rfl

/-- The levels of the eighteen dues, in the order they are paid: they never go down. -/
private theorem dues_lv (c : Dev nD) :
    (dues c).map (fun d => lv d.1 ()) = [1, 1, 2, 2, 2, 2, 2, 2, 2, 2, 2, 2, 3, 3, 3, 3, 3, 3] := by
  simp only [dues, List.map_cons, List.map_nil, lv_cell, lvK]

/-- Every due is owed to a cell of a device's main thread. -/
private theorem dues_tc (c : Dev nD) : (dues c).map (fun d => d.1.1.2) = List.replicate 18 (Proc.tc : Proc τ) := rfl

/-- A due still to be paid after `j` payments has its level among the levels from position `j` on. -/
private theorem lv_of_mem_drop (c : Dev nD) (j : ℕ) {d : GSem nD τ sig × ℕ} (hd : d ∈ (dues c).drop j) :
    lv d.1 () ∈ ([1, 1, 2, 2, 2, 2, 2, 2, 2, 2, 2, 2, 3, 3, 3, 3, 3, 3] : List ℕ).drop j := by
  rw [← dues_lv c, ← List.map_drop]
  exact List.mem_map_of_mem (f := fun d : GSem nD τ sig × ℕ => lv d.1 ()) hd

private theorem tc_of_mem_dues (c : Dev nD) {d : GSem nD τ sig × ℕ} (hd : d ∈ dues c) : d.1.1.2 = Proc.tc :=
  List.eq_of_mem_replicate (dues_tc c ▸ List.mem_map_of_mem (f := fun d : GSem nD τ sig × ℕ => d.1.1.2) hd)

/-- A sum of one-cell tallies is positive only at one of its cells. -/
private theorem foldr_pos (l : List (GSem nD τ sig × ℕ)) (g : GSem nD τ sig) (u : Unit)
    (h : 0 < (l.foldr (fun d acc => acc + tallyAt d.1 () d.2) (0 : CellTallies nD τ sig Unit)) g u) : ∃ d ∈ l, d.1 = g := by
  induction l with
  | nil => rw [List.foldr_nil, Pi.zero_apply, Finsupp.zero_apply] at h; exact absurd h (Nat.lt_irrefl 0)
  | cons a l ih =>
    rw [List.foldr_cons, Pi.add_apply, Finsupp.add_apply, tallyAt_apply] at h
    by_cases hg : g = a.1 ∧ u = ()
    · exact ⟨a, List.mem_cons_self, hg.1.symm⟩
    · rw [if_neg hg, Nat.add_zero] at h
      obtain ⟨d, hd, hdg⟩ := ih h
      exact ⟨d, List.mem_cons_of_mem _ hd, hdg⟩

omit [FloatOps F] in
/-- A wait on `sm` after `j` payments, when `sm` sits strictly below every cell still to be paid. -/
theorem mayWait_at (c : Dev nD) (sm : SemLoc sig) (j : ℕ)
    (h : ∀ d ∈ (dues c).drop j, lv ((c : Thread nD τ), sm) () < lv d.1 ()) :
    (levAts L lv : sProp 𝕄) ⊢ MayWait (c : Thread nD τ) sm () (owedFrom c j) :=
  MayOwe.of_levAts (L := L) (lev := lv)
    (fun p hp => by rw [Finset.mem_singleton.mp hp, L_tc]; exact Finset.mem_singleton_self _)
    (fun g u hg => by
      obtain ⟨d, hd, rfl⟩ := foldr_pos _ g u hg
      rw [L, if_pos (tc_of_mem_dues c (List.mem_of_mem_drop hd))]; exact Finset.mem_singleton_self _)
    (fun g u hg p hp => by
      obtain ⟨d, hd, rfl⟩ := foldr_pos _ g u hg
      rw [Finset.mem_singleton.mp hp]; exact h d hd)

omit [FloatOps F] in
/-- The barrier wait: both signals sent, all sixteen copies still owed. -/
theorem mayWait_bar (c : Dev nD) : (levAts L lv : sProp 𝕄) ⊢ MayWait (c : Thread nD τ) (.reg barS) () (owedFrom c 2) :=
  mayWait_at c (.reg barS) 2 fun d hd => by
    have hm := lv_of_mem_drop c 2 hd
    rw [show lv ((c : Thread nD τ), SemLoc.reg barS) () = 1 from lv_cell c .bar ()]
    revert hm; generalize lv d.1 () = x; revert x; decide
omit [FloatOps F] in
/-- The z-ready wait: the six forwarding copies still owed. -/
theorem mayWait_zbar (c : Dev nD) : (levAts L lv : sProp 𝕄) ⊢ MayWait (c : Thread nD τ) (.reg zbarS) () (owedFrom c 12) :=
  mayWait_at c (.reg zbarS) 12 fun d hd => by
    have hm := lv_of_mem_drop c 12 hd
    rw [show lv ((c : Thread nD τ), SemLoc.reg zbarS) () = 1 from lv_cell c .zbar ()]
    revert hm; generalize lv d.1 () = x; revert x; decide
omit [FloatOps F] in
/-- The receive wait before forwarding copy `i`: forwarding copies `i..5` still owed. -/
theorem mayWait_yr (c : Dev nD) (i : Fin 6) :
    (levAts L lv : sProp 𝕄) ⊢ MayWait (c : Thread nD τ) (.dma (yrS (Fin.castLE (show 6 ≤ 10 by decide) i))) () (owedFrom c (12 + i.val)) :=
  mayWait_at c (.dma (yrS (Fin.castLE (show 6 ≤ 10 by decide) i))) (12 + i.val) fun d hd => by
    have hm := lv_of_mem_drop c (12 + i.val) hd
    rw [show lv ((c : Thread nD τ), SemLoc.dma (yrS (Fin.castLE (show 6 ≤ 10 by decide) i))) () = 2 from
      lv_cell c (.yr (Fin.castLE (show 6 ≤ 10 by decide) i)) ()]
    revert hm; generalize lv d.1 () = x; clear hd; revert x i; decide
omit [FloatOps F] in
/-- A staging semaphore's wait, before the body (everything owed) or after it (nothing owed). -/
theorem mayWait_stage (c : Dev nD) (q : DmaSem sig) (hq : kindOf (.dma q : SemLoc sig) = none) (O : CellTallies nD τ sig Unit) (hO : O = O₀ c ∨ O = 0) :
    (levAts L lv : sProp 𝕄) ⊢ MayWait (c : Thread nD τ) (.dma q) () O := by
  rcases hO with rfl | rfl
  · refine mayWait_at c (.dma q) 0 fun d hd => ?_
    have hm := lv_of_mem_drop c 0 hd
    rw [show lv ((c : Thread nD τ), SemLoc.dma q) () = 0 from by
      show (match kindOf (SemLoc.dma q : SemLoc sig) with | some k => lvK k | none => 0) = 0
      rw [hq]]
    revert hm; generalize lv d.1 () = x; revert x; decide
  · rw [MayWait_zero]; iintro -; iempintro

omit [FloatOps F] in
/-- Every device owing `n` on cell `k` of its y-partner, the launch deals device `c` that credit on its own cell `k`. -/
private theorem lc_y (k : CK) (n : ℕ) (c : Dev nD) :
    (Pipeline.launchCred (fun d => tallyAt (cell (ynb d) k) () n) c : sProp 𝕄) ⊢ cred (tallyAt (cell c k) () n) :=
  Pipeline.launchCred_tallyAt k.sem ynb ynb ynb_ynb ynb_ynb () n c

omit [FloatOps F] in
/-- The same along z. -/
private theorem lc_z (k : CK) (n : ℕ) (c : Dev nD) :
    (Pipeline.launchCred (fun d => tallyAt (cell (znb d) k) () n) c : sProp 𝕄) ⊢ cred (tallyAt (cell c k) () n) :=
  Pipeline.launchCred_tallyAt k.sem znb znb znb_znb znb_znb () n c

omit [FloatOps F] in
/-- The launch credit of device `c`: one unit on its barrier cell (from `ynb c`), one on its z-ready cell (from `znb c`), a chunk's
    credit on each y receive cell (from `ynb c`) and each z receive cell (from `znb c`). -/
theorem launch_creds (c : Dev nD) : (Pipeline.launchCred O₀ c : sProp 𝕄) ⊢ creds c := by
  show (Pipeline.launchCred (fun d => owedFrom d 0) c : sProp 𝕄) ⊢ _
  unfold creds
  rw [bigSep_univ_eq_bigSepL [0, 1, 2, 3, 4, 5, 6, 7, 8, 9] (by decide) (by decide),
    bigSep_univ_eq_bigSepL [0, 1, 2, 3, 4, 5] (by decide) (by decide)]
  simp only [owedFrom, dues, List.drop_zero, List.foldr_cons, List.foldr_nil, Pipeline.launchCred_add, Pipeline.launchCred_zero, bigSepL]
  show _ ⊢ iprop(_ ∗ _ ∗ (_ ∗ _ ∗ _ ∗ _ ∗ _ ∗ _ ∗ _ ∗ _ ∗ _ ∗ _) ∗ (_ ∗ _ ∗ _ ∗ _ ∗ _ ∗ _))
  iintro ⟨⟨⟨⟨⟨⟨⟨⟨⟨⟨⟨⟨⟨⟨⟨⟨⟨⟨-, H17⟩, H16⟩, H15⟩, H14⟩, H13⟩, H12⟩, H11⟩, H10⟩, H9⟩, H8⟩, H7⟩, H6⟩, H5⟩, H4⟩, H3⟩, H2⟩, H1⟩, H0⟩
  isplitl [H0]; · iapply (lc_y .bar 1 c); iexact H0
  isplitl [H1]; · iapply (lc_z .zbar 1 c); iexact H1
  isplitl [H2 H3 H4 H5 H6 H7 H8 H9 H10 H11]
  · isplitl [H2]; · iapply (lc_y (.yr 0) N64 c); iexact H2
    isplitl [H3]; · iapply (lc_y (.yr 1) N64 c); iexact H3
    isplitl [H4]; · iapply (lc_y (.yr 2) N64 c); iexact H4
    isplitl [H5]; · iapply (lc_y (.yr 3) N64 c); iexact H5
    isplitl [H6]; · iapply (lc_y (.yr 4) N64 c); iexact H6
    isplitl [H7]; · iapply (lc_y (.yr 5) N64 c); iexact H7
    isplitl [H8]; · iapply (lc_y (.yr 6) N64 c); iexact H8
    isplitl [H9]; · iapply (lc_y (.yr 7) N64 c); iexact H9
    isplitl [H10]; · iapply (lc_y (.yr 8) N64 c); iexact H10
    iapply (lc_y (.yr 9) N64 c); iexact H11
  · isplitl [H12]; · iapply (lc_z (.zr 0) N64 c); iexact H12
    isplitl [H13]; · iapply (lc_z (.zr 1) N64 c); iexact H13
    isplitl [H14]; · iapply (lc_z (.zr 2) N64 c); iexact H14
    isplitl [H15]; · iapply (lc_z (.zr 3) N64 c); iexact H15
    isplitl [H16]; · iapply (lc_z (.zr 4) N64 c); iexact H16
    iapply (lc_z (.zr 5) N64 c); iexact H17

/-- info: 'Cert.KernelIdeal.AG.mayWait_bar' depends on axioms: [propext, Classical.choice, Quot.sound] -/
#guard_msgs in #print axioms mayWait_bar

/-- info: 'Cert.KernelIdeal.AG.mayWait_zbar' depends on axioms: [propext, Classical.choice, Quot.sound] -/
#guard_msgs in #print axioms mayWait_zbar

/-- info: 'Cert.KernelIdeal.AG.mayWait_yr' depends on axioms: [propext, Classical.choice, Quot.sound] -/
#guard_msgs in #print axioms mayWait_yr

/-- info: 'Cert.KernelIdeal.AG.mayWait_stage' depends on axioms: [propext, Classical.choice, Quot.sound] -/
#guard_msgs in #print axioms mayWait_stage

/-- info: 'Cert.KernelIdeal.AG.launch_creds' depends on axioms: [propext, Classical.choice, Quot.sound] -/
#guard_msgs in #print axioms launch_creds

end Cert.KernelIdeal.AG

end
-- ==== Proof.KernelIdealAG.Geom.lean ====
/-
  The result buffer cut into chunks, and what lands where.

  The buffer's 2048 rows are the device's own half (rows `1024 y ..`, written by one store) and the other half. The own half is the
  ten chunks the direct copies read plus six chunks never sent; the other half is the ten chunks the y-partner's direct copies write
  plus the six the z-partner's forwarding copies write. A forwarding copy reads the rows one of the direct copies wrote.
  A copy reads and writes through ONE view (same rows on both devices), so what lands is the source's contents on those rows;
  and on those rows the two devices' final contents agree.
-/
import proofs.«900663_g7700000000000664_dist_ag_v7x_xyz2x2x2_y_m1024_n512_bf16_1_alg».proof.Proof.KernelIdealAG.Defs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The result buffer of device `c`. -/
abbrev outLoc (c : Dev nD) : Loc nD τ sig := (c : Thread nD τ).loc cc0_stg1_0

/-- The rectangle of the store: the device's own half. -/
abbrev mineRect (c : Dev nD) : Rect S2048x512 := Rect.unit (s := S2048x512) (k0_off1 c) S1024x512.size (k0_off1_inb c)

/-- The own half's elements. -/
def mineSet (c : Dev nD) : Finset (Idx (outLoc c)) := (oM.access (mineRect c)).set

theorem uOff_inb : ∀ (c : Dev nD) (u : Fin 6), ∀ a, (![1024 * yc c + 64 * (10 * (1 - zc c) + u.val), 0] : Fin 2 → Nat) a + S64x512.size a ≤ S2048x512.size a := by
  decide +kernel

/-- The six chunks of its own half that device `c` never sends (its z-partner sends the same rows of ITS copy of the block). -/
abbrev uSl (c : Dev nD) (u : Fin 6) : Memref sig .tc .vmem S64x512 .bf16 :=
  oM.slice (Rect.unit (s := S2048x512) ![1024 * yc c + 64 * (10 * (1 - zc c) + u.val), 0] S64x512.size (uOff_inb c u)) (fun _ => rfl)

theorem six_le_ten : 6 ≤ 10 := by decide

/-! ## Which rows a piece is -/

/-- The rows `lo ≤ row < lo + len` of the result buffer, every column. -/
def outRows (c : Dev nD) (lo len : ℕ) : Finset (Idx (outLoc c)) :=
  Finset.univ.filter fun x => lo ≤ (x 0).val ∧ (x 0).val < lo + len

theorem mem_outRows (c : Dev nD) (lo len : ℕ) (x : Idx (outLoc c)) :
    x ∈ outRows c lo len ↔ lo ≤ (x 0).val ∧ (x 0).val < lo + len := by
  unfold outRows; rw [Finset.mem_filter]; exact and_iff_right (Finset.mem_univ x)

/-- A unit-stride rectangle of the result buffer that takes every column is a band of rows. -/
theorem oM_access_rows (c : Dev nD) (off sz : Fin 2 → Nat) (inb : ∀ a, off a + sz a ≤ S2048x512.size a)
    (h1 : off 1 = 0) (hs : sz 1 = 512) :
    ((oM.access (Rect.unit (s := S2048x512) off sz inb)).set : Finset (Idx (outLoc c))) = outRows c (off 0) (sz 0) := by
  ext x
  rw [mem_outRows]
  show x ∈ ((View.whole cc0_stg1_0).slice (Rect.unit (s := S2048x512) off sz inb)).set ↔ _
  rw [View.set_slice_whole, Rect.mem_set_unit]
  refine Iff.trans (Fin.forall_fin_two (p := fun a : Fin 2 => off a ≤ (x a : ℕ) ∧ (x a : ℕ) < off a + sz a)) ?_
  rw [h1, hs]
  have h512 : (x 1).val < 512 := (x 1).isLt
  constructor
  · rintro ⟨h, -⟩; exact h
  · intro h; exact ⟨h, Nat.zero_le _, by omega⟩

/-- The chunk number of direct copy `i` at z coordinate `z`. -/
def yChunkAt (z i : ℕ) : ℕ := if i < 6 then 10 * z + i else i

theorem yChunk_eq_at (c : Dev nD) (i : Fin 10) : yChunk c i = yChunkAt (zc c) i.val := rfl

/-- The own half is the rows `1024 y ..`. -/
theorem mineSet_eq (c : Dev nD) : mineSet c = outRows c (1024 * yc c) 1024 := by
  have h := oM_access_rows c (k0_off1 c) S1024x512.size (k0_off1_inb c) (by rw [k0_off1_eq]; rfl) rfl
  have e0 : k0_off1 c 0 = 1024 * yc c := by rw [k0_off1_eq]; rfl
  rw [e0] at h; exact h

/-- Direct copy `i`'s chunk is 64 rows of the sender's own half. -/
theorem ySl_set (c d : Dev nD) (i : Fin 10) :
    ((ySl d i).view.set : Finset (Idx (outLoc c))) = outRows c (1024 * yc d + 64 * yChunkAt (zc d) i.val) 64 := by
  have h := oM_access_rows c (yOff d i) S64x512.size (yOff_inb d i) (by rw [yOff_eq]; rfl) rfl
  have e0 : yOff d i 0 = 1024 * yc d + 64 * yChunkAt (zc d) i.val := by rw [yOff_eq]; rfl
  rw [e0] at h; exact h

/-- Forwarding copy `i`'s chunk is 64 rows of the sender's other half. -/
theorem zSl_set (c d : Dev nD) (i : Fin 6) :
    ((zSl d i).view.set : Finset (Idx (outLoc c))) = outRows c (1024 * (1 - yc d) + 64 * (10 * zc d + i.val)) 64 := by
  have h := oM_access_rows c (zOff d i) S64x512.size (zOff_inb d i) (by rw [zOff_eq]; rfl) rfl
  have e0 : zOff d i 0 = 1024 * (1 - yc d) + 64 * (10 * zc d + i.val) := by rw [zOff_eq]; rfl
  rw [e0] at h; exact h

/-- A chunk never sent is 64 rows of the own half. -/
theorem uSl_set (c d : Dev nD) (u : Fin 6) :
    ((uSl d u).view.set : Finset (Idx (outLoc c))) = outRows c (1024 * yc d + 64 * (10 * (1 - zc d) + u.val)) 64 :=
  oM_access_rows c _ S64x512.size (uOff_inb d u) rfl rfl

/-! ## Sixteen chunks of a half -/

theorem yChunkAt_lt (z i : ℕ) (hz : z ≤ 1) (hi : i < 10) : yChunkAt z i < 16 := by
  unfold yChunkAt; split_ifs <;> omega

theorem yChunkAt_inj (z i j : ℕ) (hz : z ≤ 1) (hi : i < 10) (hj : j < 10) (h : i ≠ j) : yChunkAt z i ≠ yChunkAt z j := by
  unfold yChunkAt; split_ifs <;> omega

theorem yChunkAt_ne_rest (z i u : ℕ) (hz : z ≤ 1) (hi : i < 10) (hu : u < 6) : yChunkAt z i ≠ 10 * (1 - z) + u := by
  unfold yChunkAt; split_ifs <;> omega

/-- Every one of the sixteen chunk numbers is a direct copy's or one of the remaining six. -/
theorem chunk_cases (z k : ℕ) (hz : z ≤ 1) (hk : k < 16) :
    (∃ i : Fin 10, yChunkAt z i.val = k) ∨ ∃ u : Fin 6, 10 * (1 - z) + u.val = k := by
  rcases Nat.eq_zero_or_pos z with h0 | h1
  · subst h0
    by_cases h : k < 10
    · exact .inl ⟨⟨k, h⟩, by show yChunkAt 0 k = k; unfold yChunkAt; split_ifs <;> omega⟩
    · exact .inr ⟨⟨k - 10, by omega⟩, by show 10 * (1 - 0) + (k - 10) = k; omega⟩
  · have h1 : z = 1 := by omega
    subst h1
    by_cases h : k < 6
    · exact .inr ⟨⟨k, h⟩, by show 10 * (1 - 1) + k = k; omega⟩
    · by_cases h' : k < 10
      · exact .inl ⟨⟨k, h'⟩, by show yChunkAt 1 k = k; unfold yChunkAt; split_ifs <;> omega⟩
      · exact .inl ⟨⟨k - 10, by omega⟩, by show yChunkAt 1 (k - 10) = k; unfold yChunkAt; split_ifs <;> omega⟩

theorem outRows_disjoint (c : Dev nD) (lo len lo' len' : ℕ) (h : lo + len ≤ lo' ∨ lo' + len' ≤ lo) :
    Disjoint (outRows c lo len) (outRows c lo' len') := by
  rw [Finset.disjoint_left]
  intro x hx hx'
  rw [mem_outRows] at hx hx'
  omega

omit [FloatOps F] in
/-- A half of the buffer is its sixteen chunks: the ten direct copies' and the remaining six. -/
theorem half_split (c : Dev nD) (lo z : ℕ) (hz : z ≤ 1) (f : Buf (Elt F) (outLoc c)) :
    (outLoc c ↦[outRows c lo 1024]{fullShare} f : sProp 𝕄)
      = iprop((bigSep Finset.univ fun i : Fin 10 => outLoc c ↦[outRows c (lo + 64 * yChunkAt z i.val) 64]{fullShare} f)
        ∗ (bigSep Finset.univ fun u : Fin 6 => outLoc c ↦[outRows c (lo + 64 * (10 * (1 - z) + u.val)) 64]{fullShare} f)) := by
  have hset : outRows c lo 1024
      = (Finset.univ.biUnion fun i : Fin 10 => outRows c (lo + 64 * yChunkAt z i.val) 64)
        ∪ (Finset.univ.biUnion fun u : Fin 6 => outRows c (lo + 64 * (10 * (1 - z) + u.val)) 64) := by
    ext x
    simp only [Finset.mem_union, Finset.mem_biUnion, Finset.mem_univ, true_and, mem_outRows]
    constructor
    · rintro ⟨h1, h2⟩
      rcases chunk_cases z (((x 0).val - lo) / 64) hz (by omega) with ⟨i, hi⟩ | ⟨u, hu⟩
      · exact .inl ⟨i, by omega⟩
      · exact .inr ⟨u, by omega⟩
    · rintro (⟨i, h1, h2⟩ | ⟨u, h1, h2⟩)
      · have := yChunkAt_lt z i.val hz i.isLt; omega
      · have := u.isLt; omega
  have hd : Disjoint (Finset.univ.biUnion fun i : Fin 10 => outRows c (lo + 64 * yChunkAt z i.val) 64)
      (Finset.univ.biUnion fun u : Fin 6 => outRows c (lo + 64 * (10 * (1 - z) + u.val)) 64) := by
    rw [Finset.disjoint_biUnion_left]; intro i _
    rw [Finset.disjoint_biUnion_right]; intro u _
    apply outRows_disjoint
    have := yChunkAt_ne_rest z i.val u.val hz i.isLt u.isLt; omega
  have hu : (outLoc c ↦[(Finset.univ.biUnion fun i : Fin 10 => outRows c (lo + 64 * yChunkAt z i.val) 64)
        ∪ (Finset.univ.biUnion fun u : Fin 6 => outRows c (lo + 64 * (10 * (1 - z) + u.val)) 64)]{fullShare} f : sProp 𝕄)
      ⊣⊢ iprop((outLoc c ↦[Finset.univ.biUnion fun i : Fin 10 => outRows c (lo + 64 * yChunkAt z i.val) 64]{fullShare} f)
        ∗ outLoc c ↦[Finset.univ.biUnion fun u : Fin 6 => outRows c (lo + 64 * (10 * (1 - z) + u.val)) 64]{fullShare} f) :=
    pointsTo_union hd
  rw [hset, BI.equiv_iff.mp ⟨hu.1, hu.2⟩,
    pointsTo_biUnion _ _ (fun i _ j _ hij => outRows_disjoint c _ _ _ _ (by
      have := yChunkAt_inj z i.val j.val hz i.isLt j.isLt (fun e => hij (Fin.ext e)); omega)),
    pointsTo_biUnion _ _ (fun u _ v _ huv => outRows_disjoint c _ _ _ _ (by
      have : u.val ≠ v.val := fun e => huv (Fin.ext e); omega))]

/-! ## Cutting and joining -/

omit [FloatOps F] in
/-- A direct copy's chunk held whole, as a band of rows. -/
theorem chunkPts_ySl (c d : Dev nD) (i : Fin 10) (f : Buf (Elt F) (outLoc c)) :
    chunkPts (F := F) c (ySl d i) f
      = (outLoc c ↦[outRows c (1024 * yc d + 64 * yChunkAt (zc d) i.val) 64]{fullShare} f : sProp 𝕄) := by
  unfold chunkPts; rw [ySl_set c d i]

omit [FloatOps F] in
/-- A forwarding copy's chunk held whole, as a band of rows. -/
theorem chunkPts_zSl (c d : Dev nD) (i : Fin 6) (f : Buf (Elt F) (outLoc c)) :
    chunkPts (F := F) c (zSl d i) f
      = (outLoc c ↦[outRows c (1024 * (1 - yc d) + 64 * (10 * zc d + i.val)) 64]{fullShare} f : sProp 𝕄) := by
  unfold chunkPts; rw [zSl_set c d i]

omit [FloatOps F] in
/-- A chunk never sent held whole, as a band of rows. -/
theorem chunkPts_uSl (c d : Dev nD) (u : Fin 6) (f : Buf (Elt F) (outLoc c)) :
    chunkPts (F := F) c (uSl d u) f
      = (outLoc c ↦[outRows c (1024 * yc d + 64 * (10 * (1 - zc d) + u.val)) 64]{fullShare} f : sProp 𝕄) := by
  unfold chunkPts; rw [uSl_set c d u]

omit [FloatOps F] in
/-- The own half is the ten chunks sent directly and the six never sent. -/
theorem mine_split (c : Dev nD) (f : Buf (Elt F) (outLoc c)) :
    (outLoc c ↦[mineSet c]{fullShare} f : sProp 𝕄) ⊣⊢ iprop((bigSep Finset.univ fun i : Fin 10 => chunkPts c (ySl c i) f)
      ∗ (bigSep Finset.univ fun u : Fin 6 => chunkPts c (uSl c u) f)) := by
  refine BiEntails.of_eq ?_
  simp only [chunkPts_ySl, chunkPts_uSl]
  rw [mineSet_eq]
  exact half_split c (1024 * yc c) (zc c) (zc_le c) f

omit [FloatOps F] in
/-- The whole buffer is its own half, the ten direct landings and the six forwarded landings. -/
theorem whole_split (c : Dev nD) (f : Buf (Elt F) (outLoc c)) :
    (outLoc c ↦{fullShare} f : sProp 𝕄) ⊣⊢ iprop((outLoc c ↦[mineSet c]{fullShare} f)
      ∗ (bigSep Finset.univ fun i : Fin 10 => chunkPts c (ySl (ynb c) i) f)
      ∗ (bigSep Finset.univ fun u : Fin 6 => chunkPts c (zSl (znb c) u) f)) := by
  refine BiEntails.of_eq ?_
  simp only [chunkPts_ySl, chunkPts_zSl, yc_ynb, zc_ynb, yc_znb, zc_znb]
  rw [← half_split c (1024 * (1 - yc c)) (zc c) (zc_le c) f, mineSet_eq]
  have hy := yc_le c
  have hd : Disjoint (outRows c (1024 * yc c) 1024) (outRows c (1024 * (1 - yc c)) 1024) :=
    outRows_disjoint c _ _ _ _ (by omega)
  have hset : (Finset.univ : Finset (Idx (outLoc c))) = outRows c (1024 * yc c) 1024 ∪ outRows c (1024 * (1 - yc c)) 1024 := by
    ext x
    have h2048 : (x 0).val < 2048 := (x 0).isLt
    simp only [Finset.mem_univ, Finset.mem_union, mem_outRows, true_iff]
    omega
  have hu : (outLoc c ↦[outRows c (1024 * yc c) 1024 ∪ outRows c (1024 * (1 - yc c)) 1024]{fullShare} f : sProp 𝕄)
      ⊣⊢ iprop((outLoc c ↦[outRows c (1024 * yc c) 1024]{fullShare} f)
        ∗ outLoc c ↦[outRows c (1024 * (1 - yc c)) 1024]{fullShare} f) := pointsTo_union hd
  rw [← BI.equiv_iff.mp ⟨hu.1, hu.2⟩, ← hset]

omit [FloatOps F] in
/-- Forwarding copy `i` reads the rows direct copy `i` of the y-partner wrote. -/
theorem zsrc_eq (c : Dev nD) (i : Fin 6) (f : Buf (Elt F) (outLoc c)) :
    (chunkPts (F := F) c (zSl c i) f) = chunkPts c (ySl (ynb c) (Fin.castLE six_le_ten i)) f := by
  rw [chunkPts_ySl, chunkPts_zSl, yc_ynb, zc_ynb]
  have e : yChunkAt (zc c) (Fin.castLE six_le_ten i).val = 10 * zc c + i.val := by
    show yChunkAt (zc c) i.val = _
    unfold yChunkAt; rw [if_pos i.isLt]
  rw [e]

/-- info: 'Cert.KernelIdeal.AG.whole_split' depends on axioms: [propext, Classical.choice, Quot.sound] -/
#guard_msgs in #print axioms whole_split

/-- info: 'Cert.KernelIdeal.AG.mine_split' depends on axioms: [propext, Classical.choice, Quot.sound] -/
#guard_msgs in #print axioms mine_split

/-- info: 'Cert.KernelIdeal.AG.zsrc_eq' depends on axioms: [propext, Classical.choice, Quot.sound] -/
#guard_msgs in #print axioms zsrc_eq

end Cert.KernelIdeal.AG

end
-- ==== Proof.KernelIdealAG.Land.lean ====
/-
  What the store and the copies leave: the own half at its final contents after the store; and what a copy lands on the partner
  is, on the rows it carries, the partner's final contents (a copy reads and writes through one view, and on those rows the two
  devices' final contents are the same block of the same device).
-/
import proofs.«900663_g7700000000000664_dist_ag_v7x_xyz2x2x2_y_m1024_n512_bf16_1_alg».proof.Proof.KernelIdealAG.Geom

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The store leaves the own half at its final contents. -/
theorem stored_eq_fin (c : Dev nD) (f0 : Buf (Elt F) (outLoc c)) :
    ∀ i ∈ mineSet c, ((oM.access (mineRect c)).write (Elt F) f0 (X m ρ c) Finset.univ) i = fin m ρ c i := by
  intro i hi
  obtain ⟨y, rfl⟩ := View.exists_emb_of_mem_set (oM.access (mineRect c)) hi
  rw [View.write_emb_of_mem _ _ (Finset.mem_univ y)]
  have hy0 : (y 0).val < 1024 := (y 0).isLt
  have hy1 : (y 1).val < 512 := (y 1).isLt
  have e0 : (((oM.access (mineRect c)).emb y) 0).val = 1024 * yc c + (y 0).val := by
    show k0_off1 c 0 + 1 * (y 0).val = _
    rw [k0_off1_eq]; simp [yc]
  have e1 : (((oM.access (mineRect c)).emb y) 1).val = (y 1).val := by
    show k0_off1 c 1 + 1 * (y 1).val = _
    rw [k0_off1_eq]; simp
  have hd : (((oM.access (mineRect c)).emb y) 0).val / 1024 = yc c := by rw [e0]; omega
  rw [cast_eq]; unfold fin; beta_reduce
  rw [if_pos hd]
  refine congrArg (X m ρ c) ((eq_ix2 y).trans ?_)
  exact congrArg₂ ix2 (Fin.ext (by simp only [e0]; omega)) (Fin.ext (by simp only [e1]))

/-! ## What a copy through one view leaves, and the final contents by halves -/

omit [FloatOps F] in
/-- Writing, through a view, what was read through the same view leaves on the view's elements the contents read. -/
private theorem write_read_of_mem {κ : Kind} {sp : Space} {s : Shape} {e : EltTy} (v : View sig κ sp s e)
    (fd fs : v.ty.Contents (Elt F)) :
    ∀ x ∈ v.set, (v.write (Elt F) fd (v.read (Elt F) fs) Finset.univ) x = fs x := by
  intro x hx
  obtain ⟨y, rfl⟩ := View.exists_emb_of_mem_set v hx
  rw [View.write_emb_of_mem _ _ (Finset.mem_univ y), View.read_apply, cast_cast, cast_eq]

/-- On a row of its own half a device's final contents are its own block. -/
private theorem fin_own (c : Dev nD) (x : (cc0_stg1_0 : Ref sig .tc).ty.Idx) (h : (x 0).val / 1024 = yc c) :
    fin m ρ c x = X m ρ c (ix2 (⟨(x 0).val % 1024, Nat.mod_lt _ (by decide)⟩ : Fin 1024) (⟨(x 1).val, (x 1).isLt⟩ : Fin 512)) := by
  unfold fin; exact if_pos h

/-- On a row of the other half they are the block of the device that supplied the row's chunk. -/
private theorem fin_other (c : Dev nD) (x : (cc0_stg1_0 : Ref sig .tc).ty.Idx) (h : (x 0).val / 1024 ≠ yc c) :
    fin m ρ c x = X m ρ (srcDev c ((x 0).val % 1024 / 64))
      (ix2 (⟨(x 0).val % 1024, Nat.mod_lt _ (by decide)⟩ : Fin 1024) (⟨(x 1).val, (x 1).isLt⟩ : Fin 512)) := by
  unfold fin; exact if_neg h

/-- On the rows direct copy `i` carries, the sender's final contents and its y-partner's agree: the rows are chunk
    `yChunk c i` of the sender's own half, which the y-partner receives directly from the sender. -/
private theorem fin_agree_y (c : Dev nD) (i : Fin 10) :
    ∀ x ∈ (ySl c i).view.set, fin m ρ c x = fin m ρ (ynb c) x := by
  intro x hx
  obtain ⟨y, rfl⟩ := View.exists_emb_of_mem_set (ySl c i).view hx
  have hy0 : (y 0).val < 64 := (y 0).isLt
  have e0 : (((ySl c i).view.emb y) 0).val = 1024 * yc c + 64 * yChunk c i + (y 0).val := by
    show yOff c i 0 + 1 * (y 0).val = _
    rw [yOff_eq]; simp
  have hz := zc_le c
  have hyc := yc_le c
  have hch : yChunk c i ≤ 15 ∧ (6 * zc c ≤ yChunk c i ∧ yChunk c i < 10 + 6 * zc c) := by
    have := i.isLt
    unfold yChunk; split <;> omega
  have hj : (((ySl c i).view.emb y) 0).val % 1024 / 64 = yChunk c i := by rw [e0]; omega
  have hs : srcDev (ynb c) ((((ySl c i).view.emb y) 0).val % 1024 / 64) = c := by
    rw [hj]; unfold srcDev; rw [zc_ynb, if_pos hch.2, ynb_ynb]
  rw [fin_own m ρ c _ (by rw [e0]; omega), fin_other m ρ (ynb c) _ (by rw [e0, yc_ynb]; omega), hs]

/-- On the rows forwarding copy `i` carries, the sender's final contents and its z-partner's agree: the rows are chunk
    `10 z + i` of the half that is neither's own; the sender received it directly from its y-partner, and its z-partner
    does not receive that chunk directly, so it holds the block of the same device. -/
private theorem fin_agree_z (c : Dev nD) (i : Fin 6) :
    ∀ x ∈ (zSl c i).view.set, fin m ρ c x = fin m ρ (znb c) x := by
  intro x hx
  obtain ⟨y, rfl⟩ := View.exists_emb_of_mem_set (zSl c i).view hx
  have hy0 : (y 0).val < 64 := (y 0).isLt
  have e0 : (((zSl c i).view.emb y) 0).val = 1024 * (1 - yc c) + 64 * (10 * zc c + i.val) + (y 0).val := by
    show zOff c i 0 + 1 * (y 0).val = _
    rw [zOff_eq]; simp
  have hz := zc_le c
  have hyc := yc_le c
  have hi := i.isLt
  have hj : (((zSl c i).view.emb y) 0).val % 1024 / 64 = 10 * zc c + i.val := by rw [e0]; omega
  have hs : srcDev c ((((zSl c i).view.emb y) 0).val % 1024 / 64) = ynb c := by
    rw [hj]; unfold srcDev; rw [if_pos (by omega)]
  have hs' : srcDev (znb c) ((((zSl c i).view.emb y) 0).val % 1024 / 64) = ynb c := by
    rw [hj]; unfold srcDev; rw [zc_znb, if_neg (by omega), znb_znb]
  rw [fin_other m ρ c _ (by rw [e0]; omega), fin_other m ρ (znb c) _ (by rw [e0, yc_znb]; omega), hs, hs']

/-! ## Landings -/

/-- Direct copy `i` of device `c` lands, on `ynb c`, that device's final contents of those rows. -/
theorem land_y (c : Dev nD) (i : Fin 10) (fd : Buf (Elt F) ((ySl c i).view.loc (ynb c : Thread nD τ))) :
    ((ySl c i).view.loc (ynb c : Thread nD τ) ↦[(ySl c i).view.set]{fullShare}
        ((ySl c i).view.write (Elt F) fd ((ySl c i).view.read (Elt F) (fin m ρ c)) Finset.univ) : sProp 𝕄)
      ⊢ pay m ρ (ynb c) (.yr i) := by
  show _ ⊢ chunkPts (ynb c) (ySl (ynb (ynb c)) i) (fin m ρ (ynb c))
  rw [ynb_ynb]; unfold chunkPts
  exact Entails.of_eq (pointsTo_congr fun x hx =>
    (write_read_of_mem (ySl c i).view fd (fin m ρ c) x hx).trans (fin_agree_y m ρ c i x hx))

/-- Forwarding copy `i` of device `c` lands, on `znb c`, that device's final contents of those rows. -/
theorem land_z (c : Dev nD) (i : Fin 6) (fd : Buf (Elt F) ((zSl c i).view.loc (znb c : Thread nD τ))) :
    ((zSl c i).view.loc (znb c : Thread nD τ) ↦[(zSl c i).view.set]{fullShare}
        ((zSl c i).view.write (Elt F) fd ((zSl c i).view.read (Elt F) (fin m ρ c)) Finset.univ) : sProp 𝕄)
      ⊢ pay m ρ (znb c) (.zr i) := by
  show _ ⊢ chunkPts (znb c) (zSl (znb (znb c)) i) (fin m ρ (znb c))
  rw [znb_znb]; unfold chunkPts
  exact Entails.of_eq (pointsTo_congr fun x hx =>
    (write_read_of_mem (zSl c i).view fd (fin m ρ c) x hx).trans (fin_agree_z m ρ c i x hx))

/-- info: 'Cert.KernelIdeal.AG.stored_eq_fin' depends on axioms: [propext, Classical.choice, Quot.sound] -/
#guard_msgs in #print axioms stored_eq_fin

/-- info: 'Cert.KernelIdeal.AG.land_y' depends on axioms: [propext, Classical.choice, Quot.sound] -/
#guard_msgs in #print axioms land_y

/-- info: 'Cert.KernelIdeal.AG.land_z' depends on axioms: [propext, Classical.choice, Quot.sound] -/
#guard_msgs in #print axioms land_z

end Cert.KernelIdeal.AG

end
-- ==== Proof.KernelIdealAG.Steps.lean ====
/-
  The protocol's steps as rules at this schedule: the two entry signals, a direct and a forwarding copy, a wait on one of the
  device's cells, and closing a cell. Each is the rounds library's rule at the protocol's cells with the table's facts filled in.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Land

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ)

theorem inv_at (ck : Dev nD × CK) : records m ρ K ⊢ cellInv ER (Rd m ρ) (K ck) (cell ck.1 ck.2) := by
  unfold records
  exact (Idealize.SL.BI.sep_and.trans Idealize.SL.BI.and_elimL).trans
    (bigSep_elim (Finset.mem_univ ck) (Φ := fun ck : Dev nD × CK => cellInv ER (Rd m ρ) (K ck) (cell ck.1 ck.2)))
theorem reached_at (ck : Dev nD × CK) : records m ρ K ⊢ reached ER (cell ck.1 ck.2) 0 := by
  unfold records
  exact (Idealize.SL.BI.sep_and.trans Idealize.SL.BI.and_elimR).trans
    (bigSep_elim (Finset.mem_univ ck) (Φ := fun ck : Dev nD × CK => (reached ER (cell ck.1 ck.2) 0 : sProp 𝕄)))

/-- The two records of one cell, device and kind apart. -/
private theorem inv_cell (c : Dev nD) (kd : CK) : records m ρ K ⊢ cellInv ER (Rd m ρ) (K (c, kd)) (cell c kd) :=
  inv_at m ρ K (c, kd)
private theorem reached_cell (c : Dev nD) (kd : CK) : records m ρ K ⊢ reached ER (cell c kd) 0 :=
  reached_at m ρ K (c, kd)

/-- A protocol cell's one duty is a duty of its round 0. -/
private theorem mem_duties (c : Dev nD) (kd : CK) : () ∈ (Rd (F := F) m ρ).duties (cell c kd) 0 := by
  rw [duties_cell]; exact Finset.mem_singleton_self _

/-- The signal to the y-partner's barrier cell (addressed to `n = ynb c`): it hands over the ten chunks of `c`'s buffer the partner
    will write. -/
theorem wp_sig_bar (c n : Dev nD) (hn : n = ynb c) {α : Type} {Q : α → sProp 𝕄} {k : PUnit → Prog (TpuEff nD τ sig (Elt F) Λ₀ .tc) α}
    (O : CellTallies nD τ sig Unit) (W : Waits sig Unit) :
    iprop(records m ρ K ∗ owes (c : Thread nD τ) (O + tallyAt (cell (ynb c) .bar) () 1) W
        ∗ dutyTok ER (cell (ynb c) .bar) 0 () ∗ pay m ρ (ynb c) .bar)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  have hpay : pay m ρ (ynb c) .bar ⊢ (Rd m ρ).payload ((ynb c : Thread nD τ), SemLoc.reg barS) 0 () :=
    Entails.of_eq (payload_cell m ρ (ynb c) .bar ()).symm
  iintro ⟨#HR, HO, Htok, Hpay⟩
  ihave #Hi := (inv_cell m ρ K (ynb c) .bar) $$ HR
  ihave #Hr := (reached_cell m ρ K (ynb c) .bar) $$ HR
  iapply (Rounds.wp_signal 𝒱₀ ER (Rd m ρ) (c : Thread nD τ) none (dst := (ynb c : Thread nD τ)) (sem := barS) (r := 0) (d := ()) (k' := 1)
    (κ := K (ynb c, .bar)) (mem_duties m ρ (ynb c) .bar) (amount_cell m ρ (ynb c) .bar ()) () O rfl (W := W))
  isplitr; · iexact Hi
  isplitl [HO]; · iexact HO
  isplitl [Htok]; · iexact Htok
  isplitl [Hpay]; · iapply hpay; iexact Hpay
  iexact Hr

/-- The signal to the z-partner's z-ready cell: it hands over the six chunks of `c`'s buffer that partner will write. -/
theorem wp_sig_zbar (c n : Dev nD) (hn : n = znb c) {α : Type} {Q : α → sProp 𝕄} {k : PUnit → Prog (TpuEff nD τ sig (Elt F) Λ₀ .tc) α}
    (O : CellTallies nD τ sig Unit) (W : Waits sig Unit) :
    iprop(records m ρ K ∗ owes (c : Thread nD τ) (O + tallyAt (cell (znb c) .zbar) () 1) W
        ∗ dutyTok ER (cell (znb c) .zbar) 0 () ∗ pay m ρ (znb c) .zbar)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) zbarS 1) k) Q) := by
  subst hn
  have hpay : pay m ρ (znb c) .zbar ⊢ (Rd m ρ).payload ((znb c : Thread nD τ), SemLoc.reg zbarS) 0 () :=
    Entails.of_eq (payload_cell m ρ (znb c) .zbar ()).symm
  iintro ⟨#HR, HO, Htok, Hpay⟩
  ihave #Hi := (inv_cell m ρ K (znb c) .zbar) $$ HR
  ihave #Hr := (reached_cell m ρ K (znb c) .zbar) $$ HR
  iapply (Rounds.wp_signal 𝒱₀ ER (Rd m ρ) (c : Thread nD τ) none (dst := (znb c : Thread nD τ)) (sem := zbarS) (r := 0) (d := ()) (k' := 1)
    (κ := K (znb c, .zbar)) (mem_duties m ρ (znb c) .zbar) (amount_cell m ρ (znb c) .zbar ()) () O rfl (W := W))
  isplitr; · iexact Hi
  isplitl [HO]; · iexact HO
  isplitl [Htok]; · iexact Htok
  isplitl [Hpay]; · iapply hpay; iexact Hpay
  iexact Hr

/-- Direct copy `i` (addressed to `n = ynb c`): the source chunk at its final contents, the partner's landing chunk at any. -/
theorem wp_ysend (c n : Dev nD) (hn : n = ynb c) (i : Fin 10)
    {hsc : (ySl c i : Memref sig (Dev.tc n : Thread nD τ).2.kind .vmem S64x512 .bf16).view.ref.isScScratch = false}
    {hsrc : (ySl c i).view.WordExact} {hdst : (ySl c i).view.WordExact}
    {hsem : DmaTarget.Typed .vmem (.dma (yrS i)) (.remote (Dev.tc n : Thread nD τ) (ySl c i) (.dma (ysS i)) hsc)}
    {α : Type} {Q : α → sProp 𝕄} {k : PUnit → Prog (TpuEff nD τ sig (Elt F) Λ₀ .tc) α}
    (fd : Buf (Elt F) ((ySl c i).view.loc (ynb c : Thread nD τ))) (O : CellTallies nD τ sig Unit) (W : Waits sig Unit) :
    iprop(records m ρ K ∗ chunkPts c (ySl c i) (fin m ρ c) ∗ chunkPts (ynb c) (ySl c i) fd
        ∗ owes (c : Thread nD τ) (O + tallyAt (cell (ynb c) (.yr i)) () N64) W
        ∗ dutyTok ER (cell c (.ys i)) 0 () ∗ dutyTok ER (cell (ynb c) (.yr i)) 0 ())
      ⊢ iprop(((cred (tallyAt (cell c (.ys i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ySl c i) (.remote (Dev.tc n : Thread nD τ) (ySl c i) (.dma (ysS i)) hsc) (.dma (yrS i)) hsrc hdst hsem) k) Q) := by
  subst hn
  have hpay₁ : ((ySl c i).view.loc (c : Thread nD τ) ↦[(ySl c i).view.set]{fullShare} (fin m ρ c) : sProp 𝕄)
      ⊢ (Rd m ρ).payload (cell c (.ys i)) 0 () := by
    rw [payload_cell]; exact Entails.refl _
  have hpay₂ : ((ySl c i).view.loc (ynb c : Thread nD τ) ↦[(ySl c i).view.set]{fullShare}
        ((ySl c i).view.write (Elt F) fd ((ySl c i).view.read (Elt F) (fin m ρ c)) Finset.univ) : sProp 𝕄)
      ⊢ (Rd m ρ).payload (cell (ynb c) (.yr i)) 0 () := by
    rw [payload_cell]; exact land_y m ρ c i fd
  unfold chunkPts
  iintro ⟨#HR, Hsrc, Hdst, HO, Htok₁, Htok₂⟩
  ihave #Hi₁ := (inv_cell m ρ K c (.ys i)) $$ HR
  ihave #Hi₂ := (inv_cell m ρ K (ynb c) (.yr i)) $$ HR
  ihave #Hr₁ := (reached_cell m ρ K c (.ys i)) $$ HR
  ihave #Hr₂ := (reached_cell m ρ K (ynb c) (.yr i)) $$ HR
  iapply (Rounds.wp_send_pointsTo 𝒱₀ ER (Rd m ρ) (c : Thread nD τ) none (c' := (ynb c : Thread nD τ)) (src := ySl c i) (dst := ySl c i)
    (sS := .dma (ysS i)) (sem := .dma (yrS i)) (q := fullShare) (fs := fin m ρ c) (fd := fd)
    (κ₁ := K (c, .ys i)) (κ₂ := K (ynb c, .yr i)) (r₁ := 0) (r₂ := 0) (d₁ := ()) (d₂ := ())
    (mem_duties m ρ c (.ys i)) (mem_duties m ρ (ynb c) (.yr i)) () () N64 rfl
    (amount_cell m ρ c (.ys i) ()) (amount_cell m ρ (ynb c) (.yr i) ()) O rfl (W := W) hpay₁ hpay₂)
  isplitr; · iexact Hi₁
  isplitr; · iexact Hi₂
  isplitl [Hsrc]; · iexact Hsrc
  isplitl [Hdst]; · iexact Hdst
  isplitl [HO]; · iexact HO
  isplitl [Htok₁]; · iexact Htok₁
  isplitr; · iexact Hr₁
  isplitl [Htok₂]; · iexact Htok₂
  iexact Hr₂

/-- Forwarding copy `i` (addressed to `n = znb c`). -/
theorem wp_zsend (c n : Dev nD) (hn : n = znb c) (i : Fin 6)
    {hsc : (zSl c i : Memref sig (Dev.tc n : Thread nD τ).2.kind .vmem S64x512 .bf16).view.ref.isScScratch = false}
    {hsrc : (zSl c i).view.WordExact} {hdst : (zSl c i).view.WordExact}
    {hsem : DmaTarget.Typed .vmem (.dma (zrS i)) (.remote (Dev.tc n : Thread nD τ) (zSl c i) (.dma (zsS i)) hsc)}
    {α : Type} {Q : α → sProp 𝕄} {k : PUnit → Prog (TpuEff nD τ sig (Elt F) Λ₀ .tc) α}
    (fd : Buf (Elt F) ((zSl c i).view.loc (znb c : Thread nD τ))) (O : CellTallies nD τ sig Unit) (W : Waits sig Unit) :
    iprop(records m ρ K ∗ chunkPts c (zSl c i) (fin m ρ c) ∗ chunkPts (znb c) (zSl c i) fd
        ∗ owes (c : Thread nD τ) (O + tallyAt (cell (znb c) (.zr i)) () N64) W
        ∗ dutyTok ER (cell c (.zs i)) 0 () ∗ dutyTok ER (cell (znb c) (.zr i)) 0 ())
      ⊢ iprop(((cred (tallyAt (cell c (.zs i)) () N64) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (zSl c i) (.remote (Dev.tc n : Thread nD τ) (zSl c i) (.dma (zsS i)) hsc) (.dma (zrS i)) hsrc hdst hsem) k) Q) := by
  subst hn
  have hpay₁ : ((zSl c i).view.loc (c : Thread nD τ) ↦[(zSl c i).view.set]{fullShare} (fin m ρ c) : sProp 𝕄)
      ⊢ (Rd m ρ).payload (cell c (.zs i)) 0 () := by
    rw [payload_cell]; exact Entails.refl _
  have hpay₂ : ((zSl c i).view.loc (znb c : Thread nD τ) ↦[(zSl c i).view.set]{fullShare}
        ((zSl c i).view.write (Elt F) fd ((zSl c i).view.read (Elt F) (fin m ρ c)) Finset.univ) : sProp 𝕄)
      ⊢ (Rd m ρ).payload (cell (znb c) (.zr i)) 0 () := by
    rw [payload_cell]; exact land_z m ρ c i fd
  unfold chunkPts
  iintro ⟨#HR, Hsrc, Hdst, HO, Htok₁, Htok₂⟩
  ihave #Hi₁ := (inv_cell m ρ K c (.zs i)) $$ HR
  ihave #Hi₂ := (inv_cell m ρ K (znb c) (.zr i)) $$ HR
  ihave #Hr₁ := (reached_cell m ρ K c (.zs i)) $$ HR
  ihave #Hr₂ := (reached_cell m ρ K (znb c) (.zr i)) $$ HR
  iapply (Rounds.wp_send_pointsTo 𝒱₀ ER (Rd m ρ) (c : Thread nD τ) none (c' := (znb c : Thread nD τ)) (src := zSl c i) (dst := zSl c i)
    (sS := .dma (zsS i)) (sem := .dma (zrS i)) (q := fullShare) (fs := fin m ρ c) (fd := fd)
    (κ₁ := K (c, .zs i)) (κ₂ := K (znb c, .zr i)) (r₁ := 0) (r₂ := 0) (d₁ := ()) (d₂ := ())
    (mem_duties m ρ c (.zs i)) (mem_duties m ρ (znb c) (.zr i)) () () N64 rfl
    (amount_cell m ρ c (.zs i) ()) (amount_cell m ρ (znb c) (.zr i) ()) O rfl (W := W) hpay₁ hpay₂)
  isplitr; · iexact Hi₁
  isplitr; · iexact Hi₂
  isplitl [Hsrc]; · iexact Hsrc
  isplitl [Hdst]; · iexact Hdst
  isplitl [HO]; · iexact HO
  isplitl [Htok₁]; · iexact Htok₁
  isplitr; · iexact Hr₁
  isplitl [Htok₂]; · iexact Htok₂
  iexact Hr₂

/-- A wait for the whole round of one of the device's own cells: the owner comes back at round 1 with the cell's payload. -/
theorem wp_wait_cell (c : Dev nD) (kd : CK) {w : TpuEff nD τ sig (Elt F) Λ₀ .tc PUnit}
    (hw : ∀ Kp : PUnit → sProp 𝕄, wpE (defs₀ (F := F)) 𝒱₀ (c : Thread nD τ) none Set.univ w Kp = waitSpec (c : Thread nD τ) Set.univ kd.sem (amt kd) Kp)
    {α : Type} {Q : α → sProp 𝕄} {k : PUnit → Prog (TpuEff nD τ sig (Elt F) Λ₀ .tc) α}
    (O : CellTallies nD τ sig Unit) (W : Waits sig Unit) :
    iprop(records m ρ K ∗ cred (tallyAt (cell c kd) () (amt kd)) ∗ owes (c : Thread nD τ) O W ∗ MayWait (c : Thread nD τ) kd.sem () O
        ∗ atPos ER (cell c kd) 0 ∅ 0)
      ⊢ iprop(((owes (c : Thread nD τ) O (insert (kd.sem, ()) W) ∗ atPos ER (cell c kd) 1 ∅ 0 ∗ pay m ρ c kd)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hk : 0 + amt kd = (Rd m ρ).expect (cell c kd) 0 := by rw [Nat.zero_add, expect_cell]
  iintro ⟨#HR, Hc, HO, Hmw, Hat⟩ Hk
  ihave #Hi := (inv_cell m ρ K c kd) $$ HR
  iapply (Rounds.wp_wait_rest_token 𝒱₀ ER (Rd m ρ) (c : Thread nD τ) none (sm := kd.sem) (k' := amt kd) (κ := K (c, kd))
    hw (Set.mem_univ _) () (O := O) (W := W) (R := 0) (m := 0) (T := ∅) hk) $$ [Hc HO Hmw Hat]
  · isplitr; · iexact Hi
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_cell m ρ c kd))
  iexact Hpay

/-- A waited cell closes: its counter at zero is the device's again. -/
theorem close_cell (c : Dev nD) (kd : CK) :
    iprop(records m ρ K ∗ atPos ER (cell c kd) 1 ∅ 0) ⊢ iprop(|={Set.univ}=> semVal (cell c kd) 0) := by
  iintro ⟨#HR, Hat⟩
  ihave #Hi := (inv_cell m ρ K c kd) $$ HR
  iapply (Rounds.cell_close ER (Rd m ρ) (κ := K (c, kd)) (g := cell c kd) (Set.mem_univ _) (fun h => h) (R := 1)
    (fun r hr => duties_later m ρ (cell c kd) r hr))
  isplitr; · iexact Hi
  iexact Hat

end Steps

/-- info: 'Cert.KernelIdeal.AG.inv_at' depends on axioms: [propext, Classical.choice, Quot.sound] -/
#guard_msgs in #print axioms inv_at

/-- info: 'Cert.KernelIdeal.AG.reached_at' depends on axioms: [propext, Classical.choice, Quot.sound] -/
#guard_msgs in #print axioms reached_at

/-- info: 'Cert.KernelIdeal.AG.wp_sig_bar' depends on axioms: [propext, Classical.choice, Quot.sound] -/
#guard_msgs in #print axioms wp_sig_bar

/-- info: 'Cert.KernelIdeal.AG.wp_sig_zbar' depends on axioms: [propext, Classical.choice, Quot.sound] -/
#guard_msgs in #print axioms wp_sig_zbar

/-- info: 'Cert.KernelIdeal.AG.wp_ysend' depends on axioms: [propext, Classical.choice, Quot.sound] -/
#guard_msgs in #print axioms wp_ysend

/-- info: 'Cert.KernelIdeal.AG.wp_zsend' depends on axioms: [propext, Classical.choice, Quot.sound] -/
#guard_msgs in #print axioms wp_zsend

/-- info: 'Cert.KernelIdeal.AG.wp_wait_cell' depends on axioms: [propext, Classical.choice, Quot.sound] -/
#guard_msgs in #print axioms wp_wait_cell

/-- info: 'Cert.KernelIdeal.AG.close_cell' depends on axioms: [propext, Classical.choice, Quot.sound] -/
#guard_msgs in #print axioms close_cell

end Cert.KernelIdeal.AG

end
-- ==== Proof.KernelIdealAG.BodyAux.lean ====
/-
  Small facts the body's proof uses: a family over ten, six or all of a device's cells written out one by one; that the chunks a
  device hands its partners at entry are what the partners' entry cells pay; the whole-block load.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Geom

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  exact bigSep_univ_eq_bigSepL ([0, 1, 2, 3, 4, 5, 6, 7, 8, 9] : List (Fin 10)) (by decide) (by decide) Φ
omit [FloatOps F] in
theorem fin6 (Φ : Fin 6 → sProp 𝕄) : bigSep Finset.univ Φ = iprop(Φ 0 ∗ Φ 1 ∗ Φ 2 ∗ Φ 3 ∗ Φ 4 ∗ Φ 5) := by
  exact bigSep_univ_eq_bigSepL ([0, 1, 2, 3, 4, 5] : List (Fin 6)) (by decide) (by decide) Φ
omit [FloatOps F] in
/-- A device's thirty-four cells one by one: barrier, z-ready, ten y sends, ten y receives, six z sends, six z receives. -/
theorem ck_flat (Φ : CK → sProp 𝕄) :
    bigSep Finset.univ Φ = iprop(Φ .bar ∗ Φ .zbar ∗ Φ (.ys 0) ∗ Φ (.ys 1) ∗ Φ (.ys 2) ∗ Φ (.ys 3) ∗ Φ (.ys 4) ∗ Φ (.ys 5) ∗ Φ (.ys 6) ∗ Φ (.ys 7) ∗ Φ (.ys 8) ∗ Φ (.ys 9) ∗ Φ (.yr 0) ∗ Φ (.yr 1) ∗ Φ (.yr 2) ∗ Φ (.yr 3) ∗ Φ (.yr 4) ∗ Φ (.yr 5) ∗ Φ (.yr 6) ∗ Φ (.yr 7) ∗ Φ (.yr 8) ∗ Φ (.yr 9) ∗ Φ (.zs 0) ∗ Φ (.zs 1) ∗ Φ (.zs 2) ∗ Φ (.zs 3) ∗ Φ (.zs 4) ∗ Φ (.zs 5) ∗ Φ (.zr 0) ∗ Φ (.zr 1) ∗ Φ (.zr 2) ∗ Φ (.zr 3) ∗ Φ (.zr 4) ∗ Φ (.zr 5)) := by
  exact bigSep_univ_eq_bigSepL ([CK.bar, CK.zbar, CK.ys 0, CK.ys 1, CK.ys 2, CK.ys 3, CK.ys 4, CK.ys 5, CK.ys 6, CK.ys 7, CK.ys 8, CK.ys 9, CK.yr 0, CK.yr 1, CK.yr 2, CK.yr 3, CK.yr 4, CK.yr 5, CK.yr 6, CK.yr 7, CK.yr 8, CK.yr 9, CK.zs 0, CK.zs 1, CK.zs 2, CK.zs 3, CK.zs 4, CK.zs 5, CK.zr 0, CK.zr 1, CK.zr 2, CK.zr 3, CK.zr 4, CK.zr 5] : List CK) (by decide) (by decide) Φ
omit [FloatOps F] in
/-- All but the barrier cell. -/
theorem ck_flat_erase (Φ : CK → sProp 𝕄) :
    bigSep (Finset.univ.erase CK.bar) Φ = iprop(Φ .zbar ∗ Φ (.ys 0) ∗ Φ (.ys 1) ∗ Φ (.ys 2) ∗ Φ (.ys 3) ∗ Φ (.ys 4) ∗ Φ (.ys 5) ∗ Φ (.ys 6) ∗ Φ (.ys 7) ∗ Φ (.ys 8) ∗ Φ (.ys 9) ∗ Φ (.yr 0) ∗ Φ (.yr 1) ∗ Φ (.yr 2) ∗ Φ (.yr 3) ∗ Φ (.yr 4) ∗ Φ (.yr 5) ∗ Φ (.yr 6) ∗ Φ (.yr 7) ∗ Φ (.yr 8) ∗ Φ (.yr 9) ∗ Φ (.zs 0) ∗ Φ (.zs 1) ∗ Φ (.zs 2) ∗ Φ (.zs 3) ∗ Φ (.zs 4) ∗ Φ (.zs 5) ∗ Φ (.zr 0) ∗ Φ (.zr 1) ∗ Φ (.zr 2) ∗ Φ (.zr 3) ∗ Φ (.zr 4) ∗ Φ (.zr 5)) := by
  exact bigSep_eq_bigSepL_of_eq ([CK.zbar, CK.ys 0, CK.ys 1, CK.ys 2, CK.ys 3, CK.ys 4, CK.ys 5, CK.ys 6, CK.ys 7, CK.ys 8, CK.ys 9, CK.yr 0, CK.yr 1, CK.yr 2, CK.yr 3, CK.yr 4, CK.yr 5, CK.yr 6, CK.yr 7, CK.yr 8, CK.yr 9, CK.zs 0, CK.zs 1, CK.zs 2, CK.zs 3, CK.zs 4, CK.zs 5, CK.zr 0, CK.zr 1, CK.zr 2, CK.zr 3, CK.zr 4, CK.zr 5] : List CK) (by decide) (by decide) Φ

/-- The ten chunks of its buffer that the y-partner's direct copies write are what the partner's barrier cell is paid with. -/
theorem give_bar (c : Dev nD) (g : Buf (Elt F) (outLoc c)) :
    (bigSep Finset.univ fun i : Fin 10 => chunkPts (F := F) c (ySl (ynb c) i) g) ⊢ pay m ρ (ynb c) .bar := by
  show _ ⊢ bigSep Finset.univ fun i : Fin 10 => iprop(∃ f, chunkPts (F := F) (ynb (ynb c)) (ySl (ynb c) i) f)
  rw [ynb_ynb]
  refine bigSep_mono fun i _ => ?_
  show chunkPts (F := F) c (ySl (ynb c) i) g ⊢ iprop(∃ f, chunkPts (F := F) c (ySl (ynb c) i) f)
  iintro H; iexists g; iexact H
/-- The six chunks the z-partner's forwarding copies write are what the partner's z-ready cell is paid with. -/
theorem give_zbar (c : Dev nD) (g : Buf (Elt F) (outLoc c)) :
    (bigSep Finset.univ fun u : Fin 6 => chunkPts (F := F) c (zSl (znb c) u) g) ⊢ pay m ρ (znb c) .zbar := by
  show _ ⊢ bigSep Finset.univ fun u : Fin 6 => iprop(∃ f, chunkPts (F := F) (znb (znb c)) (zSl (znb c) u) f)
  rw [znb_znb]
  refine bigSep_mono fun u _ => ?_
  show chunkPts (F := F) c (zSl (znb c) u) g ⊢ iprop(∃ f, chunkPts (F := F) c (zSl (znb c) u) f)
  iintro H; iexists g; iexact H

/-- The rectangle of the whole-block load of the argument's staging buffer. -/
abbrev r0 : Rect S1024x512 := Rect.unit (s := S1024x512) ![0, 0] S1024x512.size inb_S1024x512_S1024x512_0_0

omit [FloatOps F] in
theorem read_x (f : (cc0_stg0_0 : Ref sig .tc).ty.Contents (Elt F)) :
    (xM : Memref sig .tc .vmem S1024x512 .f32).view.readAt (Elt F) r0.toLoadRect f = f := by
  exact Memref.readAt_unit_zero (Elt F) cc0_stg0_0 (funext fun a => by fin_cases a <;> rfl) _ f

theorem fetch_0 (t : Fin cfg0.N) : (cfg0.win (0 : Fin 2)).fetch t = true := by
  rw [fin_N t]; rfl

/-- The argument's staging buffer holds the device's block when the body starts. -/
theorem before_x (c : Dev nD) (d) : (dats (F := F) m ρ 0 c).before (0 : Fin 2) t₀ d = xstg m ρ c := by
  unfold Dat.before; rw [if_pos (fetch_0 t₀)]; rfl

/-- info: 'Cert.KernelIdeal.AG.ck_flat' depends on axioms: [propext, Classical.choice, Quot.sound] -/
#guard_msgs in #print axioms ck_flat

/-- info: 'Cert.KernelIdeal.AG.ck_flat_erase' depends on axioms: [propext, Classical.choice, Quot.sound] -/
#guard_msgs in #print axioms ck_flat_erase

/-- info: 'Cert.KernelIdeal.AG.give_bar' depends on axioms: [propext, Classical.choice, Quot.sound] -/
#guard_msgs in #print axioms give_bar

/-- info: 'Cert.KernelIdeal.AG.give_zbar' depends on axioms: [propext, Classical.choice, Quot.sound] -/
#guard_msgs in #print axioms give_zbar

/-- info: 'Cert.KernelIdeal.AG.read_x' depends on axioms: [propext, Classical.choice, Quot.sound] -/
#guard_msgs in #print axioms read_x

/-- info: 'Cert.KernelIdeal.AG.before_x' depends on axioms: [propext, Classical.choice, Quot.sound] -/
#guard_msgs in #print axioms before_x

end Cert.KernelIdeal.AG

end
-- ==== Proof.KernelIdealAG.PartDefs.lean ====
/-
  The resources the body's parts pass along. A direct copy needs its source chunk at the final contents, the partner's landing chunk,
  and the two duty tokens it pays with; a forwarding copy the same, its source being what the matching receive wait handed over;
  a wait needs the cell's credit and the owner's position and leaves the position one round on and the cell's payload.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Geom

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What direct copy `i` of device `c` consumes. -/
def sy (c : Dev nD) (i : Fin 10) : sProp 𝕄 :=
  iprop(chunkPts c (ySl c i) (fin m ρ c) ∗ (∃ fd, chunkPts (ynb c) (ySl c i) fd)
    ∗ dutyTok ER (cell c (.ys i)) 0 () ∗ dutyTok ER (cell (ynb c) (.yr i)) 0 ())

/-- What forwarding copy `i` consumes beside its source chunk. -/
def sz (c : Dev nD) (i : Fin 6) : sProp 𝕄 :=
  iprop((∃ fd, chunkPts (znb c) (zSl c i) fd) ∗ dutyTok ER (cell c (.zs i)) 0 () ∗ dutyTok ER (cell (znb c) (.zr i)) 0 ())

/-- The credit a copy's departure leaves on the device's own send cell. -/
def cy (c : Dev nD) (i : Fin 10) : sProp 𝕄 := cred (tallyAt (cell c (.ys i)) () N64)
def cz (c : Dev nD) (i : Fin 6) : sProp 𝕄 := cred (tallyAt (cell c (.zs i)) () N64)

/-- What a wait on cell `k` consumes: the cell's credit and the owner's position at round 0. -/
def wt (c : Dev nD) (k : CK) : sProp 𝕄 := iprop(cred (tallyAt (cell c k) () (amt k)) ∗ atPos ER (cell c k) 0 ∅ 0)

/-- What a wait on cell `k` leaves: the position at round 1 and the cell's payload. -/
def wd (c : Dev nD) (k : CK) : sProp 𝕄 := iprop(atPos ER (cell c k) 1 ∅ 0 ∗ pay m ρ c k)

/-- What the device still owes after `j` payments, whatever waits are recorded. -/
def ow (c : Dev nD) (j : ℕ) : sProp 𝕄 := iprop(∃ W, owes (c : Thread nD τ) (owedFrom c j) W)

end Cert.KernelIdeal.AG

end
-- ==== Proof.KernelIdealAG.PartsA.lean ====
/-
  Parts 3 to 6 of the body: direct copies 2 to 9, then the z-ready wait and the first receive wait.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Levels
import proofs.«900663_g7700000000000664_dist_ag_v7x_xyz2x2x2_y_m1024_n512_bf16_1_alg».proof.Proof.KernelIdealAG.Geom
import proofs.«900663_g7700000000000664_dist_ag_v7x_xyz2x2x2_y_m1024_n512_bf16_1_alg».proof.Proof.KernelIdealAG.Land
import proofs.«900663_g7700000000000664_dist_ag_v7x_xyz2x2x2_y_m1024_n512_bf16_1_alg».proof.Proof.KernelIdealAG.Steps
import proofs.«900663_g7700000000000664_dist_ag_v7x_xyz2x2x2_y_m1024_n512_bf16_1_alg».proof.Proof.KernelIdealAG.BodyAux
import proofs.«900663_g7700000000000664_dist_ag_v7x_xyz2x2x2_y_m1024_n512_bf16_1_alg».proof.Proof.KernelIdealAG.PartDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- Part 3: direct copies 2 and 3. -/
theorem run_part3 (c : Dev nD) (v2 v8 v9 v11 v14 v63 c64 : BitVec 32) (Q : BitVec 32 → sProp 𝕄) :
    iprop(records m ρ K ∗ ow c 4 ∗ sy m ρ c 2 ∗ sy m ρ c 3
        ∗ (∀ a, (ow c 6 ∗ cy c 2 ∗ cy c 3) -∗ Q a))
      ⊢ wp frame (wpE (defs₀ (F := F)) 𝒱₀ (c : Thread nD τ) none) Set.univ
          (k0_part3 (Memref.whole cc0_stg0_0) (Memref.isWhole_whole _) (Memref.whole cc0_stg1_0) (Memref.isWhole_whole _)
            cc0_scratch0 cc0_scratch1 cc0_scratch2 cc0_scratch3 cc0_scratch4 c v2 v8 v9 v11 v14 v63 c64) Q := by
  unfold sy ow cy
  iintro ⟨#HR, ⟨%W, HO⟩, ⟨Hs2, ⟨%fd2, Hd2⟩, Ht2a, Ht2b⟩, ⟨Hs3, ⟨%fd3, Hd3⟩, Ht3a, Ht3b⟩, Hk⟩
  rw [k0_part3_eq_skeleton]; unfold k0_part3_skel
  simp only [Prog.lift, Prog.bind_op, Prog.bind_ret, Prog.pure_eq_ret]
  iapply (wp_ysend m ρ K c _ (dev5_eq c) 2 fd2 (owedFrom c 5) W) $$ [HO Hs2 Hd2 Ht2a Ht2b]
  · isplitr; · iexact HR
    isplitl [Hs2]; · iexact Hs2
    isplitl [Hd2]; · iexact Hd2
    isplitl [HO]; · iexact HO
    isplitl [Ht2a]; · iexact Ht2a
    iexact Ht2b
  iintro ⟨Hc2, HO⟩
  iapply (wp_ysend m ρ K c _ (dev6_eq c) 3 fd3 (owedFrom c 6) W) $$ [HO Hs3 Hd3 Ht3a Ht3b]
  · isplitr; · iexact HR
    isplitl [Hs3]; · iexact Hs3
    isplitl [Hd3]; · iexact Hd3
    isplitl [HO]; · iexact HO
    isplitl [Ht3a]; · iexact Ht3a
    iexact Ht3b
  iintro ⟨Hc3, HO⟩
  rw [wp_ret]; imodintro
  iapply Hk
  isplitl [HO]; · iexists W; iexact HO
  isplitl [Hc2]; · iexact Hc2
  iexact Hc3

/-- Part 4: direct copies 4 and 5. -/
theorem run_part4 (c : Dev nD) (v2 v8 v9 v11 v14 v97 : BitVec 32) (Q : PUnit → sProp 𝕄) :
    iprop(records m ρ K ∗ ow c 6 ∗ sy m ρ c 4 ∗ sy m ρ c 5
        ∗ ((ow c 8 ∗ cy c 4 ∗ cy c 5) -∗ Q ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            cc0_scratch0 cc0_scratch1 cc0_scratch2 cc0_scratch3 cc0_scratch4 c v2 v8 v9 v11 v14 v97) Q := by
  unfold sy ow cy
  iintro ⟨#HR, ⟨%W, HO⟩, ⟨Hs4, ⟨%fd4, Hd4⟩, Ht4a, Ht4b⟩, ⟨Hs5, ⟨%fd5, Hd5⟩, Ht5a, Ht5b⟩, Hk⟩
  rw [k0_part4_eq_skeleton]; unfold k0_part4_skel
  simp only [Prog.lift, Prog.bind_op, Prog.bind_ret, Prog.pure_eq_ret]
  iapply (wp_ysend m ρ K c _ (dev7_eq c) 4 fd4 (owedFrom c 7) W) $$ [HO Hs4 Hd4 Ht4a Ht4b]
  · isplitr; · iexact HR
    isplitl [Hs4]; · iexact Hs4
    isplitl [Hd4]; · iexact Hd4
    isplitl [HO]; · iexact HO
    isplitl [Ht4a]; · iexact Ht4a
    iexact Ht4b
  iintro ⟨Hc4, HO⟩
  iapply (wp_ysend m ρ K c _ (dev8_eq c) 5 fd5 (owedFrom c 8) W) $$ [HO Hs5 Hd5 Ht5a Ht5b]
  · isplitr; · iexact HR
    isplitl [Hs5]; · iexact Hs5
    isplitl [Hd5]; · iexact Hd5
    isplitl [HO]; · iexact HO
    isplitl [Ht5a]; · iexact Ht5a
    iexact Ht5b
  iintro ⟨Hc5, HO⟩
  rw [wp_ret]; imodintro
  iapply Hk
  isplitl [HO]; · iexists W; iexact HO
  isplitl [Hc4]; · iexact Hc4
  iexact Hc5

/-- Part 5: direct copies 6, 7 and 8. -/
theorem run_part5 (c : Dev nD) (v2 v8 v9 v11 : BitVec 32) (Q : (Σ' (v164 : BitVec 32), BitVec 32) → sProp 𝕄) :
    iprop(records m ρ K ∗ ow c 8 ∗ sy m ρ c 6 ∗ sy m ρ c 7 ∗ sy m ρ c 8
        ∗ (∀ a, (ow c 11 ∗ cy c 6 ∗ cy c 7 ∗ cy c 8) -∗ Q a))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            cc0_scratch0 cc0_scratch1 cc0_scratch2 cc0_scratch3 cc0_scratch4 c v2 v8 v9 v11) Q := by
  unfold sy ow cy
  iintro ⟨#HR, ⟨%W, HO⟩, ⟨Hs6, ⟨%fd6, Hd6⟩, Ht6a, Ht6b⟩, ⟨Hs7, ⟨%fd7, Hd7⟩, Ht7a, Ht7b⟩, ⟨Hs8, ⟨%fd8, Hd8⟩, Ht8a, Ht8b⟩, Hk⟩
  rw [k0_part5_eq_skeleton]; unfold k0_part5_skel
  simp only [Prog.lift, Prog.bind_op, Prog.bind_ret, Prog.pure_eq_ret]
  iapply (wp_ysend m ρ K c _ (dev9_eq c) 6 fd6 (owedFrom c 9) W) $$ [HO Hs6 Hd6 Ht6a Ht6b]
  · isplitr; · iexact HR
    isplitl [Hs6]; · iexact Hs6
    isplitl [Hd6]; · iexact Hd6
    isplitl [HO]; · iexact HO
    isplitl [Ht6a]; · iexact Ht6a
    iexact Ht6b
  iintro ⟨Hc6, HO⟩
  iapply (wp_ysend m ρ K c _ (dev10_eq c) 7 fd7 (owedFrom c 10) W) $$ [HO Hs7 Hd7 Ht7a Ht7b]
  · isplitr; · iexact HR
    isplitl [Hs7]; · iexact Hs7
    isplitl [Hd7]; · iexact Hd7
    isplitl [HO]; · iexact HO
    isplitl [Ht7a]; · iexact Ht7a
    iexact Ht7b
  iintro ⟨Hc7, HO⟩
  iapply (wp_ysend m ρ K c _ (dev11_eq c) 8 fd8 (owedFrom c 11) W) $$ [HO Hs8 Hd8 Ht8a Ht8b]
  · isplitr; · iexact HR
    isplitl [Hs8]; · iexact Hs8
    isplitl [Hd8]; · iexact Hd8
    isplitl [HO]; · iexact HO
    isplitl [Ht8a]; · iexact Ht8a
    iexact Ht8b
  iintro ⟨Hc8, HO⟩
  rw [wp_ret]; imodintro
  iapply Hk
  isplitl [HO]; · iexists W; iexact HO
  isplitl [Hc6]; · iexact Hc6
  isplitl [Hc7]; · iexact Hc7
  iexact Hc8

/-- Part 6: direct copy 9, the z-ready wait (the six forwarding copies still owed), the wait on receive cell 0. -/
theorem run_part6 (c : Dev nD) (v2 v5 v8 v9 v10 v13 v14 v164 v165 : BitVec 32) (Q : PUnit → sProp 𝕄) :
    iprop(records m ρ K ∗ levAts L lv ∗ ow c 11 ∗ sy m ρ c 9 ∗ wt c .zbar ∗ wt c (.yr 0)
        ∗ ((ow c 12 ∗ cy c 9 ∗ wd m ρ c .zbar ∗ wd m ρ c (.yr 0)) -∗ Q ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14 v164 v165) Q := by
  unfold sy ow cy wt wd
  iintro ⟨#HR, #HL, ⟨%W, HO⟩, ⟨Hs9, ⟨%fd9, Hd9⟩, Ht9a, Ht9b⟩, ⟨Hcz, Haz⟩, ⟨Hcr, Har⟩, Hk⟩
  rw [k0_part6_eq_skeleton]; unfold k0_part6_skel
  simp only [semWaitWord, Prog.lift, Prog.bind_op, Prog.bind_ret, Prog.pure_eq_ret]
  iapply (wp_ysend m ρ K c _ (dev12_eq c) 9 fd9 (owedFrom c 12) W) $$ [HO Hs9 Hd9 Ht9a Ht9b]
  · isplitr; · iexact HR
    isplitl [Hs9]; · iexact Hs9
    isplitl [Hd9]; · iexact Hd9
    isplitl [HO]; · iexact HO
    isplitl [Ht9a]; · iexact Ht9a
    iexact Ht9b
  iintro ⟨Hc9, HO⟩
  iapply (wp_wait_cell m ρ K c .zbar (wpE_semWait_eq 𝒱₀ (c : Thread nD τ) none Set.univ) (owedFrom c 12) W) $$ [Hcz HO Haz]
  · isplitr; · iexact HR
    isplitl [Hcz]; · iexact Hcz
    isplitl [HO]; · iexact HO
    isplitr; · iapply (mayWait_zbar c); iexact HL
    iexact Haz
  iintro ⟨HO, Haz, Hpz⟩
  iapply (wp_wait_cell m ρ K c (.yr 0) (wpE_waitDma2_eq (dst := ySl c 0) 𝒱₀ (c : Thread nD τ) none Set.univ) (owedFrom c 12)
    (insert ((CK.zbar).sem, ()) W)) $$ [Hcr HO Har]
  · isplitr; · iexact HR
    isplitl [Hcr]; · iexact Hcr
    isplitl [HO]; · iexact HO
    isplitr; · iapply (mayWait_yr c 0); iexact HL
    iexact Har
  iintro ⟨HO, Har, Hpr⟩
  rw [wp_ret]; imodintro
  iapply Hk
  isplitl [HO]; · iexists _; iexact HO
  isplitl [Hc9]; · iexact Hc9
  isplitl [Haz Hpz]
  · isplitl [Haz]; · iexact Haz
    iexact Hpz
  isplitl [Har]; · iexact Har
  iexact Hpr

end Parts

/-- info: 'Cert.KernelIdeal.AG.run_part3' depends on axioms: [propext, Classical.choice, Quot.sound] -/
#guard_msgs in #print axioms run_part3

/-- info: 'Cert.KernelIdeal.AG.run_part4' depends on axioms: [propext, Classical.choice, Quot.sound] -/
#guard_msgs in #print axioms run_part4

/-- info: 'Cert.KernelIdeal.AG.run_part5' depends on axioms: [propext, Classical.choice, Quot.sound] -/
#guard_msgs in #print axioms run_part5

/-- info: 'Cert.KernelIdeal.AG.run_part6' depends on axioms: [propext, Classical.choice, Quot.sound] -/
#guard_msgs in #print axioms run_part6

end Cert.KernelIdeal.AG

end
-- ==== Proof.KernelIdealAG.PartsB.lean ====
/-
  Parts 7 to 10 of the body: the six forwarding copies, each after the wait on the receive cell whose landing it forwards.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Levels
import proofs.«900663_g7700000000000664_dist_ag_v7x_xyz2x2x2_y_m1024_n512_bf16_1_alg».proof.Proof.KernelIdealAG.Geom
import proofs.«900663_g7700000000000664_dist_ag_v7x_xyz2x2x2_y_m1024_n512_bf16_1_alg».proof.Proof.KernelIdealAG.Land
import proofs.«900663_g7700000000000664_dist_ag_v7x_xyz2x2x2_y_m1024_n512_bf16_1_alg».proof.Proof.KernelIdealAG.Steps
import proofs.«900663_g7700000000000664_dist_ag_v7x_xyz2x2x2_y_m1024_n512_bf16_1_alg».proof.Proof.KernelIdealAG.BodyAux
import proofs.«900663_g7700000000000664_dist_ag_v7x_xyz2x2x2_y_m1024_n512_bf16_1_alg».proof.Proof.KernelIdealAG.PartDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- A forwarding copy's source chunk is the landing chunk its receive cell handed over. -/
private theorem src_z (c : Dev nD) (i : Fin 6) :
    pay m ρ c (.yr (Fin.castLE six_le_ten i)) ⊢ chunkPts c (zSl c i) (fin m ρ c) :=
  Entails.of_eq (zsrc_eq c i (fin m ρ c)).symm

/-- Part 7: forwarding copy 0 (its source: what receive cell 0 handed over), the wait on receive cell 1, forwarding copy 1. -/
theorem run_part7 (c : Dev nD) (v2 v5 v8 v9 v10 v13 v14 : BitVec 32) (Q : PUnit → sProp 𝕄) :
    iprop(records m ρ K ∗ levAts L lv ∗ ow c 12 ∗ pay m ρ c (.yr 0) ∗ sz c 0 ∗ wt c (.yr 1) ∗ sz c 1
        ∗ ((ow c 14 ∗ cz c 0 ∗ cz c 1 ∗ atPos ER (cell c (.yr 1)) 1 ∅ 0) -∗ Q ⟨⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs0 : pay m ρ c (.yr 0) ⊢ chunkPts c (zSl c 0) (fin m ρ c) := src_z m ρ c 0
  have hs1 : pay m ρ c (.yr 1) ⊢ chunkPts c (zSl c 1) (fin m ρ c) := src_z m ρ c 1
  have hm1 : (levAts L lv : sProp 𝕄) ⊢ MayWait (c : Thread nD τ) (CK.yr 1).sem () (owedFrom c 13) := mayWait_yr c 1
  rw [k0_part7_eq_skeleton]; unfold k0_part7_skel
  simp only [Prog.lift, Prog.bind_op, Prog.bind_ret, Prog.pure_eq_ret]
  unfold sz wt ow cz
  iintro ⟨#HR, #HL, ⟨%W, HO⟩, Hp0, ⟨⟨%fd0, Hd0⟩, Hts0, Htr0⟩, ⟨Hc1, Hat1⟩, ⟨⟨%fd1, Hd1⟩, Hts1, Htr1⟩, Hk⟩
  ihave Hs0 := hs0 $$ Hp0
  iapply (wp_zsend m ρ K c _ (dev13_eq c) 0 fd0 (owedFrom c 13) W) $$ [Hs0 Hd0 HO Hts0 Htr0]
  · isplitr; · iexact HR
    isplitl [Hs0]; · iexact Hs0
    isplitl [Hd0]; · iexact Hd0
    isplitl [HO]; · iexact HO
    isplitl [Hts0]; · iexact Hts0
    iexact Htr0
  iintro ⟨Hcz0, HO⟩
  iapply (wp_wait_cell m ρ K c (.yr 1) (wpE_waitDma2_eq 𝒱₀ (c : Thread nD τ) none Set.univ (sem := yrS 1) (src := ySl c 1) (dst := ySl c 1)) (owedFrom c 13) W) $$ [Hc1 HO Hat1]
  · isplitr; · iexact HR
    isplitl [Hc1]; · iexact Hc1
    isplitl [HO]; · iexact HO
    isplitr; · iapply hm1; iexact HL
    iexact Hat1
  iintro ⟨HO, Hat1, Hp1⟩
  ihave Hs1 := hs1 $$ Hp1
  iapply (wp_zsend m ρ K c _ (dev14_eq c) 1 fd1 (owedFrom c 14) (insert ((CK.yr 1).sem, ()) W)) $$ [Hs1 Hd1 HO Hts1 Htr1]
  · isplitr; · iexact HR
    isplitl [Hs1]; · iexact Hs1
    isplitl [Hd1]; · iexact Hd1
    isplitl [HO]; · iexact HO
    isplitl [Hts1]; · iexact Hts1
    iexact Htr1
  iintro ⟨Hcz1, HO⟩
  rw [wp_ret]
  imodintro
  iapply Hk
  isplitl [HO]; · iexists _; iexact HO
  isplitl [Hcz0]; · iexact Hcz0
  isplitl [Hcz1]; · iexact Hcz1
  iexact Hat1

/-- Part 8: the wait on receive cell 2, forwarding copy 2, the wait on receive cell 3. -/
theorem run_part8 (c : Dev nD) (v2 v5 v8 v9 v10 v13 v14 : BitVec 32) (Q : (Σ' (v263 : BitVec 32), BitVec 32) → sProp 𝕄) :
    iprop(records m ρ K ∗ levAts L lv ∗ ow c 14 ∗ wt c (.yr 2) ∗ sz c 2 ∗ wt c (.yr 3)
        ∗ (∀ a, (ow c 15 ∗ cz c 2 ∗ atPos ER (cell c (.yr 2)) 1 ∅ 0 ∗ wd m ρ c (.yr 3)) -∗ Q a))
      ⊢ wp frame (wpE (defs₀ (F := F)) 𝒱₀ (c : Thread nD τ) none) Set.univ
          (k0_part8 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs2 : pay m ρ c (.yr 2) ⊢ chunkPts c (zSl c 2) (fin m ρ c) := src_z m ρ c 2
  have hm2 : (levAts L lv : sProp 𝕄) ⊢ MayWait (c : Thread nD τ) (CK.yr 2).sem () (owedFrom c 14) := mayWait_yr c 2
  have hm3 : (levAts L lv : sProp 𝕄) ⊢ MayWait (c : Thread nD τ) (CK.yr 3).sem () (owedFrom c 15) := mayWait_yr c 3
  rw [k0_part8_eq_skeleton]; unfold k0_part8_skel
  simp only [Prog.lift, Prog.bind_op, Prog.bind_ret, Prog.pure_eq_ret]
  unfold sz wt wd ow cz
  iintro ⟨#HR, #HL, ⟨%W, HO⟩, ⟨Hc2, Hat2⟩, ⟨⟨%fd2, Hd2⟩, Hts2, Htr2⟩, ⟨Hc3, Hat3⟩, Hk⟩
  iapply (wp_wait_cell m ρ K c (.yr 2) (wpE_waitDma2_eq 𝒱₀ (c : Thread nD τ) none Set.univ (sem := yrS 2) (src := ySl c 2) (dst := ySl c 2)) (owedFrom c 14) W) $$ [Hc2 HO Hat2]
  · isplitr; · iexact HR
    isplitl [Hc2]; · iexact Hc2
    isplitl [HO]; · iexact HO
    isplitr; · iapply hm2; iexact HL
    iexact Hat2
  iintro ⟨HO, Hat2, Hp2⟩
  ihave Hs2 := hs2 $$ Hp2
  iapply (wp_zsend m ρ K c _ (dev15_eq c) 2 fd2 (owedFrom c 15) (insert ((CK.yr 2).sem, ()) W)) $$ [Hs2 Hd2 HO Hts2 Htr2]
  · isplitr; · iexact HR
    isplitl [Hs2]; · iexact Hs2
    isplitl [Hd2]; · iexact Hd2
    isplitl [HO]; · iexact HO
    isplitl [Hts2]; · iexact Hts2
    iexact Htr2
  iintro ⟨Hcz2, HO⟩
  iapply (wp_wait_cell m ρ K c (.yr 3) (wpE_waitDma2_eq 𝒱₀ (c : Thread nD τ) none Set.univ (sem := yrS 3) (src := ySl c 3) (dst := ySl c 3)) (owedFrom c 15) (insert ((CK.yr 2).sem, ()) W)) $$ [Hc3 HO Hat3]
  · isplitr; · iexact HR
    isplitl [Hc3]; · iexact Hc3
    isplitl [HO]; · iexact HO
    isplitr; · iapply hm3; iexact HL
    iexact Hat3
  iintro ⟨HO, Hat3, Hp3⟩
  rw [wp_ret]
  imodintro
  iapply Hk
  isplitl [HO]; · iexists _; iexact HO
  isplitl [Hcz2]; · iexact Hcz2
  isplitl [Hat2]; · iexact Hat2
  isplitl [Hat3]; · iexact Hat3
  iexact Hp3

/-- Part 9: forwarding copy 3, the wait on receive cell 4. -/
theorem run_part9 (c : Dev nD) (v2 v5 v8 v9 v10 v13 v14 v263 c0 : BitVec 32) (Q : PUnit → sProp 𝕄) :
    iprop(records m ρ K ∗ levAts L lv ∗ ow c 15 ∗ pay m ρ c (.yr 3) ∗ sz c 3 ∗ wt c (.yr 4)
        ∗ ((ow c 16 ∗ cz c 3 ∗ wd m ρ c (.yr 4)) -∗ Q ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14 v263 c0) Q := by
  have hs3 : pay m ρ c (.yr 3) ⊢ chunkPts c (zSl c 3) (fin m ρ c) := src_z m ρ c 3
  have hm4 : (levAts L lv : sProp 𝕄) ⊢ MayWait (c : Thread nD τ) (CK.yr 4).sem () (owedFrom c 16) := mayWait_yr c 4
  rw [k0_part9_eq_skeleton]; unfold k0_part9_skel
  simp only [Prog.lift, Prog.bind_op, Prog.bind_ret, Prog.pure_eq_ret]
  unfold sz wt wd ow cz
  iintro ⟨#HR, #HL, ⟨%W, HO⟩, Hp3, ⟨⟨%fd3, Hd3⟩, Hts3, Htr3⟩, ⟨Hc4, Hat4⟩, Hk⟩
  ihave Hs3 := hs3 $$ Hp3
  iapply (wp_zsend m ρ K c _ (dev16_eq c) 3 fd3 (owedFrom c 16) W) $$ [Hs3 Hd3 HO Hts3 Htr3]
  · isplitr; · iexact HR
    isplitl [Hs3]; · iexact Hs3
    isplitl [Hd3]; · iexact Hd3
    isplitl [HO]; · iexact HO
    isplitl [Hts3]; · iexact Hts3
    iexact Htr3
  iintro ⟨Hcz3, HO⟩
  iapply (wp_wait_cell m ρ K c (.yr 4) (wpE_waitDma2_eq 𝒱₀ (c : Thread nD τ) none Set.univ (sem := yrS 4) (src := ySl c 4) (dst := ySl c 4)) (owedFrom c 16) W) $$ [Hc4 HO Hat4]
  · isplitr; · iexact HR
    isplitl [Hc4]; · iexact Hc4
    isplitl [HO]; · iexact HO
    isplitr; · iapply hm4; iexact HL
    iexact Hat4
  iintro ⟨HO, Hat4, Hp4⟩
  rw [wp_ret]
  imodintro
  iapply Hk
  isplitl [HO]; · iexists _; iexact HO
  isplitl [Hcz3]; · iexact Hcz3
  isplitl [Hat4]; · iexact Hat4
  iexact Hp4

/-- Part 10: forwarding copy 4, the wait on receive cell 5, forwarding copy 5. -/
theorem run_part10 (c : Dev nD) (v2 v5 v8 v9 v10 v13 v14 : BitVec 32) (Q : PUnit → sProp 𝕄) :
    iprop(records m ρ K ∗ levAts L lv ∗ ow c 16 ∗ pay m ρ c (.yr 4) ∗ sz c 4 ∗ wt c (.yr 5) ∗ sz c 5
        ∗ ((ow c 18 ∗ cz c 4 ∗ cz c 5 ∗ atPos ER (cell c (.yr 5)) 1 ∅ 0) -∗ Q ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _)
            cc0_scratch0 cc0_scratch1 cc0_scratch2 cc0_scratch3 cc0_scratch4 c v2 v5 v8 v9 v10 v13 v14) Q := by
  have hs4 : pay m ρ c (.yr 4) ⊢ chunkPts c (zSl c 4) (fin m ρ c) := src_z m ρ c 4
  have hs5 : pay m ρ c (.yr 5) ⊢ chunkPts c (zSl c 5) (fin m ρ c) := src_z m ρ c 5
  have hm5 : (levAts L lv : sProp 𝕄) ⊢ MayWait (c : Thread nD τ) (CK.yr 5).sem () (owedFrom c 17) := mayWait_yr c 5
  rw [k0_part10_eq_skeleton]; unfold k0_part10_skel
  simp only [Prog.lift, Prog.bind_op, Prog.bind_ret, Prog.pure_eq_ret]
  unfold sz wt ow cz
  iintro ⟨#HR, #HL, ⟨%W, HO⟩, Hp4, ⟨⟨%fd4, Hd4⟩, Hts4, Htr4⟩, ⟨Hc5, Hat5⟩, ⟨⟨%fd5, Hd5⟩, Hts5, Htr5⟩, Hk⟩
  ihave Hs4 := hs4 $$ Hp4
  iapply (wp_zsend m ρ K c _ (dev17_eq c) 4 fd4 (owedFrom c 17) W) $$ [Hs4 Hd4 HO Hts4 Htr4]
  · isplitr; · iexact HR
    isplitl [Hs4]; · iexact Hs4
    isplitl [Hd4]; · iexact Hd4
    isplitl [HO]; · iexact HO
    isplitl [Hts4]; · iexact Hts4
    iexact Htr4
  iintro ⟨Hcz4, HO⟩
  iapply (wp_wait_cell m ρ K c (.yr 5) (wpE_waitDma2_eq 𝒱₀ (c : Thread nD τ) none Set.univ (sem := yrS 5) (src := ySl c 5) (dst := ySl c 5)) (owedFrom c 17) W) $$ [Hc5 HO Hat5]
  · isplitr; · iexact HR
    isplitl [Hc5]; · iexact Hc5
    isplitl [HO]; · iexact HO
    isplitr; · iapply hm5; iexact HL
    iexact Hat5
  iintro ⟨HO, Hat5, Hp5⟩
  ihave Hs5 := hs5 $$ Hp5
  iapply (wp_zsend m ρ K c _ (dev18_eq c) 5 fd5 (owedFrom c 18) (insert ((CK.yr 5).sem, ()) W)) $$ [Hs5 Hd5 HO Hts5 Htr5]
  · isplitr; · iexact HR
    isplitl [Hs5]; · iexact Hs5
    isplitl [Hd5]; · iexact Hd5
    isplitl [HO]; · iexact HO
    isplitl [Hts5]; · iexact Hts5
    iexact Htr5
  iintro ⟨Hcz5, HO⟩
  rw [wp_ret]
  imodintro
  iapply Hk
  isplitl [HO]; · iexists _; iexact HO
  isplitl [Hcz4]; · iexact Hcz4
  isplitl [Hcz5]; · iexact Hcz5
  iexact Hat5

end Parts

/-- info: 'Cert.KernelIdeal.AG.run_part7' depends on axioms: [propext, Classical.choice, Quot.sound] -/
#guard_msgs in #print axioms run_part7

/-- info: 'Cert.KernelIdeal.AG.run_part8' depends on axioms: [propext, Classical.choice, Quot.sound] -/
#guard_msgs in #print axioms run_part8

/-- info: 'Cert.KernelIdeal.AG.run_part9' depends on axioms: [propext, Classical.choice, Quot.sound] -/
#guard_msgs in #print axioms run_part9

/-- info: 'Cert.KernelIdeal.AG.run_part10' depends on axioms: [propext, Classical.choice, Quot.sound] -/
#guard_msgs in #print axioms run_part10

end Cert.KernelIdeal.AG

end
-- ==== Proof.KernelIdealAG.PartsC.lean ====
/-
  Parts 11 to 13 of the body: the waits on receive cells 6 to 9 along y and on the six receive cells along z. Nothing is owed any more.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Levels
import proofs.«900663_g7700000000000664_dist_ag_v7x_xyz2x2x2_y_m1024_n512_bf16_1_alg».proof.Proof.KernelIdealAG.Geom
import proofs.«900663_g7700000000000664_dist_ag_v7x_xyz2x2x2_y_m1024_n512_bf16_1_alg».proof.Proof.KernelIdealAG.Land
import proofs.«900663_g7700000000000664_dist_ag_v7x_xyz2x2x2_y_m1024_n512_bf16_1_alg».proof.Proof.KernelIdealAG.Steps
import proofs.«900663_g7700000000000664_dist_ag_v7x_xyz2x2x2_y_m1024_n512_bf16_1_alg».proof.Proof.KernelIdealAG.BodyAux
import proofs.«900663_g7700000000000664_dist_ag_v7x_xyz2x2x2_y_m1024_n512_bf16_1_alg».proof.Proof.KernelIdealAG.PartDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × CK → ℕ)

/-- Part 11: the waits on receive cells 6, 7 and 8. -/
theorem run_part11 (c : Dev nD) (v2 v8 v9 : BitVec 32) (Q : PUnit → sProp 𝕄) :
    iprop(records m ρ K ∗ ow c 18 ∗ wt c (.yr 6) ∗ wt c (.yr 7) ∗ wt c (.yr 8)
        ∗ ((ow c 18 ∗ wd m ρ c (.yr 6) ∗ wd m ρ c (.yr 7) ∗ wd m ρ c (.yr 8)) -∗ Q ⟨⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _)
            cc0_scratch0 cc0_scratch1 cc0_scratch2 cc0_scratch3 cc0_scratch4 c v2 v8 v9) Q := by
  unfold ow wt wd
  rw [owedFrom_end c]
  iintro ⟨#HR, ⟨%W, HO⟩, ⟨Hcy6, Hay6⟩, ⟨Hcy7, Hay7⟩, ⟨Hcy8, Hay8⟩, Hk⟩
  rw [k0_part11_eq_skeleton]; unfold k0_part11_skel
  simp only [Prog.lift, Prog.bind_op, Prog.bind_ret, Prog.pure_eq_ret]
  iapply (wp_wait_cell m ρ K c (.yr 6) (wpE_waitDma2_eq 𝒱₀ (c : Thread nD τ) none Set.univ (sem := yrS 6) (src := ySl c 6) (dst := ySl c 6)) 0 (W)) $$ [Hcy6 HO Hay6]
  · isplitr; · iexact HR
    isplitl [Hcy6]; · iexact Hcy6
    isplitl [HO]; · iexact HO
    isplitr; · rw [MayWait_zero]; iempintro
    iexact Hay6
  iintro ⟨HO, Hay6, Hpy6⟩
  iapply (wp_wait_cell m ρ K c (.yr 7) (wpE_waitDma2_eq 𝒱₀ (c : Thread nD τ) none Set.univ (sem := yrS 7) (src := ySl c 7) (dst := ySl c 7)) 0 (insert ((CK.yr 6).sem, ()) (W))) $$ [Hcy7 HO Hay7]
  · isplitr; · iexact HR
    isplitl [Hcy7]; · iexact Hcy7
    isplitl [HO]; · iexact HO
    isplitr; · rw [MayWait_zero]; iempintro
    iexact Hay7
  iintro ⟨HO, Hay7, Hpy7⟩
  iapply (wp_wait_cell m ρ K c (.yr 8) (wpE_waitDma2_eq 𝒱₀ (c : Thread nD τ) none Set.univ (sem := yrS 8) (src := ySl c 8) (dst := ySl c 8)) 0 (insert ((CK.yr 7).sem, ()) (insert ((CK.yr 6).sem, ()) (W)))) $$ [Hcy8 HO Hay8]
  · isplitr; · iexact HR
    isplitl [Hcy8]; · iexact Hcy8
    isplitl [HO]; · iexact HO
    isplitr; · rw [MayWait_zero]; iempintro
    iexact Hay8
  iintro ⟨HO, Hay8, Hpy8⟩
  rw [wp_ret]
  imodintro
  iapply Hk
  isplitl [HO]; · iexists _; iexact HO
  isplitl [Hay6 Hpy6]; · isplitl [Hay6] <;> iassumption
  isplitl [Hay7 Hpy7]; · isplitl [Hay7] <;> iassumption
  isplitl [Hay8] <;> iassumption

/-- Part 12: the wait on receive cell 9, then on the z receive cells 0, 1 and 2. -/
theorem run_part12 (c : Dev nD) (v2 v5 v10 : BitVec 32) (Q : PUnit → sProp 𝕄) :
    iprop(records m ρ K ∗ ow c 18 ∗ wt c (.yr 9) ∗ wt c (.zr 0) ∗ wt c (.zr 1) ∗ wt c (.zr 2)
        ∗ ((ow c 18 ∗ wd m ρ c (.yr 9) ∗ wd m ρ c (.zr 0) ∗ wd m ρ c (.zr 1) ∗ wd m ρ c (.zr 2)) -∗ Q ⟨⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _)
            cc0_scratch0 cc0_scratch1 cc0_scratch2 cc0_scratch3 cc0_scratch4 c v2 v5 v10) Q := by
  unfold ow wt wd
  rw [owedFrom_end c]
  iintro ⟨#HR, ⟨%W, HO⟩, ⟨Hcy9, Hay9⟩, ⟨Hcz0, Haz0⟩, ⟨Hcz1, Haz1⟩, ⟨Hcz2, Haz2⟩, Hk⟩
  rw [k0_part12_eq_skeleton]; unfold k0_part12_skel
  simp only [Prog.lift, Prog.bind_op, Prog.bind_ret, Prog.pure_eq_ret]
  iapply (wp_wait_cell m ρ K c (.yr 9) (wpE_waitDma2_eq 𝒱₀ (c : Thread nD τ) none Set.univ (sem := yrS 9) (src := ySl c 9) (dst := ySl c 9)) 0 (W)) $$ [Hcy9 HO Hay9]
  · isplitr; · iexact HR
    isplitl [Hcy9]; · iexact Hcy9
    isplitl [HO]; · iexact HO
    isplitr; · rw [MayWait_zero]; iempintro
    iexact Hay9
  iintro ⟨HO, Hay9, Hpy9⟩
  iapply (wp_wait_cell m ρ K c (.zr 0) (wpE_waitDma2_eq 𝒱₀ (c : Thread nD τ) none Set.univ (sem := zrS 0) (src := zSl c 0) (dst := zSl c 0)) 0 (insert ((CK.yr 9).sem, ()) (W))) $$ [Hcz0 HO Haz0]
  · isplitr; · iexact HR
    isplitl [Hcz0]; · iexact Hcz0
    isplitl [HO]; · iexact HO
    isplitr; · rw [MayWait_zero]; iempintro
    iexact Haz0
  iintro ⟨HO, Haz0, Hpz0⟩
  iapply (wp_wait_cell m ρ K c (.zr 1) (wpE_waitDma2_eq 𝒱₀ (c : Thread nD τ) none Set.univ (sem := zrS 1) (src := zSl c 1) (dst := zSl c 1)) 0 (insert ((CK.zr 0).sem, ()) (insert ((CK.yr 9).sem, ()) (W)))) $$ [Hcz1 HO Haz1]
  · isplitr; · iexact HR
    isplitl [Hcz1]; · iexact Hcz1
    isplitl [HO]; · iexact HO
    isplitr; · rw [MayWait_zero]; iempintro
    iexact Haz1
  iintro ⟨HO, Haz1, Hpz1⟩
  iapply (wp_wait_cell m ρ K c (.zr 2) (wpE_waitDma2_eq 𝒱₀ (c : Thread nD τ) none Set.univ (sem := zrS 2) (src := zSl c 2) (dst := zSl c 2)) 0 (insert ((CK.zr 1).sem, ()) (insert ((CK.zr 0).sem, ()) (insert ((CK.yr 9).sem, ()) (W))))) $$ [Hcz2 HO Haz2]
  · isplitr; · iexact HR
    isplitl [Hcz2]; · iexact Hcz2
    isplitl [HO]; · iexact HO
    isplitr; · rw [MayWait_zero]; iempintro
    iexact Haz2
  iintro ⟨HO, Haz2, Hpz2⟩
  rw [wp_ret]
  imodintro
  iapply Hk
  isplitl [HO]; · iexists _; iexact HO
  isplitl [Hay9 Hpy9]; · isplitl [Hay9] <;> iassumption
  isplitl [Haz0 Hpz0]; · isplitl [Haz0] <;> iassumption
  isplitl [Haz1 Hpz1]; · isplitl [Haz1] <;> iassumption
  isplitl [Haz2] <;> iassumption

/-- Part 13: the waits on the z receive cells 3, 4 and 5. -/
theorem run_part13 (c : Dev nD) (v2 v5 v10 : BitVec 32) (Q : PUnit → sProp 𝕄) :
    iprop(records m ρ K ∗ ow c 18 ∗ wt c (.zr 3) ∗ wt c (.zr 4) ∗ wt c (.zr 5)
        ∗ ((ow c 18 ∗ wd m ρ c (.zr 3) ∗ wd m ρ c (.zr 4) ∗ wd m ρ c (.zr 5)) -∗ Q ⟨⟩))
      ⊢ wp frame (wpE (defs₀ (F := F)) 𝒱₀ (c : Thread nD τ) none) Set.univ
          (k0_part13 (Memref.whole cc0_stg0_0) (Memref.isWhole_whole _) (Memref.whole cc0_stg1_0) (Memref.isWhole_whole _)
            cc0_scratch0 cc0_scratch1 cc0_scratch2 cc0_scratch3 cc0_scratch4 c v2 v5 v10) Q := by
  unfold ow wt wd
  rw [owedFrom_end c]
  iintro ⟨#HR, ⟨%W, HO⟩, ⟨Hcz3, Haz3⟩, ⟨Hcz4, Haz4⟩, ⟨Hcz5, Haz5⟩, Hk⟩
  rw [k0_part13_eq_skeleton]; unfold k0_part13_skel
  simp only [Prog.lift, Prog.bind_op, Prog.bind_ret, Prog.pure_eq_ret]
  iapply (wp_wait_cell m ρ K c (.zr 3) (wpE_waitDma2_eq 𝒱₀ (c : Thread nD τ) none Set.univ (sem := zrS 3) (src := zSl c 3) (dst := zSl c 3)) 0 (W)) $$ [Hcz3 HO Haz3]
  · isplitr; · iexact HR
    isplitl [Hcz3]; · iexact Hcz3
    isplitl [HO]; · iexact HO
    isplitr; · rw [MayWait_zero]; iempintro
    iexact Haz3
  iintro ⟨HO, Haz3, Hpz3⟩
  iapply (wp_wait_cell m ρ K c (.zr 4) (wpE_waitDma2_eq 𝒱₀ (c : Thread nD τ) none Set.univ (sem := zrS 4) (src := zSl c 4) (dst := zSl c 4)) 0 (insert ((CK.zr 3).sem, ()) (W))) $$ [Hcz4 HO Haz4]
  · isplitr; · iexact HR
    isplitl [Hcz4]; · iexact Hcz4
    isplitl [HO]; · iexact HO
    isplitr; · rw [MayWait_zero]; iempintro
    iexact Haz4
  iintro ⟨HO, Haz4, Hpz4⟩
  iapply (wp_wait_cell m ρ K c (.zr 5) (wpE_waitDma2_eq 𝒱₀ (c : Thread nD τ) none Set.univ (sem := zrS 5) (src := zSl c 5) (dst := zSl c 5)) 0 (insert ((CK.zr 4).sem, ()) (insert ((CK.zr 3).sem, ()) (W)))) $$ [Hcz5 HO Haz5]
  · isplitr; · iexact HR
    isplitl [Hcz5]; · iexact Hcz5
    isplitl [HO]; · iexact HO
    isplitr; · rw [MayWait_zero]; iempintro
    iexact Haz5
  iintro ⟨HO, Haz5, Hpz5⟩
  rw [wp_ret]
  imodintro
  iapply Hk
  isplitl [HO]; · iexists _; iexact HO
  isplitl [Haz3 Hpz3]; · isplitl [Haz3] <;> iassumption
  isplitl [Haz4 Hpz4]; · isplitl [Haz4] <;> iassumption
  isplitl [Haz5] <;> iassumption

end Parts

/-- info: 'Cert.KernelIdeal.AG.run_part11' depends on axioms: [propext, Classical.choice, Quot.sound] -/
#guard_msgs in #print axioms run_part11

/-- info: 'Cert.KernelIdeal.AG.run_part12' depends on axioms: [propext, Classical.choice, Quot.sound] -/
#guard_msgs in #print axioms run_part12

/-- info: 'Cert.KernelIdeal.AG.run_part13' depends on axioms: [propext, Classical.choice, Quot.sound] -/
#guard_msgs in #print axioms run_part13

end Cert.KernelIdeal.AG

end
-- ==== Proof.KernelIdealAG.PartsD.lean ====
/-
  Parts 14 and 15 of the body: the waits on the device's own send cells, which hand the source chunks back.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Levels
import proofs.«900663_g7700000000000664_dist_ag_v7x_xyz2x2x2_y_m1024_n512_bf16_1_alg».proof.Proof.KernelIdealAG.Geom
import proofs.«900663_g7700000000000664_dist_ag_v7x_xyz2x2x2_y_m1024_n512_bf16_1_alg».proof.Proof.KernelIdealAG.Land
import proofs.«900663_g7700000000000664_dist_ag_v7x_xyz2x2x2_y_m1024_n512_bf16_1_alg».proof.Proof.KernelIdealAG.Steps
import proofs.«900663_g7700000000000664_dist_ag_v7x_xyz2x2x2_y_m1024_n512_bf16_1_alg».proof.Proof.KernelIdealAG.BodyAux
import proofs.«900663_g7700000000000664_dist_ag_v7x_xyz2x2x2_y_m1024_n512_bf16_1_alg».proof.Proof.KernelIdealAG.PartDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- A wait on a y send cell through the chunk's own memref is the shared wait clause at the cell and a chunk's credit. -/
private theorem hw_ys (c : Dev nD) (i : Fin 10) (h1 h2 : (ySl c i).view.WordExact) (Kp : PUnit → sProp 𝕄) :
    wpE (defs₀ (F := F)) 𝒱₀ (c : Thread nD τ) none Set.univ (.waitDma2 (ysS i) (ySl c i) (ySl c i) h1 h2) Kp
      = waitSpec (c : Thread nD τ) Set.univ (CK.ys i).sem (amt (.ys i)) Kp := rfl

/-- The same on a z send cell. -/
private theorem hw_zs (c : Dev nD) (i : Fin 6) (h1 h2 : (zSl c i).view.WordExact) (Kp : PUnit → sProp 𝕄) :
    wpE (defs₀ (F := F)) 𝒱₀ (c : Thread nD τ) none Set.univ (.waitDma2 (zsS i) (zSl c i) (zSl c i) h1 h2) Kp
      = waitSpec (c : Thread nD τ) Set.univ (CK.zs i).sem (amt (.zs i)) Kp := rfl

section Parts
variable (K : Dev nD × CK → ℕ)

/-- Part 14: the waits on send cells 0 to 5 along y. -/
theorem run_part14 (c : Dev nD) (Q : PUnit → sProp 𝕄) :
    iprop(records m ρ K ∗ ow c 18 ∗ wt c (.ys 0) ∗ wt c (.ys 1) ∗ wt c (.ys 2) ∗ wt c (.ys 3) ∗ wt c (.ys 4) ∗ wt c (.ys 5)
        ∗ ((ow c 18 ∗ wd m ρ c (.ys 0) ∗ wd m ρ c (.ys 1) ∗ wd m ρ c (.ys 2) ∗ wd m ρ c (.ys 3) ∗ wd m ρ c (.ys 4) ∗ wd m ρ c (.ys 5)) -∗ Q ⟨⟩))
      ⊢ wp frame (wpE (defs₀ (F := F)) 𝒱₀ (c : Thread nD τ) none) Set.univ
          (k0_part14 (Memref.whole cc0_stg0_0) (Memref.isWhole_whole _) (Memref.whole cc0_stg1_0) (Memref.isWhole_whole _)
            cc0_scratch0 cc0_scratch1 cc0_scratch2 cc0_scratch3 cc0_scratch4 c) Q := by
  unfold wt wd ow
  iintro ⟨#HR, ⟨%W, HO⟩, ⟨Hc0, Ha0⟩, ⟨Hc1, Ha1⟩, ⟨Hc2, Ha2⟩, ⟨Hc3, Ha3⟩, ⟨Hc4, Ha4⟩, ⟨Hc5, Ha5⟩, Hk⟩
  rw [k0_part14_eq_skeleton]; unfold k0_part14_skel
  simp only [Prog.lift, Prog.bind_op, Prog.bind_ret, Prog.pure_eq_ret]
  iapply (wp_wait_cell m ρ K c (.ys 0) (hw_ys c 0 _ _) (owedFrom c 18) (W)) $$ [Hc0 HO Ha0]
  · isplitr; · iexact HR
    isplitl [Hc0]; · iexact Hc0
    isplitl [HO]; · iexact HO
    isplitr; · rw [owedFrom_end, MayWait_zero]; iempintro
    iexact Ha0
  iintro ⟨HO, Ha0, Hp0⟩
  iapply (wp_wait_cell m ρ K c (.ys 1) (hw_ys c 1 _ _) (owedFrom c 18) (insert ((CK.ys 0).sem, ()) (W))) $$ [Hc1 HO Ha1]
  · isplitr; · iexact HR
    isplitl [Hc1]; · iexact Hc1
    isplitl [HO]; · iexact HO
    isplitr; · rw [owedFrom_end, MayWait_zero]; iempintro
    iexact Ha1
  iintro ⟨HO, Ha1, Hp1⟩
  iapply (wp_wait_cell m ρ K c (.ys 2) (hw_ys c 2 _ _) (owedFrom c 18) (insert ((CK.ys 1).sem, ()) (insert ((CK.ys 0).sem, ()) (W)))) $$ [Hc2 HO Ha2]
  · isplitr; · iexact HR
    isplitl [Hc2]; · iexact Hc2
    isplitl [HO]; · iexact HO
    isplitr; · rw [owedFrom_end, MayWait_zero]; iempintro
    iexact Ha2
  iintro ⟨HO, Ha2, Hp2⟩
  iapply (wp_wait_cell m ρ K c (.ys 3) (hw_ys c 3 _ _) (owedFrom c 18) (insert ((CK.ys 2).sem, ()) (insert ((CK.ys 1).sem, ()) (insert ((CK.ys 0).sem, ()) (W))))) $$ [Hc3 HO Ha3]
  · isplitr; · iexact HR
    isplitl [Hc3]; · iexact Hc3
    isplitl [HO]; · iexact HO
    isplitr; · rw [owedFrom_end, MayWait_zero]; iempintro
    iexact Ha3
  iintro ⟨HO, Ha3, Hp3⟩
  iapply (wp_wait_cell m ρ K c (.ys 4) (hw_ys c 4 _ _) (owedFrom c 18) (insert ((CK.ys 3).sem, ()) (insert ((CK.ys 2).sem, ()) (insert ((CK.ys 1).sem, ()) (insert ((CK.ys 0).sem, ()) (W)))))) $$ [Hc4 HO Ha4]
  · isplitr; · iexact HR
    isplitl [Hc4]; · iexact Hc4
    isplitl [HO]; · iexact HO
    isplitr; · rw [owedFrom_end, MayWait_zero]; iempintro
    iexact Ha4
  iintro ⟨HO, Ha4, Hp4⟩
  iapply (wp_wait_cell m ρ K c (.ys 5) (hw_ys c 5 _ _) (owedFrom c 18) (insert ((CK.ys 4).sem, ()) (insert ((CK.ys 3).sem, ()) (insert ((CK.ys 2).sem, ()) (insert ((CK.ys 1).sem, ()) (insert ((CK.ys 0).sem, ()) (W))))))) $$ [Hc5 HO Ha5]
  · isplitr; · iexact HR
    isplitl [Hc5]; · iexact Hc5
    isplitl [HO]; · iexact HO
    isplitr; · rw [owedFrom_end, MayWait_zero]; iempintro
    iexact Ha5
  iintro ⟨HO, Ha5, Hp5⟩
  rw [wp_ret]; imodintro; iapply Hk
  isplitl [HO]; · iexists _; iexact HO
  isplitl [Ha0 Hp0]
  · isplitl [Ha0]; · iexact Ha0
    iexact Hp0
  isplitl [Ha1 Hp1]
  · isplitl [Ha1]; · iexact Ha1
    iexact Hp1
  isplitl [Ha2 Hp2]
  · isplitl [Ha2]; · iexact Ha2
    iexact Hp2
  isplitl [Ha3 Hp3]
  · isplitl [Ha3]; · iexact Ha3
    iexact Hp3
  isplitl [Ha4 Hp4]
  · isplitl [Ha4]; · iexact Ha4
    iexact Hp4
  isplitl [Ha5]; · iexact Ha5
  iexact Hp5

/-- Part 15: the waits on send cells 6 to 9 along y and 0, 1 along z. -/
theorem run_part15 (c : Dev nD) (Q : PUnit → sProp 𝕄) :
    iprop(records m ρ K ∗ ow c 18 ∗ wt c (.ys 6) ∗ wt c (.ys 7) ∗ wt c (.ys 8) ∗ wt c (.ys 9) ∗ wt c (.zs 0) ∗ wt c (.zs 1)
        ∗ ((ow c 18 ∗ wd m ρ c (.ys 6) ∗ wd m ρ c (.ys 7) ∗ wd m ρ c (.ys 8) ∗ wd m ρ c (.ys 9) ∗ wd m ρ c (.zs 0) ∗ wd m ρ c (.zs 1)) -∗ Q ⟨⟩))
      ⊢ wp frame (wpE (defs₀ (F := F)) 𝒱₀ (c : Thread nD τ) none) Set.univ
          (k0_part15 (Memref.whole cc0_stg0_0) (Memref.isWhole_whole _) (Memref.whole cc0_stg1_0) (Memref.isWhole_whole _)
            cc0_scratch0 cc0_scratch1 cc0_scratch2 cc0_scratch3 cc0_scratch4 c) Q := by
  unfold wt wd ow
  iintro ⟨#HR, ⟨%W, HO⟩, ⟨Hc0, Ha0⟩, ⟨Hc1, Ha1⟩, ⟨Hc2, Ha2⟩, ⟨Hc3, Ha3⟩, ⟨Hc4, Ha4⟩, ⟨Hc5, Ha5⟩, Hk⟩
  rw [k0_part15_eq_skeleton]; unfold k0_part15_skel
  simp only [Prog.lift, Prog.bind_op, Prog.bind_ret, Prog.pure_eq_ret]
  iapply (wp_wait_cell m ρ K c (.ys 6) (hw_ys c 6 _ _) (owedFrom c 18) (W)) $$ [Hc0 HO Ha0]
  · isplitr; · iexact HR
    isplitl [Hc0]; · iexact Hc0
    isplitl [HO]; · iexact HO
    isplitr; · rw [owedFrom_end, MayWait_zero]; iempintro
    iexact Ha0
  iintro ⟨HO, Ha0, Hp0⟩
  iapply (wp_wait_cell m ρ K c (.ys 7) (hw_ys c 7 _ _) (owedFrom c 18) (insert ((CK.ys 6).sem, ()) (W))) $$ [Hc1 HO Ha1]
  · isplitr; · iexact HR
    isplitl [Hc1]; · iexact Hc1
    isplitl [HO]; · iexact HO
    isplitr; · rw [owedFrom_end, MayWait_zero]; iempintro
    iexact Ha1
  iintro ⟨HO, Ha1, Hp1⟩
  iapply (wp_wait_cell m ρ K c (.ys 8) (hw_ys c 8 _ _) (owedFrom c 18) (insert ((CK.ys 7).sem, ()) (insert ((CK.ys 6).sem, ()) (W)))) $$ [Hc2 HO Ha2]
  · isplitr; · iexact HR
    isplitl [Hc2]; · iexact Hc2
    isplitl [HO]; · iexact HO
    isplitr; · rw [owedFrom_end, MayWait_zero]; iempintro
    iexact Ha2
  iintro ⟨HO, Ha2, Hp2⟩
  iapply (wp_wait_cell m ρ K c (.ys 9) (hw_ys c 9 _ _) (owedFrom c 18) (insert ((CK.ys 8).sem, ()) (insert ((CK.ys 7).sem, ()) (insert ((CK.ys 6).sem, ()) (W))))) $$ [Hc3 HO Ha3]
  · isplitr; · iexact HR
    isplitl [Hc3]; · iexact Hc3
    isplitl [HO]; · iexact HO
    isplitr; · rw [owedFrom_end, MayWait_zero]; iempintro
    iexact Ha3
  iintro ⟨HO, Ha3, Hp3⟩
  iapply (wp_wait_cell m ρ K c (.zs 0) (hw_zs c 0 _ _) (owedFrom c 18) (insert ((CK.ys 9).sem, ()) (insert ((CK.ys 8).sem, ()) (insert ((CK.ys 7).sem, ()) (insert ((CK.ys 6).sem, ()) (W)))))) $$ [Hc4 HO Ha4]
  · isplitr; · iexact HR
    isplitl [Hc4]; · iexact Hc4
    isplitl [HO]; · iexact HO
    isplitr; · rw [owedFrom_end, MayWait_zero]; iempintro
    iexact Ha4
  iintro ⟨HO, Ha4, Hp4⟩
  iapply (wp_wait_cell m ρ K c (.zs 1) (hw_zs c 1 _ _) (owedFrom c 18) (insert ((CK.zs 0).sem, ()) (insert ((CK.ys 9).sem, ()) (insert ((CK.ys 8).sem, ()) (insert ((CK.ys 7).sem, ()) (insert ((CK.ys 6).sem, ()) (W))))))) $$ [Hc5 HO Ha5]
  · isplitr; · iexact HR
    isplitl [Hc5]; · iexact Hc5
    isplitl [HO]; · iexact HO
    isplitr; · rw [owedFrom_end, MayWait_zero]; iempintro
    iexact Ha5
  iintro ⟨HO, Ha5, Hp5⟩
  rw [wp_ret]; imodintro; iapply Hk
  isplitl [HO]; · iexists _; iexact HO
  isplitl [Ha0 Hp0]
  · isplitl [Ha0]; · iexact Ha0
    iexact Hp0
  isplitl [Ha1 Hp1]
  · isplitl [Ha1]; · iexact Ha1
    iexact Hp1
  isplitl [Ha2 Hp2]
  · isplitl [Ha2]; · iexact Ha2
    iexact Hp2
  isplitl [Ha3 Hp3]
  · isplitl [Ha3]; · iexact Ha3
    iexact Hp3
  isplitl [Ha4 Hp4]
  · isplitl [Ha4]; · iexact Ha4
    iexact Hp4
  isplitl [Ha5]; · iexact Ha5
  iexact Hp5

end Parts

/-- info: 'Cert.KernelIdeal.AG.run_part14' depends on axioms: [propext, Classical.choice, Quot.sound] -/
#guard_msgs in #print axioms run_part14

/-- info: 'Cert.KernelIdeal.AG.run_part15' depends on axioms: [propext, Classical.choice, Quot.sound] -/
#guard_msgs in #print axioms run_part15

end Cert.KernelIdeal.AG

end
-- ==== Proof.KernelIdealAG.Body.lean ====
/-
  One device's body, stepped once at a symbolic device: the two entry signals, the store of the own block, the barrier wait and the
  first two direct copies here; the other parts by their own lemmas, composed along the body's sequence; then the last four waits,
  the cells closed and the result buffer put together again at its final contents.
-/
import proofs.«900663_g7700000000000664_dist_ag_v7x_xyz2x2x2_y_m1024_n512_bf16_1_alg».proof.Proof.KernelIdealAG.State
import proofs.«900663_g7700000000000664_dist_ag_v7x_xyz2x2x2_y_m1024_n512_bf16_1_alg».proof.Proof.KernelIdealAG.Sched
import proofs.«900663_g7700000000000664_dist_ag_v7x_xyz2x2x2_y_m1024_n512_bf16_1_alg».proof.Proof.KernelIdealAG.Levels
import proofs.«900663_g7700000000000664_dist_ag_v7x_xyz2x2x2_y_m1024_n512_bf16_1_alg».proof.Proof.KernelIdealAG.Geom
import proofs.«900663_g7700000000000664_dist_ag_v7x_xyz2x2x2_y_m1024_n512_bf16_1_alg».proof.Proof.KernelIdealAG.Land
import proofs.«900663_g7700000000000664_dist_ag_v7x_xyz2x2x2_y_m1024_n512_bf16_1_alg».proof.Proof.KernelIdealAG.Steps
import proofs.«900663_g7700000000000664_dist_ag_v7x_xyz2x2x2_y_m1024_n512_bf16_1_alg».proof.Proof.KernelIdealAG.BodyAux
import proofs.«900663_g7700000000000664_dist_ag_v7x_xyz2x2x2_y_m1024_n512_bf16_1_alg».proof.Proof.KernelIdealAG.PartDefs
import proofs.«900663_g7700000000000664_dist_ag_v7x_xyz2x2x2_y_m1024_n512_bf16_1_alg».proof.Proof.KernelIdealAG.PartsA
import proofs.«900663_g7700000000000664_dist_ag_v7x_xyz2x2x2_y_m1024_n512_bf16_1_alg».proof.Proof.KernelIdealAG.PartsB
import proofs.«900663_g7700000000000664_dist_ag_v7x_xyz2x2x2_y_m1024_n512_bf16_1_alg».proof.Proof.KernelIdealAG.PartsC
import proofs.«900663_g7700000000000664_dist_ag_v7x_xyz2x2x2_y_m1024_n512_bf16_1_alg».proof.Proof.KernelIdealAG.PartsD

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CK → ℕ)

omit [FloatOps F] in
/-- A persistent fact serves every member of a family. -/
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every waited cell of the kernel's own closes: their counters at zero are the device's again. -/
theorem close_all (c : Dev nD) :
    iprop(records m ρ K ∗ bigSep (Finset.univ.erase CK.bar) fun k : CK => atPos ER (cell c k) 1 ∅ 0) ⊢ iprop(|={Set.univ}=> Φ₁ c) :=
  (bigSep_with_persistent' (fun k _ => close_cell m ρ K c k)).trans (bigSep_fupd _ _)

/-- What the barrier cell pays its owner: the ten chunks of the y-partner's buffer that the owner's direct copies write. -/
theorem pay_bar (c : Dev nD) :
    pay m ρ c .bar = bigSep Finset.univ fun i : Fin 10 => iprop(∃ f, chunkPts (ynb c) (ySl c i) f) := rfl
/-- What the z-ready cell pays its owner: the six chunks of the z-partner's buffer that the owner's forwarding copies write. -/
theorem pay_zbar (c : Dev nD) :
    pay m ρ c .zbar = bigSep Finset.univ fun i : Fin 6 => iprop(∃ f, chunkPts (znb c) (zSl c i) f) := rfl

/-- A y receive cell pays the landed chunk at its final contents. -/
theorem pay_yr (c : Dev nD) (i : Fin 10) : pay m ρ c (.yr i) = chunkPts c (ySl (ynb c) i) (fin m ρ c) := rfl
/-- The ten y send cells pay the source chunks back. -/
theorem pay_ys_all (c : Dev nD) :
    (bigSep Finset.univ fun i : Fin 10 => pay m ρ c (.ys i)) = bigSep Finset.univ fun i : Fin 10 => chunkPts c (ySl c i) (fin m ρ c) := rfl
/-- The six z receive cells pay the forwarded landings. -/
theorem pay_zr_all (c : Dev nD) :
    (bigSep Finset.univ fun u : Fin 6 => pay m ρ c (.zr u)) = bigSep Finset.univ fun u : Fin 6 => chunkPts c (zSl (znb c) u) (fin m ρ c) := rfl
/-- A z send cell pays the forwarded source back: the rows direct copy `j = i` of the y-partner wrote. -/
theorem pay_zs_back (c : Dev nD) (i : Fin 6) (j : Fin 10) (h : Fin.castLE six_le_ten i = j) :
    pay m ρ c (.zs i) = chunkPts c (ySl (ynb c) j) (fin m ρ c) := by
  subst h; exact zsrc_eq c i _

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt := by
  unfold bodyPre ghost
  iintro ⟨⟨⟨⟨#HR, Hpos, Htok⟩, Hcr, #Hlev⟩, Ho, ⟨%d0, %g0, %hg0, Hx⟩, ⟨%d1, %g1, %hg1, Hout⟩⟩, Hk⟩
  have hx : g0 = xstg m ρ c := by rw [hg0]; exact before_x m ρ c d0
  subst hx
  unfold Dat.owesAt Pipeline.owesWithin
  icases Ho with ⟨%W, %hW, HO⟩
  rw [show (dats m ρ 0 c).owed t₀.castSucc = owedFrom c 0 from rfl]
  -- positions, tokens and credit, one by one
  unfold positions payToks creds
  ihave Hp := (Entails.of_eq (ck_flat _)) $$ Hpos
  icases Hp with ⟨aB, aZ, aS0, aS1, aS2, aS3, aS4, aS5, aS6, aS7, aS8, aS9, aR0, aR1, aR2, aR3, aR4, aR5, aR6, aR7, aR8, aR9,
    aT0, aT1, aT2, aT3, aT4, aT5, aU0, aU1, aU2, aU3, aU4, aU5⟩
  icases Htok with ⟨tB, tZ, TS, TR, TT, TU⟩
  ihave TS := (Entails.of_eq (fin10 _)) $$ TS
  icases TS with ⟨tS0, tS1, tS2, tS3, tS4, tS5, tS6, tS7, tS8, tS9⟩
  ihave TR := (Entails.of_eq (fin10 _)) $$ TR
  icases TR with ⟨tR0, tR1, tR2, tR3, tR4, tR5, tR6, tR7, tR8, tR9⟩
  ihave TT := (Entails.of_eq (fin6 _)) $$ TT
  icases TT with ⟨tT0, tT1, tT2, tT3, tT4, tT5⟩
  ihave TU := (Entails.of_eq (fin6 _)) $$ TU
  icases TU with ⟨tU0, tU1, tU2, tU3, tU4, tU5⟩
  icases Hcr with ⟨cB, cZ, CR, CU⟩
  ihave CR := (Entails.of_eq (fin10 _)) $$ CR
  icases CR with ⟨cR0, cR1, cR2, cR3, cR4, cR5, cR6, cR7, cR8, cR9⟩
  ihave CU := (Entails.of_eq (fin6 _)) $$ CU
  icases CU with ⟨cU0, cU1, cU2, cU3, cU4, cU5⟩
  -- the result buffer cut: the own half, the ten direct landings, the six forwarded landings
  ihave Hs := (whole_split c g1).1 $$ Hout
  icases Hs with ⟨Hmine, HLY, HLZ⟩
  -- the body's sequence of parts
  rw [cc0_body_eq_skeleton]; unfold cc0_body_skel
  simp only [wp_bind]
  -- PART 1: the two entry signals, the load of the own block
  rw [k0_part1_eq_skeleton]; unfold k0_part1_skel
  simp only [semSignalWord, semWaitWord, Prog.lift, Prog.bind_op, Prog.bind_ret, Prog.pure_eq_ret, wp_deviceId]
  iapply (wp_sig_bar m ρ K c _ (dev1_eq c) (owedFrom c 1) W) $$ [HO tB HLY]
  · isplitr; · iexact HR
    isplitl [HO]; · iexact HO
    isplitl [tB]; · iexact tB
    iapply (give_bar m ρ c g1); iexact HLY
  iintro HO
  iapply (wp_sig_zbar m ρ K c _ (dev2_eq c) (owedFrom c 2) W) $$ [HO tZ HLZ]
  · isplitr; · iexact HR
    isplitl [HO]; · iexact HO
    isplitl [tZ]; · iexact tZ
    iapply (give_zbar m ρ c g1); iexact HLZ
  iintro HO
  iapply (wp_load 𝒱₀ (c : Thread nD τ) none Set.univ (m := xM) (Finset.subset_univ _)) $$ Hx; iintro Hx
  rw [read_x]
  rw [wp_ret]; imodintro
  dsimp only
  -- PART 2: the store of the own block into the own half, the barrier wait, direct copies 0 and 1
  rw [k0_part2_eq_skeleton]; unfold k0_part2_skel
  simp only [semSignalWord, semWaitWord, Prog.lift, Prog.bind_op, Prog.bind_ret, Prog.pure_eq_ret]
  iapply (wp_load_rect 𝒱₀ (c : Thread nD τ) none Set.univ (m := oM) (r := mineRect c) (S := mineSet c)
    (by unfold mineSet; exact Finset.Subset.refl _)) $$ Hmine; iintro Hmine
  iapply (wp_store 𝒱₀ (c : Thread nD τ) none Set.univ (m := oM) (r := mineRect c) (Mk := Finset.univ) (S := mineSet c)
    (by unfold mineSet; exact Finset.Subset.refl _)) $$ Hmine; iintro Hmine
  rw [show k0_pay1 (xstg m ρ c) = X m ρ c from rfl]
  ihave Hmine := (Entails.of_eq (pointsTo_congr (stored_eq_fin m ρ c g1))) $$ Hmine
  ihave Hm := (mine_split c (fin m ρ c)).1 $$ Hmine
  icases Hm with ⟨HY, HU⟩
  ihave HY := (Entails.of_eq (fin10 _)) $$ HY
  icases HY with ⟨Y0, Y1, Y2, Y3, Y4, Y5, Y6, Y7, Y8, Y9⟩
  iapply (wp_wait_cell m ρ K c .bar (wpE_semWait_eq 𝒱₀ (c : Thread nD τ) none Set.univ (sem := barS) (k := 1)) (owedFrom c 2) W) $$ [cB HO aB]
  · isplitr; · iexact HR
    isplitl [cB]; · iexact cB
    isplitl [HO]; · iexact HO
    isplitr; · iapply (mayWait_bar c); iexact Hlev
    iexact aB
  iintro ⟨HO, aB, HD⟩
  ihave HD := (Entails.of_eq ((pay_bar m ρ c).trans (fin10 _))) $$ HD
  icases HD with ⟨D0, D1, D2, D3, D4, D5, D6, D7, D8, D9⟩
  icases D0 with ⟨%fd0, D0⟩
  iapply (wp_ysend m ρ K c _ (dev3_eq c) 0 fd0 (owedFrom c 3) _) $$ [Y0 D0 HO tS0 tR0]
  · isplitr; · iexact HR
    isplitl [Y0]; · iexact Y0
    isplitl [D0]; · iexact D0
    isplitl [HO]; · iexact HO
    isplitl [tS0]; · iexact tS0
    iexact tR0
  iintro ⟨cS0, HO⟩
  icases D1 with ⟨%fd1, D1⟩
  iapply (wp_ysend m ρ K c _ (dev4_eq c) 1 fd1 (owedFrom c 4) _) $$ [Y1 D1 HO tS1 tR1]
  · isplitr; · iexact HR
    isplitl [Y1]; · iexact Y1
    isplitl [D1]; · iexact D1
    isplitl [HO]; · iexact HO
    isplitl [tS1]; · iexact tS1
    iexact tR1
  iintro ⟨cS1, HO⟩
  rw [wp_ret]; imodintro
  dsimp only
  -- PART 3
  iapply (run_part3 m ρ K c _ _ _ _ _ _ _ _)
  unfold sy ow cy
  isplitr; · iexact HR
  isplitl [HO]; · iexists _; iexact HO
  isplitl [Y2 D2 tS2 tR2]
  · isplitl [Y2]; · iexact Y2
    isplitl [D2]; · iexact D2
    isplitl [tS2]; · iexact tS2
    iexact tR2
  isplitl [Y3 D3 tS3 tR3]
  · isplitl [Y3]; · iexact Y3
    isplitl [D3]; · iexact D3
    isplitl [tS3]; · iexact tS3
    iexact tR3
  iintro %a3 ⟨⟨%W3, HO⟩, cS2, cS3⟩
  -- PART 4
  iapply (run_part4 m ρ K c _ _ _ _ _ _)
  unfold sy ow cy
  isplitr; · iexact HR
  isplitl [HO]; · iexists _; iexact HO
  isplitl [Y4 D4 tS4 tR4]
  · isplitl [Y4]; · iexact Y4
    isplitl [D4]; · iexact D4
    isplitl [tS4]; · iexact tS4
    iexact tR4
  isplitl [Y5 D5 tS5 tR5]
  · isplitl [Y5]; · iexact Y5
    isplitl [D5]; · iexact D5
    isplitl [tS5]; · iexact tS5
    iexact tR5
  iintro ⟨⟨%W4, HO⟩, cS4, cS5⟩
  -- PART 5
  iapply (run_part5 m ρ K c _ _ _ _)
  unfold sy ow cy
  isplitr; · iexact HR
  isplitl [HO]; · iexists _; iexact HO
  isplitl [Y6 D6 tS6 tR6]
  · isplitl [Y6]; · iexact Y6
    isplitl [D6]; · iexact D6
    isplitl [tS6]; · iexact tS6
    iexact tR6
  isplitl [Y7 D7 tS7 tR7]
  · isplitl [Y7]; · iexact Y7
    isplitl [D7]; · iexact D7
    isplitl [tS7]; · iexact tS7
    iexact tR7
  isplitl [Y8 D8 tS8 tR8]
  · isplitl [Y8]; · iexact Y8
    isplitl [D8]; · iexact D8
    isplitl [tS8]; · iexact tS8
    iexact tR8
  iintro %a5 ⟨⟨%W5, HO⟩, cS6, cS7, cS8⟩
  -- PART 6
  iapply (run_part6 m ρ K c _ _ _ _ _ _ _ _ _)
  unfold sy ow cy wt wd
  isplitr; · iexact HR
  isplitr; · iexact Hlev
  isplitl [HO]; · iexists _; iexact HO
  isplitl [Y9 D9 tS9 tR9]
  · isplitl [Y9]; · iexact Y9
    isplitl [D9]; · iexact D9
    isplitl [tS9]; · iexact tS9
    iexact tR9
  isplitl [cZ aZ]
  · isplitl [cZ]; · iexact cZ
    iexact aZ
  isplitl [cR0 aR0]
  · isplitl [cR0]; · iexact cR0
    iexact aR0
  iintro ⟨⟨%W6, HO⟩, cS9, ⟨aZ, HE⟩, ⟨aR0, P0⟩⟩
  ihave HE := (Entails.of_eq ((pay_zbar m ρ c).trans (fin6 _))) $$ HE
  icases HE with ⟨E0, E1, E2, E3, E4, E5⟩
  -- PART 7
  iapply (run_part7 m ρ K c _ _ _ _ _ _ _)
  unfold sz ow cz wt
  isplitr; · iexact HR
  isplitr; · iexact Hlev
  isplitl [HO]; · iexists _; iexact HO
  isplitl [P0]; · iexact P0
  isplitl [E0 tT0 tU0]
  · isplitl [E0]; · iexact E0
    isplitl [tT0]; · iexact tT0
    iexact tU0
  isplitl [cR1 aR1]
  · isplitl [cR1]; · iexact cR1
    iexact aR1
  isplitl [E1 tT1 tU1]
  · isplitl [E1]; · iexact E1
    isplitl [tT1]; · iexact tT1
    iexact tU1
  iintro ⟨⟨%W7, HO⟩, cT0, cT1, aR1⟩
  -- PART 8
  iapply (run_part8 m ρ K c _ _ _ _ _ _ _)
  unfold sz ow cz wt wd
  isplitr; · iexact HR
  isplitr; · iexact Hlev
  isplitl [HO]; · iexists _; iexact HO
  isplitl [cR2 aR2]
  · isplitl [cR2]; · iexact cR2
    iexact aR2
  isplitl [E2 tT2 tU2]
  · isplitl [E2]; · iexact E2
    isplitl [tT2]; · iexact tT2
    iexact tU2
  isplitl [cR3 aR3]
  · isplitl [cR3]; · iexact cR3
    iexact aR3
  iintro %a8 ⟨⟨%W8, HO⟩, cT2, aR2, ⟨aR3, P3⟩⟩
  -- PART 9
  iapply (run_part9 m ρ K c _ _ _ _ _ _ _ _ _)
  unfold sz ow cz wt wd
  isplitr; · iexact HR
  isplitr; · iexact Hlev
  isplitl [HO]; · iexists _; iexact HO
  isplitl [P3]; · iexact P3
  isplitl [E3 tT3 tU3]
  · isplitl [E3]; · iexact E3
    isplitl [tT3]; · iexact tT3
    iexact tU3
  isplitl [cR4 aR4]
  · isplitl [cR4]; · iexact cR4
    iexact aR4
  iintro ⟨⟨%W9, HO⟩, cT3, ⟨aR4, P4⟩⟩
  -- PART 10
  iapply (run_part10 m ρ K c _ _ _ _ _ _ _)
  unfold sz ow cz wt
  isplitr; · iexact HR
  isplitr; · iexact Hlev
  isplitl [HO]; · iexists _; iexact HO
  isplitl [P4]; · iexact P4
  isplitl [E4 tT4 tU4]
  · isplitl [E4]; · iexact E4
    isplitl [tT4]; · iexact tT4
    iexact tU4
  isplitl [cR5 aR5]
  · isplitl [cR5]; · iexact cR5
    iexact aR5
  isplitl [E5 tT5 tU5]
  · isplitl [E5]; · iexact E5
    isplitl [tT5]; · iexact tT5
    iexact tU5
  iintro ⟨⟨%W10, HO⟩, cT4, cT5, aR5⟩
  -- PART 11
  iapply (run_part11 m ρ K c _ _ _)
  unfold ow wt wd
  isplitr; · iexact HR
  isplitl [HO]; · iexists _; iexact HO
  isplitl [cR6 aR6]
  · isplitl [cR6]; · iexact cR6
    iexact aR6
  isplitl [cR7 aR7]
  · isplitl [cR7]; · iexact cR7
    iexact aR7
  isplitl [cR8 aR8]
  · isplitl [cR8]; · iexact cR8
    iexact aR8
  iintro ⟨⟨%W11, HO⟩, ⟨aR6, P6⟩, ⟨aR7, P7⟩, ⟨aR8, P8⟩⟩
  -- PART 12
  iapply (run_part12 m ρ K c _ _ _)
  unfold ow wt wd
  isplitr; · iexact HR
  isplitl [HO]; · iexists _; iexact HO
  isplitl [cR9 aR9]
  · isplitl [cR9]; · iexact cR9
    iexact aR9
  isplitl [cU0 aU0]
  · isplitl [cU0]; · iexact cU0
    iexact aU0
  isplitl [cU1 aU1]
  · isplitl [cU1]; · iexact cU1
    iexact aU1
  isplitl [cU2 aU2]
  · isplitl [cU2]; · iexact cU2
    iexact aU2
  iintro ⟨⟨%W12, HO⟩, ⟨aR9, P9⟩, ⟨aU0, Q0⟩, ⟨aU1, Q1⟩, ⟨aU2, Q2⟩⟩
  -- PART 13
  iapply (run_part13 m ρ K c _ _ _)
  unfold ow wt wd
  isplitr; · iexact HR
  isplitl [HO]; · iexists _; iexact HO
  isplitl [cU3 aU3]
  · isplitl [cU3]; · iexact cU3
    iexact aU3
  isplitl [cU4 aU4]
  · isplitl [cU4]; · iexact cU4
    iexact aU4
  isplitl [cU5 aU5]
  · isplitl [cU5]; · iexact cU5
    iexact aU5
  iintro ⟨⟨%W13, HO⟩, ⟨aU3, Q3⟩, ⟨aU4, Q4⟩, ⟨aU5, Q5⟩⟩
  -- PART 14
  iapply (run_part14 m ρ K c)
  unfold ow wt wd
  isplitr; · iexact HR
  isplitl [HO]; · iexists _; iexact HO
  isplitl [cS0 aS0]
  · isplitl [cS0]; · iexact cS0
    iexact aS0
  isplitl [cS1 aS1]
  · isplitl [cS1]; · iexact cS1
    iexact aS1
  isplitl [cS2 aS2]
  · isplitl [cS2]; · iexact cS2
    iexact aS2
  isplitl [cS3 aS3]
  · isplitl [cS3]; · iexact cS3
    iexact aS3
  isplitl [cS4 aS4]
  · isplitl [cS4]; · iexact cS4
    iexact aS4
  isplitl [cS5 aS5]
  · isplitl [cS5]; · iexact cS5
    iexact aS5
  iintro ⟨⟨%W14, HO⟩, ⟨aS0, Y0⟩, ⟨aS1, Y1⟩, ⟨aS2, Y2⟩, ⟨aS3, Y3⟩, ⟨aS4, Y4⟩, ⟨aS5, Y5⟩⟩
  -- PART 15
  iapply (run_part15 m ρ K c)
  unfold ow wt wd
  isplitr; · iexact HR
  isplitl [HO]; · iexists _; iexact HO
  isplitl [cS6 aS6]
  · isplitl [cS6]; · iexact cS6
    iexact aS6
  isplitl [cS7 aS7]
  · isplitl [cS7]; · iexact cS7
    iexact aS7
  isplitl [cS8 aS8]
  · isplitl [cS8]; · iexact cS8
    iexact aS8
  isplitl [cS9 aS9]
  · isplitl [cS9]; · iexact cS9
    iexact aS9
  isplitl [cT0 aT0]
  · isplitl [cT0]; · iexact cT0
    iexact aT0
  isplitl [cT1 aT1]
  · isplitl [cT1]; · iexact cT1
    iexact aT1
  iintro ⟨⟨%W15, HO⟩, ⟨aS6, Y6⟩, ⟨aS7, Y7⟩, ⟨aS8, Y8⟩, ⟨aS9, Y9⟩, ⟨aT0, Z0⟩, ⟨aT1, Z1⟩⟩
  -- the last four waits: the send cells 2 to 5 along z
  iapply (wp_wait_cell m ρ K c (.zs 2) (wpE_waitDma2_eq 𝒱₀ (c : Thread nD τ) none Set.univ (sem := zsS 2) (src := zSl c 2) (dst := zSl c 2))
    (owedFrom c 18) _) $$ [cT2 HO aT2]
  · isplitr; · iexact HR
    isplitl [cT2]; · iexact cT2
    isplitl [HO]; · iexact HO
    isplitr; · rw [owedFrom_end, MayWait_zero]; iempintro
    iexact aT2
  iintro ⟨HO, aT2, Z2⟩
  rw [wp_ret]; imodintro
  iapply (wp_wait_cell m ρ K c (.zs 3) (wpE_waitDma2_eq 𝒱₀ (c : Thread nD τ) none Set.univ (sem := zsS 3) (src := zSl c 3) (dst := zSl c 3))
    (owedFrom c 18) _) $$ [cT3 HO aT3]
  · isplitr; · iexact HR
    isplitl [cT3]; · iexact cT3
    isplitl [HO]; · iexact HO
    isplitr; · rw [owedFrom_end, MayWait_zero]; iempintro
    iexact aT3
  iintro ⟨HO, aT3, Z3⟩
  rw [wp_ret]; imodintro
  iapply (wp_wait_cell m ρ K c (.zs 4) (wpE_waitDma2_eq 𝒱₀ (c : Thread nD τ) none Set.univ (sem := zsS 4) (src := zSl c 4) (dst := zSl c 4))
    (owedFrom c 18) _) $$ [cT4 HO aT4]
  · isplitr; · iexact HR
    isplitl [cT4]; · iexact cT4
    isplitl [HO]; · iexact HO
    isplitr; · rw [owedFrom_end, MayWait_zero]; iempintro
    iexact aT4
  iintro ⟨HO, aT4, Z4⟩
  rw [wp_ret]; imodintro
  iapply (wp_wait_cell m ρ K c (.zs 5) (wpE_waitDma2_eq 𝒱₀ (c : Thread nD τ) none Set.univ (sem := zsS 5) (src := zSl c 5) (dst := zSl c 5))
    (owedFrom c 18) _) $$ [cT5 HO aT5]
  · isplitr; · iexact HR
    isplitl [cT5]; · iexact cT5
    isplitl [HO]; · iexact HO
    isplitr; · rw [owedFrom_end, MayWait_zero]; iempintro
    iexact aT5
  iintro ⟨HO, aT5, Z5⟩
  rw [wp_ret]; imodintro
  -- every own cell closes
  ihave HA := (Entails.of_eq (ck_flat_erase (fun k : CK => atPos ER (cell c k) 1 ∅ 0)).symm) $$
    [aZ aS0 aS1 aS2 aS3 aS4 aS5 aS6 aS7 aS8 aS9 aR0 aR1 aR2 aR3 aR4 aR5 aR6 aR7 aR8 aR9 aT0 aT1 aT2 aT3 aT4 aT5 aU0 aU1 aU2 aU3 aU4 aU5]
  · isplitl [aZ]; · iexact aZ
    isplitl [aS0]; · iexact aS0
    isplitl [aS1]; · iexact aS1
    isplitl [aS2]; · iexact aS2
    isplitl [aS3]; · iexact aS3
    isplitl [aS4]; · iexact aS4
    isplitl [aS5]; · iexact aS5
    isplitl [aS6]; · iexact aS6
    isplitl [aS7]; · iexact aS7
    isplitl [aS8]; · iexact aS8
    isplitl [aS9]; · iexact aS9
    isplitl [aR0]; · iexact aR0
    isplitl [aR1]; · iexact aR1
    isplitl [aR2]; · iexact aR2
    isplitl [aR3]; · iexact aR3
    isplitl [aR4]; · iexact aR4
    isplitl [aR5]; · iexact aR5
    isplitl [aR6]; · iexact aR6
    isplitl [aR7]; · iexact aR7
    isplitl [aR8]; · iexact aR8
    isplitl [aR9]; · iexact aR9
    isplitl [aT0]; · iexact aT0
    isplitl [aT1]; · iexact aT1
    isplitl [aT2]; · iexact aT2
    isplitl [aT3]; · iexact aT3
    isplitl [aT4]; · iexact aT4
    isplitl [aT5]; · iexact aT5
    isplitl [aU0]; · iexact aU0
    isplitl [aU1]; · iexact aU1
    isplitl [aU2]; · iexact aU2
    isplitl [aU3]; · iexact aU3
    isplitl [aU4]; · iexact aU4
    iexact aU5
  imod (close_all m ρ K c) $$ [HA] with HΦ
  · isplitr; · iexact HR
    iexact HA
  -- the own half put together: the ten chunks the send cells handed back, the six never sent
  ihave HY := (Entails.of_eq (fin10 (fun i : Fin 10 => pay m ρ c (.ys i))).symm) $$ [Y0 Y1 Y2 Y3 Y4 Y5 Y6 Y7 Y8 Y9]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    iexact Y9
  ihave HY := (Entails.of_eq (pay_ys_all m ρ c)) $$ HY
  ihave Hmine := (mine_split c (fin m ρ c)).2 $$ [HY HU]
  · isplitl [HY]; · iexact HY
    iexact HU
  -- the other half: the forwarded sources back (the rows direct copies 0 to 5 of the partner wrote), the landings 6 to 9, the six forwarded landings
  ihave Z0 := (Entails.of_eq (pay_zs_back m ρ c 0 0 rfl)) $$ Z0
  ihave Z1 := (Entails.of_eq (pay_zs_back m ρ c 1 1 rfl)) $$ Z1
  ihave Z2 := (Entails.of_eq (pay_zs_back m ρ c 2 2 rfl)) $$ Z2
  ihave Z3 := (Entails.of_eq (pay_zs_back m ρ c 3 3 rfl)) $$ Z3
  ihave Z4 := (Entails.of_eq (pay_zs_back m ρ c 4 4 rfl)) $$ Z4
  ihave Z5 := (Entails.of_eq (pay_zs_back m ρ c 5 5 rfl)) $$ Z5
  ihave P6 := (Entails.of_eq (pay_yr m ρ c 6)) $$ P6
  ihave P7 := (Entails.of_eq (pay_yr m ρ c 7)) $$ P7
  ihave P8 := (Entails.of_eq (pay_yr m ρ c 8)) $$ P8
  ihave P9 := (Entails.of_eq (pay_yr m ρ c 9)) $$ P9
  ihave HLY := (Entails.of_eq (fin10 (fun i : Fin 10 => chunkPts c (ySl (ynb c) i) (fin m ρ c))).symm) $$ [Z0 Z1 Z2 Z3 Z4 Z5 P6 P7 P8 P9]
  · isplitl [Z0]; · iexact Z0
    isplitl [Z1]; · iexact Z1
    isplitl [Z2]; · iexact Z2
    isplitl [Z3]; · iexact Z3
    isplitl [Z4]; · iexact Z4
    isplitl [Z5]; · iexact Z5
    isplitl [P6]; · iexact P6
    isplitl [P7]; · iexact P7
    isplitl [P8]; · iexact P8
    iexact P9
  ihave HLZ := (Entails.of_eq (fin6 (fun u : Fin 6 => pay m ρ c (.zr u))).symm) $$ [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  ihave HLZ := (Entails.of_eq (pay_zr_all m ρ c)) $$ HLZ
  ihave Hout := (whole_split c (fin m ρ c)).2 $$ [Hmine HLY HLZ]
  · isplitl [Hmine]; · iexact Hmine
    isplitl [HLY]; · iexact HLY
    iexact HLZ
  rw [wp_ret]; imodintro
  iapply Hk
  unfold bodyPost Dat.owesAt Pipeline.owesWithin
  rw [show (dats m ρ 0 c).owed t₀.succ = 0 from rfl]
  isplitl [HΦ]; · iexact HΦ
  isplitl [HO]
  · iexists (insert ((CK.zs 5).sem, ()) (insert ((CK.zs 4).sem, ()) (insert ((CK.zs 3).sem, ()) (insert ((CK.zs 2).sem, ()) W15))))
    isplitr; · (ipureintro; exact fun _ _ => Or.inl trivial)
    iexact HO
  isplitl [Hx]
  · iexists _; isplitr; · (ipureintro; rfl)
    iexact Hx
  iexists _; isplitr; · (ipureintro; rfl)
  iexact Hout

/-- info: 'Cert.KernelIdeal.AG.sound_body' depends on axioms: [propext, Classical.choice, Quot.sound] -/
#guard_msgs in #print axioms sound_body

end Body

end Cert.KernelIdeal.AG

end
-- ==== Proof.KernelIdealAG.Oblig.lean ====
/-
  The library's body obligation from the stepped body.
-/
import proofs.«900663_g7700000000000664_dist_ag_v7x_xyz2x2x2_y_m1024_n512_bf16_1_alg».proof.Proof.KernelIdealAG.Body

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The windows conjoined one by one. -/
theorem bigSep_W (Φ : Fin cfg0.W → sProp 𝕄) : bigSep Finset.univ Φ = iprop(Φ (0 : Fin 2) ∗ Φ (1 : Fin 2)) := bigSep_W0 Φ

omit [FloatOps F] in
/-- Owning a whole buffer through its own memref and reading `X` is holding the buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the obligation hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  unfold bodyPre' Φ₀ start
  iintro ⟨⟨⟨%K, Hg⟩, Hc, Hl⟩, Ho, Hx, Hout⟩
  iapply (sound_body m ρ K c fun _ => bodyPost m ρ c)
  unfold bodyPre
  isplitr []
  · isplitl [Hg Hc Hl]
    · isplitl [Hg]; · iexact Hg
      isplitl [Hc]; · iexact Hc
      iexact Hl
    isplitl [Ho]; · iexact Ho
    isplitl [Hx]; · iexact Hx
    iexact Hout
  · iintro H; iexact H

/-- info: 'Cert.KernelIdeal.AG.owns_whole_eq' depends on axioms: [propext, Classical.choice, Quot.sound] -/
#guard_msgs in #print axioms owns_whole_eq

/-- info: 'Cert.KernelIdeal.AG.body_obligation' depends on axioms: [propext, Classical.choice, Quot.sound] -/
#guard_msgs in #print axioms body_obligation

end Cert.KernelIdeal.AG

end
-- ==== Proof.KernelIdealAG.Launch.lean ====
/-
  The launch: the protocol's cells funded and allocated for all devices at once, each device dealt its positions, the tokens of the
  duties it pays and its launch credit, and the run of @main on the eight devices.
-/
import proofs.«900663_g7700000000000664_dist_ag_v7x_xyz2x2x2_y_m1024_n512_bf16_1_alg».proof.Proof.KernelIdealAG.Oblig

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped semaphores: every protocol cell's but the barrier's. -/
private abbrev osem : {k : CK // k ≠ CK.bar} → SemLoc sig := fun k => k.1.sem

private theorem sem_scoped : ∀ k : CK, k ≠ CK.bar → (k.sem).isScoped .tc = true := by decide
private theorem sem_not_stage : ∀ (k : CK) (w : Fin cfg0.W) (s : Fin (cfg0.spec w).nbuf), k.sem ≠ .dma ((cfg0.spec w).sem s) := by decide

private theorem ownSemFacts : Pipeline.OwnSemFacts cfg0.spec osem :=
  ⟨fun k => sem_scoped k.1 k.2, fun a b h => Subtype.ext (sem_injective h), fun k w s => sem_not_stage k.1 w s⟩

private theorem share_eq (c : Dev nD) (w : Fin cfg0.W) : (dats m ρ 0 c).share w = fullShare := by unfold Dat.share; split <;> rfl

/-! ## The protocol's ghost state at launch -/

private def protoCells : Finset (GSem nD τ sig) := Finset.univ.map ⟨fun ck : Dev nD × CK => cell ck.1 ck.2, cell_injective⟩

private theorem tok_injective : Function.Injective (fun ck : Dev nD × CK => ((cell ck.1 ck.2, 0, ()) : GSem nD τ sig × ℕ × Unit)) :=
  fun a b h => cell_injective (congrArg Prod.fst h)

private def protoToks : Finset (GSem nD τ sig × ℕ × Unit) := Finset.univ.map ⟨fun ck : Dev nD × CK => (cell ck.1 ck.2, 0, ()), tok_injective⟩

private def u₀ : UU :=
  (initOf (Pipeline.cells cfgs cellOf_inj) (Pipeline.launchToks cfgs cellOf_inj), initOf protoCells protoToks)

/-- What the launch element deals device `c`: its cells' round states, its positions in them with the fact that round 0 is
    reached, and its own cells' duty tokens. -/
private def G (c : Dev nD) : sProp 𝕄 :=
  iprop((bigSep Finset.univ fun k : CK => roundState ER (Rd m ρ) (cell c k) 0)
    ∗ (bigSep Finset.univ fun k : CK => iprop(atPos ER (cell c k) 0 ∅ 0 ∗ reached ER (cell c k) 0))
    ∗ (bigSep Finset.univ fun k : CK => dutyTok ER (cell c k) 0 ()))

/-- What the global step makes of it. -/
private def G' (c : Dev nD) : sProp 𝕄 := iprop(∃ K, ghost m ρ K c)

omit [FloatOps F] in
/-- A conjunction over pairs (device, kind) is the one over devices of the one over kinds. -/
private theorem pairs_eq (Φ : Dev nD → CK → sProp 𝕄) :
    (bigSep Finset.univ fun ck : Dev nD × CK => Φ ck.1 ck.2) = bigSep Finset.univ fun c : Dev nD => bigSep Finset.univ fun k : CK => Φ c k :=
  bigSep_univ_prod (fun ck : Dev nD × CK => Φ ck.1 ck.2)

/-- The kinds as a sum: the two regular cells, then the four families of DMA cells. -/
private def ckEquiv : Unit ⊕ Unit ⊕ Fin 10 ⊕ Fin 10 ⊕ Fin 6 ⊕ Fin 6 ≃ CK where
  toFun
    | .inl _ => .bar
    | .inr (.inl _) => .zbar
    | .inr (.inr (.inl i)) => .ys i
    | .inr (.inr (.inr (.inl i))) => .yr i
    | .inr (.inr (.inr (.inr (.inl i)))) => .zs i
    | .inr (.inr (.inr (.inr (.inr i)))) => .zr i
  invFun
    | .bar => .inl ()
    | .zbar => .inr (.inl ())
    | .ys i => .inr (.inr (.inl i))
    | .yr i => .inr (.inr (.inr (.inl i)))
    | .zs i => .inr (.inr (.inr (.inr (.inl i))))
    | .zr i => .inr (.inr (.inr (.inr (.inr i))))
  left_inv := by rintro (_ | _ | _ | _ | _ | _) <;> rfl
  right_inv := by rintro (_ | _ | _ | _ | _ | _) <;> rfl

omit [FloatOps F] in
/-- A conjunction over the kinds, kind by kind. -/
private theorem bigSep_CK (Φ : CK → sProp 𝕄) :
    bigSep Finset.univ Φ = iprop(Φ .bar ∗ Φ .zbar ∗ (bigSep Finset.univ fun i : Fin 10 => Φ (.ys i)) ∗ (bigSep Finset.univ fun i : Fin 10 => Φ (.yr i))
      ∗ (bigSep Finset.univ fun i : Fin 6 => Φ (.zs i)) ∗ (bigSep Finset.univ fun i : Fin 6 => Φ (.zr i))) := by
  rw [bigSep_univ_equiv ckEquiv Φ, bigSep_univ_sum, bigSep_univ_sum, bigSep_univ_sum, bigSep_univ_sum, bigSep_univ_sum,
    bigSep_univ_of_subsingleton (), bigSep_univ_of_subsingleton ()]
  rfl

omit [FloatOps F] in
private theorem reindex_y (Φ : Dev nD → sProp 𝕄) : bigSep Finset.univ Φ = bigSep Finset.univ fun c : Dev nD => Φ (ynb c) := bigSep_univ_equiv yEquiv Φ
omit [FloatOps F] in
private theorem reindex_z (Φ : Dev nD → sProp 𝕄) : bigSep Finset.univ Φ = bigSep Finset.univ fun c : Dev nD => Φ (znb c) := bigSep_univ_equiv zEquiv Φ

private theorem fund_proto : BI.own (ER (initOf protoCells protoToks)) ⊢ (|==> bigSep Finset.univ (G m ρ) : sProp 𝕄) := by
  have hX (Φ : GSem nD τ sig → sProp 𝕄) :
      bigSep protoCells Φ = bigSep Finset.univ fun c : Dev nD => bigSep Finset.univ fun k : CK => Φ (cell c k) := by
    unfold protoCells; rw [bigSep_map, bigSep_univ_prod]; rfl
  have hT : bigSep protoToks (fun x => (dutyTok ER x.1 x.2.1 x.2.2 : sProp 𝕄))
      = bigSep Finset.univ fun c : Dev nD => bigSep Finset.univ fun k : CK => dutyTok ER (cell c k) 0 () := by
    unfold protoToks; rw [bigSep_map, bigSep_univ_prod]; rfl
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The own semaphores are the cells of every kind but the barrier's; -/
private theorem ownSems0_eq (c : Dev nD) : (Pipeline.ownSems0 (Ix := Unit) (Name := ℕ) (U := UU) (Lvl := ℕ) (Val := Elt F) (τ := τ) osem c : sProp 𝕄)
    = bigSep (Finset.univ.erase CK.bar) fun k : CK => semVal (cell c k) 0 := by
  unfold Pipeline.ownSems0
  exact bigSep_subtype_ne CK.bar (fun k : CK => semVal (cell c k) 0)
omit [FloatOps F] in
/-- the barrier semaphore is the one unscoped semaphore. -/
private theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_eq, unscopedSems0_eq, bigSep_univ_at (fun k : CK => (semVal (cell c k) 0 : sProp 𝕄)) CK.bar]
  iintro ⟨HO, HB⟩
  isplitl [HB] <;> iassumption

private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0))
          ∗ (bigSep Finset.univ fun k : CK => dutyTok ER (cell c k) 0 ())) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

private theorem ghost_intro (K : Dev nD × CK → ℕ) (c : Dev nD) : iprop(records m ρ K ∗ (positions c ∗ payToks c)) ⊢ G' m ρ c := by
  unfold G' ghost
  iintro ⟨HR, HP, HT⟩
  iexists K
  isplitl [HR]; · iexact HR
  isplitl [HP] <;> iassumption

omit [FloatOps F] in
/-- The tokens dealt to the devices that pay them. -/
private theorem toks_around :
    (bigSep Finset.univ fun c : Dev nD => bigSep Finset.univ fun k : CK => (dutyTok ER (cell c k) 0 () : sProp 𝕄))
      ⊢ bigSep Finset.univ fun c : Dev nD => payToks c := by
  unfold payToks
  simp only [bigSep_CK, bigSep_sep']
  rw [reindex_y (fun c : Dev nD => (dutyTok ER (cell c .bar) 0 () : sProp 𝕄)),
    reindex_z (fun c : Dev nD => (dutyTok ER (cell c .zbar) 0 () : sProp 𝕄)),
    reindex_y (fun c : Dev nD => bigSep Finset.univ fun i : Fin 10 => (dutyTok ER (cell c (.yr i)) 0 () : sProp 𝕄)),
    reindex_z (fun c : Dev nD => bigSep Finset.univ fun i : Fin 6 => (dutyTok ER (cell c (.zr i)) 0 () : sProp 𝕄))]

private theorem regroup :
    (bigSep Finset.univ fun c : Dev nD => iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0))
          ∗ (bigSep Finset.univ fun k : CK => dutyTok ER (cell c k) 0 ())) : sProp 𝕄)
      ⊢ bigSep Finset.univ (G' m ρ) := by
  simp only [bigSep_sep']
  rw [← pairs_eq (fun c k => iprop(∃ κ : ℕ, cellInv ER (Rd m ρ) κ (cell c k))),
    ← pairs_eq (fun c k => (reached ER (cell c k) 0 : sProp 𝕄))]
  iintro ⟨HI, ⟨Hat, #HR⟩, Htok⟩
  ihave HK := (BI.bigSep_exists_pi Finset.univ (fun (ck : Dev nD × CK) (κ : ℕ) => (cellInv ER (Rd m ρ) κ (cell ck.1 ck.2) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

private theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

private theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

private theorem waits (c : Dev nD) : (levAts L lv : sProp 𝕄) ⊢ Pipeline.cellsWaits cfgs (dats m ρ) () 0 c := by
  exact Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, from any memory with zero counters: every weakly fair execution of @main terminates,
    and every final state has each device's windowed arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.KernelIdealAG.Final.lean ====
/-
  The run read at the argument and the result: the argument block ends as it began, the result array ends at `fin`.
-/
import proofs.«900663_g7700000000000664_dist_ag_v7x_xyz2x2x2_y_m1024_n512_bf16_1_alg».proof.Proof.KernelIdealAG.Launch

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run is the staging buffer's final contents, written back whole. -/
theorem finalA_out (c : Dev nD) : finalA m ρ c (1 : Fin 2) = fin m ρ c := by
  have hN : cfg0.N = t₀.val + 1 := cfg0_N
  have h1 : finalA m ρ c (1 : Fin 2) = (dats (F := F) m ρ 0 c).arrAt (1 : Fin 2) (t₀.val + 1) :=
    congrArg ((dats (F := F) m ρ 0 c).arrAt (1 : Fin 2)) hN
  rw [h1, Dat.arrAt_succ, if_pos (flush0_1 t₀)]
  exact Memref.write_access_unit_zero_univ (Elt F) main_v1 (funext fun a => Nat.zero_mul _) _ _ _

/-- The run with both arrays named: on every device the result array ends at `fin` and the argument block unchanged. -/
theorem run_named : θ_run defs (onTc (τ := τ) (main (F := F))) ⟨m, fun _ => 0, ρ⟩ (fun r => ∀ c : Dev nD,
      r.2.mem ((c.tc : Thread nD τ).loc main_v1) = fin m ρ c
      ∧ r.2.mem ((c.tc : Thread nD τ).loc main_arg0) = m ((c.tc : Thread nD τ).loc main_arg0)) :=
  (θ_run defs (onTc (τ := τ) (main (F := F))) (s₀ m ρ)).mono
    (fun r h c => ⟨(h c (1 : Fin 2)).trans (finalA_out m ρ c), (h c (0 : Fin 2)).trans (finalA_x m ρ c)⟩) (run_main m ρ)

/-- info: 'Cert.KernelIdeal.AG.finalA_x' depends on axioms: [propext, Classical.choice, Quot.sound] -/
#guard_msgs in #print axioms finalA_x

/-- info: 'Cert.KernelIdeal.AG.finalA_out' depends on axioms: [propext, Classical.choice, Quot.sound] -/
#guard_msgs in #print axioms finalA_out

/-- info: 'Cert.KernelIdeal.AG.run_named' depends on axioms: [propext, Classical.choice, Quot.sound] -/
#guard_msgs in #print axioms run_named

end Cert.KernelIdeal.AG

end
-- ==== Proof.Alg.lean ====
/-
  The claims at the ideal instance: each device's result array, read off the run, is the reference's result.
-/
import proofs.«900663_g7700000000000664_dist_ag_v7x_xyz2x2x2_y_m1024_n512_bf16_1_alg».proof.Defs
import proofs.«900663_g7700000000000664_dist_ag_v7x_xyz2x2x2_y_m1024_n512_bf16_1_alg».proof.Proof.Gen.Kernel
import proofs.«900663_g7700000000000664_dist_ag_v7x_xyz2x2x2_y_m1024_n512_bf16_1_alg».proof.Proof.Gen.KernelIdeal
import proofs.«900663_g7700000000000664_dist_ag_v7x_xyz2x2x2_y_m1024_n512_bf16_1_alg».proof.Proof.Gen.ReferenceIdeal
import proofs.«900663_g7700000000000664_dist_ag_v7x_xyz2x2x2_y_m1024_n512_bf16_1_alg».proof.Proof.Gen.ReferenceIdeal.Run
import proofs.«900663_g7700000000000664_dist_ag_v7x_xyz2x2x2_y_m1024_n512_bf16_1_alg».proof.Proof.Gen.ReferenceIdeal.Read
import proofs.«900663_g7700000000000664_dist_ag_v7x_xyz2x2x2_y_m1024_n512_bf16_1_alg».proof.Proof.Gen.Pre_finite_inputs_Kernel
import proofs.«900663_g7700000000000664_dist_ag_v7x_xyz2x2x2_y_m1024_n512_bf16_1_alg».proof.Proof.Gen.Pre_finite_inputs_ReferenceIdeal
import proofs.«900663_g7700000000000664_dist_ag_v7x_xyz2x2x2_y_m1024_n512_bf16_1_alg».proof.Proof.KernelIdealAG.Final
import Idealize.ShloMosaic.Lib.Layout

noncomputable section

namespace Cert.Proof.AG

open Idealize.ShloMosaic Idealize.ShloMosaic.TcCoe Idealize.SL.Sem

open Cert.KernelIdeal.AG (fin X xstg yc ynb znb srcDev yc_ynb yc_znb yc_le)
open Idealize.ShloMosaic.ValueIdx

variable {F : FTy → Type} [FloatOps F]

/-! ## A device's stored block, element by element -/

/-- A device's staged block is its argument array: the one window's one block is the whole array. -/
theorem xstg_apply (m : (ℓ : Loc Cert.KernelIdeal.nD Cert.KernelIdeal.τ Cert.KernelIdeal.sig) → Buf (Elt F) ℓ)
    (ρ : Dev Cert.KernelIdeal.nD → PrngReg) (c : Dev Cert.KernelIdeal.nD) (y : Cert.KernelIdeal.S1024x512.Idx) :
    xstg m ρ c y = m ((c.tc : Thread Cert.KernelIdeal.nD Cert.KernelIdeal.τ).loc Cert.KernelIdeal.main_arg0) y := by
  unfold xstg
  rw [View.read_apply, cast_eq]
  refine congrArg (m ((c.tc : Thread Cert.KernelIdeal.nD Cert.KernelIdeal.τ).loc Cert.KernelIdeal.main_arg0)) (funext fun a => Fin.ext ?_)
  show 0 * _ + 1 * (y a).val = (y a).val
  rw [Nat.zero_mul, Nat.zero_add, Nat.one_mul]

/-- The stored block at an index: the argument array's element, narrowed to the result's element type. -/
theorem X_apply (m : (ℓ : Loc Cert.KernelIdeal.nD Cert.KernelIdeal.τ Cert.KernelIdeal.sig) → Buf (Elt F) ℓ)
    (ρ : Dev Cert.KernelIdeal.nD → PrngReg) (c : Dev Cert.KernelIdeal.nD) (y : Cert.KernelIdeal.S1024x512.Idx) :
    X m ρ c y = FloatOps.truncf .bf16 Cert.KernelIdeal.Gen.bitsLt_bf16_f32
      (m ((c.tc : Thread Cert.KernelIdeal.nD Cert.KernelIdeal.τ).loc Cert.KernelIdeal.main_arg0) y) := by
  unfold X Cert.KernelIdeal.Gen.k0_pay1
  show FloatOps.truncf .bf16 _ (shapeCast Cert.KernelIdeal.S1024x512 (xstg m ρ c) Cert.KernelIdeal.Gen.shapeCasts_S1024x512_S1024x512 y) = _
  refine congrArg _ ?_
  exact (congrFun (shapeCast_self (s := Cert.KernelIdeal.S1024x512) (xstg m ρ c) _) y).trans (xstg_apply m ρ c y)

/-! ## The mesh: which block of the whole array a device holds -/

/-- A device's block coordinate along the rows is its y coordinate. -/
theorem meshLin_y : ∀ d : Dev Cert.KernelIdeal.nD, Layout.meshLin [2, 2, 2] d.val [1] = yc d := by decide

/-- Whichever device supplies a chunk of the half that is not `c`'s own, it holds the other block. -/
theorem yc_srcDev (c : Dev Cert.KernelIdeal.nD) (j : ℕ) : yc (srcDev c j) = 1 - yc c := by
  unfold srcDev
  split
  · exact yc_ynb c
  · rw [yc_ynb, yc_znb]

/-! ## The bridge: every device's final result buffer is the whole array, narrowed -/

/-- Where each device's argument array is its block of the whole array, every device's final result is the whole array
    narrowed element by element: row `r` comes from the block `r / 1024` of a device holding that block, at row `r % 1024`. -/
theorem bridge (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (hagree : ∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    fin m ρ c = truncf .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32 := by
  funext i
  have hrow : (i 0).val < 2048 := (i 0).isLt
  have key : ∀ d : Dev Cert.KernelIdeal.nD, yc d = (i 0).val / 1024 →
      X m ρ d (ix2 (⟨(i 0).val % 1024, Nat.mod_lt _ (by decide)⟩ : Fin 1024) (⟨(i 1).val, (i 1).isLt⟩ : Fin 512))
        = FloatOps.truncf .bf16 Cert.ReferenceIdeal.Gen.bitsLt_bf16_f32
            (m' (((0 : Dev Cert.ReferenceIdeal.nD).tc : Thread Cert.ReferenceIdeal.nD Cert.ReferenceIdeal.τ).loc Cert.ReferenceIdeal.main_arg0) i) := by
    intro d hd
    rw [X_apply, hagree d, Layout.blockN_apply]
    refine congrArg _ (congrArg _ (funext fun b => Fin.ext ?_))
    rw [Layout.TilesN.idx_val]
    revert b
    refine Fin.forall_fin_two.2 ⟨?_, ?_⟩
    · show Layout.meshLin [2, 2, 2] d.val [1] * 1024 + (i 0).val % 1024 = (i 0).val
      rw [meshLin_y, hd]; omega
    · show 0 * 512 + (i 1).val = (i 1).val
      omega
  show fin m ρ c i = FloatOps.truncf .bf16 Cert.ReferenceIdeal.Gen.bitsLt_bf16_f32
    (m' (((0 : Dev Cert.ReferenceIdeal.nD).tc : Thread Cert.ReferenceIdeal.nD Cert.ReferenceIdeal.τ).loc Cert.ReferenceIdeal.main_arg0) i)
  unfold fin; beta_reduce
  split
  · next h => exact key c h.symm
  · next h => exact key _ (by rw [yc_srcDev]; have := yc_le c; omega)

/-! ## The claims at the ideal instance -/

/-- The idealized kernel runs and leaves its argument blocks unchanged. -/
theorem frame_ki : Cert.frame_KernelIdeal :=
  fun m ρ _ => (θ_run Cert.KernelIdeal.defs _ _).mono (fun _ h c => (h c).2) (Cert.KernelIdeal.AG.run_named (F := Ideal) m ρ)

/-- The idealized reference runs and leaves its argument array unchanged. -/
theorem frame_ri : Cert.frame_ReferenceIdeal :=
  fun m ρ _ => (θ_run Cert.ReferenceIdeal.defs _ _).mono (fun _ h c => (h c).2) (Cert.ReferenceIdeal.Value.run (F := Ideal) m ρ)

/-- Every device's result is the reference's: the whole argument array narrowed element by element. -/
theorem algebraic : Cert.algebraic_KernelIdeal_ReferenceIdeal := by
  intro m ρ m' ρ' _ hagree
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (bridge m ρ m' hagree c), (h c).2⟩) (Cert.KernelIdeal.AG.run_named (F := Ideal) m ρ)
  · exact (θ_run Cert.ReferenceIdeal.defs _ _).mono (fun _ h => h 0) (Cert.ReferenceIdeal.Value.run (F := Ideal) m' ρ')

/-- info: 'Cert.Proof.AG.bridge' depends on axioms: [propext, Classical.choice, Quot.sound] -/
#guard_msgs in #print axioms bridge

end Cert.Proof.AG

end
-- ==== Proof.lean ====
/- The proof of `Cert.Claim` for an all-gather along y on a 2 × 2 × 2 mesh: every device's result is the whole argument array narrowed element by element (Proof/Alg: each row read from the device that supplied its chunk).
   The kernel's two frames are one protocol proof, generic in the float instance (Proof/KernelAG, Proof/KernelIdealAG), with the values dropped; the reference's frame is its generated run. -/
import proofs.«900663_g7700000000000664_dist_ag_v7x_xyz2x2x2_y_m1024_n512_bf16_1_alg».proof.Defs
import proofs.«900663_g7700000000000664_dist_ag_v7x_xyz2x2x2_y_m1024_n512_bf16_1_alg».proof.Proof.Gen.Kernel
import proofs.«900663_g7700000000000664_dist_ag_v7x_xyz2x2x2_y_m1024_n512_bf16_1_alg».proof.Proof.Gen.Kernel.Skeleton
import proofs.«900663_g7700000000000664_dist_ag_v7x_xyz2x2x2_y_m1024_n512_bf16_1_alg».proof.Proof.Gen.Kernel.Launch
import proofs.«900663_g7700000000000664_dist_ag_v7x_xyz2x2x2_y_m1024_n512_bf16_1_alg».proof.Proof.Gen.Kernel.Points
import proofs.«900663_g7700000000000664_dist_ag_v7x_xyz2x2x2_y_m1024_n512_bf16_1_alg».proof.Proof.Gen.Kernel.Frame
import proofs.«900663_g7700000000000664_dist_ag_v7x_xyz2x2x2_y_m1024_n512_bf16_1_alg».proof.Proof.Gen.KernelIdeal
import proofs.«900663_g7700000000000664_dist_ag_v7x_xyz2x2x2_y_m1024_n512_bf16_1_alg».proof.Proof.Gen.KernelIdeal.Skeleton
import proofs.«900663_g7700000000000664_dist_ag_v7x_xyz2x2x2_y_m1024_n512_bf16_1_alg».proof.Proof.Gen.KernelIdeal.Launch
import proofs.«900663_g7700000000000664_dist_ag_v7x_xyz2x2x2_y_m1024_n512_bf16_1_alg».proof.Proof.Gen.KernelIdeal.Points
import proofs.«900663_g7700000000000664_dist_ag_v7x_xyz2x2x2_y_m1024_n512_bf16_1_alg».proof.Proof.Gen.KernelIdeal.Frame
import proofs.«900663_g7700000000000664_dist_ag_v7x_xyz2x2x2_y_m1024_n512_bf16_1_alg».proof.Proof.Gen.ReferenceIdeal
import proofs.«900663_g7700000000000664_dist_ag_v7x_xyz2x2x2_y_m1024_n512_bf16_1_alg».proof.Proof.Gen.Pre_finite_inputs_Kernel
import proofs.«900663_g7700000000000664_dist_ag_v7x_xyz2x2x2_y_m1024_n512_bf16_1_alg».proof.Proof.Gen.Pre_finite_inputs_ReferenceIdeal
import proofs.«900663_g7700000000000664_dist_ag_v7x_xyz2x2x2_y_m1024_n512_bf16_1_alg».proof.Proof.KernelAG.Final
import proofs.«900663_g7700000000000664_dist_ag_v7x_xyz2x2x2_y_m1024_n512_bf16_1_alg».proof.Proof.Alg
import Idealize.ShloMosaic.Adequacy
import Idealize.ShloMosaic.Init

noncomputable section

namespace Cert.Proof

open Idealize.ShloMosaic Idealize.SL.Sem Cert.Kernel

/-- The kernel as printed runs and leaves its argument blocks unchanged. -/
theorem frame_k : Cert.frame_Kernel :=
  fun m ρ _ => (θ_run Cert.Kernel.defs _ _).mono (fun _ h c => (h c).2) (Cert.Kernel.AG.run_named (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, Cert.Proof.AG.frame_ki, Cert.Proof.AG.frame_ri, trivial, Cert.Proof.AG.algebraic⟩

/-- info: 'Cert.Proof.claim' depends on axioms: [propext, Classical.choice, Quot.sound] -/
#guard_msgs in #print axioms claim

end Cert.Proof

end
